-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v153)) (v1 : (c : Dev Cert.KernelIdeal.nD) → Buf (Elt Ideal) ((c.tc : Thread Cert.KernelIdeal.nD Cert.KernelIdeal.τ).loc Cert.KernelIdeal.main_v155)) (v2 : (c : Dev Cert.KernelIdeal.nD) → Buf (Elt Ideal) ((c.tc : Thread Cert.KernelIdeal.nD Cert.KernelIdeal.τ).loc Cert.KernelIdeal.main_v156)) (v3 : (c : Dev Cert.KernelIdeal.nD) → Buf (Elt Ideal) ((c.tc : Thread Cert.KernelIdeal.nD Cert.KernelIdeal.τ).loc Cert.KernelIdeal.main_v152)) (v4 : (c : Dev Cert.KernelIdeal.nD) → Buf (Elt Ideal) ((c.tc : Thread Cert.KernelIdeal.nD Cert.KernelIdeal.τ).loc Cert.KernelIdeal.main_v275)) (v5 : (c : Dev Cert.KernelIdeal.nD) → Buf (Elt Ideal) ((c.tc : Thread Cert.KernelIdeal.nD Cert.KernelIdeal.τ).loc Cert.KernelIdeal.main_v277)) (v6 : (c : Dev Cert.KernelIdeal.nD) → Buf (Elt Ideal) ((c.tc : Thread Cert.KernelIdeal.nD Cert.KernelIdeal.τ).loc Cert.KernelIdeal.main_v278)) (v7 : (c : Dev Cert.KernelIdeal.nD) → Buf (Elt Ideal) ((c.tc : Thread Cert.KernelIdeal.nD Cert.KernelIdeal.τ).loc Cert.KernelIdeal.main_v274)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_v155) = v1 c
          ∧ r.2.mem ((c.tc : Thread Cert.KernelIdeal.nD Cert.KernelIdeal.τ).loc Cert.KernelIdeal.main_v156) = v2 c
          ∧ r.2.mem ((c.tc : Thread Cert.KernelIdeal.nD Cert.KernelIdeal.τ).loc Cert.KernelIdeal.main_v152) = v3 c
          ∧ r.2.mem ((c.tc : Thread Cert.KernelIdeal.nD Cert.KernelIdeal.τ).loc Cert.KernelIdeal.main_v275) = v4 c
          ∧ r.2.mem ((c.tc : Thread Cert.KernelIdeal.nD Cert.KernelIdeal.τ).loc Cert.KernelIdeal.main_v277) = v5 c
          ∧ r.2.mem ((c.tc : Thread Cert.KernelIdeal.nD Cert.KernelIdeal.τ).loc Cert.KernelIdeal.main_v278) = v6 c
          ∧ r.2.mem ((c.tc : Thread Cert.KernelIdeal.nD Cert.KernelIdeal.τ).loc Cert.KernelIdeal.main_v274) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v150) = v2 c
          ∧ r.2.mem ((c.tc : Thread Cert.ReferenceIdeal.nD Cert.ReferenceIdeal.τ).loc Cert.ReferenceIdeal.main_v146) = v3 c
          ∧ r.2.mem ((c.tc : Thread Cert.ReferenceIdeal.nD Cert.ReferenceIdeal.τ).loc Cert.ReferenceIdeal.main_v298) = v4 c
          ∧ r.2.mem ((c.tc : Thread Cert.ReferenceIdeal.nD Cert.ReferenceIdeal.τ).loc Cert.ReferenceIdeal.main_v300) = v5 c
          ∧ r.2.mem ((c.tc : Thread Cert.ReferenceIdeal.nD Cert.ReferenceIdeal.τ).loc Cert.ReferenceIdeal.main_v301) = v6 c
          ∧ r.2.mem ((c.tc : Thread Cert.ReferenceIdeal.nD Cert.ReferenceIdeal.τ).loc Cert.ReferenceIdeal.main_v297) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x4 : Shape := ⟨2, ![2000000, 4]⟩
abbrev S_ : Shape := ⟨0, ![]⟩

class Facts : Prop where
  bcast_S_S2000000x4 : S_.BroadcastsInDim S2000000x4 (![] : Fin 0 → Fin S2000000x4.rank)
  reducesTo_S2000000x4_S_d0_1 : S2000000x4.ReducesTo [0, 1] S_
  h_S_ : 0 < S_.numel

variable [Facts]

def fn {F : FTy → Type} [FloatOps F] (main_arg0 : FVec F S2000000x4 .f32) : IVec S_ 1 :=
  let main_v0 : FVec F S2000000x4 .f32 := Host.absf main_arg0
  let main_cst : FVec F S_ .f32 := constant S_ .f32 0x7F800000#32
  let main_v1 : FVec F S2000000x4 .f32 := broadcastInDim S2000000x4 ![] bcast_S_S2000000x4 main_cst
  let main_v2 : IVec S2000000x4 1 := cmpf .olt main_v0 main_v1
  let main_c : IVec S_ 1 := constantI S_ 1 1#1
  let main_v3 : IVec S_ 1 := (fun x v => Host.reduce IntOp.andi x v reducesTo_S2000000x4_S_d0_1 h_S_) main_v2 main_c
  main_v3
-- ==== Kernel.lean ====
abbrev S2000000x4 : Shape := ⟨2, ![2000000, 4]⟩
abbrev S2000000x3 : Shape := ⟨2, ![2000000, 3]⟩
abbrev S3x2000000 : Shape := ⟨2, ![3, 2000000]⟩
abbrev S3x15625x128 : Shape := ⟨3, ![3, 15625, 128]⟩
abbrev S2x15625x128 : Shape := ⟨3, ![2, 15625, 128]⟩
abbrev S3x1024x128 : Shape := ⟨3, ![3, 1024, 128]⟩
abbrev S2x1024x128 : Shape := ⟨3, ![2, 1024, 128]⟩
abbrev S1x1024x128 : Shape := ⟨3, ![1, 1024, 128]⟩
abbrev S1024x128 : Shape := ⟨2, ![1024, 128]⟩
abbrev S2x2000000 : Shape := ⟨2, ![2, 2000000]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S214272 : Shape := ⟨1, ![214272]⟩
abbrev S1 : Shape := ⟨1, ![1]⟩
abbrev S1999999 : Shape := ⟨1, ![1999999]⟩
abbrev S12001x35x4 : Shape := ⟨3, ![12001, 35, 4]⟩
abbrev S2000000x2 : Shape := ⟨2, ![2000000, 2]⟩
abbrev S12001 : Shape := ⟨1, ![12001]⟩
abbrev S12001x3 : Shape := ⟨2, ![12001, 3]⟩
abbrev S12000x35x4 : Shape := ⟨3, ![12000, 35, 4]⟩
abbrev S12000x3 : Shape := ⟨2, ![12000, 3]⟩
abbrev S12000 : Shape := ⟨1, ![12000]⟩
abbrev S53568 : Shape := ⟨1, ![53568]⟩
abbrev S6001x35x4 : Shape := ⟨3, ![6001, 35, 4]⟩
abbrev S6001 : Shape := ⟨1, ![6001]⟩
abbrev S6001x3 : Shape := ⟨2, ![6001, 3]⟩
abbrev S6000x35x4 : Shape := ⟨3, ![6000, 35, 4]⟩
abbrev S6000x3 : Shape := ⟨2, ![6000, 3]⟩
abbrev S6000 : Shape := ⟨1, ![6000]⟩

abbrev nBuf : Space → Nat
  | .hbm => 590
  | .vmem => 4
  | .smem => 0
  | _ => 0

abbrev hbmTy0_0 (i : Nat) : BufTy := match i % 128 with
  | 0 => ⟨S2000000x4, .f32⟩
  | 1 => ⟨S2000000x3, .f32⟩
  | 2 => ⟨S3x2000000, .f32⟩
  | 3 => ⟨S3x15625x128, .f32⟩
  | 4 => ⟨S2x15625x128, .i32⟩
  | 5 => ⟨S2x2000000, .i32⟩
  | 6 => ⟨S1x2000000, .i32⟩
  | 7 => ⟨S2000000, .i32⟩
  | 8 => ⟨S_, .i32⟩
  | 9 => ⟨S2000000, .i32⟩
  | 10 => ⟨S2000000, .i1⟩
  | 11 => ⟨S_, .i32⟩
  | 12 => ⟨S_, .i32⟩
  | 13 => ⟨S2000000, .i32⟩
  | 14 => ⟨S2000000, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S2000000, .i32⟩
  | 22 => ⟨S2000000, .i32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i1⟩
  | 29 => ⟨S_, .i32⟩
  | 30 => ⟨S_, .i1⟩
  | 31 => ⟨S2000000, .i1⟩
  | 32 => ⟨S2000000, .i1⟩
  | 33 => ⟨S2000000, .i1⟩
  | 34 => ⟨S2000000, .i32⟩
  | 35 => ⟨S2000000, .i32⟩
  | 36 => ⟨S2000000, .i32⟩
  | 37 => ⟨S_, .i32⟩
  | 38 => ⟨S_, .i32⟩
  | 39 => ⟨S2000000, .i32⟩
  | 40 => ⟨S2000000, .i32⟩
  | 41 => ⟨S2000000, .i32⟩
  | 42 => ⟨S_, .i32⟩
  | 43 => ⟨S2000000, .i32⟩
  | 44 => ⟨S2000000, .i1⟩
  | 45 => ⟨S2000000, .i32⟩
  | 46 => ⟨S2000000, .i32⟩
  | 47 => ⟨S_, .i32⟩
  | 48 => ⟨S2000000, .i32⟩
  | 49 => ⟨S2000000, .i1⟩
  | 50 => ⟨S2000000, .i1⟩
  | 51 => ⟨S_, .i32⟩
  | 52 => ⟨S2000000, .i32⟩
  | 53 => ⟨S2000000, .i32⟩
  | 54 => ⟨S2000000, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S2000000, .i32⟩
  | 62 => ⟨S2000000, .i32⟩
  | 63 => ⟨S_, .i32⟩
  | 64 => ⟨S2000000, .i32⟩
  | 65 => ⟨S2000000, .i1⟩
  | 66 => ⟨S_, .i32⟩
  | 67 => ⟨S2000000, .i32⟩
  | 68 => ⟨S2000000, .i1⟩
  | 69 => ⟨S_, .i32⟩
  | 70 => ⟨S_, .i1⟩
  | 71 => ⟨S2000000, .i1⟩
  | 72 => ⟨S2000000, .i1⟩
  | 73 => ⟨S2000000, .i1⟩
  | 74 => ⟨S2000000, .i32⟩
  | 75 => ⟨S2000000, .i32⟩
  | 76 => ⟨S2000000, .i32⟩
  | 77 => ⟨S_, .i32⟩
  | 78 => ⟨S_, .i32⟩
  | 79 => ⟨S2000000, .i32⟩
  | 80 => ⟨S2000000, .i32⟩
  | 81 => ⟨S2000000, .i32⟩
  | 82 => ⟨S_, .i32⟩
  | 83 => ⟨S2000000, .i32⟩
  | 84 => ⟨S2000000, .i1⟩
  | 85 => ⟨S2000000, .i32⟩
  | 86 => ⟨S2000000, .i32⟩
  | 87 => ⟨S_, .i32⟩
  | 88 => ⟨S2000000, .i32⟩
  | 89 => ⟨S2000000, .i1⟩
  | 90 => ⟨S2000000, .i1⟩
  | 91 => ⟨S_, .i32⟩
  | 92 => ⟨S2000000, .i32⟩
  | 93 => ⟨S2000000, .i32⟩
  | 94 => ⟨S2000000, .i32⟩
  | 95 => ⟨S2000000x1, .i32⟩
  | 96 => ⟨S2000000x1, .i32⟩
  | 97 => ⟨S2000000x1, .i32⟩
  | 98 => ⟨S2000000x3, .i32⟩
  | 99 => ⟨S2000000x1, .i1⟩
  | 100 => ⟨S_, .i32⟩
  | 101 => ⟨S_, .i32⟩
  | 102 => ⟨S2000000x3, .i1⟩
  | 103 => ⟨S2000000x3, .i32⟩
  | 104 => ⟨S2000000x3, .i32⟩
  | 105 => ⟨S1x2000000, .i32⟩
  | 106 => ⟨S2000000, .i32⟩
  | 107 => ⟨S_, .i32⟩
  | 108 => ⟨S2000000, .i32⟩
  | 109 => ⟨S2000000, .i1⟩
  | 110 => ⟨S_, .i32⟩
  | 111 => ⟨S_, .i32⟩
  | 112 => ⟨S2000000, .i32⟩
  | 113 => ⟨S2000000, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S2000000, .i32⟩
  | 121 => ⟨S2000000, .i32⟩
  | 122 => ⟨S_, .i32⟩
  | 123 => ⟨S2000000, .i32⟩
  | 124 => ⟨S2000000, .i1⟩
  | 125 => ⟨S_, .i32⟩
  | 126 => ⟨S2000000, .i32⟩
  | 127 => ⟨S2000000, .i1⟩
  | _ => ⟨S2000000x4, .f32⟩

abbrev hbmTy0_1 (i : Nat) : BufTy := match i % 128 with
  | 0 => ⟨S_, .i32⟩
  | 1 => ⟨S_, .i1⟩
  | 2 => ⟨S2000000, .i1⟩
  | 3 => ⟨S2000000, .i1⟩
  | 4 => ⟨S2000000, .i1⟩
  | 5 => ⟨S2000000, .i32⟩
  | 6 => ⟨S2000000, .i32⟩
  | 7 => ⟨S2000000, .i32⟩
  | 8 => ⟨S_, .i32⟩
  | 9 => ⟨S_, .i32⟩
  | 10 => ⟨S2000000, .i32⟩
  | 11 => ⟨S2000000, .i32⟩
  | 12 => ⟨S2000000, .i32⟩
  | 13 => ⟨S_, .i32⟩
  | 14 => ⟨S2000000, .i32⟩
  | 15 => ⟨S2000000, .i1⟩
  | 16 => ⟨S2000000, .i32⟩
  | 17 => ⟨S2000000, .i32⟩
  | 18 => ⟨S_, .i32⟩
  | 19 => ⟨S2000000, .i32⟩
  | 20 => ⟨S2000000, .i1⟩
  | 21 => ⟨S2000000, .i1⟩
  | 22 => ⟨S_, .i32⟩
  | 23 => ⟨S2000000, .i32⟩
  | 24 => ⟨S2000000, .i32⟩
  | 25 => ⟨S2000000, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S2000000, .i32⟩
  | 33 => ⟨S2000000, .i32⟩
  | 34 => ⟨S_, .i32⟩
  | 35 => ⟨S2000000, .i32⟩
  | 36 => ⟨S2000000, .i1⟩
  | 37 => ⟨S_, .i32⟩
  | 38 => ⟨S2000000, .i32⟩
  | 39 => ⟨S2000000, .i1⟩
  | 40 => ⟨S_, .i32⟩
  | 41 => ⟨S_, .i1⟩
  | 42 => ⟨S2000000, .i1⟩
  | 43 => ⟨S2000000, .i1⟩
  | 44 => ⟨S2000000, .i1⟩
  | 45 => ⟨S2000000, .i32⟩
  | 46 => ⟨S2000000, .i32⟩
  | 47 => ⟨S2000000, .i32⟩
  | 48 => ⟨S_, .i32⟩
  | 49 => ⟨S_, .i32⟩
  | 50 => ⟨S2000000, .i32⟩
  | 51 => ⟨S2000000, .i32⟩
  | 52 => ⟨S2000000, .i32⟩
  | 53 => ⟨S_, .i32⟩
  | 54 => ⟨S2000000, .i32⟩
  | 55 => ⟨S2000000, .i1⟩
  | 56 => ⟨S2000000, .i32⟩
  | 57 => ⟨S2000000, .i32⟩
  | 58 => ⟨S_, .i32⟩
  | 59 => ⟨S2000000, .i32⟩
  | 60 => ⟨S2000000, .i1⟩
  | 61 => ⟨S2000000, .i1⟩
  | 62 => ⟨S_, .i32⟩
  | 63 => ⟨S2000000, .i32⟩
  | 64 => ⟨S2000000, .i32⟩
  | 65 => ⟨S2000000, .i32⟩
  | 66 => ⟨S2000000x1, .i32⟩
  | 67 => ⟨S2000000x1, .i32⟩
  | 68 => ⟨S2000000x1, .i32⟩
  | 69 => ⟨S2000000x3, .i32⟩
  | 70 => ⟨S2000000x1, .i1⟩
  | 71 => ⟨S_, .i32⟩
  | 72 => ⟨S_, .i32⟩
  | 73 => ⟨S2000000x3, .i1⟩
  | 74 => ⟨S2000000x3, .i32⟩
  | 75 => ⟨S2000000x3, .i32⟩
  | 76 => ⟨S2000000, .i32⟩
  | 77 => ⟨S_, .i32⟩
  | 78 => ⟨S214272, .i32⟩
  | 79 => ⟨S_, .i32⟩
  | 80 => ⟨S_, .i32⟩
  | 81 => ⟨S2000000, .i32⟩
  | 82 => ⟨S2000000, .i32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S2000000x1, .i32⟩
  | 91 => ⟨S214272, .i32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i32⟩
  | 98 => ⟨S2000000, .i32⟩
  | 99 => ⟨S2000000x1, .i32⟩
  | 100 => ⟨S2000000, .i32⟩
  | 101 => ⟨S2000000, .i1⟩
  | 102 => ⟨S2000000, .i1⟩
  | 103 => ⟨S2000000, .i32⟩
  | 104 => ⟨S_, .i32⟩
  | 105 => ⟨S_, .i32⟩
  | 106 => ⟨S2000000, .i32⟩
  | 107 => ⟨S_, .i32⟩
  | 108 => ⟨S2000000, .i32⟩
  | 109 => ⟨S2000000, .i32⟩
  | 110 => ⟨S_, .i32⟩
  | 111 => ⟨S214272, .i32⟩
  | 112 => ⟨S_, .i32⟩
  | 113 => ⟨S_, .i32⟩
  | 114 => ⟨S2000000, .i32⟩
  | 115 => ⟨S2000000, .i32⟩
  | 116 => ⟨S_, .i32⟩
  | 117 => ⟨S2000000, .i32⟩
  | 118 => ⟨S2000000, .i1⟩
  | 119 => ⟨S_, .i32⟩
  | 120 => ⟨S2000000, .i32⟩
  | 121 => ⟨S2000000, .i32⟩
  | 122 => ⟨S2000000, .i32⟩
  | 123 => ⟨S2000000x1, .i32⟩
  | 124 => ⟨S214272, .i32⟩
  | 125 => ⟨S_, .i32⟩
  | 126 => ⟨S2000000, .i32⟩
  | 127 => ⟨S2000000, .i1⟩
  | _ => ⟨S2000000x4, .f32⟩

abbrev hbmTy0_2 (i : Nat) : BufTy := match i % 128 with
  | 0 => ⟨S_, .i32⟩
  | 1 => ⟨S2000000, .i32⟩
  | 2 => ⟨S2000000, .i32⟩
  | 3 => ⟨S2000000, .i32⟩
  | 4 => ⟨S2000000x1, .i32⟩
  | 5 => ⟨S2000000, .i32⟩
  | 6 => ⟨S_, .i32⟩
  | 7 => ⟨S_, .i32⟩
  | 8 => ⟨S2000000, .i32⟩
  | 9 => ⟨S2000000, .i32⟩
  | 10 => ⟨S_, .i32⟩
  | 11 => ⟨S2000000, .i32⟩
  | 12 => ⟨S2000000, .i1⟩
  | 13 => ⟨S_, .i32⟩
  | 14 => ⟨S_, .i32⟩
  | 15 => ⟨S2000000, .i32⟩
  | 16 => ⟨S2000000, .i32⟩
  | 17 => ⟨S_, .i32⟩
  | 18 => ⟨S_, .i32⟩
  | 19 => ⟨S2000000, .i32⟩
  | 20 => ⟨S2000000, .i32⟩
  | 21 => ⟨S2000000, .i32⟩
  | 22 => ⟨S2000000, .i32⟩
  | 23 => ⟨S2000000, .i32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S2000000, .i32⟩
  | 33 => ⟨S_, .i1⟩
  | 34 => ⟨S1, .i1⟩
  | 35 => ⟨S1999999, .i32⟩
  | 36 => ⟨S1999999, .i32⟩
  | 37 => ⟨S1999999, .i1⟩
  | 38 => ⟨S2000000, .i1⟩
  | 39 => ⟨S2000000, .i32⟩
  | 40 => ⟨S_, .i32⟩
  | 41 => ⟨S_, .i32⟩
  | 42 => ⟨S2000000, .i32⟩
  | 43 => ⟨S2000000, .i32⟩
  | 44 => ⟨S_, .i32⟩
  | 45 => ⟨S_, .i32⟩
  | 46 => ⟨S2000000, .i32⟩
  | 47 => ⟨S2000000, .i32⟩
  | 48 => ⟨S2000000, .i32⟩
  | 49 => ⟨S_, .i32⟩
  | 50 => ⟨S2000000, .i32⟩
  | 51 => ⟨S_, .i32⟩
  | 52 => ⟨S2000000, .i32⟩
  | 53 => ⟨S2000000, .i1⟩
  | 54 => ⟨S_, .i32⟩
  | 55 => ⟨S2000000, .i32⟩
  | 56 => ⟨S2000000, .i32⟩
  | 57 => ⟨S2000000, .i32⟩
  | 58 => ⟨S2000000x1, .i32⟩
  | 59 => ⟨S2000000, .i32⟩
  | 60 => ⟨S_, .i32⟩
  | 61 => ⟨S2000000, .i32⟩
  | 62 => ⟨S2000000, .i1⟩
  | 63 => ⟨S_, .i32⟩
  | 64 => ⟨S2000000, .i32⟩
  | 65 => ⟨S2000000, .i1⟩
  | 66 => ⟨S2000000, .i1⟩
  | 67 => ⟨S_, .i32⟩
  | 68 => ⟨S_, .i32⟩
  | 69 => ⟨S2000000, .i32⟩
  | 70 => ⟨S2000000, .i32⟩
  | 71 => ⟨S_, .i32⟩
  | 72 => ⟨S_, .i32⟩
  | 73 => ⟨S2000000, .i32⟩
  | 74 => ⟨S2000000, .i32⟩
  | 75 => ⟨S2000000x1, .i1⟩
  | 76 => ⟨S_, .f32⟩
  | 77 => ⟨S_, .f32⟩
  | 78 => ⟨S2000000x4, .i1⟩
  | 79 => ⟨S2000000x4, .f32⟩
  | 80 => ⟨S2000000x4, .f32⟩
  | 81 => ⟨S_, .f32⟩
  | 82 => ⟨S12001x35x4, .f32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S_, .i32⟩
  | 91 => ⟨S2000000, .i32⟩
  | 92 => ⟨S2000000, .i1⟩
  | 93 => ⟨S_, .i32⟩
  | 94 => ⟨S2000000, .i32⟩
  | 95 => ⟨S2000000, .i32⟩
  | 96 => ⟨S2000000, .i32⟩
  | 97 => ⟨S2000000x1, .i32⟩
  | 98 => ⟨S2000000x1, .i32⟩
  | 99 => ⟨S2000000x2, .i32⟩
  | 100 => ⟨S12001x35x4, .f32⟩
  | 101 => ⟨S_, .i32⟩
  | 102 => ⟨S12001, .i32⟩
  | 103 => ⟨S2000000, .i32⟩
  | 104 => ⟨S_, .i32⟩
  | 105 => ⟨S2000000, .i32⟩
  | 106 => ⟨S2000000, .i1⟩
  | 107 => ⟨S_, .i32⟩
  | 108 => ⟨S2000000, .i32⟩
  | 109 => ⟨S2000000, .i32⟩
  | 110 => ⟨S2000000, .i32⟩
  | 111 => ⟨S2000000x1, .i32⟩
  | 112 => ⟨S12001, .i32⟩
  | 113 => ⟨S_, .i32⟩
  | 114 => ⟨S2000000, .i32⟩
  | 115 => ⟨S2000000, .i1⟩
  | 116 => ⟨S2000000, .i1⟩
  | 117 => ⟨S_, .i32⟩
  | 118 => ⟨S_, .i32⟩
  | 119 => ⟨S2000000, .i32⟩
  | 120 => ⟨S2000000, .i32⟩
  | 121 => ⟨S_, .i32⟩
  | 122 => ⟨S12001x3, .i32⟩
  | 123 => ⟨S_, .i32⟩
  | 124 => ⟨S2000000, .i32⟩
  | 125 => ⟨S2000000, .i1⟩
  | 126 => ⟨S_, .i32⟩
  | 127 => ⟨S2000000, .i32⟩
  | _ => ⟨S2000000x4, .f32⟩

abbrev hbmTy0_3 (i : Nat) : BufTy := match i % 128 with
  | 0 => ⟨S2000000, .i32⟩
  | 1 => ⟨S2000000, .i32⟩
  | 2 => ⟨S2000000x1, .i32⟩
  | 3 => ⟨S12001x3, .i32⟩
  | 4 => ⟨S2000000, .i32⟩
  | 5 => ⟨S_, .i32⟩
  | 6 => ⟨S_, .i32⟩
  | 7 => ⟨S_, .i32⟩
  | 8 => ⟨S_, .i32⟩
  | 9 => ⟨S12000x35x4, .f32⟩
  | 10 => ⟨S12000x3, .i32⟩
  | 11 => ⟨S12000x3, .i32⟩
  | 12 => ⟨S12000, .i32⟩
  | 13 => ⟨S2000000, .i32⟩
  | 14 => ⟨S_, .i32⟩
  | 15 => ⟨S53568, .i32⟩
  | 16 => ⟨S_, .i32⟩
  | 17 => ⟨S_, .i32⟩
  | 18 => ⟨S2000000, .i32⟩
  | 19 => ⟨S2000000, .i32⟩
  | 20 => ⟨S_, .i32⟩
  | 21 => ⟨S2000000, .i32⟩
  | 22 => ⟨S2000000, .i1⟩
  | 23 => ⟨S_, .i32⟩
  | 24 => ⟨S2000000, .i32⟩
  | 25 => ⟨S2000000, .i32⟩
  | 26 => ⟨S2000000, .i32⟩
  | 27 => ⟨S2000000x1, .i32⟩
  | 28 => ⟨S53568, .i32⟩
  | 29 => ⟨S_, .i32⟩
  | 30 => ⟨S2000000, .i32⟩
  | 31 => ⟨S2000000, .i1⟩
  | 32 => ⟨S_, .i32⟩
  | 33 => ⟨S2000000, .i32⟩
  | 34 => ⟨S2000000, .i32⟩
  | 35 => ⟨S2000000, .i32⟩
  | 36 => ⟨S2000000x1, .i32⟩
  | 37 => ⟨S2000000, .i32⟩
  | 38 => ⟨S2000000, .i1⟩
  | 39 => ⟨S2000000, .i1⟩
  | 40 => ⟨S2000000, .i32⟩
  | 41 => ⟨S_, .i32⟩
  | 42 => ⟨S_, .i32⟩
  | 43 => ⟨S2000000, .i32⟩
  | 44 => ⟨S_, .i32⟩
  | 45 => ⟨S2000000, .i32⟩
  | 46 => ⟨S2000000, .i32⟩
  | 47 => ⟨S_, .i32⟩
  | 48 => ⟨S53568, .i32⟩
  | 49 => ⟨S_, .i32⟩
  | 50 => ⟨S_, .i32⟩
  | 51 => ⟨S2000000, .i32⟩
  | 52 => ⟨S2000000, .i32⟩
  | 53 => ⟨S_, .i32⟩
  | 54 => ⟨S2000000, .i32⟩
  | 55 => ⟨S2000000, .i1⟩
  | 56 => ⟨S_, .i32⟩
  | 57 => ⟨S2000000, .i32⟩
  | 58 => ⟨S2000000, .i32⟩
  | 59 => ⟨S2000000, .i32⟩
  | 60 => ⟨S2000000x1, .i32⟩
  | 61 => ⟨S53568, .i32⟩
  | 62 => ⟨S_, .i32⟩
  | 63 => ⟨S2000000, .i32⟩
  | 64 => ⟨S2000000, .i1⟩
  | 65 => ⟨S_, .i32⟩
  | 66 => ⟨S2000000, .i32⟩
  | 67 => ⟨S2000000, .i32⟩
  | 68 => ⟨S2000000, .i32⟩
  | 69 => ⟨S2000000x1, .i32⟩
  | 70 => ⟨S2000000, .i32⟩
  | 71 => ⟨S_, .i32⟩
  | 72 => ⟨S_, .i32⟩
  | 73 => ⟨S2000000, .i32⟩
  | 74 => ⟨S2000000, .i32⟩
  | 75 => ⟨S_, .i32⟩
  | 76 => ⟨S2000000, .i32⟩
  | 77 => ⟨S2000000, .i1⟩
  | 78 => ⟨S_, .i32⟩
  | 79 => ⟨S_, .i32⟩
  | 80 => ⟨S2000000, .i32⟩
  | 81 => ⟨S2000000, .i32⟩
  | 82 => ⟨S_, .i32⟩
  | 83 => ⟨S_, .i32⟩
  | 84 => ⟨S2000000, .i32⟩
  | 85 => ⟨S2000000, .i32⟩
  | 86 => ⟨S2000000, .i32⟩
  | 87 => ⟨S2000000, .i32⟩
  | 88 => ⟨S2000000, .i32⟩
  | 89 => ⟨S_, .i32⟩
  | 90 => ⟨S2000000, .i32⟩
  | 91 => ⟨S2000000, .i1⟩
  | 92 => ⟨S_, .i32⟩
  | 93 => ⟨S2000000, .i32⟩
  | 94 => ⟨S2000000, .i32⟩
  | 95 => ⟨S2000000, .i32⟩
  | 96 => ⟨S2000000x1, .i32⟩
  | 97 => ⟨S2000000, .i32⟩
  | 98 => ⟨S_, .i1⟩
  | 99 => ⟨S1, .i1⟩
  | 100 => ⟨S1999999, .i32⟩
  | 101 => ⟨S1999999, .i32⟩
  | 102 => ⟨S1999999, .i1⟩
  | 103 => ⟨S2000000, .i1⟩
  | 104 => ⟨S2000000, .i32⟩
  | 105 => ⟨S_, .i32⟩
  | 106 => ⟨S_, .i32⟩
  | 107 => ⟨S2000000, .i32⟩
  | 108 => ⟨S2000000, .i32⟩
  | 109 => ⟨S_, .i32⟩
  | 110 => ⟨S_, .i32⟩
  | 111 => ⟨S2000000, .i32⟩
  | 112 => ⟨S2000000, .i32⟩
  | 113 => ⟨S2000000, .i32⟩
  | 114 => ⟨S_, .i32⟩
  | 115 => ⟨S2000000, .i32⟩
  | 116 => ⟨S_, .i32⟩
  | 117 => ⟨S2000000, .i32⟩
  | 118 => ⟨S2000000, .i1⟩
  | 119 => ⟨S_, .i32⟩
  | 120 => ⟨S2000000, .i32⟩
  | 121 => ⟨S2000000, .i32⟩
  | 122 => ⟨S2000000, .i32⟩
  | 123 => ⟨S2000000x1, .i32⟩
  | 124 => ⟨S2000000, .i32⟩
  | 125 => ⟨S_, .i32⟩
  | 126 => ⟨S2000000, .i32⟩
  | 127 => ⟨S2000000, .i1⟩
  | _ => ⟨S2000000x4, .f32⟩

abbrev hbmTy0_4 (i : Nat) : BufTy := match i % 128 with
  | 0 => ⟨S_, .i32⟩
  | 1 => ⟨S2000000, .i32⟩
  | 2 => ⟨S2000000, .i1⟩
  | 3 => ⟨S2000000, .i1⟩
  | 4 => ⟨S_, .i32⟩
  | 5 => ⟨S_, .i32⟩
  | 6 => ⟨S2000000, .i32⟩
  | 7 => ⟨S2000000, .i32⟩
  | 8 => ⟨S_, .i32⟩
  | 9 => ⟨S_, .i32⟩
  | 10 => ⟨S2000000, .i32⟩
  | 11 => ⟨S2000000, .i32⟩
  | 12 => ⟨S2000000x1, .i1⟩
  | 13 => ⟨S_, .f32⟩
  | 14 => ⟨S_, .f32⟩
  | 15 => ⟨S2000000x4, .i1⟩
  | 16 => ⟨S2000000x4, .f32⟩
  | 17 => ⟨S2000000x4, .f32⟩
  | 18 => ⟨S_, .f32⟩
  | 19 => ⟨S6001x35x4, .f32⟩
  | 20 => ⟨S_, .i32⟩
  | 21 => ⟨S2000000, .i32⟩
  | 22 => ⟨S2000000, .i1⟩
  | 23 => ⟨S_, .i32⟩
  | 24 => ⟨S2000000, .i32⟩
  | 25 => ⟨S2000000, .i32⟩
  | 26 => ⟨S2000000, .i32⟩
  | 27 => ⟨S_, .i32⟩
  | 28 => ⟨S2000000, .i32⟩
  | 29 => ⟨S2000000, .i1⟩
  | 30 => ⟨S_, .i32⟩
  | 31 => ⟨S2000000, .i32⟩
  | 32 => ⟨S2000000, .i32⟩
  | 33 => ⟨S2000000, .i32⟩
  | 34 => ⟨S2000000x1, .i32⟩
  | 35 => ⟨S2000000x1, .i32⟩
  | 36 => ⟨S2000000x2, .i32⟩
  | 37 => ⟨S6001x35x4, .f32⟩
  | 38 => ⟨S_, .i32⟩
  | 39 => ⟨S6001, .i32⟩
  | 40 => ⟨S2000000, .i32⟩
  | 41 => ⟨S_, .i32⟩
  | 42 => ⟨S2000000, .i32⟩
  | 43 => ⟨S2000000, .i1⟩
  | 44 => ⟨S_, .i32⟩
  | 45 => ⟨S2000000, .i32⟩
  | 46 => ⟨S2000000, .i32⟩
  | 47 => ⟨S2000000, .i32⟩
  | 48 => ⟨S2000000x1, .i32⟩
  | 49 => ⟨S6001, .i32⟩
  | 50 => ⟨S_, .i32⟩
  | 51 => ⟨S2000000, .i32⟩
  | 52 => ⟨S2000000, .i1⟩
  | 53 => ⟨S2000000, .i1⟩
  | 54 => ⟨S_, .i32⟩
  | 55 => ⟨S_, .i32⟩
  | 56 => ⟨S2000000, .i32⟩
  | 57 => ⟨S2000000, .i32⟩
  | 58 => ⟨S_, .i32⟩
  | 59 => ⟨S6001x3, .i32⟩
  | 60 => ⟨S_, .i32⟩
  | 61 => ⟨S2000000, .i32⟩
  | 62 => ⟨S2000000, .i1⟩
  | 63 => ⟨S_, .i32⟩
  | 64 => ⟨S2000000, .i32⟩
  | 65 => ⟨S2000000, .i32⟩
  | 66 => ⟨S2000000, .i32⟩
  | 67 => ⟨S2000000x1, .i32⟩
  | 68 => ⟨S6001x3, .i32⟩
  | 69 => ⟨S2000000, .i32⟩
  | 70 => ⟨S_, .i32⟩
  | 71 => ⟨S_, .i32⟩
  | 72 => ⟨S_, .i32⟩
  | 73 => ⟨S_, .i32⟩
  | 74 => ⟨S6000x35x4, .f32⟩
  | 75 => ⟨S6000x3, .i32⟩
  | 76 => ⟨S6000x3, .i32⟩
  | 77 => ⟨S6000, .i32⟩
  | _ => ⟨S2000000x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2000000x4, .f32⟩

abbrev bufTy : (tb : Table) → Fin (tcTables nBuf tb) → BufTy
  | .hbm, ⟨i, _⟩ => hbmTy i
  | .local _ .vmem, ⟨0, _⟩ => ⟨S3x1024x128, .f32⟩
  | .local _ .vmem, ⟨1, _⟩ => ⟨S3x1024x128, .f32⟩
  | .local _ .vmem, ⟨2, _⟩ => ⟨S2x1024x128, .i32⟩
  | .local _ .vmem, ⟨3, _⟩ => ⟨S2x1024x128, .i32⟩
  | _, _ => ⟨S2000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_v9 : Ref sig .tc := ⟨.hbm, 14, rfl⟩
abbrev main_c_1 : Ref sig .tc := ⟨.hbm, 15, rfl⟩
abbrev main_call1_v0 : Ref sig .tc := ⟨.hbm, 16, rfl⟩
abbrev main_call1_c : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_c_1 : Ref sig .tc := ⟨.hbm, 23, rfl⟩
abbrev main_call1_v5 : Ref sig .tc := ⟨.hbm, 24, rfl⟩
abbrev main_call1_v6 : Ref sig .tc := ⟨.hbm, 25, rfl⟩
abbrev main_call1_c_2 : Ref sig .tc := ⟨.hbm, 26, rfl⟩
abbrev main_call1_v7 : Ref sig .tc := ⟨.hbm, 27, rfl⟩
abbrev main_call1_v8 : Ref sig .tc := ⟨.hbm, 28, rfl⟩
abbrev main_call1_c_3 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_v10 : Ref sig .tc := ⟨.hbm, 36, rfl⟩
abbrev main_c_2 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_c : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_0 : Ref sig .tc := ⟨.hbm, 51, rfl⟩
abbrev main_call2_v12 : Ref sig .tc := ⟨.hbm, 52, rfl⟩
abbrev main_call2_v13 : Ref sig .tc := ⟨.hbm, 53, rfl⟩
abbrev main_v11 : Ref sig .tc := ⟨.hbm, 54, rfl⟩
abbrev main_c_3 : Ref sig .tc := ⟨.hbm, 55, rfl⟩
abbrev main_call3_v0 : Ref sig .tc := ⟨.hbm, 56, rfl⟩
abbrev main_call3_c : Ref sig .tc := ⟨.hbm, 57, rfl⟩
abbrev main_call3_v1 : Ref sig .tc := ⟨.hbm, 58, rfl⟩
abbrev main_call3_c_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_c_1 : Ref sig .tc := ⟨.hbm, 63, rfl⟩
abbrev main_call3_v5 : Ref sig .tc := ⟨.hbm, 64, rfl⟩
abbrev main_call3_v6 : Ref sig .tc := ⟨.hbm, 65, rfl⟩
abbrev main_call3_c_2 : Ref sig .tc := ⟨.hbm, 66, rfl⟩
abbrev main_call3_v7 : Ref sig .tc := ⟨.hbm, 67, rfl⟩
abbrev main_call3_v8 : Ref sig .tc := ⟨.hbm, 68, rfl⟩
abbrev main_call3_c_3 : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_v12 : Ref sig .tc := ⟨.hbm, 73, rfl⟩
abbrev main_call3_v13 : Ref sig .tc := ⟨.hbm, 74, rfl⟩
abbrev main_call3_v14 : Ref sig .tc := ⟨.hbm, 75, rfl⟩
abbrev main_v12 : Ref sig .tc := ⟨.hbm, 76, rfl⟩
abbrev main_c_4 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_v6 : Ref sig .tc := ⟨.hbm, 84, rfl⟩
abbrev main_call4_v7 : Ref sig .tc := ⟨.hbm, 85, rfl⟩
abbrev main_call4_v8 : Ref sig .tc := ⟨.hbm, 86, rfl⟩
abbrev main_call4_c : Ref sig .tc := ⟨.hbm, 87, rfl⟩
abbrev main_call4_v9 : Ref sig .tc := ⟨.hbm, 88, rfl⟩
abbrev main_call4_v10 : Ref sig .tc := ⟨.hbm, 89, rfl⟩
abbrev main_call4_v11 : Ref sig .tc := ⟨.hbm, 90, rfl⟩
abbrev main_call4_c_0 : Ref sig .tc := ⟨.hbm, 91, rfl⟩
abbrev main_call4_v12 : Ref sig .tc := ⟨.hbm, 92, rfl⟩
abbrev main_call4_v13 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_c_5 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_c_6 : Ref sig .tc := ⟨.hbm, 107, rfl⟩
abbrev main_v22 : Ref sig .tc := ⟨.hbm, 108, rfl⟩
abbrev main_v23 : Ref sig .tc := ⟨.hbm, 109, rfl⟩
abbrev main_c_7 : Ref sig .tc := ⟨.hbm, 110, rfl⟩
abbrev main_call6_v0 : Ref sig .tc := ⟨.hbm, 111, rfl⟩
abbrev main_call6_v1 : Ref sig .tc := ⟨.hbm, 112, rfl⟩
abbrev main_v24 : Ref sig .tc := ⟨.hbm, 113, rfl⟩
abbrev main_c_8 : Ref sig .tc := ⟨.hbm, 114, rfl⟩
abbrev main_call7_v0 : Ref sig .tc := ⟨.hbm, 115, rfl⟩
abbrev main_call7_c : Ref sig .tc := ⟨.hbm, 116, rfl⟩
abbrev main_call7_v1 : Ref sig .tc := ⟨.hbm, 117, rfl⟩
abbrev main_call7_c_0 : Ref sig .tc := ⟨.hbm, 118, rfl⟩
abbrev main_call7_v2 : Ref sig .tc := ⟨.hbm, 119, rfl⟩
abbrev main_call7_v3 : Ref sig .tc := ⟨.hbm, 120, rfl⟩
abbrev main_call7_v4 : Ref sig .tc := ⟨.hbm, 121, rfl⟩
abbrev main_call7_c_1 : Ref sig .tc := ⟨.hbm, 122, rfl⟩
abbrev main_call7_v5 : Ref sig .tc := ⟨.hbm, 123, rfl⟩
abbrev main_call7_v6 : Ref sig .tc := ⟨.hbm, 124, rfl⟩
abbrev main_call7_c_2 : Ref sig .tc := ⟨.hbm, 125, rfl⟩
abbrev main_call7_v7 : Ref sig .tc := ⟨.hbm, 126, rfl⟩
abbrev main_call7_v8 : Ref sig .tc := ⟨.hbm, 127, rfl⟩
abbrev main_call7_c_3 : Ref sig .tc := ⟨.hbm, 128, rfl⟩
abbrev main_call7_v9 : Ref sig .tc := ⟨.hbm, 129, rfl⟩
abbrev main_call7_v10 : Ref sig .tc := ⟨.hbm, 130, rfl⟩
abbrev main_call7_v11 : Ref sig .tc := ⟨.hbm, 131, rfl⟩
abbrev main_call7_v12 : Ref sig .tc := ⟨.hbm, 132, rfl⟩
abbrev main_call7_v13 : Ref sig .tc := ⟨.hbm, 133, rfl⟩
abbrev main_call7_v14 : Ref sig .tc := ⟨.hbm, 134, rfl⟩
abbrev main_v25 : Ref sig .tc := ⟨.hbm, 135, rfl⟩
abbrev main_c_9 : Ref sig .tc := ⟨.hbm, 136, rfl⟩
abbrev main_call8_v0 : Ref sig .tc := ⟨.hbm, 137, rfl⟩
abbrev main_call8_v1 : Ref sig .tc := ⟨.hbm, 138, rfl⟩
abbrev main_call8_v2 : Ref sig .tc := ⟨.hbm, 139, rfl⟩
abbrev main_call8_v3 : Ref sig .tc := ⟨.hbm, 140, rfl⟩
abbrev main_call8_v4 : Ref sig .tc := ⟨.hbm, 141, rfl⟩
abbrev main_call8_v5 : Ref sig .tc := ⟨.hbm, 142, rfl⟩
abbrev main_call8_v6 : Ref sig .tc := ⟨.hbm, 143, rfl⟩
abbrev main_call8_v7 : Ref sig .tc := ⟨.hbm, 144, rfl⟩
abbrev main_call8_v8 : Ref sig .tc := ⟨.hbm, 145, rfl⟩
abbrev main_call8_c : Ref sig .tc := ⟨.hbm, 146, rfl⟩
abbrev main_call8_v9 : Ref sig .tc := ⟨.hbm, 147, rfl⟩
abbrev main_call8_v10 : Ref sig .tc := ⟨.hbm, 148, rfl⟩
abbrev main_call8_v11 : Ref sig .tc := ⟨.hbm, 149, rfl⟩
abbrev main_call8_c_0 : Ref sig .tc := ⟨.hbm, 150, rfl⟩
abbrev main_call8_v12 : Ref sig .tc := ⟨.hbm, 151, rfl⟩
abbrev main_call8_v13 : Ref sig .tc := ⟨.hbm, 152, rfl⟩
abbrev main_v26 : Ref sig .tc := ⟨.hbm, 153, rfl⟩
abbrev main_c_10 : Ref sig .tc := ⟨.hbm, 154, rfl⟩
abbrev main_call9_v0 : Ref sig .tc := ⟨.hbm, 155, rfl⟩
abbrev main_call9_c : Ref sig .tc := ⟨.hbm, 156, rfl⟩
abbrev main_call9_v1 : Ref sig .tc := ⟨.hbm, 157, rfl⟩
abbrev main_call9_c_0 : Ref sig .tc := ⟨.hbm, 158, rfl⟩
abbrev main_call9_v2 : Ref sig .tc := ⟨.hbm, 159, rfl⟩
abbrev main_call9_v3 : Ref sig .tc := ⟨.hbm, 160, rfl⟩
abbrev main_call9_v4 : Ref sig .tc := ⟨.hbm, 161, rfl⟩
abbrev main_call9_c_1 : Ref sig .tc := ⟨.hbm, 162, rfl⟩
abbrev main_call9_v5 : Ref sig .tc := ⟨.hbm, 163, rfl⟩
abbrev main_call9_v6 : Ref sig .tc := ⟨.hbm, 164, rfl⟩
abbrev main_call9_c_2 : Ref sig .tc := ⟨.hbm, 165, rfl⟩
abbrev main_call9_v7 : Ref sig .tc := ⟨.hbm, 166, rfl⟩
abbrev main_call9_v8 : Ref sig .tc := ⟨.hbm, 167, rfl⟩
abbrev main_call9_c_3 : Ref sig .tc := ⟨.hbm, 168, rfl⟩
abbrev main_call9_v9 : Ref sig .tc := ⟨.hbm, 169, rfl⟩
abbrev main_call9_v10 : Ref sig .tc := ⟨.hbm, 170, rfl⟩
abbrev main_call9_v11 : Ref sig .tc := ⟨.hbm, 171, rfl⟩
abbrev main_call9_v12 : Ref sig .tc := ⟨.hbm, 172, rfl⟩
abbrev main_call9_v13 : Ref sig .tc := ⟨.hbm, 173, rfl⟩
abbrev main_call9_v14 : Ref sig .tc := ⟨.hbm, 174, rfl⟩
abbrev main_v27 : Ref sig .tc := ⟨.hbm, 175, rfl⟩
abbrev main_c_11 : Ref sig .tc := ⟨.hbm, 176, rfl⟩
abbrev main_call10_v0 : Ref sig .tc := ⟨.hbm, 177, rfl⟩
abbrev main_call10_v1 : Ref sig .tc := ⟨.hbm, 178, rfl⟩
abbrev main_call10_v2 : Ref sig .tc := ⟨.hbm, 179, rfl⟩
abbrev main_call10_v3 : Ref sig .tc := ⟨.hbm, 180, rfl⟩
abbrev main_call10_v4 : Ref sig .tc := ⟨.hbm, 181, rfl⟩
abbrev main_call10_v5 : Ref sig .tc := ⟨.hbm, 182, rfl⟩
abbrev main_call10_v6 : Ref sig .tc := ⟨.hbm, 183, rfl⟩
abbrev main_call10_v7 : Ref sig .tc := ⟨.hbm, 184, rfl⟩
abbrev main_call10_v8 : Ref sig .tc := ⟨.hbm, 185, rfl⟩
abbrev main_call10_c : Ref sig .tc := ⟨.hbm, 186, rfl⟩
abbrev main_call10_v9 : Ref sig .tc := ⟨.hbm, 187, rfl⟩
abbrev main_call10_v10 : Ref sig .tc := ⟨.hbm, 188, rfl⟩
abbrev main_call10_v11 : Ref sig .tc := ⟨.hbm, 189, rfl⟩
abbrev main_call10_c_0 : Ref sig .tc := ⟨.hbm, 190, rfl⟩
abbrev main_call10_v12 : Ref sig .tc := ⟨.hbm, 191, rfl⟩
abbrev main_call10_v13 : Ref sig .tc := ⟨.hbm, 192, rfl⟩
abbrev main_v28 : Ref sig .tc := ⟨.hbm, 193, rfl⟩
abbrev main_v29 : Ref sig .tc := ⟨.hbm, 194, rfl⟩
abbrev main_v30 : Ref sig .tc := ⟨.hbm, 195, rfl⟩
abbrev main_v31 : Ref sig .tc := ⟨.hbm, 196, rfl⟩
abbrev main_v32 : Ref sig .tc := ⟨.hbm, 197, rfl⟩
abbrev main_v33 : Ref sig .tc := ⟨.hbm, 198, rfl⟩
abbrev main_c_12 : Ref sig .tc := ⟨.hbm, 199, rfl⟩
abbrev main_call11_v0 : Ref sig .tc := ⟨.hbm, 200, rfl⟩
abbrev main_call11_v1 : Ref sig .tc := ⟨.hbm, 201, rfl⟩
abbrev main_call11_v2 : Ref sig .tc := ⟨.hbm, 202, rfl⟩
abbrev main_v34 : Ref sig .tc := ⟨.hbm, 203, rfl⟩
abbrev main_v35 : Ref sig .tc := ⟨.hbm, 204, rfl⟩
abbrev main_c_13 : Ref sig .tc := ⟨.hbm, 205, rfl⟩
abbrev main_v36 : Ref sig .tc := ⟨.hbm, 206, rfl⟩
abbrev main_c_14 : Ref sig .tc := ⟨.hbm, 207, rfl⟩
abbrev main_call12_v0 : Ref sig .tc := ⟨.hbm, 208, rfl⟩
abbrev main_call12_v1 : Ref sig .tc := ⟨.hbm, 209, rfl⟩
abbrev main_v37 : Ref sig .tc := ⟨.hbm, 210, rfl⟩
abbrev main_c_15 : Ref sig .tc := ⟨.hbm, 211, rfl⟩
abbrev main_v38 : Ref sig .tc := ⟨.hbm, 212, rfl⟩
abbrev main_v39 : Ref sig .tc := ⟨.hbm, 213, rfl⟩
abbrev main_c_16 : Ref sig .tc := ⟨.hbm, 214, rfl⟩
abbrev main_v40 : Ref sig .tc := ⟨.hbm, 215, rfl⟩
abbrev main_v41 : Ref sig .tc := ⟨.hbm, 216, rfl⟩
abbrev main_v42 : Ref sig .tc := ⟨.hbm, 217, rfl⟩
abbrev main_v43 : Ref sig .tc := ⟨.hbm, 218, rfl⟩
abbrev main_v44 : Ref sig .tc := ⟨.hbm, 219, rfl⟩
abbrev main_c_17 : Ref sig .tc := ⟨.hbm, 220, rfl⟩
abbrev main_v45 : Ref sig .tc := ⟨.hbm, 221, rfl⟩
abbrev main_v46 : Ref sig .tc := ⟨.hbm, 222, rfl⟩
abbrev main_c_18 : Ref sig .tc := ⟨.hbm, 223, rfl⟩
abbrev main_v47 : Ref sig .tc := ⟨.hbm, 224, rfl⟩
abbrev main_v48 : Ref sig .tc := ⟨.hbm, 225, rfl⟩
abbrev main_v49 : Ref sig .tc := ⟨.hbm, 226, rfl⟩
abbrev main_v50 : Ref sig .tc := ⟨.hbm, 227, rfl⟩
abbrev main_v51 : Ref sig .tc := ⟨.hbm, 228, rfl⟩
abbrev main_v52 : Ref sig .tc := ⟨.hbm, 229, rfl⟩
abbrev main_v53 : Ref sig .tc := ⟨.hbm, 230, rfl⟩
abbrev main_v54 : Ref sig .tc := ⟨.hbm, 231, rfl⟩
abbrev main_call13_call0_c : Ref sig .tc := ⟨.hbm, 232, rfl⟩
abbrev main_call13_call0_v0 : Ref sig .tc := ⟨.hbm, 233, rfl⟩
abbrev main_v55 : Ref sig .tc := ⟨.hbm, 234, rfl⟩
abbrev main_c_19 : Ref sig .tc := ⟨.hbm, 235, rfl⟩
abbrev main_v56 : Ref sig .tc := ⟨.hbm, 236, rfl⟩
abbrev main_v57 : Ref sig .tc := ⟨.hbm, 237, rfl⟩
abbrev main_c_20 : Ref sig .tc := ⟨.hbm, 238, rfl⟩
abbrev main_v58 : Ref sig .tc := ⟨.hbm, 239, rfl⟩
abbrev main_c_21 : Ref sig .tc := ⟨.hbm, 240, rfl⟩
abbrev main_call14_v0 : Ref sig .tc := ⟨.hbm, 241, rfl⟩
abbrev main_call14_v1 : Ref sig .tc := ⟨.hbm, 242, rfl⟩
abbrev main_v59 : Ref sig .tc := ⟨.hbm, 243, rfl⟩
abbrev main_c_22 : Ref sig .tc := ⟨.hbm, 244, rfl⟩
abbrev main_v60 : Ref sig .tc := ⟨.hbm, 245, rfl⟩
abbrev main_v61 : Ref sig .tc := ⟨.hbm, 246, rfl⟩
abbrev main_c_23 : Ref sig .tc := ⟨.hbm, 247, rfl⟩
abbrev main_v62 : Ref sig .tc := ⟨.hbm, 248, rfl⟩
abbrev main_v63 : Ref sig .tc := ⟨.hbm, 249, rfl⟩
abbrev main_v64 : Ref sig .tc := ⟨.hbm, 250, rfl⟩
abbrev main_v65 : Ref sig .tc := ⟨.hbm, 251, rfl⟩
abbrev main_v66 : Ref sig .tc := ⟨.hbm, 252, rfl⟩
abbrev main_c_24 : Ref sig .tc := ⟨.hbm, 253, rfl⟩
abbrev main_v67 : Ref sig .tc := ⟨.hbm, 254, rfl⟩
abbrev main_v68 : Ref sig .tc := ⟨.hbm, 255, rfl⟩
abbrev main_c_25 : Ref sig .tc := ⟨.hbm, 256, rfl⟩
abbrev main_v69 : Ref sig .tc := ⟨.hbm, 257, rfl⟩
abbrev main_v70 : Ref sig .tc := ⟨.hbm, 258, rfl⟩
abbrev main_v71 : Ref sig .tc := ⟨.hbm, 259, rfl⟩
abbrev main_v72 : Ref sig .tc := ⟨.hbm, 260, rfl⟩
abbrev main_v73 : Ref sig .tc := ⟨.hbm, 261, rfl⟩
abbrev main_c_26 : Ref sig .tc := ⟨.hbm, 262, rfl⟩
abbrev main_call15_v0 : Ref sig .tc := ⟨.hbm, 263, rfl⟩
abbrev main_call15_v1 : Ref sig .tc := ⟨.hbm, 264, rfl⟩
abbrev main_v74 : Ref sig .tc := ⟨.hbm, 265, rfl⟩
abbrev main_c_27 : Ref sig .tc := ⟨.hbm, 266, rfl⟩
abbrev main_v75 : Ref sig .tc := ⟨.hbm, 267, rfl⟩
abbrev main_v76 : Ref sig .tc := ⟨.hbm, 268, rfl⟩
abbrev main_c_28 : Ref sig .tc := ⟨.hbm, 269, rfl⟩
abbrev main_call16_v0 : Ref sig .tc := ⟨.hbm, 270, rfl⟩
abbrev main_call16_v1 : Ref sig .tc := ⟨.hbm, 271, rfl⟩
abbrev main_v77 : Ref sig .tc := ⟨.hbm, 272, rfl⟩
abbrev main_c_29 : Ref sig .tc := ⟨.hbm, 273, rfl⟩
abbrev main_call17_v0 : Ref sig .tc := ⟨.hbm, 274, rfl⟩
abbrev main_call17_v1 : Ref sig .tc := ⟨.hbm, 275, rfl⟩
abbrev main_v78 : Ref sig .tc := ⟨.hbm, 276, rfl⟩
abbrev main_call18_v0 : Ref sig .tc := ⟨.hbm, 277, rfl⟩
abbrev main_call18_v1_0 : Ref sig .tc := ⟨.hbm, 278, rfl⟩
abbrev main_v79 : Ref sig .tc := ⟨.hbm, 279, rfl⟩
abbrev main_c_30 : Ref sig .tc := ⟨.hbm, 280, rfl⟩
abbrev main_v80 : Ref sig .tc := ⟨.hbm, 281, rfl⟩
abbrev main_v81 : Ref sig .tc := ⟨.hbm, 282, rfl⟩
abbrev main_c_31 : Ref sig .tc := ⟨.hbm, 283, rfl⟩
abbrev main_v82 : Ref sig .tc := ⟨.hbm, 284, rfl⟩
abbrev main_v83 : Ref sig .tc := ⟨.hbm, 285, rfl⟩
abbrev main_v84 : Ref sig .tc := ⟨.hbm, 286, rfl⟩
abbrev main_v85 : Ref sig .tc := ⟨.hbm, 287, rfl⟩
abbrev main_v86 : Ref sig .tc := ⟨.hbm, 288, rfl⟩
abbrev main_c_32 : Ref sig .tc := ⟨.hbm, 289, rfl⟩
abbrev main_v87 : Ref sig .tc := ⟨.hbm, 290, rfl⟩
abbrev main_v88 : Ref sig .tc := ⟨.hbm, 291, rfl⟩
abbrev main_v89 : Ref sig .tc := ⟨.hbm, 292, rfl⟩
abbrev main_v90 : Ref sig .tc := ⟨.hbm, 293, rfl⟩
abbrev main_v91 : Ref sig .tc := ⟨.hbm, 294, rfl⟩
abbrev main_v92 : Ref sig .tc := ⟨.hbm, 295, rfl⟩
abbrev main_c_33 : Ref sig .tc := ⟨.hbm, 296, rfl⟩
abbrev main_call19_v0 : Ref sig .tc := ⟨.hbm, 297, rfl⟩
abbrev main_call19_v1 : Ref sig .tc := ⟨.hbm, 298, rfl⟩
abbrev main_v93 : Ref sig .tc := ⟨.hbm, 299, rfl⟩
abbrev main_call20_c : Ref sig .tc := ⟨.hbm, 300, rfl⟩
abbrev main_call20_v0 : Ref sig .tc := ⟨.hbm, 301, rfl⟩
abbrev main_v94 : Ref sig .tc := ⟨.hbm, 302, rfl⟩
abbrev main_v95 : Ref sig .tc := ⟨.hbm, 303, rfl⟩
abbrev main_v96 : Ref sig .tc := ⟨.hbm, 304, rfl⟩
abbrev main_c_34 : Ref sig .tc := ⟨.hbm, 305, rfl⟩
abbrev main_v97 : Ref sig .tc := ⟨.hbm, 306, rfl⟩
abbrev main_c_35 : Ref sig .tc := ⟨.hbm, 307, rfl⟩
abbrev main_v98 : Ref sig .tc := ⟨.hbm, 308, rfl⟩
abbrev main_v99 : Ref sig .tc := ⟨.hbm, 309, rfl⟩
abbrev main_c_36 : Ref sig .tc := ⟨.hbm, 310, rfl⟩
abbrev main_v100 : Ref sig .tc := ⟨.hbm, 311, rfl⟩
abbrev main_v101 : Ref sig .tc := ⟨.hbm, 312, rfl⟩
abbrev main_v102 : Ref sig .tc := ⟨.hbm, 313, rfl⟩
abbrev main_v103 : Ref sig .tc := ⟨.hbm, 314, rfl⟩
abbrev main_v104 : Ref sig .tc := ⟨.hbm, 315, rfl⟩
abbrev main_c_37 : Ref sig .tc := ⟨.hbm, 316, rfl⟩
abbrev main_v105 : Ref sig .tc := ⟨.hbm, 317, rfl⟩
abbrev main_v106 : Ref sig .tc := ⟨.hbm, 318, rfl⟩
abbrev main_c_38 : Ref sig .tc := ⟨.hbm, 319, rfl⟩
abbrev main_v107 : Ref sig .tc := ⟨.hbm, 320, rfl⟩
abbrev main_v108 : Ref sig .tc := ⟨.hbm, 321, rfl⟩
abbrev main_v109 : Ref sig .tc := ⟨.hbm, 322, rfl⟩
abbrev main_c_39 : Ref sig .tc := ⟨.hbm, 323, rfl⟩
abbrev main_call21_v0 : Ref sig .tc := ⟨.hbm, 324, rfl⟩
abbrev main_call21_v1 : Ref sig .tc := ⟨.hbm, 325, rfl⟩
abbrev main_v110 : Ref sig .tc := ⟨.hbm, 326, rfl⟩
abbrev main_c_40 : Ref sig .tc := ⟨.hbm, 327, rfl⟩
abbrev main_call22_v0 : Ref sig .tc := ⟨.hbm, 328, rfl⟩
abbrev main_call22_v1 : Ref sig .tc := ⟨.hbm, 329, rfl⟩
abbrev main_v111 : Ref sig .tc := ⟨.hbm, 330, rfl⟩
abbrev main_v112 : Ref sig .tc := ⟨.hbm, 331, rfl⟩
abbrev main_cst : Ref sig .tc := ⟨.hbm, 332, rfl⟩
abbrev main_call23_v0 : Ref sig .tc := ⟨.hbm, 333, rfl⟩
abbrev main_call23_v1 : Ref sig .tc := ⟨.hbm, 334, rfl⟩
abbrev main_call23_v2 : Ref sig .tc := ⟨.hbm, 335, rfl⟩
abbrev main_v113 : Ref sig .tc := ⟨.hbm, 336, rfl⟩
abbrev main_cst_41 : Ref sig .tc := ⟨.hbm, 337, rfl⟩
abbrev main_v114 : Ref sig .tc := ⟨.hbm, 338, rfl⟩
abbrev main_c_42 : Ref sig .tc := ⟨.hbm, 339, rfl⟩
abbrev main_v115 : Ref sig .tc := ⟨.hbm, 340, rfl⟩
abbrev main_v116 : Ref sig .tc := ⟨.hbm, 341, rfl⟩
abbrev main_c_43 : Ref sig .tc := ⟨.hbm, 342, rfl⟩
abbrev main_v117 : Ref sig .tc := ⟨.hbm, 343, rfl⟩
abbrev main_v118 : Ref sig .tc := ⟨.hbm, 344, rfl⟩
abbrev main_v119 : Ref sig .tc := ⟨.hbm, 345, rfl⟩
abbrev main_c_44 : Ref sig .tc := ⟨.hbm, 346, rfl⟩
abbrev main_v120 : Ref sig .tc := ⟨.hbm, 347, rfl⟩
abbrev main_v121 : Ref sig .tc := ⟨.hbm, 348, rfl⟩
abbrev main_c_45 : Ref sig .tc := ⟨.hbm, 349, rfl⟩
abbrev main_v122 : Ref sig .tc := ⟨.hbm, 350, rfl⟩
abbrev main_v123 : Ref sig .tc := ⟨.hbm, 351, rfl⟩
abbrev main_v124 : Ref sig .tc := ⟨.hbm, 352, rfl⟩
abbrev main_v125 : Ref sig .tc := ⟨.hbm, 353, rfl⟩
abbrev main_v126 : Ref sig .tc := ⟨.hbm, 354, rfl⟩
abbrev main_v127 : Ref sig .tc := ⟨.hbm, 355, rfl⟩
abbrev main_v128 : Ref sig .tc := ⟨.hbm, 356, rfl⟩
abbrev main_c_46 : Ref sig .tc := ⟨.hbm, 357, rfl⟩
abbrev main_v129 : Ref sig .tc := ⟨.hbm, 358, rfl⟩
abbrev main_v130 : Ref sig .tc := ⟨.hbm, 359, rfl⟩
abbrev main_c_47 : Ref sig .tc := ⟨.hbm, 360, rfl⟩
abbrev main_v131 : Ref sig .tc := ⟨.hbm, 361, rfl⟩
abbrev main_v132 : Ref sig .tc := ⟨.hbm, 362, rfl⟩
abbrev main_c_48 : Ref sig .tc := ⟨.hbm, 363, rfl⟩
abbrev main_v133 : Ref sig .tc := ⟨.hbm, 364, rfl⟩
abbrev main_v134 : Ref sig .tc := ⟨.hbm, 365, rfl⟩
abbrev main_v135 : Ref sig .tc := ⟨.hbm, 366, rfl⟩
abbrev main_v136 : Ref sig .tc := ⟨.hbm, 367, rfl⟩
abbrev main_v137 : Ref sig .tc := ⟨.hbm, 368, rfl⟩
abbrev main_c_49 : Ref sig .tc := ⟨.hbm, 369, rfl⟩
abbrev main_v138 : Ref sig .tc := ⟨.hbm, 370, rfl⟩
abbrev main_v139 : Ref sig .tc := ⟨.hbm, 371, rfl⟩
abbrev main_v140 : Ref sig .tc := ⟨.hbm, 372, rfl⟩
abbrev main_c_50 : Ref sig .tc := ⟨.hbm, 373, rfl⟩
abbrev main_call24_v0 : Ref sig .tc := ⟨.hbm, 374, rfl⟩
abbrev main_call24_v1 : Ref sig .tc := ⟨.hbm, 375, rfl⟩
abbrev main_v141 : Ref sig .tc := ⟨.hbm, 376, rfl⟩
abbrev main_c_51 : Ref sig .tc := ⟨.hbm, 377, rfl⟩
abbrev main_v142 : Ref sig .tc := ⟨.hbm, 378, rfl⟩
abbrev main_c_52 : Ref sig .tc := ⟨.hbm, 379, rfl⟩
abbrev main_v143 : Ref sig .tc := ⟨.hbm, 380, rfl⟩
abbrev main_v144 : Ref sig .tc := ⟨.hbm, 381, rfl⟩
abbrev main_c_53 : Ref sig .tc := ⟨.hbm, 382, rfl⟩
abbrev main_v145 : Ref sig .tc := ⟨.hbm, 383, rfl⟩
abbrev main_v146 : Ref sig .tc := ⟨.hbm, 384, rfl⟩
abbrev main_v147 : Ref sig .tc := ⟨.hbm, 385, rfl⟩
abbrev main_v148 : Ref sig .tc := ⟨.hbm, 386, rfl⟩
abbrev main_v149 : Ref sig .tc := ⟨.hbm, 387, rfl⟩
abbrev main_v150 : Ref sig .tc := ⟨.hbm, 388, rfl⟩
abbrev main_c_54 : Ref sig .tc := ⟨.hbm, 389, rfl⟩
abbrev main_v151 : Ref sig .tc := ⟨.hbm, 390, rfl⟩
abbrev main_c_55 : Ref sig .tc := ⟨.hbm, 391, rfl⟩
abbrev main_v152 : Ref sig .tc := ⟨.hbm, 392, rfl⟩
abbrev main_v153 : Ref sig .tc := ⟨.hbm, 393, rfl⟩
abbrev main_v154 : Ref sig .tc := ⟨.hbm, 394, rfl⟩
abbrev main_v155 : Ref sig .tc := ⟨.hbm, 395, rfl⟩
abbrev main_v156 : Ref sig .tc := ⟨.hbm, 396, rfl⟩
abbrev main_v157 : Ref sig .tc := ⟨.hbm, 397, rfl⟩
abbrev main_c_56 : Ref sig .tc := ⟨.hbm, 398, rfl⟩
abbrev main_v158 : Ref sig .tc := ⟨.hbm, 399, rfl⟩
abbrev main_c_57 : Ref sig .tc := ⟨.hbm, 400, rfl⟩
abbrev main_call25_v0 : Ref sig .tc := ⟨.hbm, 401, rfl⟩
abbrev main_call25_v1 : Ref sig .tc := ⟨.hbm, 402, rfl⟩
abbrev main_v159 : Ref sig .tc := ⟨.hbm, 403, rfl⟩
abbrev main_c_58 : Ref sig .tc := ⟨.hbm, 404, rfl⟩
abbrev main_v160 : Ref sig .tc := ⟨.hbm, 405, rfl⟩
abbrev main_v161 : Ref sig .tc := ⟨.hbm, 406, rfl⟩
abbrev main_c_59 : Ref sig .tc := ⟨.hbm, 407, rfl⟩
abbrev main_v162 : Ref sig .tc := ⟨.hbm, 408, rfl⟩
abbrev main_v163 : Ref sig .tc := ⟨.hbm, 409, rfl⟩
abbrev main_v164 : Ref sig .tc := ⟨.hbm, 410, rfl⟩
abbrev main_v165 : Ref sig .tc := ⟨.hbm, 411, rfl⟩
abbrev main_v166 : Ref sig .tc := ⟨.hbm, 412, rfl⟩
abbrev main_c_60 : Ref sig .tc := ⟨.hbm, 413, rfl⟩
abbrev main_v167 : Ref sig .tc := ⟨.hbm, 414, rfl⟩
abbrev main_v168 : Ref sig .tc := ⟨.hbm, 415, rfl⟩
abbrev main_c_61 : Ref sig .tc := ⟨.hbm, 416, rfl⟩
abbrev main_v169 : Ref sig .tc := ⟨.hbm, 417, rfl⟩
abbrev main_v170 : Ref sig .tc := ⟨.hbm, 418, rfl⟩
abbrev main_v171 : Ref sig .tc := ⟨.hbm, 419, rfl⟩
abbrev main_v172 : Ref sig .tc := ⟨.hbm, 420, rfl⟩
abbrev main_v173 : Ref sig .tc := ⟨.hbm, 421, rfl⟩
abbrev main_v174 : Ref sig .tc := ⟨.hbm, 422, rfl⟩
abbrev main_v175 : Ref sig .tc := ⟨.hbm, 423, rfl⟩
abbrev main_v176 : Ref sig .tc := ⟨.hbm, 424, rfl⟩
abbrev main_call26_call0_c : Ref sig .tc := ⟨.hbm, 425, rfl⟩
abbrev main_call26_call0_v0 : Ref sig .tc := ⟨.hbm, 426, rfl⟩
abbrev main_v177 : Ref sig .tc := ⟨.hbm, 427, rfl⟩
abbrev main_c_62 : Ref sig .tc := ⟨.hbm, 428, rfl⟩
abbrev main_v178 : Ref sig .tc := ⟨.hbm, 429, rfl⟩
abbrev main_v179 : Ref sig .tc := ⟨.hbm, 430, rfl⟩
abbrev main_c_63 : Ref sig .tc := ⟨.hbm, 431, rfl⟩
abbrev main_v180 : Ref sig .tc := ⟨.hbm, 432, rfl⟩
abbrev main_c_64 : Ref sig .tc := ⟨.hbm, 433, rfl⟩
abbrev main_call27_v0 : Ref sig .tc := ⟨.hbm, 434, rfl⟩
abbrev main_call27_v1 : Ref sig .tc := ⟨.hbm, 435, rfl⟩
abbrev main_v181 : Ref sig .tc := ⟨.hbm, 436, rfl⟩
abbrev main_c_65 : Ref sig .tc := ⟨.hbm, 437, rfl⟩
abbrev main_v182 : Ref sig .tc := ⟨.hbm, 438, rfl⟩
abbrev main_v183 : Ref sig .tc := ⟨.hbm, 439, rfl⟩
abbrev main_c_66 : Ref sig .tc := ⟨.hbm, 440, rfl⟩
abbrev main_v184 : Ref sig .tc := ⟨.hbm, 441, rfl⟩
abbrev main_v185 : Ref sig .tc := ⟨.hbm, 442, rfl⟩
abbrev main_v186 : Ref sig .tc := ⟨.hbm, 443, rfl⟩
abbrev main_v187 : Ref sig .tc := ⟨.hbm, 444, rfl⟩
abbrev main_v188 : Ref sig .tc := ⟨.hbm, 445, rfl⟩
abbrev main_c_67 : Ref sig .tc := ⟨.hbm, 446, rfl⟩
abbrev main_v189 : Ref sig .tc := ⟨.hbm, 447, rfl⟩
abbrev main_v190 : Ref sig .tc := ⟨.hbm, 448, rfl⟩
abbrev main_c_68 : Ref sig .tc := ⟨.hbm, 449, rfl⟩
abbrev main_v191 : Ref sig .tc := ⟨.hbm, 450, rfl⟩
abbrev main_v192 : Ref sig .tc := ⟨.hbm, 451, rfl⟩
abbrev main_v193 : Ref sig .tc := ⟨.hbm, 452, rfl⟩
abbrev main_v194 : Ref sig .tc := ⟨.hbm, 453, rfl⟩
abbrev main_v195 : Ref sig .tc := ⟨.hbm, 454, rfl⟩
abbrev main_c_69 : Ref sig .tc := ⟨.hbm, 455, rfl⟩
abbrev main_call28_v0 : Ref sig .tc := ⟨.hbm, 456, rfl⟩
abbrev main_call28_v1 : Ref sig .tc := ⟨.hbm, 457, rfl⟩
abbrev main_v196 : Ref sig .tc := ⟨.hbm, 458, rfl⟩
abbrev main_c_70 : Ref sig .tc := ⟨.hbm, 459, rfl⟩
abbrev main_v197 : Ref sig .tc := ⟨.hbm, 460, rfl⟩
abbrev main_v198 : Ref sig .tc := ⟨.hbm, 461, rfl⟩
abbrev main_c_71 : Ref sig .tc := ⟨.hbm, 462, rfl⟩
abbrev main_call29_v0 : Ref sig .tc := ⟨.hbm, 463, rfl⟩
abbrev main_call29_v1 : Ref sig .tc := ⟨.hbm, 464, rfl⟩
abbrev main_v199 : Ref sig .tc := ⟨.hbm, 465, rfl⟩
abbrev main_c_72 : Ref sig .tc := ⟨.hbm, 466, rfl⟩
abbrev main_call30_v0 : Ref sig .tc := ⟨.hbm, 467, rfl⟩
abbrev main_call30_v1 : Ref sig .tc := ⟨.hbm, 468, rfl⟩
abbrev main_v200 : Ref sig .tc := ⟨.hbm, 469, rfl⟩
abbrev main_call31_v0 : Ref sig .tc := ⟨.hbm, 470, rfl⟩
abbrev main_call31_v1_0 : Ref sig .tc := ⟨.hbm, 471, rfl⟩
abbrev main_v201 : Ref sig .tc := ⟨.hbm, 472, rfl⟩
abbrev main_c_73 : Ref sig .tc := ⟨.hbm, 473, rfl⟩
abbrev main_v202 : Ref sig .tc := ⟨.hbm, 474, rfl⟩
abbrev main_v203 : Ref sig .tc := ⟨.hbm, 475, rfl⟩
abbrev main_c_74 : Ref sig .tc := ⟨.hbm, 476, rfl⟩
abbrev main_v204 : Ref sig .tc := ⟨.hbm, 477, rfl⟩
abbrev main_v205 : Ref sig .tc := ⟨.hbm, 478, rfl⟩
abbrev main_v206 : Ref sig .tc := ⟨.hbm, 479, rfl⟩
abbrev main_v207 : Ref sig .tc := ⟨.hbm, 480, rfl⟩
abbrev main_v208 : Ref sig .tc := ⟨.hbm, 481, rfl⟩
abbrev main_c_75 : Ref sig .tc := ⟨.hbm, 482, rfl⟩
abbrev main_v209 : Ref sig .tc := ⟨.hbm, 483, rfl⟩
abbrev main_v210 : Ref sig .tc := ⟨.hbm, 484, rfl⟩
abbrev main_v211 : Ref sig .tc := ⟨.hbm, 485, rfl⟩
abbrev main_v212 : Ref sig .tc := ⟨.hbm, 486, rfl⟩
abbrev main_v213 : Ref sig .tc := ⟨.hbm, 487, rfl⟩
abbrev main_v214 : Ref sig .tc := ⟨.hbm, 488, rfl⟩
abbrev main_c_76 : Ref sig .tc := ⟨.hbm, 489, rfl⟩
abbrev main_call32_v0 : Ref sig .tc := ⟨.hbm, 490, rfl⟩
abbrev main_call32_v1 : Ref sig .tc := ⟨.hbm, 491, rfl⟩
abbrev main_v215 : Ref sig .tc := ⟨.hbm, 492, rfl⟩
abbrev main_call33_c : Ref sig .tc := ⟨.hbm, 493, rfl⟩
abbrev main_call33_v0 : Ref sig .tc := ⟨.hbm, 494, rfl⟩
abbrev main_v216 : Ref sig .tc := ⟨.hbm, 495, rfl⟩
abbrev main_v217 : Ref sig .tc := ⟨.hbm, 496, rfl⟩
abbrev main_v218 : Ref sig .tc := ⟨.hbm, 497, rfl⟩
abbrev main_c_77 : Ref sig .tc := ⟨.hbm, 498, rfl⟩
abbrev main_v219 : Ref sig .tc := ⟨.hbm, 499, rfl⟩
abbrev main_c_78 : Ref sig .tc := ⟨.hbm, 500, rfl⟩
abbrev main_v220 : Ref sig .tc := ⟨.hbm, 501, rfl⟩
abbrev main_v221 : Ref sig .tc := ⟨.hbm, 502, rfl⟩
abbrev main_c_79 : Ref sig .tc := ⟨.hbm, 503, rfl⟩
abbrev main_v222 : Ref sig .tc := ⟨.hbm, 504, rfl⟩
abbrev main_v223 : Ref sig .tc := ⟨.hbm, 505, rfl⟩
abbrev main_v224 : Ref sig .tc := ⟨.hbm, 506, rfl⟩
abbrev main_v225 : Ref sig .tc := ⟨.hbm, 507, rfl⟩
abbrev main_v226 : Ref sig .tc := ⟨.hbm, 508, rfl⟩
abbrev main_c_80 : Ref sig .tc := ⟨.hbm, 509, rfl⟩
abbrev main_v227 : Ref sig .tc := ⟨.hbm, 510, rfl⟩
abbrev main_v228 : Ref sig .tc := ⟨.hbm, 511, rfl⟩
abbrev main_c_81 : Ref sig .tc := ⟨.hbm, 512, rfl⟩
abbrev main_v229 : Ref sig .tc := ⟨.hbm, 513, rfl⟩
abbrev main_v230 : Ref sig .tc := ⟨.hbm, 514, rfl⟩
abbrev main_v231 : Ref sig .tc := ⟨.hbm, 515, rfl⟩
abbrev main_c_82 : Ref sig .tc := ⟨.hbm, 516, rfl⟩
abbrev main_call34_v0 : Ref sig .tc := ⟨.hbm, 517, rfl⟩
abbrev main_call34_v1 : Ref sig .tc := ⟨.hbm, 518, rfl⟩
abbrev main_v232 : Ref sig .tc := ⟨.hbm, 519, rfl⟩
abbrev main_c_83 : Ref sig .tc := ⟨.hbm, 520, rfl⟩
abbrev main_call35_v0 : Ref sig .tc := ⟨.hbm, 521, rfl⟩
abbrev main_call35_v1 : Ref sig .tc := ⟨.hbm, 522, rfl⟩
abbrev main_v233 : Ref sig .tc := ⟨.hbm, 523, rfl⟩
abbrev main_v234 : Ref sig .tc := ⟨.hbm, 524, rfl⟩
abbrev main_cst_84 : Ref sig .tc := ⟨.hbm, 525, rfl⟩
abbrev main_call36_v0 : Ref sig .tc := ⟨.hbm, 526, rfl⟩
abbrev main_call36_v1 : Ref sig .tc := ⟨.hbm, 527, rfl⟩
abbrev main_call36_v2 : Ref sig .tc := ⟨.hbm, 528, rfl⟩
abbrev main_v235 : Ref sig .tc := ⟨.hbm, 529, rfl⟩
abbrev main_cst_85 : Ref sig .tc := ⟨.hbm, 530, rfl⟩
abbrev main_v236 : Ref sig .tc := ⟨.hbm, 531, rfl⟩
abbrev main_c_86 : Ref sig .tc := ⟨.hbm, 532, rfl⟩
abbrev main_v237 : Ref sig .tc := ⟨.hbm, 533, rfl⟩
abbrev main_v238 : Ref sig .tc := ⟨.hbm, 534, rfl⟩
abbrev main_c_87 : Ref sig .tc := ⟨.hbm, 535, rfl⟩
abbrev main_v239 : Ref sig .tc := ⟨.hbm, 536, rfl⟩
abbrev main_v240 : Ref sig .tc := ⟨.hbm, 537, rfl⟩
abbrev main_v241 : Ref sig .tc := ⟨.hbm, 538, rfl⟩
abbrev main_c_88 : Ref sig .tc := ⟨.hbm, 539, rfl⟩
abbrev main_v242 : Ref sig .tc := ⟨.hbm, 540, rfl⟩
abbrev main_v243 : Ref sig .tc := ⟨.hbm, 541, rfl⟩
abbrev main_c_89 : Ref sig .tc := ⟨.hbm, 542, rfl⟩
abbrev main_v244 : Ref sig .tc := ⟨.hbm, 543, rfl⟩
abbrev main_v245 : Ref sig .tc := ⟨.hbm, 544, rfl⟩
abbrev main_v246 : Ref sig .tc := ⟨.hbm, 545, rfl⟩
abbrev main_v247 : Ref sig .tc := ⟨.hbm, 546, rfl⟩
abbrev main_v248 : Ref sig .tc := ⟨.hbm, 547, rfl⟩
abbrev main_v249 : Ref sig .tc := ⟨.hbm, 548, rfl⟩
abbrev main_v250 : Ref sig .tc := ⟨.hbm, 549, rfl⟩
abbrev main_c_90 : Ref sig .tc := ⟨.hbm, 550, rfl⟩
abbrev main_v251 : Ref sig .tc := ⟨.hbm, 551, rfl⟩
abbrev main_v252 : Ref sig .tc := ⟨.hbm, 552, rfl⟩
abbrev main_c_91 : Ref sig .tc := ⟨.hbm, 553, rfl⟩
abbrev main_v253 : Ref sig .tc := ⟨.hbm, 554, rfl⟩
abbrev main_v254 : Ref sig .tc := ⟨.hbm, 555, rfl⟩
abbrev main_c_92 : Ref sig .tc := ⟨.hbm, 556, rfl⟩
abbrev main_v255 : Ref sig .tc := ⟨.hbm, 557, rfl⟩
abbrev main_v256 : Ref sig .tc := ⟨.hbm, 558, rfl⟩
abbrev main_v257 : Ref sig .tc := ⟨.hbm, 559, rfl⟩
abbrev main_v258 : Ref sig .tc := ⟨.hbm, 560, rfl⟩
abbrev main_v259 : Ref sig .tc := ⟨.hbm, 561, rfl⟩
abbrev main_c_93 : Ref sig .tc := ⟨.hbm, 562, rfl⟩
abbrev main_v260 : Ref sig .tc := ⟨.hbm, 563, rfl⟩
abbrev main_v261 : Ref sig .tc := ⟨.hbm, 564, rfl⟩
abbrev main_v262 : Ref sig .tc := ⟨.hbm, 565, rfl⟩
abbrev main_c_94 : Ref sig .tc := ⟨.hbm, 566, rfl⟩
abbrev main_call37_v0 : Ref sig .tc := ⟨.hbm, 567, rfl⟩
abbrev main_call37_v1 : Ref sig .tc := ⟨.hbm, 568, rfl⟩
abbrev main_v263 : Ref sig .tc := ⟨.hbm, 569, rfl⟩
abbrev main_c_95 : Ref sig .tc := ⟨.hbm, 570, rfl⟩
abbrev main_v264 : Ref sig .tc := ⟨.hbm, 571, rfl⟩
abbrev main_c_96 : Ref sig .tc := ⟨.hbm, 572, rfl⟩
abbrev main_v265 : Ref sig .tc := ⟨.hbm, 573, rfl⟩
abbrev main_v266 : Ref sig .tc := ⟨.hbm, 574, rfl⟩
abbrev main_c_97 : Ref sig .tc := ⟨.hbm, 575, rfl⟩
abbrev main_v267 : Ref sig .tc := ⟨.hbm, 576, rfl⟩
abbrev main_v268 : Ref sig .tc := ⟨.hbm, 577, rfl⟩
abbrev main_v269 : Ref sig .tc := ⟨.hbm, 578, rfl⟩
abbrev main_v270 : Ref sig .tc := ⟨.hbm, 579, rfl⟩
abbrev main_v271 : Ref sig .tc := ⟨.hbm, 580, rfl⟩
abbrev main_v272 : Ref sig .tc := ⟨.hbm, 581, rfl⟩
abbrev main_c_98 : Ref sig .tc := ⟨.hbm, 582, rfl⟩
abbrev main_v273 : Ref sig .tc := ⟨.hbm, 583, rfl⟩
abbrev main_c_99 : Ref sig .tc := ⟨.hbm, 584, rfl⟩
abbrev main_v274 : Ref sig .tc := ⟨.hbm, 585, rfl⟩
abbrev main_v275 : Ref sig .tc := ⟨.hbm, 586, rfl⟩
abbrev main_v276 : Ref sig .tc := ⟨.hbm, 587, rfl⟩
abbrev main_v277 : Ref sig .tc := ⟨.hbm, 588, rfl⟩
abbrev main_v278 : Ref sig .tc := ⟨.hbm, 589, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S2000000x4_S2000000x3_0_0 : S2000000x4.Slices ![0, 0] S2000000x3
  transposes_S2000000x3_S3x2000000_1_0 : S2000000x3.Transposes [1, 0] S3x2000000
  shapeCasts_S3x2000000_S3x15625x128 : S3x2000000.ShapeCasts S3x15625x128
  inb_S3x1024x128_S3x1024x128_0_0_0 : ∀ a, (![0, 0, 0] : Fin 3 → Nat) a + S3x1024x128.size a ≤ S3x1024x128.size a
  h_S3x1024x128 : 0 < S3x1024x128.numel
  shapeCasts_S3x1024x128_S3x1024x128 : S3x1024x128.ShapeCasts S3x1024x128
  slices_S3x1024x128_o0_0_0_S1x1024x128 : S3x1024x128.Slices ![0, 0, 0] S1x1024x128
  shapeCasts_S1x1024x128_S1024x128 : S1x1024x128.ShapeCasts S1024x128
  slices_S3x1024x128_o1_0_0_S1x1024x128 : S3x1024x128.Slices ![1, 0, 0] S1x1024x128
  slices_S3x1024x128_o2_0_0_S1x1024x128 : S3x1024x128.Slices ![2, 0, 0] S1x1024x128
  inb_S2x1024x128_S1x1024x128_0_0_0 : ∀ a, (![0, 0, 0] : Fin 3 → Nat) a + S1x1024x128.size a ≤ S2x1024x128.size a
  h_S1x1024x128 : 0 < S1x1024x128.numel
  shapeCasts_S1024x128_S1x1024x128 : S1024x128.ShapeCasts S1x1024x128
  inb_S2x1024x128_S1x1024x128_1_0_0 : ∀ a, (![1, 0, 0] : Fin 3 → Nat) a + S1x1024x128.size a ≤ S2x1024x128.size a
  shapeCasts_S2x15625x128_S2x2000000 : S2x15625x128.ShapeCasts S2x2000000
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  bcast_S2000000x1_S2000000x3_0_1 : S2000000x1.BroadcastsInDim S2000000x3 (![0, 1] : Fin 2 → Fin S2000000x3.rank)
  bcast_S_S2000000x3 : S_.BroadcastsInDim S2000000x3 (![] : Fin 0 → Fin S2000000x3.rank)
  slices_S2x2000000_S1x2000000_1_0 : S2x2000000.Slices ![1, 0] S1x2000000
  bcast_S_S214272 : S_.BroadcastsInDim S214272 (![] : Fin 0 → Fin S214272.rank)
  natLt_1_32 : 1 < 32
  bcast_S_S_ : S_.BroadcastsInDim S_ (![] : Fin 0 → Fin S_.rank)
  reduceWindows_S2000000_S2000000_w2000000s1p1999999_0 : S2000000.ReduceWindows (![2000000] : Fin 1 → Nat) ![1] ![1999999] ![0] S2000000
  h_S_ : 0 < S_.numel
  bcast_S_S1 : S_.BroadcastsInDim S1 (![] : Fin 0 → Fin S1.rank)
  slices_S2000000_S1999999_1 : S2000000.Slices ![1] S1999999
  slices_S2000000_S1999999_0 : S2000000.Slices ![0] S1999999
  concatenates_S1_S1999999_S2000000_d0 : Shape.Concatenates [S1, S1999999] S2000000 0
  bcast_S2000000x1_S2000000x4_0_1 : S2000000x1.BroadcastsInDim S2000000x4 (![0, 1] : Fin 2 → Fin S2000000x4.rank)
  bcast_S_S2000000x4 : S_.BroadcastsInDim S2000000x4 (![] : Fin 0 → Fin S2000000x4.rank)
  bcast_S_S12001x35x4 : S_.BroadcastsInDim S12001x35x4 (![] : Fin 0 → Fin S12001x35x4.rank)
  concatenates_S2000000x1_S2000000x1_S2000000x2_d1 : Shape.Concatenates [S2000000x1, S2000000x1] S2000000x2 1
  bcast_S_S12001 : S_.BroadcastsInDim S12001 (![] : Fin 0 → Fin S12001.rank)
  bcast_S_S12001x3 : S_.BroadcastsInDim S12001x3 (![] : Fin 0 → Fin S12001x3.rank)
  reducesTo_S2000000_S_d0 : S2000000.ReducesTo [0] S_
  slices_S12001x35x4_S12000x35x4_0_0_0 : S12001x35x4.Slices ![0, 0, 0] S12000x35x4
  slices_S12001x3_S12000x3_0_0 : S12001x3.Slices ![0, 0] S12000x3
  slices_S12001_S12000_0 : S12001.Slices ![0] S12000
  bcast_S_S53568 : S_.BroadcastsInDim S53568 (![] : Fin 0 → Fin S53568.rank)
  bcast_S_S6001x35x4 : S_.BroadcastsInDim S6001x35x4 (![] : Fin 0 → Fin S6001x35x4.rank)
  bcast_S_S6001 : S_.BroadcastsInDim S6001 (![] : Fin 0 → Fin S6001.rank)
  bcast_S_S6001x3 : S_.BroadcastsInDim S6001x3 (![] : Fin 0 → Fin S6001x3.rank)
  slices_S6001x35x4_S6000x35x4_0_0_0 : S6001x35x4.Slices ![0, 0, 0] S6000x35x4
  slices_S6001x3_S6000x3_0_0 : S6001x3.Slices ![0, 0] S6000x3
  slices_S6001_S6000_0 : S6001.Slices ![0] S6000
  scatter_S214272_S2000000x1_S2000000_n_0_0_1_wf : ScatterDims.WF S214272 S2000000x1 S2000000 [] [0] [0] 1
  gather_S214272_S2000000x1_S2000000_n_0_n_n_0_1_1_wf : GatherDims.WF S214272 S2000000x1 S2000000 [] [0] [] [0] [] 1 ![1]
  gather_S2000000_S2000000x1_S2000000_n_0_n_n_0_1_1_wf : GatherDims.WF S2000000 S2000000x1 S2000000 [] [0] [] [0] [] 1 ![1]
  scatter_S2000000_S2000000x1_S2000000_n_0_0_1_wf : ScatterDims.WF S2000000 S2000000x1 S2000000 [] [0] [0] 1
  scatter_S12001x35x4_S2000000x2_S2000000x4_1_01_01_1_wf : ScatterDims.WF S12001x35x4 S2000000x2 S2000000x4 [1] [0, 1] [0, 1] 1
  scatter_S12001_S2000000x1_S2000000_n_0_0_1_wf : ScatterDims.WF S12001 S2000000x1 S2000000 [] [0] [0] 1
  scatter_S12001x3_S2000000x1_S2000000x3_1_0_0_1_wf : ScatterDims.WF S12001x3 S2000000x1 S2000000x3 [1] [0] [0] 1
  scatter_S53568_S2000000x1_S2000000_n_0_0_1_wf : ScatterDims.WF S53568 S2000000x1 S2000000 [] [0] [0] 1
  gather_S53568_S2000000x1_S2000000_n_0_n_n_0_1_1_wf : GatherDims.WF S53568 S2000000x1 S2000000 [] [0] [] [0] [] 1 ![1]
  scatter_S6001x35x4_S2000000x2_S2000000x4_1_01_01_1_wf : ScatterDims.WF S6001x35x4 S2000000x2 S2000000x4 [1] [0, 1] [0, 1] 1
  scatter_S6001_S2000000x1_S2000000_n_0_0_1_wf : ScatterDims.WF S6001 S2000000x1 S2000000 [] [0] [0] 1
  scatter_S6001x3_S2000000x1_S2000000x3_1_0_0_1_wf : ScatterDims.WF S6001x3 S2000000x1 S2000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3x1024x128.size a < S3x15625x128.size a
  hwx0_0 : ∀ i : grid0.Coords, EltTy.bits .f32 = 32 ∨ (Rect.unit (s := S3x15625x128) (fun a => cc0_transform_0 i a * S3x1024x128.size a) (fun a => (Pipeline.Clip.of (cc0_transform_0 i a) (S3x1024x128.size a) (S3x15625x128.size a)).extent (S3x1024x128.size a)) fun a => Pipeline.Clip.inb (Pipeline.Clip.ok_of (hstart0_0 i a))).WholeWords (EltTy.packing .f32)
  hwxs0_0 : ∀ i : grid0.Coords, EltTy.bits .f32 = 32 ∨ (Rect.unit (s := S3x1024x128) (fun _ => 0) (fun a => (Pipeline.Clip.of (cc0_transform_0 i a) (S3x1024x128.size a) (S3x15625x128.size a)).extent (S3x1024x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2x1024x128.size a < S2x15625x128.size a
  hwx0_1 : ∀ i : grid0.Coords, EltTy.bits .i32 = 32 ∨ (Rect.unit (s := S2x15625x128) (fun a => cc0_transform_1 i a * S2x1024x128.size a) (fun a => (Pipeline.Clip.of (cc0_transform_1 i a) (S2x1024x128.size a) (S2x15625x128.size a)).extent (S2x1024x128.size a)) fun a => Pipeline.Clip.inb (Pipeline.Clip.ok_of (hstart0_1 i a))).WholeWords (EltTy.packing .i32)
  hwxs0_1 : ∀ i : grid0.Coords, EltTy.bits .i32 = 32 ∨ (Rect.unit (s := S2x1024x128) (fun _ => 0) (fun a => (Pipeline.Clip.of (cc0_transform_1 i a) (S2x1024x128.size a) (S2x15625x128.size a)).extent (S2x1024x128.size a)) fun a => (Nat.zero_add _).trans_le (Pipeline.Clip.extent_le (Pipeline.Clip.ok_of (hstart0_1 i a)))).WholeWords (EltTy.packing .i32)

variable [Facts₀]

def scatter_S214272_S2000000x1_S2000000_n_0_0_1 : ScatterDims S214272 S2000000x1 S2000000 where
  updateWindowDims := []
  insertedWindowDims := [0]
  scatterDimsToOperandDims := [0]
  indexVectorDim := 1
  wf := scatter_S214272_S2000000x1_S2000000_n_0_0_1_wf
def gather_S214272_S2000000x1_S2000000_n_0_n_n_0_1_1 : GatherDims S214272 S2000000x1 S2000000 where
  offsetDims := []
  collapsedSliceDims := [0]
  operandBatchingDims := []
  startIndicesBatchingDims := []
  startIndexMap := [0]
  indexVectorDim := 1
  sliceSizes := ![1]
  wf := gather_S214272_S2000000x1_S2000000_n_0_n_n_0_1_1_wf
def comparator_i32_i32_d0 : BitVec 32 × BitVec 32 → BitVec 32 × BitVec 32 → BitVec 1 :=
  fun l r =>
    let v2 := IntOp.cmpi .slt l.1 r.1
    v2
def gather_S2000000_S2000000x1_S2000000_n_0_n_n_0_1_1 : GatherDims S2000000 S2000000x1 S2000000 where
  offsetDims := []
  collapsedSliceDims := [0]
  operandBatchingDims := []
  startIndicesBatchingDims := []
  startIndexMap := [0]
  indexVectorDim := 1
  sliceSizes := ![1]
  wf := gather_S2000000_S2000000x1_S2000000_n_0_n_n_0_1_1_wf
def scatter_S2000000_S2000000x1_S2000000_n_0_0_1 : ScatterDims S2000000 S2000000x1 S2000000 where
  updateWindowDims := []
  insertedWindowDims := [0]
  scatterDimsToOperandDims := [0]
  indexVectorDim := 1
  wf := scatter_S2000000_S2000000x1_S2000000_n_0_0_1_wf
def scatter_S12001x35x4_S2000000x2_S2000000x4_1_01_01_1 : ScatterDims S12001x35x4 S2000000x2 S2000000x4 where
  updateWindowDims := [1]
  insertedWindowDims := [0, 1]
  scatterDimsToOperandDims := [0, 1]
  indexVectorDim := 1
  wf := scatter_S12001x35x4_S2000000x2_S2000000x4_1_01_01_1_wf
def scatter_S12001_S2000000x1_S2000000_n_0_0_1 : ScatterDims S12001 S2000000x1 S2000000 where
  updateWindowDims := []
  insertedWindowDims := [0]
  scatterDimsToOperandDims := [0]
  indexVectorDim := 1
  wf := scatter_S12001_S2000000x1_S2000000_n_0_0_1_wf
def scatter_S12001x3_S2000000x1_S2000000x3_1_0_0_1 : ScatterDims S12001x3 S2000000x1 S2000000x3 where
  updateWindowDims := [1]
  insertedWindowDims := [0]
  scatterDimsToOperandDims := [0]
  indexVectorDim := 1
  wf := scatter_S12001x3_S2000000x1_S2000000x3_1_0_0_1_wf
def scatter_S53568_S2000000x1_S2000000_n_0_0_1 : ScatterDims S53568 S2000000x1 S2000000 where
  updateWindowDims := []
  insertedWindowDims := [0]
  scatterDimsToOperandDims := [0]
  indexVectorDim := 1
  wf := scatter_S53568_S2000000x1_S2000000_n_0_0_1_wf
def gather_S53568_S2000000x1_S2000000_n_0_n_n_0_1_1 : GatherDims S53568 S2000000x1 S2000000 where
  offsetDims := []
  collapsedSliceDims := [0]
  operandBatchingDims := []
  startIndicesBatchingDims := []
  startIndexMap := [0]
  indexVectorDim := 1
  sliceSizes := ![1]
  wf := gather_S53568_S2000000x1_S2000000_n_0_n_n_0_1_1_wf
def scatter_S6001x35x4_S2000000x2_S2000000x4_1_01_01_1 : ScatterDims S6001x35x4 S2000000x2 S2000000x4 where
  updateWindowDims := [1]
  insertedWindowDims := [0, 1]
  scatterDimsToOperandDims := [0, 1]
  indexVectorDim := 1
  wf := scatter_S6001x35x4_S2000000x2_S2000000x4_1_01_01_1_wf
def scatter_S6001_S2000000x1_S2000000_n_0_0_1 : ScatterDims S6001 S2000000x1 S2000000 where
  updateWindowDims := []
  insertedWindowDims := [0]
  scatterDimsToOperandDims := [0]
  indexVectorDim := 1
  wf := scatter_S6001_S2000000x1_S2000000_n_0_0_1_wf
def scatter_S6001x3_S2000000x1_S2000000x3_1_0_0_1 : ScatterDims S6001x3 S2000000x1 S2000000x3 where
  updateWindowDims := [1]
  insertedWindowDims := [0]
  scatterDimsToOperandDims := [0]
  indexVectorDim := 1
  wf := scatter_S6001x3_S2000000x1_S2000000x3_1_0_0_1_wf

abbrev win0_0 : Pipeline.Window sig grid0 :=
  Pipeline.Window.ofSpecClip (Memref.whole main_v2) S3x1024x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v3) S2x1024x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x4 : Shape := ⟨2, ![2000000, 4]⟩
abbrev S3 : Shape := ⟨1, ![3]⟩
abbrev S2000000x3 : Shape := ⟨2, ![2000000, 3]⟩
abbrev S1x3 : Shape := ⟨2, ![1, 3]⟩
abbrev S_ : Shape := ⟨0, ![]⟩
abbrev S2000000 : Shape := ⟨1, ![2000000]⟩
abbrev S2000000x1 : Shape := ⟨2, ![2000000, 1]⟩
abbrev S214272 : Shape := ⟨1, ![214272]⟩
abbrev S1 : Shape := ⟨1, ![1]⟩
abbrev S1999999 : Shape := ⟨1, ![1999999]⟩
abbrev S12001x35x4 : Shape := ⟨3, ![12001, 35, 4]⟩
abbrev S2000000x2 : Shape := ⟨2, ![2000000, 2]⟩
abbrev S12001 : Shape := ⟨1, ![12001]⟩
abbrev S12001x3 : Shape := ⟨2, ![12001, 3]⟩
abbrev S12000x35x4 : Shape := ⟨3, ![12000, 35, 4]⟩
abbrev S12000x3 : Shape := ⟨2, ![12000, 3]⟩
abbrev S12000 : Shape := ⟨1, ![12000]⟩
abbrev S53568 : Shape := ⟨1, ![53568]⟩
abbrev S6001x35x4 : Shape := ⟨3, ![6001, 35, 4]⟩
abbrev S6001 : Shape := ⟨1, ![6001]⟩
abbrev S6001x3 : Shape := ⟨2, ![6001, 3]⟩
abbrev S6000x35x4 : Shape := ⟨3, ![6000, 35, 4]⟩
abbrev S6000x3 : Shape := ⟨2, ![6000, 3]⟩
abbrev S6000 : Shape := ⟨1, ![6000]⟩

abbrev nBuf : Space → Nat
  | .hbm => 465
  | .vmem => 0
  | .smem => 0
  | _ => 0

abbrev hbmTy0_0 (i : Nat) : BufTy := match i % 128 with
  | 0 => ⟨S2000000x4, .f32⟩
  | 1 => ⟨S3, .f32⟩
  | 2 => ⟨S3, .f32⟩
  | 3 => ⟨S3, .i32⟩
  | 4 => ⟨S3, .f32⟩
  | 5 => ⟨S3, .f32⟩
  | 6 => ⟨S3, .i32⟩
  | 7 => ⟨S2000000x3, .f32⟩
  | 8 => ⟨S1x3, .f32⟩
  | 9 => ⟨S2000000x3, .f32⟩
  | 10 => ⟨S2000000x3, .f32⟩
  | 11 => ⟨S1x3, .f32⟩
  | 12 => ⟨S2000000x3, .f32⟩
  | 13 => ⟨S2000000x3, .f32⟩
  | 14 => ⟨S2000000x3, .f32⟩
  | 15 => ⟨S2000000x3, .i32⟩
  | 16 => ⟨S_, .i32⟩
  | 17 => ⟨S2000000x3, .i32⟩
  | 18 => ⟨S2000000x3, .i1⟩
  | 19 => ⟨S1x3, .i32⟩
  | 20 => ⟨S2000000x3, .i32⟩
  | 21 => ⟨S2000000x3, .i1⟩
  | 22 => ⟨S2000000x3, .i1⟩
  | 23 => ⟨S_, .i1⟩
  | 24 => ⟨S2000000, .i1⟩
  | 25 => ⟨S2000000x1, .i32⟩
  | 26 => ⟨S2000000, .i32⟩
  | 27 => ⟨S_, .i32⟩
  | 28 => ⟨S2000000, .i32⟩
  | 29 => ⟨S2000000, .i32⟩
  | 30 => ⟨S2000000x1, .i32⟩
  | 31 => ⟨S2000000, .i32⟩
  | 32 => ⟨S2000000, .i32⟩
  | 33 => ⟨S_, .i32⟩
  | 34 => ⟨S2000000, .i32⟩
  | 35 => ⟨S2000000, .i32⟩
  | 36 => ⟨S2000000x1, .i32⟩
  | 37 => ⟨S2000000, .i32⟩
  | 38 => ⟨S2000000, .i32⟩
  | 39 => ⟨S_, .i32⟩
  | 40 => ⟨S_, .i32⟩
  | 41 => ⟨S2000000, .i32⟩
  | 42 => ⟨S2000000, .i32⟩
  | 43 => ⟨S2000000, .i32⟩
  | 44 => ⟨S_, .i32⟩
  | 45 => ⟨S214272, .i32⟩
  | 46 => ⟨S_, .i32⟩
  | 47 => ⟨S_, .i32⟩
  | 48 => ⟨S2000000, .i32⟩
  | 49 => ⟨S2000000, .i32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S2000000x1, .i32⟩
  | 58 => ⟨S214272, .i32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i32⟩
  | 65 => ⟨S2000000, .i32⟩
  | 66 => ⟨S2000000x1, .i32⟩
  | 67 => ⟨S2000000, .i32⟩
  | 68 => ⟨S2000000, .i1⟩
  | 69 => ⟨S2000000, .i1⟩
  | 70 => ⟨S2000000, .i32⟩
  | 71 => ⟨S_, .i32⟩
  | 72 => ⟨S_, .i32⟩
  | 73 => ⟨S2000000, .i32⟩
  | 74 => ⟨S_, .i32⟩
  | 75 => ⟨S2000000, .i32⟩
  | 76 => ⟨S2000000, .i32⟩
  | 77 => ⟨S_, .i32⟩
  | 78 => ⟨S214272, .i32⟩
  | 79 => ⟨S_, .i32⟩
  | 80 => ⟨S_, .i32⟩
  | 81 => ⟨S2000000, .i32⟩
  | 82 => ⟨S2000000, .i32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S2000000x1, .i32⟩
  | 91 => ⟨S214272, .i32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i32⟩
  | 98 => ⟨S2000000, .i32⟩
  | 99 => ⟨S2000000x1, .i32⟩
  | 100 => ⟨S2000000, .i32⟩
  | 101 => ⟨S_, .i32⟩
  | 102 => ⟨S_, .i32⟩
  | 103 => ⟨S2000000, .i32⟩
  | 104 => ⟨S2000000, .i32⟩
  | 105 => ⟨S_, .i32⟩
  | 106 => ⟨S2000000, .i32⟩
  | 107 => ⟨S2000000, .i1⟩
  | 108 => ⟨S_, .i32⟩
  | 109 => ⟨S_, .i32⟩
  | 110 => ⟨S2000000, .i32⟩
  | 111 => ⟨S2000000, .i32⟩
  | 112 => ⟨S_, .i32⟩
  | 113 => ⟨S_, .i32⟩
  | 114 => ⟨S2000000, .i32⟩
  | 115 => ⟨S2000000, .i32⟩
  | 116 => ⟨S2000000, .i32⟩
  | 117 => ⟨S2000000, .i32⟩
  | 118 => ⟨S2000000, .i32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S2000000, .i32⟩
  | _ => ⟨S2000000x4, .f32⟩

abbrev hbmTy0_1 (i : Nat) : BufTy := match i % 128 with
  | 0 => ⟨S_, .i1⟩
  | 1 => ⟨S1, .i1⟩
  | 2 => ⟨S1999999, .i32⟩
  | 3 => ⟨S1999999, .i32⟩
  | 4 => ⟨S1999999, .i1⟩
  | 5 => ⟨S2000000, .i1⟩
  | 6 => ⟨S2000000, .i32⟩
  | 7 => ⟨S_, .i32⟩
  | 8 => ⟨S_, .i32⟩
  | 9 => ⟨S2000000, .i32⟩
  | 10 => ⟨S2000000, .i32⟩
  | 11 => ⟨S_, .i32⟩
  | 12 => ⟨S_, .i32⟩
  | 13 => ⟨S2000000, .i32⟩
  | 14 => ⟨S2000000, .i32⟩
  | 15 => ⟨S2000000, .i32⟩
  | 16 => ⟨S_, .i32⟩
  | 17 => ⟨S2000000, .i32⟩
  | 18 => ⟨S_, .i32⟩
  | 19 => ⟨S2000000, .i32⟩
  | 20 => ⟨S2000000, .i1⟩
  | 21 => ⟨S_, .i32⟩
  | 22 => ⟨S2000000, .i32⟩
  | 23 => ⟨S2000000, .i32⟩
  | 24 => ⟨S2000000, .i32⟩
  | 25 => ⟨S2000000x1, .i32⟩
  | 26 => ⟨S2000000, .i32⟩
  | 27 => ⟨S_, .i32⟩
  | 28 => ⟨S2000000, .i32⟩
  | 29 => ⟨S2000000, .i1⟩
  | 30 => ⟨S_, .i32⟩
  | 31 => ⟨S2000000, .i32⟩
  | 32 => ⟨S2000000, .i1⟩
  | 33 => ⟨S2000000, .i1⟩
  | 34 => ⟨S_, .i32⟩
  | 35 => ⟨S_, .i32⟩
  | 36 => ⟨S2000000, .i32⟩
  | 37 => ⟨S2000000, .i32⟩
  | 38 => ⟨S_, .i32⟩
  | 39 => ⟨S_, .i32⟩
  | 40 => ⟨S2000000, .i32⟩
  | 41 => ⟨S2000000, .i32⟩
  | 42 => ⟨S2000000x1, .i1⟩
  | 43 => ⟨S_, .f32⟩
  | 44 => ⟨S_, .f32⟩
  | 45 => ⟨S2000000x4, .i1⟩
  | 46 => ⟨S2000000x4, .f32⟩
  | 47 => ⟨S2000000x4, .f32⟩
  | 48 => ⟨S_, .f32⟩
  | 49 => ⟨S12001x35x4, .f32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S_, .i32⟩
  | 58 => ⟨S2000000, .i32⟩
  | 59 => ⟨S2000000, .i1⟩
  | 60 => ⟨S_, .i32⟩
  | 61 => ⟨S2000000, .i32⟩
  | 62 => ⟨S2000000, .i32⟩
  | 63 => ⟨S2000000, .i32⟩
  | 64 => ⟨S2000000x1, .i32⟩
  | 65 => ⟨S2000000x1, .i32⟩
  | 66 => ⟨S2000000x2, .i32⟩
  | 67 => ⟨S12001x35x4, .f32⟩
  | 68 => ⟨S_, .i32⟩
  | 69 => ⟨S12001, .i32⟩
  | 70 => ⟨S2000000, .i32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S12001, .i32⟩
  | 80 => ⟨S_, .i32⟩
  | 81 => ⟨S2000000, .i32⟩
  | 82 => ⟨S2000000, .i1⟩
  | 83 => ⟨S2000000, .i1⟩
  | 84 => ⟨S_, .i32⟩
  | 85 => ⟨S_, .i32⟩
  | 86 => ⟨S2000000, .i32⟩
  | 87 => ⟨S2000000, .i32⟩
  | 88 => ⟨S_, .i32⟩
  | 89 => ⟨S12001x3, .i32⟩
  | 90 => ⟨S_, .i32⟩
  | 91 => ⟨S2000000, .i32⟩
  | 92 => ⟨S2000000, .i1⟩
  | 93 => ⟨S_, .i32⟩
  | 94 => ⟨S2000000, .i32⟩
  | 95 => ⟨S2000000, .i32⟩
  | 96 => ⟨S2000000, .i32⟩
  | 97 => ⟨S2000000x1, .i32⟩
  | 98 => ⟨S12001x3, .i32⟩
  | 99 => ⟨S2000000, .i32⟩
  | 100 => ⟨S_, .i32⟩
  | 101 => ⟨S_, .i32⟩
  | 102 => ⟨S_, .i32⟩
  | 103 => ⟨S_, .i32⟩
  | 104 => ⟨S12000x35x4, .f32⟩
  | 105 => ⟨S12000x3, .i32⟩
  | 106 => ⟨S12000x3, .i32⟩
  | 107 => ⟨S12000, .i32⟩
  | 108 => ⟨S2000000x3, .f32⟩
  | 109 => ⟨S1x3, .f32⟩
  | 110 => ⟨S2000000x3, .f32⟩
  | 111 => ⟨S2000000x3, .f32⟩
  | 112 => ⟨S1x3, .f32⟩
  | 113 => ⟨S2000000x3, .f32⟩
  | 114 => ⟨S2000000x3, .f32⟩
  | 115 => ⟨S2000000x3, .f32⟩
  | 116 => ⟨S2000000x3, .i32⟩
  | 117 => ⟨S_, .i32⟩
  | 118 => ⟨S2000000x3, .i32⟩
  | 119 => ⟨S2000000x3, .i1⟩
  | 120 => ⟨S1x3, .i32⟩
  | 121 => ⟨S2000000x3, .i32⟩
  | 122 => ⟨S2000000x3, .i1⟩
  | 123 => ⟨S2000000x3, .i1⟩
  | 124 => ⟨S_, .i1⟩
  | 125 => ⟨S2000000, .i1⟩
  | 126 => ⟨S2000000x1, .i32⟩
  | 127 => ⟨S2000000, .i32⟩
  | _ => ⟨S2000000x4, .f32⟩

abbrev hbmTy0_2 (i : Nat) : BufTy := match i % 128 with
  | 0 => ⟨S_, .i32⟩
  | 1 => ⟨S2000000, .i32⟩
  | 2 => ⟨S2000000, .i32⟩
  | 3 => ⟨S2000000x1, .i32⟩
  | 4 => ⟨S2000000, .i32⟩
  | 5 => ⟨S2000000, .i32⟩
  | 6 => ⟨S_, .i32⟩
  | 7 => ⟨S2000000, .i32⟩
  | 8 => ⟨S2000000, .i32⟩
  | 9 => ⟨S2000000x1, .i32⟩
  | 10 => ⟨S2000000, .i32⟩
  | 11 => ⟨S2000000, .i32⟩
  | 12 => ⟨S_, .i32⟩
  | 13 => ⟨S_, .i32⟩
  | 14 => ⟨S2000000, .i32⟩
  | 15 => ⟨S2000000, .i32⟩
  | 16 => ⟨S2000000, .i32⟩
  | 17 => ⟨S_, .i32⟩
  | 18 => ⟨S53568, .i32⟩
  | 19 => ⟨S_, .i32⟩
  | 20 => ⟨S_, .i32⟩
  | 21 => ⟨S2000000, .i32⟩
  | 22 => ⟨S2000000, .i32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S53568, .i32⟩
  | 32 => ⟨S_, .i32⟩
  | 33 => ⟨S2000000, .i32⟩
  | 34 => ⟨S2000000, .i1⟩
  | 35 => ⟨S_, .i32⟩
  | 36 => ⟨S2000000, .i32⟩
  | 37 => ⟨S2000000, .i32⟩
  | 38 => ⟨S2000000, .i32⟩
  | 39 => ⟨S2000000x1, .i32⟩
  | 40 => ⟨S2000000, .i32⟩
  | 41 => ⟨S2000000, .i1⟩
  | 42 => ⟨S2000000, .i1⟩
  | 43 => ⟨S2000000, .i32⟩
  | 44 => ⟨S_, .i32⟩
  | 45 => ⟨S_, .i32⟩
  | 46 => ⟨S2000000, .i32⟩
  | 47 => ⟨S_, .i32⟩
  | 48 => ⟨S2000000, .i32⟩
  | 49 => ⟨S2000000, .i32⟩
  | 50 => ⟨S_, .i32⟩
  | 51 => ⟨S53568, .i32⟩
  | 52 => ⟨S_, .i32⟩
  | 53 => ⟨S_, .i32⟩
  | 54 => ⟨S2000000, .i32⟩
  | 55 => ⟨S2000000, .i32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S53568, .i32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S2000000x1, .i32⟩
  | 73 => ⟨S2000000, .i32⟩
  | 74 => ⟨S_, .i32⟩
  | 75 => ⟨S_, .i32⟩
  | 76 => ⟨S2000000, .i32⟩
  | 77 => ⟨S2000000, .i32⟩
  | 78 => ⟨S_, .i32⟩
  | 79 => ⟨S2000000, .i32⟩
  | 80 => ⟨S2000000, .i1⟩
  | 81 => ⟨S_, .i32⟩
  | 82 => ⟨S_, .i32⟩
  | 83 => ⟨S2000000, .i32⟩
  | 84 => ⟨S2000000, .i32⟩
  | 85 => ⟨S_, .i32⟩
  | 86 => ⟨S_, .i32⟩
  | 87 => ⟨S2000000, .i32⟩
  | 88 => ⟨S2000000, .i32⟩
  | 89 => ⟨S2000000, .i32⟩
  | 90 => ⟨S2000000, .i32⟩
  | 91 => ⟨S2000000, .i32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i32⟩
  | 98 => ⟨S2000000, .i32⟩
  | 99 => ⟨S2000000x1, .i32⟩
  | 100 => ⟨S2000000, .i32⟩
  | 101 => ⟨S_, .i1⟩
  | 102 => ⟨S1, .i1⟩
  | 103 => ⟨S1999999, .i32⟩
  | 104 => ⟨S1999999, .i32⟩
  | 105 => ⟨S1999999, .i1⟩
  | 106 => ⟨S2000000, .i1⟩
  | 107 => ⟨S2000000, .i32⟩
  | 108 => ⟨S_, .i32⟩
  | 109 => ⟨S_, .i32⟩
  | 110 => ⟨S2000000, .i32⟩
  | 111 => ⟨S2000000, .i32⟩
  | 112 => ⟨S_, .i32⟩
  | 113 => ⟨S_, .i32⟩
  | 114 => ⟨S2000000, .i32⟩
  | 115 => ⟨S2000000, .i32⟩
  | 116 => ⟨S2000000, .i32⟩
  | 117 => ⟨S_, .i32⟩
  | 118 => ⟨S2000000, .i32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S2000000, .i32⟩
  | _ => ⟨S2000000x4, .f32⟩

abbrev hbmTy0_3 (i : Nat) : BufTy := match i % 128 with
  | 0 => ⟨S_, .i32⟩
  | 1 => ⟨S2000000, .i32⟩
  | 2 => ⟨S2000000, .i1⟩
  | 3 => ⟨S_, .i32⟩
  | 4 => ⟨S2000000, .i32⟩
  | 5 => ⟨S2000000, .i1⟩
  | 6 => ⟨S2000000, .i1⟩
  | 7 => ⟨S_, .i32⟩
  | 8 => ⟨S_, .i32⟩
  | 9 => ⟨S2000000, .i32⟩
  | 10 => ⟨S2000000, .i32⟩
  | 11 => ⟨S_, .i32⟩
  | 12 => ⟨S_, .i32⟩
  | 13 => ⟨S2000000, .i32⟩
  | 14 => ⟨S2000000, .i32⟩
  | 15 => ⟨S2000000x1, .i1⟩
  | 16 => ⟨S_, .f32⟩
  | 17 => ⟨S_, .f32⟩
  | 18 => ⟨S2000000x4, .i1⟩
  | 19 => ⟨S2000000x4, .f32⟩
  | 20 => ⟨S2000000x4, .f32⟩
  | 21 => ⟨S_, .f32⟩
  | 22 => ⟨S6001x35x4, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S_, .i32⟩
  | 31 => ⟨S2000000, .i32⟩
  | 32 => ⟨S2000000, .i1⟩
  | 33 => ⟨S_, .i32⟩
  | 34 => ⟨S2000000, .i32⟩
  | 35 => ⟨S2000000, .i32⟩
  | 36 => ⟨S2000000, .i32⟩
  | 37 => ⟨S2000000x1, .i32⟩
  | 38 => ⟨S2000000x1, .i32⟩
  | 39 => ⟨S2000000x2, .i32⟩
  | 40 => ⟨S6001x35x4, .f32⟩
  | 41 => ⟨S_, .i32⟩
  | 42 => ⟨S6001, .i32⟩
  | 43 => ⟨S2000000, .i32⟩
  | 44 => ⟨S_, .i32⟩
  | 45 => ⟨S2000000, .i32⟩
  | 46 => ⟨S2000000, .i1⟩
  | 47 => ⟨S_, .i32⟩
  | 48 => ⟨S2000000, .i32⟩
  | 49 => ⟨S2000000, .i32⟩
  | 50 => ⟨S2000000, .i32⟩
  | 51 => ⟨S2000000x1, .i32⟩
  | 52 => ⟨S6001, .i32⟩
  | 53 => ⟨S_, .i32⟩
  | 54 => ⟨S2000000, .i32⟩
  | 55 => ⟨S2000000, .i1⟩
  | 56 => ⟨S2000000, .i1⟩
  | 57 => ⟨S_, .i32⟩
  | 58 => ⟨S_, .i32⟩
  | 59 => ⟨S2000000, .i32⟩
  | 60 => ⟨S2000000, .i32⟩
  | 61 => ⟨S_, .i32⟩
  | 62 => ⟨S6001x3, .i32⟩
  | 63 => ⟨S_, .i32⟩
  | 64 => ⟨S2000000, .i32⟩
  | 65 => ⟨S2000000, .i1⟩
  | 66 => ⟨S_, .i32⟩
  | 67 => ⟨S2000000, .i32⟩
  | 68 => ⟨S2000000, .i32⟩
  | 69 => ⟨S2000000, .i32⟩
  | 70 => ⟨S2000000x1, .i32⟩
  | 71 => ⟨S6001x3, .i32⟩
  | 72 => ⟨S2000000, .i32⟩
  | 73 => ⟨S_, .i32⟩
  | 74 => ⟨S_, .i32⟩
  | 75 => ⟨S_, .i32⟩
  | 76 => ⟨S_, .i32⟩
  | 77 => ⟨S6000x35x4, .f32⟩
  | 78 => ⟨S6000x3, .i32⟩
  | 79 => ⟨S6000x3, .i32⟩
  | 80 => ⟨S6000, .i32⟩
  | _ => ⟨S2000000x4, .f32⟩

abbrev hbmTy (i : Nat) : BufTy := match i / 128 with
  | 0 => hbmTy0_0 i
  | 1 => hbmTy0_1 i
  | 2 => hbmTy0_2 i
  | 3 => hbmTy0_3 i
  | _ => ⟨S2000000x4, .f32⟩

abbrev bufTy : (tb : Table) → Fin (tcTables nBuf tb) → BufTy
  | .hbm, ⟨i, _⟩ => hbmTy i
  | _, _ => ⟨S2000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_cst_1 : Ref sig .tc := ⟨.hbm, 4, rfl⟩
abbrev main_cst_2 : Ref sig .tc := ⟨.hbm, 5, rfl⟩
abbrev main_c_3 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_4 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_5 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_8 : Ref sig .tc := ⟨.hbm, 39, rfl⟩
abbrev main_call0_v0 : Ref sig .tc := ⟨.hbm, 40, rfl⟩
abbrev main_call0_v1 : Ref sig .tc := ⟨.hbm, 41, rfl⟩
abbrev main_v28 : Ref sig .tc := ⟨.hbm, 42, rfl⟩
abbrev main_v29 : Ref sig .tc := ⟨.hbm, 43, rfl⟩
abbrev main_c_9 : Ref sig .tc := ⟨.hbm, 44, rfl⟩
abbrev main_v30 : Ref sig .tc := ⟨.hbm, 45, rfl⟩
abbrev main_c_10 : Ref sig .tc := ⟨.hbm, 46, rfl⟩
abbrev main_call1_v0 : Ref sig .tc := ⟨.hbm, 47, rfl⟩
abbrev main_call1_v1 : Ref sig .tc := ⟨.hbm, 48, rfl⟩
abbrev main_v31 : Ref sig .tc := ⟨.hbm, 49, rfl⟩
abbrev main_c_11 : Ref sig .tc := ⟨.hbm, 50, rfl⟩
abbrev main_v32 : Ref sig .tc := ⟨.hbm, 51, rfl⟩
abbrev main_v33 : Ref sig .tc := ⟨.hbm, 52, rfl⟩
abbrev main_c_12 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_13 : Ref sig .tc := ⟨.hbm, 59, rfl⟩
abbrev main_v39 : Ref sig .tc := ⟨.hbm, 60, rfl⟩
abbrev main_v40 : Ref sig .tc := ⟨.hbm, 61, rfl⟩
abbrev main_c_14 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call2_call0_c : Ref sig .tc := ⟨.hbm, 71, rfl⟩
abbrev main_call2_call0_v0 : Ref sig .tc := ⟨.hbm, 72, rfl⟩
abbrev main_v49 : Ref sig .tc := ⟨.hbm, 73, rfl⟩
abbrev main_c_15 : Ref sig .tc := ⟨.hbm, 74, rfl⟩
abbrev main_v50 : Ref sig .tc := ⟨.hbm, 75, rfl⟩
abbrev main_v51 : Ref sig .tc := ⟨.hbm, 76, rfl⟩
abbrev main_c_16 : Ref sig .tc := ⟨.hbm, 77, rfl⟩
abbrev main_v52 : Ref sig .tc := ⟨.hbm, 78, rfl⟩
abbrev main_c_17 : Ref sig .tc := ⟨.hbm, 79, rfl⟩
abbrev main_call3_v0 : Ref sig .tc := ⟨.hbm, 80, rfl⟩
abbrev main_call3_v1 : Ref sig .tc := ⟨.hbm, 81, rfl⟩
abbrev main_v53 : Ref sig .tc := ⟨.hbm, 82, rfl⟩
abbrev main_c_18 : Ref sig .tc := ⟨.hbm, 83, rfl⟩
abbrev main_v54 : Ref sig .tc := ⟨.hbm, 84, rfl⟩
abbrev main_v55 : Ref sig .tc := ⟨.hbm, 85, rfl⟩
abbrev main_c_19 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_20 : Ref sig .tc := ⟨.hbm, 92, rfl⟩
abbrev main_v61 : Ref sig .tc := ⟨.hbm, 93, rfl⟩
abbrev main_v62 : Ref sig .tc := ⟨.hbm, 94, rfl⟩
abbrev main_c_21 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_22 : Ref sig .tc := ⟨.hbm, 101, rfl⟩
abbrev main_call4_v0 : Ref sig .tc := ⟨.hbm, 102, rfl⟩
abbrev main_call4_v1 : Ref sig .tc := ⟨.hbm, 103, rfl⟩
abbrev main_v68 : Ref sig .tc := ⟨.hbm, 104, rfl⟩
abbrev main_c_23 : Ref sig .tc := ⟨.hbm, 105, rfl⟩
abbrev main_v69 : Ref sig .tc := ⟨.hbm, 106, rfl⟩
abbrev main_v70 : Ref sig .tc := ⟨.hbm, 107, rfl⟩
abbrev main_c_24 : Ref sig .tc := ⟨.hbm, 108, rfl⟩
abbrev main_call5_v0 : Ref sig .tc := ⟨.hbm, 109, rfl⟩
abbrev main_call5_v1 : Ref sig .tc := ⟨.hbm, 110, rfl⟩
abbrev main_v71 : Ref sig .tc := ⟨.hbm, 111, rfl⟩
abbrev main_c_25 : Ref sig .tc := ⟨.hbm, 112, rfl⟩
abbrev main_call6_v0 : Ref sig .tc := ⟨.hbm, 113, rfl⟩
abbrev main_call6_v1 : Ref sig .tc := ⟨.hbm, 114, rfl⟩
abbrev main_v72 : Ref sig .tc := ⟨.hbm, 115, rfl⟩
abbrev main_call7_v0 : Ref sig .tc := ⟨.hbm, 116, rfl⟩
abbrev main_call7_v1_0 : Ref sig .tc := ⟨.hbm, 117, rfl⟩
abbrev main_v73 : Ref sig .tc := ⟨.hbm, 118, rfl⟩
abbrev main_c_26 : Ref sig .tc := ⟨.hbm, 119, rfl⟩
abbrev main_v74 : Ref sig .tc := ⟨.hbm, 120, rfl⟩
abbrev main_v75 : Ref sig .tc := ⟨.hbm, 121, rfl⟩
abbrev main_c_27 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_c_28 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_c_29 : Ref sig .tc := ⟨.hbm, 135, rfl⟩
abbrev main_call8_v0 : Ref sig .tc := ⟨.hbm, 136, rfl⟩
abbrev main_call8_v1 : Ref sig .tc := ⟨.hbm, 137, rfl⟩
abbrev main_v87 : Ref sig .tc := ⟨.hbm, 138, rfl⟩
abbrev main_call9_c : Ref sig .tc := ⟨.hbm, 139, rfl⟩
abbrev main_call9_v0 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_c_30 : Ref sig .tc := ⟨.hbm, 144, rfl⟩
abbrev main_v91 : Ref sig .tc := ⟨.hbm, 145, rfl⟩
abbrev main_c_31 : Ref sig .tc := ⟨.hbm, 146, rfl⟩
abbrev main_v92 : Ref sig .tc := ⟨.hbm, 147, rfl⟩
abbrev main_v93 : Ref sig .tc := ⟨.hbm, 148, rfl⟩
abbrev main_c_32 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_c_33 : Ref sig .tc := ⟨.hbm, 155, rfl⟩
abbrev main_v99 : Ref sig .tc := ⟨.hbm, 156, rfl⟩
abbrev main_v100 : Ref sig .tc := ⟨.hbm, 157, rfl⟩
abbrev main_c_34 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_c_35 : Ref sig .tc := ⟨.hbm, 162, rfl⟩
abbrev main_call10_v0 : Ref sig .tc := ⟨.hbm, 163, rfl⟩
abbrev main_call10_v1 : Ref sig .tc := ⟨.hbm, 164, rfl⟩
abbrev main_v104 : Ref sig .tc := ⟨.hbm, 165, rfl⟩
abbrev main_c_36 : Ref sig .tc := ⟨.hbm, 166, rfl⟩
abbrev main_call11_v0 : Ref sig .tc := ⟨.hbm, 167, rfl⟩
abbrev main_call11_v1 : Ref sig .tc := ⟨.hbm, 168, rfl⟩
abbrev main_v105 : Ref sig .tc := ⟨.hbm, 169, rfl⟩
abbrev main_v106 : Ref sig .tc := ⟨.hbm, 170, rfl⟩
abbrev main_cst_37 : Ref sig .tc := ⟨.hbm, 171, rfl⟩
abbrev main_call12_v0 : Ref sig .tc := ⟨.hbm, 172, rfl⟩
abbrev main_call12_v1 : Ref sig .tc := ⟨.hbm, 173, rfl⟩
abbrev main_call12_v2 : Ref sig .tc := ⟨.hbm, 174, rfl⟩
abbrev main_v107 : Ref sig .tc := ⟨.hbm, 175, rfl⟩
abbrev main_cst_38 : Ref sig .tc := ⟨.hbm, 176, rfl⟩
abbrev main_v108 : Ref sig .tc := ⟨.hbm, 177, rfl⟩
abbrev main_c_39 : Ref sig .tc := ⟨.hbm, 178, rfl⟩
abbrev main_v109 : Ref sig .tc := ⟨.hbm, 179, rfl⟩
abbrev main_v110 : Ref sig .tc := ⟨.hbm, 180, rfl⟩
abbrev main_c_40 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_c_41 : Ref sig .tc := ⟨.hbm, 185, rfl⟩
abbrev main_v114 : Ref sig .tc := ⟨.hbm, 186, rfl⟩
abbrev main_v115 : Ref sig .tc := ⟨.hbm, 187, rfl⟩
abbrev main_c_42 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_c_43 : Ref sig .tc := ⟨.hbm, 196, rfl⟩
abbrev main_v123 : Ref sig .tc := ⟨.hbm, 197, rfl⟩
abbrev main_v124 : Ref sig .tc := ⟨.hbm, 198, rfl⟩
abbrev main_c_44 : Ref sig .tc := ⟨.hbm, 199, rfl⟩
abbrev main_v125 : Ref sig .tc := ⟨.hbm, 200, rfl⟩
abbrev main_v126 : Ref sig .tc := ⟨.hbm, 201, rfl⟩
abbrev main_c_45 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_c_46 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_c_47 : Ref sig .tc := ⟨.hbm, 212, rfl⟩
abbrev main_call13_v0 : Ref sig .tc := ⟨.hbm, 213, rfl⟩
abbrev main_call13_v1 : Ref sig .tc := ⟨.hbm, 214, rfl⟩
abbrev main_v135 : Ref sig .tc := ⟨.hbm, 215, rfl⟩
abbrev main_c_48 : Ref sig .tc := ⟨.hbm, 216, rfl⟩
abbrev main_v136 : Ref sig .tc := ⟨.hbm, 217, rfl⟩
abbrev main_c_49 : Ref sig .tc := ⟨.hbm, 218, rfl⟩
abbrev main_v137 : Ref sig .tc := ⟨.hbm, 219, rfl⟩
abbrev main_v138 : Ref sig .tc := ⟨.hbm, 220, rfl⟩
abbrev main_c_50 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_c_51 : Ref sig .tc := ⟨.hbm, 228, rfl⟩
abbrev main_v145 : Ref sig .tc := ⟨.hbm, 229, rfl⟩
abbrev main_c_52 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_c_53 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_c_54 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_c_55 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_c_56 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_c_57 : Ref sig .tc := ⟨.hbm, 268, rfl⟩
abbrev main_call14_v0 : Ref sig .tc := ⟨.hbm, 269, rfl⟩
abbrev main_call14_v1 : Ref sig .tc := ⟨.hbm, 270, rfl⟩
abbrev main_v179 : Ref sig .tc := ⟨.hbm, 271, rfl⟩
abbrev main_v180 : Ref sig .tc := ⟨.hbm, 272, rfl⟩
abbrev main_c_58 : Ref sig .tc := ⟨.hbm, 273, rfl⟩
abbrev main_v181 : Ref sig .tc := ⟨.hbm, 274, rfl⟩
abbrev main_c_59 : Ref sig .tc := ⟨.hbm, 275, rfl⟩
abbrev main_call15_v0 : Ref sig .tc := ⟨.hbm, 276, rfl⟩
abbrev main_call15_v1 : Ref sig .tc := ⟨.hbm, 277, rfl⟩
abbrev main_v182 : Ref sig .tc := ⟨.hbm, 278, rfl⟩
abbrev main_c_60 : Ref sig .tc := ⟨.hbm, 279, rfl⟩
abbrev main_v183 : Ref sig .tc := ⟨.hbm, 280, rfl⟩
abbrev main_v184 : Ref sig .tc := ⟨.hbm, 281, rfl⟩
abbrev main_c_61 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_c_62 : Ref sig .tc := ⟨.hbm, 288, rfl⟩
abbrev main_v190 : Ref sig .tc := ⟨.hbm, 289, rfl⟩
abbrev main_v191 : Ref sig .tc := ⟨.hbm, 290, rfl⟩
abbrev main_c_63 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev main_call16_call0_c : Ref sig .tc := ⟨.hbm, 300, rfl⟩
abbrev main_call16_call0_v0 : Ref sig .tc := ⟨.hbm, 301, rfl⟩
abbrev main_v200 : Ref sig .tc := ⟨.hbm, 302, rfl⟩
abbrev main_c_64 : Ref sig .tc := ⟨.hbm, 303, rfl⟩
abbrev main_v201 : Ref sig .tc := ⟨.hbm, 304, rfl⟩
abbrev main_v202 : Ref sig .tc := ⟨.hbm, 305, rfl⟩
abbrev main_c_65 : Ref sig .tc := ⟨.hbm, 306, rfl⟩
abbrev main_v203 : Ref sig .tc := ⟨.hbm, 307, rfl⟩
abbrev main_c_66 : Ref sig .tc := ⟨.hbm, 308, rfl⟩
abbrev main_call17_v0 : Ref sig .tc := ⟨.hbm, 309, rfl⟩
abbrev main_call17_v1 : Ref sig .tc := ⟨.hbm, 310, rfl⟩
abbrev main_v204 : Ref sig .tc := ⟨.hbm, 311, rfl⟩
abbrev main_c_67 : Ref sig .tc := ⟨.hbm, 312, rfl⟩
abbrev main_v205 : Ref sig .tc := ⟨.hbm, 313, rfl⟩
abbrev main_v206 : Ref sig .tc := ⟨.hbm, 314, rfl⟩
abbrev main_c_68 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_c_69 : Ref sig .tc := ⟨.hbm, 321, rfl⟩
abbrev main_v212 : Ref sig .tc := ⟨.hbm, 322, rfl⟩
abbrev main_v213 : Ref sig .tc := ⟨.hbm, 323, rfl⟩
abbrev main_c_70 : Ref sig .tc := ⟨.hbm, 324, rfl⟩
abbrev main_v214 : Ref sig .tc := ⟨.hbm, 325, rfl⟩
abbrev main_v215 : Ref sig .tc := ⟨.hbm, 326, rfl⟩
abbrev main_v216 : Ref sig .tc := ⟨.hbm, 327, rfl⟩
abbrev main_v217 : Ref sig .tc := ⟨.hbm, 328, rfl⟩
abbrev main_v218 : Ref sig .tc := ⟨.hbm, 329, rfl⟩
abbrev main_c_71 : Ref sig .tc := ⟨.hbm, 330, rfl⟩
abbrev main_call18_v0 : Ref sig .tc := ⟨.hbm, 331, rfl⟩
abbrev main_call18_v1 : Ref sig .tc := ⟨.hbm, 332, rfl⟩
abbrev main_v219 : Ref sig .tc := ⟨.hbm, 333, rfl⟩
abbrev main_c_72 : Ref sig .tc := ⟨.hbm, 334, rfl⟩
abbrev main_v220 : Ref sig .tc := ⟨.hbm, 335, rfl⟩
abbrev main_v221 : Ref sig .tc := ⟨.hbm, 336, rfl⟩
abbrev main_c_73 : Ref sig .tc := ⟨.hbm, 337, rfl⟩
abbrev main_call19_v0 : Ref sig .tc := ⟨.hbm, 338, rfl⟩
abbrev main_call19_v1 : Ref sig .tc := ⟨.hbm, 339, rfl⟩
abbrev main_v222 : Ref sig .tc := ⟨.hbm, 340, rfl⟩
abbrev main_c_74 : Ref sig .tc := ⟨.hbm, 341, rfl⟩
abbrev main_call20_v0 : Ref sig .tc := ⟨.hbm, 342, rfl⟩
abbrev main_call20_v1 : Ref sig .tc := ⟨.hbm, 343, rfl⟩
abbrev main_v223 : Ref sig .tc := ⟨.hbm, 344, rfl⟩
abbrev main_call21_v0 : Ref sig .tc := ⟨.hbm, 345, rfl⟩
abbrev main_call21_v1_0 : Ref sig .tc := ⟨.hbm, 346, rfl⟩
abbrev main_v224 : Ref sig .tc := ⟨.hbm, 347, rfl⟩
abbrev main_c_75 : Ref sig .tc := ⟨.hbm, 348, rfl⟩
abbrev main_v225 : Ref sig .tc := ⟨.hbm, 349, rfl⟩
abbrev main_v226 : Ref sig .tc := ⟨.hbm, 350, rfl⟩
abbrev main_c_76 : Ref sig .tc := ⟨.hbm, 351, rfl⟩
abbrev main_v227 : Ref sig .tc := ⟨.hbm, 352, rfl⟩
abbrev main_v228 : Ref sig .tc := ⟨.hbm, 353, rfl⟩
abbrev main_v229 : Ref sig .tc := ⟨.hbm, 354, rfl⟩
abbrev main_v230 : Ref sig .tc := ⟨.hbm, 355, rfl⟩
abbrev main_v231 : Ref sig .tc := ⟨.hbm, 356, rfl⟩
abbrev main_c_77 : Ref sig .tc := ⟨.hbm, 357, rfl⟩
abbrev main_v232 : Ref sig .tc := ⟨.hbm, 358, rfl⟩
abbrev main_v233 : Ref sig .tc := ⟨.hbm, 359, rfl⟩
abbrev main_v234 : Ref sig .tc := ⟨.hbm, 360, rfl⟩
abbrev main_v235 : Ref sig .tc := ⟨.hbm, 361, rfl⟩
abbrev main_v236 : Ref sig .tc := ⟨.hbm, 362, rfl⟩
abbrev main_v237 : Ref sig .tc := ⟨.hbm, 363, rfl⟩
abbrev main_c_78 : Ref sig .tc := ⟨.hbm, 364, rfl⟩
abbrev main_call22_v0 : Ref sig .tc := ⟨.hbm, 365, rfl⟩
abbrev main_call22_v1 : Ref sig .tc := ⟨.hbm, 366, rfl⟩
abbrev main_v238 : Ref sig .tc := ⟨.hbm, 367, rfl⟩
abbrev main_call23_c : Ref sig .tc := ⟨.hbm, 368, rfl⟩
abbrev main_call23_v0 : Ref sig .tc := ⟨.hbm, 369, rfl⟩
abbrev main_v239 : Ref sig .tc := ⟨.hbm, 370, rfl⟩
abbrev main_v240 : Ref sig .tc := ⟨.hbm, 371, rfl⟩
abbrev main_v241 : Ref sig .tc := ⟨.hbm, 372, rfl⟩
abbrev main_c_79 : Ref sig .tc := ⟨.hbm, 373, rfl⟩
abbrev main_v242 : Ref sig .tc := ⟨.hbm, 374, rfl⟩
abbrev main_c_80 : Ref sig .tc := ⟨.hbm, 375, rfl⟩
abbrev main_v243 : Ref sig .tc := ⟨.hbm, 376, rfl⟩
abbrev main_v244 : Ref sig .tc := ⟨.hbm, 377, rfl⟩
abbrev main_c_81 : Ref sig .tc := ⟨.hbm, 378, rfl⟩
abbrev main_v245 : Ref sig .tc := ⟨.hbm, 379, rfl⟩
abbrev main_v246 : Ref sig .tc := ⟨.hbm, 380, rfl⟩
abbrev main_v247 : Ref sig .tc := ⟨.hbm, 381, rfl⟩
abbrev main_v248 : Ref sig .tc := ⟨.hbm, 382, rfl⟩
abbrev main_v249 : Ref sig .tc := ⟨.hbm, 383, rfl⟩
abbrev main_c_82 : Ref sig .tc := ⟨.hbm, 384, rfl⟩
abbrev main_v250 : Ref sig .tc := ⟨.hbm, 385, rfl⟩
abbrev main_v251 : Ref sig .tc := ⟨.hbm, 386, rfl⟩
abbrev main_c_83 : Ref sig .tc := ⟨.hbm, 387, rfl⟩
abbrev main_v252 : Ref sig .tc := ⟨.hbm, 388, rfl⟩
abbrev main_v253 : Ref sig .tc := ⟨.hbm, 389, rfl⟩
abbrev main_v254 : Ref sig .tc := ⟨.hbm, 390, rfl⟩
abbrev main_c_84 : Ref sig .tc := ⟨.hbm, 391, rfl⟩
abbrev main_call24_v0 : Ref sig .tc := ⟨.hbm, 392, rfl⟩
abbrev main_call24_v1 : Ref sig .tc := ⟨.hbm, 393, rfl⟩
abbrev main_v255 : Ref sig .tc := ⟨.hbm, 394, rfl⟩
abbrev main_c_85 : Ref sig .tc := ⟨.hbm, 395, rfl⟩
abbrev main_call25_v0 : Ref sig .tc := ⟨.hbm, 396, rfl⟩
abbrev main_call25_v1 : Ref sig .tc := ⟨.hbm, 397, rfl⟩
abbrev main_v256 : Ref sig .tc := ⟨.hbm, 398, rfl⟩
abbrev main_v257 : Ref sig .tc := ⟨.hbm, 399, rfl⟩
abbrev main_cst_86 : Ref sig .tc := ⟨.hbm, 400, rfl⟩
abbrev main_call26_v0 : Ref sig .tc := ⟨.hbm, 401, rfl⟩
abbrev main_call26_v1 : Ref sig .tc := ⟨.hbm, 402, rfl⟩
abbrev main_call26_v2 : Ref sig .tc := ⟨.hbm, 403, rfl⟩
abbrev main_v258 : Ref sig .tc := ⟨.hbm, 404, rfl⟩
abbrev main_cst_87 : Ref sig .tc := ⟨.hbm, 405, rfl⟩
abbrev main_v259 : Ref sig .tc := ⟨.hbm, 406, rfl⟩
abbrev main_c_88 : Ref sig .tc := ⟨.hbm, 407, rfl⟩
abbrev main_v260 : Ref sig .tc := ⟨.hbm, 408, rfl⟩
abbrev main_v261 : Ref sig .tc := ⟨.hbm, 409, rfl⟩
abbrev main_c_89 : Ref sig .tc := ⟨.hbm, 410, rfl⟩
abbrev main_v262 : Ref sig .tc := ⟨.hbm, 411, rfl⟩
abbrev main_v263 : Ref sig .tc := ⟨.hbm, 412, rfl⟩
abbrev main_v264 : Ref sig .tc := ⟨.hbm, 413, rfl⟩
abbrev main_c_90 : Ref sig .tc := ⟨.hbm, 414, rfl⟩
abbrev main_v265 : Ref sig .tc := ⟨.hbm, 415, rfl⟩
abbrev main_v266 : Ref sig .tc := ⟨.hbm, 416, rfl⟩
abbrev main_c_91 : Ref sig .tc := ⟨.hbm, 417, rfl⟩
abbrev main_v267 : Ref sig .tc := ⟨.hbm, 418, rfl⟩
abbrev main_v268 : Ref sig .tc := ⟨.hbm, 419, rfl⟩
abbrev main_v269 : Ref sig .tc := ⟨.hbm, 420, rfl⟩
abbrev main_v270 : Ref sig .tc := ⟨.hbm, 421, rfl⟩
abbrev main_v271 : Ref sig .tc := ⟨.hbm, 422, rfl⟩
abbrev main_v272 : Ref sig .tc := ⟨.hbm, 423, rfl⟩
abbrev main_v273 : Ref sig .tc := ⟨.hbm, 424, rfl⟩
abbrev main_c_92 : Ref sig .tc := ⟨.hbm, 425, rfl⟩
abbrev main_v274 : Ref sig .tc := ⟨.hbm, 426, rfl⟩
abbrev main_v275 : Ref sig .tc := ⟨.hbm, 427, rfl⟩
abbrev main_c_93 : Ref sig .tc := ⟨.hbm, 428, rfl⟩
abbrev main_v276 : Ref sig .tc := ⟨.hbm, 429, rfl⟩
abbrev main_v277 : Ref sig .tc := ⟨.hbm, 430, rfl⟩
abbrev main_c_94 : Ref sig .tc := ⟨.hbm, 431, rfl⟩
abbrev main_v278 : Ref sig .tc := ⟨.hbm, 432, rfl⟩
abbrev main_v279 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_c_95 : Ref sig .tc := ⟨.hbm, 437, rfl⟩
abbrev main_v283 : Ref sig .tc := ⟨.hbm, 438, rfl⟩
abbrev main_v284 : Ref sig .tc := ⟨.hbm, 439, rfl⟩
abbrev main_v285 : Ref sig .tc := ⟨.hbm, 440, rfl⟩
abbrev main_c_96 : Ref sig .tc := ⟨.hbm, 441, rfl⟩
abbrev main_call27_v0 : Ref sig .tc := ⟨.hbm, 442, rfl⟩
abbrev main_call27_v1 : Ref sig .tc := ⟨.hbm, 443, rfl⟩
abbrev main_v286 : Ref sig .tc := ⟨.hbm, 444, rfl⟩
abbrev main_c_97 : Ref sig .tc := ⟨.hbm, 445, rfl⟩
abbrev main_v287 : Ref sig .tc := ⟨.hbm, 446, rfl⟩
abbrev main_c_98 : Ref sig .tc := ⟨.hbm, 447, rfl⟩
abbrev main_v288 : Ref sig .tc := ⟨.hbm, 448, rfl⟩
abbrev main_v289 : Ref sig .tc := ⟨.hbm, 449, rfl⟩
abbrev main_c_99 : Ref sig .tc := ⟨.hbm, 450, rfl⟩
abbrev main_v290 : Ref sig .tc := ⟨.hbm, 451, rfl⟩
abbrev main_v291 : Ref sig .tc := ⟨.hbm, 452, rfl⟩
abbrev main_v292 : Ref sig .tc := ⟨.hbm, 453, rfl⟩
abbrev main_v293 : Ref sig .tc := ⟨.hbm, 454, rfl⟩
abbrev main_v294 : Ref sig .tc := ⟨.hbm, 455, rfl⟩
abbrev main_v295 : Ref sig .tc := ⟨.hbm, 456, rfl⟩
abbrev main_c_100 : Ref sig .tc := ⟨.hbm, 457, rfl⟩
abbrev main_v296 : Ref sig .tc := ⟨.hbm, 458, rfl⟩
abbrev main_c_101 : Ref sig .tc := ⟨.hbm, 459, rfl⟩
abbrev main_v297 : Ref sig .tc := ⟨.hbm, 460, rfl⟩
abbrev main_v298 : Ref sig .tc := ⟨.hbm, 461, rfl⟩
abbrev main_v299 : Ref sig .tc := ⟨.hbm, 462, rfl⟩
abbrev main_v300 : Ref sig .tc := ⟨.hbm, 463, rfl⟩
abbrev main_v301 : Ref sig .tc := ⟨.hbm, 464, rfl⟩

abbrev nD : Nat := 1
abbrev τ : Topo := Topo.v7x

variable {F : FTy → Type} [FloatOps F]

class Facts₀ : Prop where
  slices_S2000000x4_S2000000x3_0_0 : S2000000x4.Slices ![0, 0] S2000000x3
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  bcast_S_S2000000x3 : S_.BroadcastsInDim S2000000x3 (![] : Fin 0 → Fin S2000000x3.rank)
  reducesTo_S2000000x3_S2000000_d1 : S2000000x3.ReducesTo [1] S2000000
  h_S_ : 0 < S_.numel
  slices_S2000000x3_S2000000x1_0_2 : S2000000x3.Slices ![0, 2] S2000000x1
  shapeCasts_S2000000x1_S2000000 : S2000000x1.ShapeCasts S2000000
  bcast_S_S2000000 : S_.BroadcastsInDim S2000000 (![] : Fin 0 → Fin S2000000.rank)
  slices_S2000000x3_S2000000x1_0_1 : S2000000x3.Slices ![0, 1] S2000000x1
  slices_S2000000x3_S2000000x1_0_0 : S2000000x3.Slices ![0, 0] S2000000x1
  bcast_S_S214272 : S_.BroadcastsInDim S214272 (![] : Fin 0 → Fin S214272.rank)
  bcast_S2000000_S2000000x1_0 : S2000000.BroadcastsInDim S2000000x1 (![0] : Fin 1 → Fin S2000000x1.rank)
  natLt_1_32 : 1 < 32
  bcast_S_S_ : S_.BroadcastsInDim S_ (![] : Fin 0 → Fin S_.rank)
  reduceWindows_S2000000_S2000000_w2000000s1p1999999_0 : S2000000.ReduceWindows (![2000000] : Fin 1 → Nat) ![1] ![1999999] ![0] S2000000
  bcast_S_S1 : S_.BroadcastsInDim S1 (![] : Fin 0 → Fin S1.rank)
  slices_S2000000_S1999999_1 : S2000000.Slices ![1] S1999999
  slices_S2000000_S1999999_0 : S2000000.Slices ![0] S1999999
  concatenates_S1_S1999999_S2000000_d0 : Shape.Concatenates [S1, S1999999] S2000000 0
  bcast_S2000000x1_S2000000x4_0_1 : S2000000x1.BroadcastsInDim S2000000x4 (![0, 1] : Fin 2 → Fin S2000000x4.rank)
  bcast_S_S2000000x4 : S_.BroadcastsInDim S2000000x4 (![] : Fin 0 → Fin S2000000x4.rank)
  bcast_S_S12001x35x4 : S_.BroadcastsInDim S12001x35x4 (![] : Fin 0 → Fin S12001x35x4.rank)
  concatenates_S2000000x1_S2000000x1_S2000000x2_d1 : Shape.Concatenates [S2000000x1, S2000000x1] S2000000x2 1
  bcast_S_S12001 : S_.BroadcastsInDim S12001 (![] : Fin 0 → Fin S12001.rank)
  bcast_S_S12001x3 : S_.BroadcastsInDim S12001x3 (![] : Fin 0 → Fin S12001x3.rank)
  reducesTo_S2000000_S_d0 : S2000000.ReducesTo [0] S_
  slices_S12001x35x4_S12000x35x4_0_0_0 : S12001x35x4.Slices ![0, 0, 0] S12000x35x4
  slices_S12001x3_S12000x3_0_0 : S12001x3.Slices ![0, 0] S12000x3
  slices_S12001_S12000_0 : S12001.Slices ![0] S12000
  bcast_S_S53568 : S_.BroadcastsInDim S53568 (![] : Fin 0 → Fin S53568.rank)
  bcast_S_S6001x35x4 : S_.BroadcastsInDim S6001x35x4 (![] : Fin 0 → Fin S6001x35x4.rank)
  bcast_S_S6001 : S_.BroadcastsInDim S6001 (![] : Fin 0 → Fin S6001.rank)
  bcast_S_S6001x3 : S_.BroadcastsInDim S6001x3 (![] : Fin 0 → Fin S6001x3.rank)
  slices_S6001x35x4_S6000x35x4_0_0_0 : S6001x35x4.Slices ![0, 0, 0] S6000x35x4
  slices_S6001x3_S6000x3_0_0 : S6001x3.Slices ![0, 0] S6000x3
  slices_S6001_S6000_0 : S6001.Slices ![0] S6000
  scatter_S214272_S2000000x1_S2000000_n_0_0_1_wf : ScatterDims.WF S214272 S2000000x1 S2000000 [] [0] [0] 1
  gather_S214272_S2000000x1_S2000000_n_0_n_n_0_1_1_wf : GatherDims.WF S214272 S2000000x1 S2000000 [] [0] [] [0] [] 1 ![1]
  gather_S2000000_S2000000x1_S2000000_n_0_n_n_0_1_1_wf : GatherDims.WF S2000000 S2000000x1 S2000000 [] [0] [] [0] [] 1 ![1]
  scatter_S2000000_S2000000x1_S2000000_n_0_0_1_wf : ScatterDims.WF S2000000 S2000000x1 S2000000 [] [0] [0] 1
  scatter_S12001x35x4_S2000000x2_S2000000x4_1_01_01_1_wf : ScatterDims.WF S12001x35x4 S2000000x2 S2000000x4 [1] [0, 1] [0, 1] 1
  scatter_S12001_S2000000x1_S2000000_n_0_0_1_wf : ScatterDims.WF S12001 S2000000x1 S2000000 [] [0] [0] 1
  scatter_S12001x3_S2000000x1_S2000000x3_1_0_0_1_wf : ScatterDims.WF S12001x3 S2000000x1 S2000000x3 [1] [0] [0] 1
  scatter_S53568_S2000000x1_S2000000_n_0_0_1_wf : ScatterDims.WF S53568 S2000000x1 S2000000 [] [0] [0] 1
  gather_S53568_S2000000x1_S2000000_n_0_n_n_0_1_1_wf : GatherDims.WF S53568 S2000000x1 S2000000 [] [0] [] [0] [] 1 ![1]
  scatter_S6001x35x4_S2000000x2_S2000000x4_1_01_01_1_wf : ScatterDims.WF S6001x35x4 S2000000x2 S2000000x4 [1] [0, 1] [0, 1] 1
  scatter_S6001_S2000000x1_S2000000_n_0_0_1_wf : ScatterDims.WF S6001 S2000000x1 S2000000 [] [0] [0] 1
  scatter_S6001x3_S2000000x1_S2000000x3_1_0_0_1_wf : ScatterDims.WF S6001x3 S2000000x1 S2000000x3 [1] [0] [0] 1

variable [Facts₀]

def scatter_S214272_S2000000x1_S2000000_n_0_0_1 : ScatterDims S214272 S2000000x1 S2000000 where
  updateWindowDims := []
  insertedWindowDims := [0]
  scatterDimsToOperandDims := [0]
  indexVectorDim := 1
  wf := scatter_S214272_S2000000x1_S2000000_n_0_0_1_wf
def gather_S214272_S2000000x1_S2000000_n_0_n_n_0_1_1 : GatherDims S214272 S2000000x1 S2000000 where
  offsetDims := []
  collapsedSliceDims := [0]
  operandBatchingDims := []
  startIndicesBatchingDims := []
  startIndexMap := [0]
  indexVectorDim := 1
  sliceSizes := ![1]
  wf := gather_S214272_S2000000x1_S2000000_n_0_n_n_0_1_1_wf
def comparator_i32_i32_d0 : BitVec 32 × BitVec 32 → BitVec 32 × BitVec 32 → BitVec 1 :=
  fun l r =>
    let v2 := IntOp.cmpi .slt l.1 r.1
    v2
def gather_S2000000_S2000000x1_S2000000_n_0_n_n_0_1_1 : GatherDims S2000000 S2000000x1 S2000000 where
  offsetDims := []
  collapsedSliceDims := [0]
  operandBatchingDims := []
  startIndicesBatchingDims := []
  startIndexMap := [0]
  indexVectorDim := 1
  sliceSizes := ![1]
  wf := gather_S2000000_S2000000x1_S2000000_n_0_n_n_0_1_1_wf
def scatter_S2000000_S2000000x1_S2000000_n_0_0_1 : ScatterDims S2000000 S2000000x1 S2000000 where
  updateWindowDims := []
  insertedWindowDims := [0]
  scatterDimsToOperandDims := [0]
  indexVectorDim := 1
  wf := scatter_S2000000_S2000000x1_S2000000_n_0_0_1_wf
def scatter_S12001x35x4_S2000000x2_S2000000x4_1_01_01_1 : ScatterDims S12001x35x4 S2000000x2 S2000000x4 where
  updateWindowDims := [1]
  insertedWindowDims := [0, 1]
  scatterDimsToOperandDims := [0, 1]
  indexVectorDim := 1
  wf := scatter_S12001x35x4_S2000000x2_S2000000x4_1_01_01_1_wf
def scatter_S12001_S2000000x1_S2000000_n_0_0_1 : ScatterDims S12001 S2000000x1 S2000000 where
  updateWindowDims := []
  insertedWindowDims := [0]
  scatterDimsToOperandDims := [0]
  indexVectorDim := 1
  wf := scatter_S12001_S2000000x1_S2000000_n_0_0_1_wf
def scatter_S12001x3_S2000000x1_S2000000x3_1_0_0_1 : ScatterDims S12001x3 S2000000x1 S2000000x3 where
  updateWindowDims := [1]
  insertedWindowDims := [0]
  scatterDimsToOperandDims := [0]
  indexVectorDim := 1
  wf := scatter_S12001x3_S2000000x1_S2000000x3_1_0_0_1_wf
def scatter_S53568_S2000000x1_S2000000_n_0_0_1 : ScatterDims S53568 S2000000x1 S2000000 where
  updateWindowDims := []
  insertedWindowDims := [0]
  scatterDimsToOperandDims := [0]
  indexVectorDim := 1
  wf := scatter_S53568_S2000000x1_S2000000_n_0_0_1_wf
def gather_S53568_S2000000x1_S2000000_n_0_n_n_0_1_1 : GatherDims S53568 S2000000x1 S2000000 where
  offsetDims := []
  collapsedSliceDims := [0]
  operandBatchingDims := []
  startIndicesBatchingDims := []
  startIndexMap := [0]
  indexVectorDim := 1
  sliceSizes := ![1]
  wf := gather_S53568_S2000000x1_S2000000_n_0_n_n_0_1_1_wf
def scatter_S6001x35x4_S2000000x2_S2000000x4_1_01_01_1 : ScatterDims S6001x35x4 S2000000x2 S2000000x4 where
  updateWindowDims := [1]
  insertedWindowDims := [0, 1]
  scatterDimsToOperandDims := [0, 1]
  indexVectorDim := 1
  wf := scatter_S6001x35x4_S2000000x2_S2000000x4_1_01_01_1_wf
def scatter_S6001_S2000000x1_S2000000_n_0_0_1 : ScatterDims S6001 S2000000x1 S2000000 where
  updateWindowDims := []
  insertedWindowDims := [0]
  scatterDimsToOperandDims := [0]
  indexVectorDim := 1
  wf := scatter_S6001_S2000000x1_S2000000_n_0_0_1_wf
def scatter_S6001x3_S2000000x1_S2000000x3_1_0_0_1 : ScatterDims S6001x3 S2000000x1 S2000000x3 where
  updateWindowDims := [1]
  insertedWindowDims := [0]
  scatterDimsToOperandDims := [0]
  indexVectorDim := 1
  wf := scatter_S6001x3_S2000000x1_S2000000x3_1_0_0_1_wf

class Facts : Prop extends Facts₀ where

variable [Facts]
-- ==== Proof.Spec.lean ====
/-
  The voxel arithmetic of one point, as scalar functions: the cell coordinate of a float along one axis, the test that
  three cell coordinates lie in a grid, the linear voxel id, and the id with the grid's size standing for "outside".
  Stated over any float instance; the integer part is 32-bit two's-complement arithmetic.
-/
import Idealize.ShloMosaic.PureOps
import Idealize.ShloMosaic.Lib.ValueIdx

noncomputable section

namespace Cert.Spec

open Idealize.ShloMosaic

variable {F : FTy → Type} [FloatOps F]

/-- The cell coordinate of `x` on an axis of origin `o` and cell width `s` (both given as f32 words):
    `floor ((x - o) / s)` converted to a signed 32-bit word. -/
def cell (o s : BitVec 32) (x : F .f32) : BitVec 32 :=
  FloatOps.fptosi 32 (FloatOps.floor (FloatOps.divf (FloatOps.subf x (Scalar.ofBits .f32 o)) (Scalar.ofBits .f32 s)))

/-- All three cell coordinates lie in the grid `nx × ny × nz`: `0 ≤ cx < nx`, `0 ≤ cy < ny`, `0 ≤ cz < nz`, as one bit. -/
def inGrid (nx ny nz cx cy cz : BitVec 32) : BitVec 1 :=
  IntOp.andi (IntOp.andi (IntOp.andi (IntOp.andi (IntOp.andi (IntOp.cmpi .sge cx 0#32) (IntOp.cmpi .slt cx nx))
    (IntOp.cmpi .sge cy 0#32)) (IntOp.cmpi .slt cy ny)) (IntOp.cmpi .sge cz 0#32)) (IntOp.cmpi .slt cz nz)

/-- The linear voxel id `(cz · ny + cy) · nx + cx`. -/
def lin (nx ny cx cy cz : BitVec 32) : BitVec 32 :=
  IntOp.addi (IntOp.muli (IntOp.addi (IntOp.muli cz ny) cy) nx) cx

/-- The encoded id: the linear id of a point inside the grid, the grid's size `G` for a point outside. -/
def enc (nx ny nz G cx cy cz : BitVec 32) : BitVec 32 :=
  Scalar.select (inGrid nx ny nz cx cy cz) (lin nx ny cx cy cz) G

/-- The dense grid's encoded id of the point `(x, y, z)`: cells of 0.16 × 0.16 × 4 from the origin (0, -39.68, -3), grid 432 × 496 × 1. -/
def encD (x y z : F .f32) : BitVec 32 :=
  enc 432#32 496#32 1#32 214272#32 (cell 0x00000000#32 0x3E23D70A#32 x) (cell 0xC21EB852#32 0x3E23D70A#32 y) (cell 0xC0400000#32 0x40800000#32 z)

/-- The sparse grid's: cells of 0.32 × 0.32 × 4, grid 216 × 248 × 1. -/
def encS (x y z : F .f32) : BitVec 32 :=
  enc 216#32 248#32 1#32 53568#32 (cell 0x00000000#32 0x3EA3D70A#32 x) (cell 0xC21EB852#32 0x3EA3D70A#32 y) (cell 0xC0400000#32 0x40800000#32 z)

end Cert.Spec

end
-- ==== Proof.KData.lean ====
/-
  The proof data of the one pallas_call, for any float instance. The region finds its operand array as the three host
  lines before it leave it (the first three columns of the points, transposed, laid out as 3 × 15625 × 128). At grid
  point `t` the input window's block is rows `1024 t ‥` of that array (the last block cut at row 15625); the body
  turns each column `(r, l)` of its input block into the two encoded voxel ids of that point, dense in row 0 and
  sparse in row 1 of its result block. Past the array's end a staging buffer holds words nothing names; the data
  below fills them with zero, and nothing reads them.
-/
import proofs.«414662_j83537113907662_3_alg».proof.Proof.Spec
import proofs.«414662_j83537113907662_3_alg».proof.Proof.Gen.KernelIdeal.Launch
import proofs.«414662_j83537113907662_3_alg».proof.Proof.Gen.KernelIdeal.Skeleton
import proofs.«414662_j83537113907662_3_alg».proof.Proof.Gen.KernelIdeal.Points
import Idealize.ShloMosaic.Lib.Pipeline.Kit
import Idealize.ShloMosaic.Lib.Pipeline.FrameSuffix
import Idealize.ShloMosaic.Lib.ValueIdx

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

variable (m : (ℓ : Loc nD τ sig) → Buf (Elt F) ℓ)

/-- The core's buffers as the region finds them: the three host lines before the call, run from the launch memory. -/
def V0 (c : Dev nD) : Valuation τ sig (Elt F) :=
  StableHlo.after (hostOps0 (F := F)) (fun b => m (c, b))

/-- The body's result block as a function of its input block, index by index: at `(0, r, l)` the dense encoded id and
    at `(1, r, l)` the sparse encoded id of the point whose coordinates are the input block's `(0, r, l)`, `(1, r, l)`, `(2, r, l)`. -/
def outBlk (X : S3x1024x128.Idx → F .f32) : S2x1024x128.Idx → BitVec 32 := fun j =>
  if (j 0).val = 0 then
    Spec.encD (X (ValueIdx.ix3 (0 : Fin 3) (j 1) (j 2))) (X (ValueIdx.ix3 (1 : Fin 3) (j 1) (j 2))) (X (ValueIdx.ix3 (2 : Fin 3) (j 1) (j 2)))
  else
    Spec.encS (X (ValueIdx.ix3 (0 : Fin 3) (j 1) (j 2))) (X (ValueIdx.ix3 (1 : Fin 3) (j 1) (j 2))) (X (ValueIdx.ix3 (2 : Fin 3) (j 1) (j 2)))

/-- The input window's block at point `t` as the fetch reads it: its part inside the array. -/
def inBlk (c : Dev nD) (t : Fin cfg0.N) : (win0_0.xblock (grid0.coords t)).Idx → Elt F .f32 :=
  (win0_0.blk t).view.read (Elt F) (V0 m c (Proc.devRef .tc main_v2))

/-- The input staging buffer after the body at point `t`: the block, zero past the array's end. -/
def inBlk8 (c : Dev nD) (t : Fin cfg0.N) : S3x1024x128.Idx → Elt F .f32 :=
  win0_0.fill (grid0.coords t) (fun _ => Scalar.ofBits .f32 0#32) (inBlk m c t)

/-- The proof data of the pipeline on device `c`'s TensorCore: the arrays at their region-entry contents; after the
    body the input staging buffer still at its block and the result's at the body's function of it; the class
    invariant; nothing owed; full shares. -/
def dats (_ : Fin 1) (c : Dev nD) : Dat τ (Elt F) Unit ℕ (UR sig nD τ) ℕ cfg0 c where
  A w := V0 m c (Proc.devRef .tc (Pipeline.arrRef spec0 w))
  after w t := match w with
    | ⟨0, _⟩ => inBlk8 m c t
    | ⟨1, _⟩ => outBlk (inBlk8 m c t)
  Φ _ := Pipeline.ΦA spec0 c
  q _ := fullShare
  owed _ := 0

/-- The kernel's variants: none. -/
abbrev 𝒱₀ : Variants := Variants.none

end Cert.KernelIdeal.Body

end
-- ==== Proof.KTailBase.lean ====
/-
  What it takes for a host operation to leave three buffers alone — the program's argument and the two arrays the
  pipeline stages (its operand `main_v2`, its result `main_v3`) —, and how a property stated stretch by stretch is
  read at every operation of every stretch. For any float instance.
-/
import proofs.«414662_j83537113907662_3_alg».proof.Proof.KData

noncomputable section

namespace Cert.KernelIdeal.Body

open Cert.KernelIdeal Cert.KernelIdeal.Gen

open Idealize.ShloMosaic
open Idealize.ShloMosaic.TcCoe

variable {F : FTy → Type} [FloatOps F]

/-- A property of every operation of every stretch, from its statement stretch by stretch. -/
theorem forall_mem_of_forall {α : Type} {P : α → Prop} {L : List (List α)} (h : L.Forall fun l => l.Forall P) :
    ∀ l ∈ L, ∀ a ∈ l, P a :=
  fun l hl a ha => List.forall_iff_forall_mem.mp (List.forall_iff_forall_mem.mp h l hl) a ha

/-- An operation writes none of: the argument, the pipeline's operand array, the pipeline's result array. -/
structure Keeps (op : HloOp τ sig (Elt F)) : Prop where
  arg0 : Proc.devRef (τ := τ) .tc main_arg0 ∉ op.writes
  v2 : Proc.devRef (τ := τ) .tc main_v2 ∉ op.writes
  v3 : Proc.devRef (τ := τ) .tc main_v3 ∉ op.writes

/-- An operation whose one written buffer `y` is none of the three keeps them. -/
theorem keeps_of {op : HloOp τ sig (Elt F)} {y : Ref sig .tc} (h : op.writes = {Proc.devRef .tc y})
    (hy : main_arg0 ≠ y ∧ main_v2 ≠ y ∧ main_v3 ≠ y) : Keeps op :=
  ⟨by rw [h, Finset.mem_singleton]; exact StableHlo.devRef_ne_of_ne hy.1,
   by rw [h, Finset.mem_singleton]; exact StableHlo.devRef_ne_of_ne hy.2.1,
   by rw [h, Finset.mem_singleton]; exact StableHlo.devRef_ne_of_ne hy.2.2⟩

/-- Operation by operation down a stretch: each writes its own result, a reference told apart from the three by
    comparing references. -/
macro "keeps_stretch" : tactic =>
  `(tactic| (simp only [List.Forall]
             repeat (first | exact keeps_of rfl (by decide) | refine And.intro (keeps_of rfl (by decide)) ?_)))

/-- Operation by operation down a stretch: none allocates. -/
macro "fresh_stretch" : tactic =>
  `(tactic| (simp only [List.Forall]; repeat' constructor))

end Cert.KernelIdeal.Body

end
-- ==== Proof.KTail.lean ====
/-
  The host lines after the region, for any float instance: the side conditions the frame run asks of the stretches of
  @main that follow the pallas_call (their table, stretch by stretch, is the module imported here). Each operation
  of a stretch touches unscoped TensorCore references only, allocates nothing, and writes one buffer, its own
  result, which is neither the program's argument nor one of the two arrays the pipeline stages. So the stretches run
  within the buffers a line after the region may touch, keep the pipeline's arrays, and leave the argument as they
  find it.
-/
import proofs.«414662_j83537113907662_3_alg».proof.Proof.KTailTab

noncomputable section

namespace Cert.KernelIdeal.Body

open Cert.KernelIdeal Cert.KernelIdeal.Gen

open Idealize.ShloMosaic
open Idealize.ShloMosaic.TcCoe

variable {F : FTy → Type} [FloatOps F]

/-- With nothing prefetched, the buffers a line after the region may touch are all the unscoped TensorCore references,
    and an operation over TensorCore references touches only unscoped ones. -/
theorem tail_sub : ∀ ops ∈ (tailStretches (F := F)), ∀ op ∈ ops, op.bufs ⊆ Pipeline.tailRefs sig Pipeline.Prefetch.none spec0 := by
  rw [Pipeline.tailRefs_none spec0 launch0.win.arr_unscoped]
  exact fun ops hops op hop => Pipeline.sub_ucRefs op (forall_mem_of_forall tail_tc ops hops op hop)

/-- No operation of a stretch allocates a buffer. -/
theorem tail_fresh : ∀ ops ∈ (tailStretches (F := F)), ∀ op ∈ ops, op.fresh = ∅ :=
  forall_mem_of_forall tail_fresh_tab

/-- Every operation of every stretch keeps the argument and the pipeline's two arrays. -/
theorem tail_keeps : ∀ ops ∈ (tailStretches (F := F)), ∀ op ∈ ops, Keeps op :=
  forall_mem_of_forall tail_keeps_tab

/-- No later line writes an array of the pipeline: window 0's is `main_v2`, window 1's is `main_v3`. -/
theorem tail_keep : ∀ ops ∈ (tailStretches (F := F)), ∀ op ∈ ops, ∀ w, Proc.devRef .tc (Pipeline.arrRef spec0 w) ∉ op.writes :=
  fun ops hops op hop w => match w with
    | ⟨0, _⟩ => (tail_keeps ops hops op hop).v2
    | ⟨1, _⟩ => (tail_keeps ops hops op hop).v3

/-- No later line writes the argument: after them all it holds what it held. -/
theorem tail_arg0 (V : Valuation τ sig (Elt F)) :
    StableHlo.after (tailStretches (F := F)).flatten V (Proc.devRef .tc main_arg0) = V (Proc.devRef .tc main_arg0) :=
  StableHlo.after_of_forall_not_mem _ V fun op hop => by
    obtain ⟨ops, hops, hop'⟩ := List.mem_flatten.mp hop
    exact (tail_keeps ops hops op hop').arg0

end Cert.KernelIdeal.Body

end
-- ==== Proof.KBody.lean ====
/-
  The kernel body's obligation at every grid point, for any float instance: the payloads of the body's two row stores
  read at an index (the voxel arithmetic of one point, `Spec.encD` and `Spec.encS`); what the two stores leave in the
  result's staging buffer (`outBlk` of the input block, the two rows tiling the block); the body's run at each pair of
  staging buffers; what the body finds in the buffers at a point; and the obligation, both windows stated on the part
  their transfers move — there the result does not depend on what lies past the array's end in the input buffer.
-/
import proofs.«414662_j83537113907662_3_alg».proof.Proof.KData
import Idealize.ShloMosaic.Lib.Tactic
import Idealize.ShloMosaic.Lib.ValueLayout

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Idealize.ShloMosaic.ValueIdx

variable {F : FTy → Type} [FloatOps F]

variable (m : (ℓ : Loc nD τ sig) → Buf (Elt F) ℓ)

local notation "𝕄" => MT nD τ sig Unit (Elt F) ℕ (UR sig nD τ) ℕ

/-! ## The payloads at an index -/

/-- The first input row of the block, as a 1024 × 128 matrix, read at an index. -/
theorem pay4_apply (X : S3x1024x128.Idx → F .f32) (r : Fin 1024) (l : Fin 128) :
    k0_pay4 (F := F) X (ix2 r l) = X (ix3 (0 : Fin 3) r l) := by
  unfold k0_pay4 k0_pay3
  rw [shapeCast_1ab_ab_apply]
  rw [extractStridedSlice_apply ![0, 0, 0] _ _ _ (ix3 (0 : Fin 3) r l) (fun a => by fin_cases a <;> first | rfl | exact (Nat.zero_add _).symm)]
  rw [shapeCast_self]

/-- The second input row likewise. -/
theorem pay5_apply (X : S3x1024x128.Idx → F .f32) (r : Fin 1024) (l : Fin 128) :
    k0_pay5 (F := F) X (ix2 r l) = X (ix3 (1 : Fin 3) r l) := by
  unfold k0_pay5 k0_pay3
  rw [shapeCast_1ab_ab_apply]
  rw [extractStridedSlice_apply ![1, 0, 0] _ _ _ (ix3 (1 : Fin 3) r l) (fun a => by fin_cases a <;> first | rfl | exact (Nat.zero_add _).symm)]
  rw [shapeCast_self]

/-- The third input row likewise. -/
theorem pay6_apply (X : S3x1024x128.Idx → F .f32) (r : Fin 1024) (l : Fin 128) :
    k0_pay6 (F := F) X (ix2 r l) = X (ix3 (2 : Fin 3) r l) := by
  unfold k0_pay6 k0_pay3
  rw [shapeCast_1ab_ab_apply]
  rw [extractStridedSlice_apply ![2, 0, 0] _ _ _ (ix3 (2 : Fin 3) r l) (fun a => by fin_cases a <;> first | rfl | exact (Nat.zero_add _).symm)]
  rw [shapeCast_self]

/-- The dense row's payload at an index is the dense encoded id of the column's three coordinates. -/
theorem dense_apply (X : S3x1024x128.Idx → F .f32) (u : Fin 1) (r : Fin 1024) (l : Fin 128) :
    k0_pay1 (k0_pay11 (k0_pay7 (F := F) X) (k0_pay8 (F := F) X) (k0_pay9 (F := F) X) (k0_pay10 (F := F) X) 496#32) (ix3 u r l)
      = Spec.encD (X (ix3 (0 : Fin 3) r l)) (X (ix3 (1 : Fin 3) r l)) (X (ix3 (2 : Fin 3) r l)) := by
  unfold k0_pay1
  rw [shapeCast_ab_1ab_apply, ← pay4_apply X r l, ← pay5_apply X r l, ← pay6_apply X r l]
  rfl

/-- The sparse row's payload at an index is the sparse encoded id of the column's three coordinates. -/
theorem sparse_apply (X : S3x1024x128.Idx → F .f32) (u : Fin 1) (r : Fin 1024) (l : Fin 128) :
    k0_pay2 (k0_pay12 (k0_pay4 (F := F) X)) (k0_pay13 (k0_pay5 (F := F) X)) (k0_pay15 (k0_pay4 (F := F) X) (k0_pay5 (F := F) X) (k0_pay6 (F := F) X)) (k0_pay16 (k0_pay6 (F := F) X)) (ix3 u r l)
      = Spec.encS (X (ix3 (0 : Fin 3) r l)) (X (ix3 (1 : Fin 3) r l)) (X (ix3 (2 : Fin 3) r l)) := by
  unfold k0_pay2
  rw [shapeCast_ab_1ab_apply, ← pay4_apply X r l, ← pay5_apply X r l, ← pay6_apply X r l]
  rfl

/-! ## What the two row stores leave -/

/-- An index of row 0 of the result block, through the rectangle the first store writes. -/
theorem emb_row0 (inb) (u : Fin 1) (r : Fin 1024) (l : Fin 128) :
    (Rect.unit (s := S2x1024x128) ![0, 0, 0] S1x1024x128.size inb).emb (ix3 u r l) = ix3 (0 : Fin 2) r l := by
  funext a; apply Fin.ext; rw [Rect.emb_apply]
  have hu : u.val = 0 := by omega
  fin_cases a
  · show 0 + 1 * u.val = 0; omega
  · show 0 + 1 * r.val = r.val; omega
  · show 0 + 1 * l.val = l.val; omega

/-- An index of row 1, through the rectangle the second store writes. -/
theorem emb_row1 (inb) (u : Fin 1) (r : Fin 1024) (l : Fin 128) :
    (Rect.unit (s := S2x1024x128) ![1, 0, 0] S1x1024x128.size inb).emb (ix3 u r l) = ix3 (1 : Fin 2) r l := by
  funext a; apply Fin.ext; rw [Rect.emb_apply]
  have hu : u.val = 0 := by omega
  fin_cases a
  · show 1 + 1 * u.val = 1; omega
  · show 0 + 1 * r.val = r.val; omega
  · show 0 + 1 * l.val = l.val; omega

/-- The first store's payload is `outBlk`'s row 0, index by index. -/
theorem piece_row0 (X : S3x1024x128.Idx → F .f32) (inb) (x : S1x1024x128.Idx) :
    k0_pay1 (k0_pay11 (k0_pay7 (F := F) X) (k0_pay8 (F := F) X) (k0_pay9 (F := F) X) (k0_pay10 (F := F) X) 496#32) x
      = outBlk X ((Rect.unit (s := S2x1024x128) ![0, 0, 0] S1x1024x128.size inb).emb x) := by
  obtain ⟨u, r, l, rfl⟩ : ∃ (u : Fin 1) (r : Fin 1024) (l : Fin 128), x = ix3 u r l := ⟨x 0, x 1, x 2, eq_ix3 x⟩
  rw [emb_row0, dense_apply]; rfl

/-- The second store's payload is `outBlk`'s row 1, index by index. -/
theorem piece_row1 (X : S3x1024x128.Idx → F .f32) (inb) (x : S1x1024x128.Idx) :
    k0_pay2 (k0_pay12 (k0_pay4 (F := F) X)) (k0_pay13 (k0_pay5 (F := F) X))
        (k0_pay15 (k0_pay4 (F := F) X) (k0_pay5 (F := F) X) (k0_pay6 (F := F) X)) (k0_pay16 (k0_pay6 (F := F) X)) x
      = outBlk X ((Rect.unit (s := S2x1024x128) ![1, 0, 0] S1x1024x128.size inb).emb x) := by
  obtain ⟨u, r, l, rfl⟩ : ∃ (u : Fin 1) (r : Fin 1024) (l : Fin 128), x = ix3 u r l := ⟨x 0, x 1, x 2, eq_ix3 x⟩
  rw [emb_row1, sparse_apply]; rfl

/-- The result buffer after the body's two row stores, read through any view of the block's shape: the function
    `outBlk` of the input block, whatever the buffer held before (the two rows tile the block). -/
theorem stored_read {κ : Kind} {sp : Space} (v : View sig κ sp S2x1024x128 .i32) (f : v.ty.Contents (Elt F))
    (X : S3x1024x128.Idx → F .f32) :
    v.read (Elt F) (v.writes (Elt F) f
      [⟨Rect.unit (s := S2x1024x128) ![1, 0, 0] S1x1024x128.size inb_S2x1024x128_S1x1024x128_1_0_0,
          k0_pay2 (k0_pay12 (k0_pay4 (F := F) X)) (k0_pay13 (k0_pay5 (F := F) X))
            (k0_pay15 (k0_pay4 (F := F) X) (k0_pay5 (F := F) X) (k0_pay6 (F := F) X)) (k0_pay16 (k0_pay6 (F := F) X))⟩,
        ⟨Rect.unit (s := S2x1024x128) ![0, 0, 0] S1x1024x128.size inb_S2x1024x128_S1x1024x128_0_0_0,
          k0_pay1 (k0_pay11 (k0_pay7 (F := F) X) (k0_pay8 (F := F) X) (k0_pay9 (F := F) X) (k0_pay10 (F := F) X) 496#32)⟩])
      = outBlk X := by
  funext y
  refine View.read_writes_apply_of_pieces v f (outBlk X) _ ?_ y ?_
  · intro p hp x
    simp only [List.mem_cons, List.not_mem_nil, or_false] at hp
    rcases hp with rfl | rfl
    · exact piece_row1 X inb_S2x1024x128_S1x1024x128_1_0_0 x
    · exact piece_row0 X inb_S2x1024x128_S1x1024x128_0_0_0 x
  · have h0 : (y 0).val < 2 := (y 0).isLt
    have h1 : (y 1).val < 1024 := (y 1).isLt
    have h2 : (y 2).val < 128 := (y 2).isLt
    by_cases hy : (y 0).val = 0
    · refine ⟨_, List.mem_cons_of_mem _ List.mem_cons_self, ?_⟩
      refine (Rect.mem_set_unit (inb := inb_S2x1024x128_S1x1024x128_0_0_0)).mpr fun a => ?_
      fin_cases a
      · show 0 ≤ (y 0).val ∧ (y 0).val < 0 + 1; omega
      · show 0 ≤ (y 1).val ∧ (y 1).val < 0 + 1024; omega
      · show 0 ≤ (y 2).val ∧ (y 2).val < 0 + 128; omega
    · refine ⟨_, List.mem_cons_self, ?_⟩
      refine (Rect.mem_set_unit (inb := inb_S2x1024x128_S1x1024x128_1_0_0)).mpr fun a => ?_
      fin_cases a
      · show 1 ≤ (y 0).val ∧ (y 0).val < 1 + 1; omega
      · show 0 ≤ (y 1).val ∧ (y 1).val < 0 + 1024; omega
      · show 0 ≤ (y 2).val ∧ (y 2).val < 0 + 128; omega

/-! ## The kernel body's run -/

theorem offs_zero : (![0, 0, 0] : Fin 3 → Nat) = fun _ => 0 := funext fun a => by fin_cases a <;> rfl

/-- The body's one load of its input is of the whole staging buffer, whichever of the window's two it is. -/
theorem readIn_0 (f : cc0_stg0_0.ty.Contents (Elt F)) :
    (Memref.whole cc0_stg0_0 : Memref sig .tc _ _ _).view.readAt (Elt F)
      (Rect.unit (s := S3x1024x128) ![0, 0, 0] S3x1024x128.size inb_S3x1024x128_S3x1024x128_0_0_0).toLoadRect f = f :=
  Memref.readAt_unit_zero (Elt F) cc0_stg0_0 offs_zero _ f
theorem readIn_1 (f : cc0_stg0_1.ty.Contents (Elt F)) :
    (Memref.whole cc0_stg0_1 : Memref sig .tc _ _ _).view.readAt (Elt F)
      (Rect.unit (s := S3x1024x128) ![0, 0, 0] S3x1024x128.size inb_S3x1024x128_S3x1024x128_0_0_0).toLoadRect f = f :=
  Memref.readAt_unit_zero (Elt F) cc0_stg0_1 offs_zero _ f

/-- What the two row stores leave in the result's staging buffer, whichever of the window's two it is. -/
theorem stored_0 (f : cc0_stg1_0.ty.Contents (Elt F)) (X : S3x1024x128.Idx → F .f32) :
    (Memref.whole cc0_stg1_0 : Memref sig .tc _ _ _).view.writes (Elt F) f
      [⟨Rect.unit (s := S2x1024x128) ![1, 0, 0] S1x1024x128.size inb_S2x1024x128_S1x1024x128_1_0_0,
          k0_pay2 (k0_pay12 (k0_pay4 (F := F) X)) (k0_pay13 (k0_pay5 (F := F) X))
            (k0_pay15 (k0_pay4 (F := F) X) (k0_pay5 (F := F) X) (k0_pay6 (F := F) X)) (k0_pay16 (k0_pay6 (F := F) X))⟩,
        ⟨Rect.unit (s := S2x1024x128) ![0, 0, 0] S1x1024x128.size inb_S2x1024x128_S1x1024x128_0_0_0,
          k0_pay1 (k0_pay11 (k0_pay7 (F := F) X) (k0_pay8 (F := F) X) (k0_pay9 (F := F) X) (k0_pay10 (F := F) X) 496#32)⟩]
      = outBlk X := by
  have h := stored_read (Memref.whole cc0_stg1_0 : Memref sig .tc _ _ _).view f X
  simpa only [Memref.view_whole, View.read_whole] using h
theorem stored_1 (f : cc0_stg1_1.ty.Contents (Elt F)) (X : S3x1024x128.Idx → F .f32) :
    (Memref.whole cc0_stg1_1 : Memref sig .tc _ _ _).view.writes (Elt F) f
      [⟨Rect.unit (s := S2x1024x128) ![1, 0, 0] S1x1024x128.size inb_S2x1024x128_S1x1024x128_1_0_0,
          k0_pay2 (k0_pay12 (k0_pay4 (F := F) X)) (k0_pay13 (k0_pay5 (F := F) X))
            (k0_pay15 (k0_pay4 (F := F) X) (k0_pay5 (F := F) X) (k0_pay6 (F := F) X)) (k0_pay16 (k0_pay6 (F := F) X))⟩,
        ⟨Rect.unit (s := S2x1024x128) ![0, 0, 0] S1x1024x128.size inb_S2x1024x128_S1x1024x128_0_0_0,
          k0_pay1 (k0_pay11 (k0_pay7 (F := F) X) (k0_pay8 (F := F) X) (k0_pay9 (F := F) X) (k0_pay10 (F := F) X) 496#32)⟩]
      = outBlk X := by
  have h := stored_read (Memref.whole cc0_stg1_1 : Memref sig .tc _ _ _).view f X
  simpa only [Memref.view_whole, View.read_whole] using h

/-- The kernel body on staging buffers `s0` of the input window and `s1` of the result's: one whole load of the input
    block, the voxel arithmetic, and the two row stores (each after a dead load of its row) — the input buffer is left
    as it was and the result's ends holding `outBlk` of the input block, whatever it held before. -/
theorem sound_body (c : Dev nD) (E : Set ℕ) (i : grid0.Coords) (s0 s1 : Fin 2)
    (X0 : S3x1024x128.Idx → Elt F .f32) (X1 : S2x1024x128.Idx → Elt F .i32) (K : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0 ∗ owns (c : Thread nD τ) (stage0_1 s1) fullShare (outBlk X0)) -∗ K ⟨⟩))
      ⊢ wp frame (wpE (defs₀ (F := F)) 𝒱₀ c none) E
          (cc0__meta_kernel i (stage0_0 s0) (hstage0_0 s0) (stage0_1 s1) (hstage0_1 s1)) K := by
  -- each window has two staging buffers; at each pair the run is the same: the load reads the input buffer's contents,
  -- the stores leave the result's at `outBlk` of them (`stored_0`, `stored_1`)
  fin_cases s0 <;> fin_cases s1 <;> (
    simp only [owns_whole_eq, cc0__meta_kernel_eq_skeleton]; unfold cc0__meta_kernel_skel
    simp only [k0_part1_eq_skeleton, k0_part2_eq_skeleton]
    unfold k0_part1_skel k0_part2_skel
    simp only [Prog.lift, Prog.bind_op, Prog.bind_ret, Prog.pure_eq_ret]
    iintro ⟨⟨⟨%f0, %hf0, H0⟩, ⟨%f1, %hf1, H1⟩⟩, Hk⟩
    sl_steps
    iapply Hk
    first
      | rw [readIn_0, stored_0]
      | rw [readIn_0, stored_1]
      | rw [readIn_1, stored_0]
      | rw [readIn_1, stored_1]
    isplitl [H0]
    · iexists f0; isplitr; · ipureintro; exact hf0
      iexact H0
    · iexists outBlk f0; isplitr; · ipureintro; rw [hf0]
      iexact H1)

/-! ## What the body finds in the staging buffers -/

/-- The input window is fetched at every point: its buffer holds the block on the rows inside the array, `d` elsewhere. -/
theorem before_0 (c : Dev nD) (t : Fin cfg0.N) (d) :
    (dats m 0 c).before (0 : Fin 2) t d = win0_0.fill (grid0.coords t) d (inBlk m c t) := by
  unfold Dat.before; rw [if_pos (fetch0_0 t)]; rfl

/-- The result window is written back at every point and never fetched: its buffer holds contents nothing names. -/
theorem before_1 (c : Dev nD) (t : Fin cfg0.N) (d) : (dats m 0 c).before (1 : Fin 2) t d = d := by
  refine (dats m 0 c).before_out_reset (1 : Fin 2) rfl t ?_ d
  by_cases h0 : t.val = 0
  · exact .inl h0
  · exact .inr ⟨h0, flush0_1 _⟩

/-! ## The cut of the result block reads only rows the fetch filled -/

/-- `outBlk` at `(k, r, l)` reads its argument at `(0, r, l)`, `(1, r, l)`, `(2, r, l)` only. -/
theorem outBlk_congr (X Y : S3x1024x128.Idx → F .f32) (k : Fin 2) (r : Fin 1024) (l : Fin 128)
    (h : ∀ a : Fin 3, X (ix3 a r l) = Y (ix3 a r l)) : outBlk X (ix3 k r l) = outBlk Y (ix3 k r l) := by
  show (if (k : Nat) = 0 then Spec.encD (X (ix3 (0 : Fin 3) r l)) (X (ix3 (1 : Fin 3) r l)) (X (ix3 (2 : Fin 3) r l))
      else Spec.encS (X (ix3 (0 : Fin 3) r l)) (X (ix3 (1 : Fin 3) r l)) (X (ix3 (2 : Fin 3) r l)))
    = (if (k : Nat) = 0 then Spec.encD (Y (ix3 (0 : Fin 3) r l)) (Y (ix3 (1 : Fin 3) r l)) (Y (ix3 (2 : Fin 3) r l))
      else Spec.encS (Y (ix3 (0 : Fin 3) r l)) (Y (ix3 (1 : Fin 3) r l)) (Y (ix3 (2 : Fin 3) r l)))
  rw [h 0, h 1, h 2]

/-- At every point the input window's transfer moves all three rows of coordinates, and on the other two axes the two
    windows' transfers are cut alike. -/
theorem xsize_agree : ∀ t : Fin cfg0.N, win0_0.xsize (grid0.coords t) 0 = 3
    ∧ win0_0.xsize (grid0.coords t) 1 = win0_1.xsize (grid0.coords t) 1
    ∧ win0_0.xsize (grid0.coords t) 2 = win0_1.xsize (grid0.coords t) 2 :=
  (by decide +kernel : ∀ t : Fin grid0.N, win0_0.xsize (grid0.coords t) 0 = 3
    ∧ win0_0.xsize (grid0.coords t) 1 = win0_1.xsize (grid0.coords t) 1
    ∧ win0_0.xsize (grid0.coords t) 2 = win0_1.xsize (grid0.coords t) 2)

/-- So the part of the result block the write-back moves does not depend on what filled the input buffer past the
    array's end. -/
theorem cut_outBlk_fill (t : Fin cfg0.N) (d d' : S3x1024x128.Idx → F .f32)
    (g : (win0_0.xblock (grid0.coords t)).Idx → F .f32) :
    win0_1.cut (grid0.coords t) (outBlk (win0_0.fill (grid0.coords t) d g))
      = win0_1.cut (grid0.coords t) (outBlk (win0_0.fill (grid0.coords t) d' g)) := by
  funext j
  obtain ⟨h0, h1, h2⟩ := xsize_agree t
  have hj1 : ((j (1 : Fin 3)) : Nat) < win0_1.xsize (grid0.coords t) 1 := (j (1 : Fin 3)).isLt
  have hj2 : ((j (2 : Fin 3)) : Nat) < win0_1.xsize (grid0.coords t) 2 := (j (2 : Fin 3)).isLt
  show outBlk (win0_0.fill (grid0.coords t) d g) (win0_1.xinj (grid0.coords t) j)
    = outBlk (win0_0.fill (grid0.coords t) d' g) (win0_1.xinj (grid0.coords t) j)
  have hJ1 : ((win0_1.xinj (grid0.coords t) j 1 : Fin 1024) : Nat) = (j (1 : Fin 3) : Nat) := rfl
  have hJ2 : ((win0_1.xinj (grid0.coords t) j 2 : Fin 128) : Nat) = (j (2 : Fin 3) : Nat) := rfl
  generalize win0_1.xinj (grid0.coords t) j = J at hJ1 hJ2 ⊢
  rw [eq_ix3 J]
  refine outBlk_congr _ _ _ _ _ fun a => ?_
  have hm : win0_0.moved (grid0.coords t) (ix3 a (J 1) (J 2)) = true := (win0_0.moved_iff _ _).mpr fun b => by
    fin_cases b
    · show (a : Nat) < win0_0.xsize (grid0.coords t) 0
      rw [h0]; exact a.isLt
    · show ((J 1 : Fin 1024) : Nat) < win0_0.xsize (grid0.coords t) 1
      rw [h1, hJ1]; exact hj1
    · show ((J 2 : Fin 128) : Nat) < win0_0.xsize (grid0.coords t) 2
      rw [h2, hJ2]; exact hj2
  unfold Window.fill; rw [dif_pos hm, dif_pos hm]

/-! ## The obligation -/

theorem body_obligation (c : Dev nD) : BodyObligationLoose (dats m 0 c) (defs₀ (F := F)) 𝒱₀ () Set.univ := fun t => by
  rw [bigSep_W0, bigSep_W0]
  -- no point is idle and both windows are loose: each buffer is handed back stated on the part its transfers move;
  -- the invariant and what is owed are the same at both positions
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before_0 m c t d0, before_1 m c t d1]
  iapply (sound_body (F := F) c Set.univ (grid0.coords t) (cfg0.slots t 0) (cfg0.slots t 1)
    (win0_0.fill (grid0.coords t) d0 (inBlk m c t)) d1 _)
  isplitl [H0 H1]
  · isplitl [H0]
    · iexact H0
    · iexact H1
  iintro ⟨H0, H1⟩
  isplitl [HΦ]; · iexact HΦ
  isplitl [Ho]; · iexact Ho
  -- the input buffer is as it came: the block filled out with `d0`; the result's holds `outBlk` of that, which on the
  -- part the write-back moves is `outBlk` of the block filled out with zeros
  have hx : win0_0.cut (grid0.coords t) (inBlk8 m c t) = inBlk m c t := win0_0.cut_fill _ _ _
  have hy : win0_1.cut (grid0.coords t) (outBlk (inBlk8 m c t))
      = win0_1.cut (grid0.coords t) (outBlk (win0_0.fill (grid0.coords t) d0 (inBlk m c t))) :=
    cut_outBlk_fill t _ _ _
  isplitl [H0]
  · iexists d0
    change _ ⊢ owns (c : Thread nD τ) (stage0_0 (cfg0.slots t 0)) fullShare
      (win0_0.fill (grid0.coords t) d0 (win0_0.cut (grid0.coords t) (inBlk8 m c t)))
    rw [hx]; try iexact H0
  · iexists outBlk (win0_0.fill (grid0.coords t) d0 (inBlk m c t))
    change _ ⊢ owns (Val := Elt F) (c : Thread nD τ) (stage0_1 (cfg0.slots t 1)) fullShare
      (win0_1.fill (grid0.coords t) (outBlk (win0_0.fill (grid0.coords t) d0 (inBlk m c t)))
        (win0_1.cut (grid0.coords t) (outBlk (inBlk8 m c t) : S2x1024x128.Idx → Elt F .i32)))
    rw [hy, Window.fill_cut]; try iexact H1

end Cert.KernelIdeal.Body

end
-- ==== Proof.KRun.lean ====
/-
  The frame run of the idealized kernel's @main, for any float instance, and the frame claim. @main is three host
  lines, one pallas_call, and 73 stretches of host lines. The library's frame run around a region takes the proof
  data of the call, the body's obligation at every grid point, and the side conditions of the later stretches, and
  concludes: the pipeline's arrays end at what the proof data compute, every buffer that bypasses the region ends as
  the later stretches compute it from the region's exit contents. Read at the argument, which no line writes, that is
  the frame claim.
-/
import proofs.«414662_j83537113907662_3_alg».proof.Proof.KTail
import proofs.«414662_j83537113907662_3_alg».proof.Proof.KBody
import proofs.«414662_j83537113907662_3_alg».proof.Defs
import proofs.«414662_j83537113907662_3_alg».proof.Proof.Gen.Pre_finite_inputs

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

variable (m : (ℓ : Loc nD τ sig) → Buf (Elt F) ℓ)

/-! ## @main around the region -/

/-- The three lines before the region allocate nothing. -/
theorem hostOps0_fresh : (hostOps0 (F := F)).Forall fun op => op.fresh = ∅ := by fresh_stretch

/-- @main is the three lines before the region, the region, and the stretches after it: holding the boundary and
    the unscoped buffers at the launch contents, it reduces to the region, entered at the contents the three lines
    leave, continued by the later stretches. -/
theorem hmain : Pipeline.HMainK (Ix := Unit) (Name := ℕ) (U := UR sig nD τ) (Lvl := ℕ) cfgs 0 defs₀ 𝒱₀ m (main (F := F))
      (fun c b => V0 m c (Proc.devRef .tc b)) (fun _ => Pipeline.chain ((tailStretches (F := F)).map StableHlo.seq)) :=
  Pipeline.hmain_around cfgs 0 defs₀ 𝒱₀ m main [hostOps0] tailStretches hostOps0_sub hostOps0_fresh main_chain

/-! ## The frame run -/

/-- The core's buffers as the region leaves them: the pipeline's two arrays at what the proof data compute after the
    last write-back, every other buffer at its region-entry contents. -/
def WK (c : Dev nD) : Valuation τ sig (Elt F) :=
  Pipeline.withArrays spec0 c (V0 m c) (fun w => (dats m 0 c).arrAt w cfg0.N)

-- the launch theorem's implicit arguments are found by unifying its conclusion with this one, which takes unfolding
-- plain definitions in a metavariable's type
set_option backward.isDefEq.respectTransparency.types false in
/-- At the compiled mesh, for any float values, from any memory with zero counters: every weakly fair execution of
    @main on the TensorCores terminates, and every final state has the pipeline's arrays at what the proof data
    compute and every other unscoped buffer as the later stretches leave it from the region's exit. -/
theorem run_frame (ρ : Dev nD → PrngReg) :
    θ_run (defs (F := F)) (onTc (τ := τ) (main (F := F))) (s₀ m ρ)
      (Pipeline.FramePost cfgs (dats m) 0 (Pipeline.afterTail₀ cfgs (dats m) 0 (V0 m) (tailStretches (F := F)))) :=
  Pipeline.θ_run_frame_around cfgs (dats m) (0 : Fin 1) launch0 defs₀ 𝒱₀ m ρ main
    (hbody := fun c => body_obligation m c) (hshare := fun c => (dats m 0 c).share_full fun _ => rfl)
    (howed := fun _ _ => rfl) (V₀ := V0 m) (opss := tailStretches) (hsub := tail_sub) (hfresh := tail_fresh)
    (hkeep := tail_keep) (hmain := hmain m) (hA := fun _ _ => rfl) (hΦ := fun _ _ => rfl)

/-- The run read at the buffers that bypass the region: each ends as the later stretches compute it from the
    region's exit contents. -/
theorem run_main (ρ : Dev nD → PrngReg) :
    θ_run (defs (F := F)) (onTc (τ := τ) (main (F := F))) ⟨m, fun _ => 0, ρ⟩
      (fun r => ∀ c : Dev nD, ∀ b ∈ Pipeline.restRefs sig spec0,
        r.2.mem ((c.tc : Thread nD τ).loc b)
          = StableHlo.after (tailStretches (F := F)).flatten (WK m c) (Proc.devRef .tc b)) :=
  (θ_run defs _ _).mono (fun _ h c b hb => (h c).2 b hb) (run_frame m ρ)

/-! ## The buffers that bypass the region -/

/-- The argument and the eight results are unscoped and are no array of the pipeline. -/
theorem arg0_mem : main_arg0 ∈ Pipeline.restRefs sig spec0 := Pipeline.mem_restRefs_of _ rfl (by decide)
theorem v153_mem : main_v153 ∈ Pipeline.restRefs sig spec0 := Pipeline.mem_restRefs_of _ rfl (by decide)
theorem v155_mem : main_v155 ∈ Pipeline.restRefs sig spec0 := Pipeline.mem_restRefs_of _ rfl (by decide)
theorem v156_mem : main_v156 ∈ Pipeline.restRefs sig spec0 := Pipeline.mem_restRefs_of _ rfl (by decide)
theorem v152_mem : main_v152 ∈ Pipeline.restRefs sig spec0 := Pipeline.mem_restRefs_of _ rfl (by decide)
theorem v275_mem : main_v275 ∈ Pipeline.restRefs sig spec0 := Pipeline.mem_restRefs_of _ rfl (by decide)
theorem v277_mem : main_v277 ∈ Pipeline.restRefs sig spec0 := Pipeline.mem_restRefs_of _ rfl (by decide)
theorem v278_mem : main_v278 ∈ Pipeline.restRefs sig spec0 := Pipeline.mem_restRefs_of _ rfl (by decide)
theorem v274_mem : main_v274 ∈ Pipeline.restRefs sig spec0 := Pipeline.mem_restRefs_of _ rfl (by decide)

/-! ## The argument -/

/-- The three lines before the region write their own results, none of them the argument. -/
theorem V0_arg0 (c : Dev nD) : V0 m c (Proc.devRef .tc main_arg0) = m ((c.tc : Thread nD τ).loc main_arg0) := by
  have h : (hostOps0 (F := F)).Forall fun op => Proc.devRef (τ := τ) .tc main_arg0 ∉ op.writes := by
    simp only [List.Forall]
    refine ⟨?_, ?_, ?_⟩ <;>
      simp only [StableHlo.unary_writes, StableHlo.reshape_writes, Finset.mem_singleton] <;>
      exact StableHlo.devRef_ne_of_ne (by decide)
  exact StableHlo.after_of_forall_not_mem _ _ (List.forall_iff_forall_mem.mp h)

/-- The argument is no array of the pipeline: the region leaves it at its region-entry contents. -/
theorem WK_arg0 (c : Dev nD) : WK m c (Proc.devRef .tc main_arg0) = V0 m c (Proc.devRef .tc main_arg0) :=
  Pipeline.withArrays_of_ne spec0 c _ _ main_arg0 (by decide)

/-- The frame: @main runs and the argument ends as it began (no line before the region, no write-back of the
    pipeline and no line after it writes it). -/
theorem frame_run (ρ : Dev nD → PrngReg) :
    θ_run (defs (F := F)) (onTc (τ := τ) (main (F := F))) ⟨m, fun _ => 0, ρ⟩
      (fun r => ∀ c : Dev nD, r.2.mem ((c.tc : Thread nD τ).loc main_arg0) = m ((c.tc : Thread nD τ).loc main_arg0)) :=
  (θ_run defs _ _).mono
    (fun _ h c => (h c main_arg0 arg0_mem).trans ((tail_arg0 (WK m c)).trans ((WK_arg0 m c).trans (V0_arg0 m c))))
    (run_main m ρ)

/-- The frame claim of the idealized kernel: `frame_run` at the ideal instance. -/
theorem frame : Cert.frame_KernelIdeal := fun m ρ _ => frame_run (F := Ideal) m ρ

end Cert.KernelIdeal.Body

end
-- ==== Proof.KValue.lean ====
/-
  The pallas_call's result array in closed form. The call's operand is the first three columns of the points,
  transposed and laid out as 3 × 15625 × 128, so that column (r, l) of it holds the coordinates of point 128 r + l.
  Each of the sixteen grid points writes back rows 1024 t ‥ of the result (the last one the 265 rows 15360 ‥ 15624
  that lie inside the array), and what it writes at (0, r, l) and (1, r, l) is the dense and the sparse encoded id
  of the point in column (r, l); the sixteen blocks' rows are together all 15625.
-/
import proofs.«414662_j83537113907662_3_alg».proof.Proof.KData
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Body

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

variable (m : (ℓ : Loc nD τ sig) → Buf (Elt F) ℓ)

/-- The point whose coordinates sit in column (r, l) of the laid-out array: 128 r + l. -/
def ptIdx (r : Fin 15625) (l : Fin 128) : Fin 2000000 := ⟨r.val * 128 + l.val, by omega⟩

/-- The pallas_call's result array as a function of the points: at (0, r, l) the dense and at (1, r, l) the sparse
    encoded id of point 128 r + l. -/
def metaArr (pts : S2000000x4.Idx → F .f32) : S2x15625x128.Idx → BitVec 32 := fun i =>
  if (i 0).val = 0 then
    Spec.encD (pts (ValueIdx.ix2 (ptIdx (i 1) (i 2)) (0 : Fin 4))) (pts (ValueIdx.ix2 (ptIdx (i 1) (i 2)) (1 : Fin 4)))
      (pts (ValueIdx.ix2 (ptIdx (i 1) (i 2)) (2 : Fin 4)))
  else
    Spec.encS (pts (ValueIdx.ix2 (ptIdx (i 1) (i 2)) (0 : Fin 4))) (pts (ValueIdx.ix2 (ptIdx (i 1) (i 2)) (1 : Fin 4)))
      (pts (ValueIdx.ix2 (ptIdx (i 1) (i 2)) (2 : Fin 4)))

/-- The call's operand at (k, r, l) is coordinate k of point 128 r + l: the three host lines before the call cut the
    first three columns out of the points, transpose them, and lay each column out as 15625 rows of 128. -/
theorem V0_v2_apply (c : Dev nD) (k : Fin 3) (r : Fin 15625) (l : Fin 128) :
    (V0 m c (Proc.devRef .tc main_v2) : S3x15625x128.Idx → F .f32) (ValueIdx.ix3 k r l)
      = (m ((c.tc : Thread nD τ).loc main_arg0) : S2000000x4.Idx → F .f32) (ValueIdx.ix2 (ptIdx r l) ⟨k.val, by omega⟩) := by
  unfold V0
  after_results
  show shapeCast S3x15625x128
      (transpose S3x2000000 [1, 0]
        (extractStridedSlice S2000000x3 ![0, 0] (m (c, Proc.tc.devRef main_arg0)) slices_S2000000x4_S2000000x3_0_0)
        transposes_S2000000x3_S3x2000000_1_0)
      shapeCasts_S3x2000000_S3x15625x128 (ix3 k r l) = _
  have hk := k.isLt; have hr := r.isLt; have hl := l.isLt
  -- the laid-out position (k, r, l) is position (k, 128 r + l) of the transposed columns,
  refine (shapeCast_apply _ _ (ix3 k r l) (ix2 k (ptIdx r l)) ?_).trans ?_
  · rw [Shape.rowMajor_val_two, Shape.rowMajor_val_three]
    show (k : Nat) * 2000000 + ((r : Nat) * 128 + (l : Nat)) = ((k : Nat) * 15625 + (r : Nat)) * 128 + (l : Nat)
    omega
  -- which is position (128 r + l, k) of the first three columns,
  refine (transpose_apply _ _ _ (ix2 k (ptIdx r l)) (ix2 (ptIdx r l) k) ?_).trans ?_
  · intro b; match b with | ⟨0, _⟩ => rfl | ⟨1, _⟩ => rfl
  -- the same position of the points.
  refine (extractStridedSlice_apply _ _ _ (ix2 (ptIdx r l) k) (ix2 (ptIdx r l) ⟨k.val, by omega⟩) ?_).trans rfl
  intro a; match a with
    | ⟨0, _⟩ => show ((ptIdx r l : Fin 2000000) : Nat) = 0 + ((ptIdx r l : Fin 2000000) : Nat); omega
    | ⟨1, _⟩ => show (k : Nat) = 0 + (k : Nat); omega

/-- The operand is an input of the call: after the run it holds what it held. -/
theorem arrAt_in (c : Dev nD) : (dats m 0 c).arrAt (0 : Fin 2) cfg0.N = V0 m c (Proc.devRef .tc main_v2) :=
  (dats (F := F) m 0 c).arrAt_in (0 : Fin 2) rfl _

/-- The two windows' blocks at point `t`, read off the printed index maps and decided over the sixteen points: both
    start at row `1024 t`, at plane 0 and lane 0; both hold `min 1024 (15625 - 1024 t)` rows inside the array and
    all 128 lanes; the operand's holds its three planes and the result's its two. -/
theorem idx_facts : ∀ t : Fin cfg0.N,
    (win0_0.index t 0 = 0 ∧ win0_0.index t 1 = t.val ∧ win0_0.index t 2 = 0) ∧
    (win0_1.index t 0 = 0 ∧ win0_1.index t 1 = t.val ∧ win0_1.index t 2 = 0) ∧
    (win0_0.xsize (grid0.coords t) 0 = 3 ∧ win0_0.xsize (grid0.coords t) 1 = min 1024 (15625 - 1024 * t.val) ∧ win0_0.xsize (grid0.coords t) 2 = 128) ∧
    (win0_1.xsize (grid0.coords t) 0 = 2 ∧ win0_1.xsize (grid0.coords t) 1 = min 1024 (15625 - 1024 * t.val) ∧ win0_1.xsize (grid0.coords t) 2 = 128) :=
  (by decide +kernel : ∀ t : Fin grid0.N, _)

/-- The operand's staging buffer after the body at point `t`, on a row inside the array: plane `k`, row `p`, lane `q` of
    it is the operand at plane `k`, row `1024 t + p`, lane `q`. -/
theorem inBlk8_apply (c : Dev nD) (t : Fin cfg0.N) (k : Fin 3) (p : Fin 1024) (q : Fin 128) (hp : 1024 * t.val + p.val < 15625) :
    inBlk8 m c t (ix3 k p q)
      = (V0 m c (Proc.devRef .tc main_v2) : S3x15625x128.Idx → F .f32) (ix3 k ⟨1024 * t.val + p.val, hp⟩ q) := by
  obtain ⟨⟨i00, i01, i02⟩, -, ⟨x00, x01, x02⟩, -⟩ := idx_facts t
  have hk := k.isLt; have hq := q.isLt
  have hm : win0_0.moved (grid0.coords t) (ix3 k p q) = true := by
    rw [Window.moved_iff]; intro a
    match a with
    | ⟨0, _⟩ => show (k : Nat) < win0_0.xsize (grid0.coords t) 0; rw [x00]; exact hk
    | ⟨1, _⟩ => show (p : Nat) < win0_0.xsize (grid0.coords t) 1; rw [x01]; omega
    | ⟨2, _⟩ => show (q : Nat) < win0_0.xsize (grid0.coords t) 2; rw [x02]; exact hq
  unfold inBlk8 Window.fill
  rw [dif_pos hm]
  unfold inBlk
  rw [View.read_apply]
  show (V0 m c (Proc.devRef .tc main_v2) : S3x15625x128.Idx → F .f32) ((win0_0.rect t).emb _) = _
  refine congrArg _ (funext fun a => Fin.ext ?_)
  rw [Window.rect_emb_val]
  match a with
  | ⟨0, _⟩ => show win0_0.index t 0 * 3 + (k : Nat) = (k : Nat); rw [i00]; omega
  | ⟨1, _⟩ => show win0_0.index t 1 * 1024 + (p : Nat) = 1024 * (t : Nat) + (p : Nat); rw [i01]; omega
  | ⟨2, _⟩ => show win0_0.index t 2 * 128 + (q : Nat) = (q : Nat); rw [i02]; omega

/-- Where an element of the result's block at point `t` sits in the result array. -/
theorem blk1_emb_val (t : Fin cfg0.N) (y : (win0_1.xblock (grid0.coords t)).Idx) (a : Fin 3) :
    (((win0_1.blk t).view.emb y : S2x15625x128.Idx) a).val = win0_1.index t a * S2x1024x128.size a + (y a).val :=
  win0_1.rect_emb_val t y a

/-- The body's result block at an index given by its coordinates. -/
theorem outBlk_apply (X : S3x1024x128.Idx → F .f32) (s : Fin 2) (p : Fin 1024) (q : Fin 128) :
    outBlk X (ix3 s p q)
      = if s.val = 0 then Spec.encD (X (ix3 (0 : Fin 3) p q)) (X (ix3 (1 : Fin 3) p q)) (X (ix3 (2 : Fin 3) p q))
        else Spec.encS (X (ix3 (0 : Fin 3) p q)) (X (ix3 (1 : Fin 3) p q)) (X (ix3 (2 : Fin 3) p q)) := rfl

/-- The result array's closed form at an index given by its coordinates. -/
theorem metaArr_apply (pts : S2000000x4.Idx → F .f32) (s : Fin 2) (r : Fin 15625) (l : Fin 128) :
    metaArr pts (ix3 s r l)
      = if s.val = 0 then Spec.encD (pts (ix2 (ptIdx r l) (0 : Fin 4))) (pts (ix2 (ptIdx r l) (1 : Fin 4))) (pts (ix2 (ptIdx r l) (2 : Fin 4)))
        else Spec.encS (pts (ix2 (ptIdx r l) (0 : Fin 4))) (pts (ix2 (ptIdx r l) (1 : Fin 4))) (pts (ix2 (ptIdx r l) (2 : Fin 4))) := rfl

/-- What point `t` writes back is its block of the one array `metaArr` of the points: the body's result at
    `(s, p, q)` is computed from column `(p, q)` of the operand's block, which is column `(1024 t + p, q)` of the
    operand, the coordinates of point `128 (1024 t + p) + q`; and `(s, p, q)` of the block is `(s, 1024 t + p, q)` of
    the result array. -/
theorem flushed_eq (c : Dev nD) (t : Fin cfg0.N) :
    (dats m 0 c).flushed (1 : Fin 2) t
      = ((cfg0.win (1 : Fin 2)).blk t).view.read (Elt F) (metaArr (m ((c.tc : Thread nD τ).loc main_arg0))) := by
  funext y
  obtain ⟨-, ⟨i10, i11, i12⟩, -, ⟨x10, x11, x12⟩⟩ := idx_facts t
  show outBlk (inBlk8 m c t) (win0_1.xinj (grid0.coords t) y) = metaArr _ ((win0_1.blk t).view.emb y)
  have e0 := blk1_emb_val t y 0
  have e1 := blk1_emb_val t y 1
  have e2 := blk1_emb_val t y 2
  rw [i10] at e0; rw [i11] at e1; rw [i12] at e2
  have h0 : (y 0).val < win0_1.xsize (grid0.coords t) 0 := (y 0).isLt
  have h1 : (y 1).val < win0_1.xsize (grid0.coords t) 1 := (y 1).isLt
  have h2 : (y 2).val < win0_1.xsize (grid0.coords t) 2 := (y 2).isLt
  rw [x10] at h0; rw [x11] at h1; rw [x12] at h2
  have hp : 1024 * t.val + (y 1).val < 15625 := by omega
  -- the element's place in the block and in the array, by coordinates
  have hL : win0_1.xinj (grid0.coords t) y
      = ix3 (⟨(y 0).val, h0⟩ : Fin 2) (⟨(y 1).val, by omega⟩ : Fin 1024) (⟨(y 2).val, h2⟩ : Fin 128) := by
    funext a; match a with | ⟨0, _⟩ => rfl | ⟨1, _⟩ => rfl | ⟨2, _⟩ => rfl
  have hR : ((win0_1.blk t).view.emb y : S2x15625x128.Idx)
      = ix3 (⟨(y 0).val, h0⟩ : Fin 2) (⟨1024 * t.val + (y 1).val, hp⟩ : Fin 15625) (⟨(y 2).val, h2⟩ : Fin 128) := by
    funext a; apply Fin.ext
    match a with
    | ⟨0, _⟩ => show ((win0_1.blk t).view.emb y 0).val = (y 0).val; rw [e0]; omega
    | ⟨1, _⟩ =>
      show ((win0_1.blk t).view.emb y 1).val = 1024 * t.val + (y 1).val; rw [e1]
      show t.val * 1024 + (y 1).val = 1024 * t.val + (y 1).val; omega
    | ⟨2, _⟩ => show ((win0_1.blk t).view.emb y 2).val = (y 2).val; rw [e2]; omega
  rw [hL, hR, outBlk_apply, metaArr_apply, inBlk8_apply m c t 0 _ _ hp, inBlk8_apply m c t 1 _ _ hp,
    inBlk8_apply m c t 2 _ _ hp, V0_v2_apply, V0_v2_apply, V0_v2_apply]
  rfl

/-- An index of the result array is in point `t`'s block iff its row is among the block's rows inside the array (every
    plane and every lane is: the blocks span both). -/
theorem mem_blk1 (t : Fin cfg0.N) (i : S2x15625x128.Idx) :
    i ∈ ((cfg0.win (1 : Fin 2)).blk t).view.set
      ↔ 1024 * t.val ≤ (i 1).val ∧ (i 1).val < 1024 * t.val + min 1024 (15625 - 1024 * t.val) := by
  obtain ⟨-, ⟨i10, i11, i12⟩, -, ⟨x10, x11, x12⟩⟩ := idx_facts t
  show i ∈ ((View.whole main_v3).slice (win0_1.rect t)).set ↔ _
  rw [View.set_slice_whole, Rect.mem_set_unit]
  have h0 : (i 0).val < 2 := (i 0).isLt
  have h2 : (i 2).val < 128 := (i 2).isLt
  refine ⟨fun h => ?_, fun h a => ?_⟩
  · have h1 := h 1
    change win0_1.index t 1 * 1024 ≤ (i 1).val ∧ (i 1).val < win0_1.index t 1 * 1024 + win0_1.xsize (grid0.coords t) 1 at h1
    rw [i11, x11] at h1; omega
  · match a with
    | ⟨0, _⟩ =>
      show win0_1.index t 0 * 2 ≤ (i 0).val ∧ (i 0).val < win0_1.index t 0 * 2 + win0_1.xsize (grid0.coords t) 0
      rw [i10, x10]; omega
    | ⟨1, _⟩ =>
      show win0_1.index t 1 * 1024 ≤ (i 1).val ∧ (i 1).val < win0_1.index t 1 * 1024 + win0_1.xsize (grid0.coords t) 1
      rw [i11, x11]; omega
    | ⟨2, _⟩ =>
      show win0_1.index t 2 * 128 ≤ (i 2).val ∧ (i 2).val < win0_1.index t 2 * 128 + win0_1.xsize (grid0.coords t) 2
      rw [i12, x12]; omega

/-- The sixteen blocks' rows are together the array's: row `r` lies in the block of point `r / 1024`, whose rows inside
    the array run from `1024 (r / 1024)` to the smaller of 1024 further and the array's end. -/
theorem cover1 (i : S2x15625x128.Idx) :
    ∃ t : Fin cfg0.N, (cfg0.win (1 : Fin 2)).flush t = true ∧ i ∈ ((cfg0.win (1 : Fin 2)).blk t).view.set := by
  have h1 : (i 1).val < 15625 := (i 1).isLt
  refine ⟨⟨(i 1).val / 1024, by show (i 1).val / 1024 < 16; omega⟩, flush0_1 _, ?_⟩
  rw [mem_blk1]
  show 1024 * ((i 1).val / 1024) ≤ (i 1).val
    ∧ (i 1).val < 1024 * ((i 1).val / 1024) + min 1024 (15625 - 1024 * ((i 1).val / 1024))
  omega

/-- The result array after the run: every point writes back its block of `metaArr` of the points, and the blocks cover
    the array. -/
theorem arrAt_out (c : Dev nD) :
    ((dats m 0 c).arrAt (1 : Fin 2) cfg0.N : S2x15625x128.Idx → BitVec 32) = metaArr (m ((c.tc : Thread nD τ).loc main_arg0)) :=
  (dats (F := F) m 0 c).arrAt_eq_of_cover (1 : Fin 2) (metaArr (m ((c.tc : Thread nD τ).loc main_arg0)))
    (fun t _ => flushed_eq m c t) cover1

end Cert.KernelIdeal.Body

end
-- ==== Proof.RefRun.lean ====
import proofs.«414662_j83537113907662_3_alg».proof.Defs
import proofs.«414662_j83537113907662_3_alg».proof.Proof.Gen.Pre_finite_inputs
import proofs.«414662_j83537113907662_3_alg».proof.Proof.RefChain
import Idealize.ShloMosaic.Lib.StableHlo.Run
import Idealize.ShloMosaic.Lib.Pipeline.Regions
import Idealize.ShloMosaic.Lib.Pipeline.Frame

/-!
# The reference program's run and frame

The reference's @main is a chain of 53 straight-line stretches of host operations. Run one after the other they
are the run of their concatenation; every operation touches TensorCore buffers only and determines its results, so
every execution terminates with each buffer at the fold of the operations over the launch contents. No operation
writes the argument array, so the fold leaves it as it was.
-/

set_option maxRecDepth 4096

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## Lists of lists -/

/-- The chain of straight lines is the straight line of their concatenation. -/
theorem chain_map_seq {nD : Nat} {τ : Topo} {sig : RefSig} {Val : EltTy → Type} {Λ : Labels}
    (opss : List (List (HloOp τ sig Val))) :
    Pipeline.chain (opss.map fun l => (seq l : Prog (TpuEff nD τ sig Val Λ .tc) PUnit)) = seq opss.flatten := by
  induction opss with
  | nil => rfl
  | cons l ls ih => rw [List.map_cons, Pipeline.chain_cons, ih, List.flatten_cons, seq_append]

/-- A property of every element of every list holds of every element of the concatenation. -/
theorem forall_flatten {α : Type} {p : α → Prop} (ls : List (List α)) (h : ls.Forall fun l => l.Forall p) :
    ls.flatten.Forall p := by
  rw [List.forall_iff_forall_mem] at h ⊢
  intro x hx
  obtain ⟨l, hl, hxl⟩ := List.mem_flatten.1 hx
  exact List.forall_iff_forall_mem.1 (h l hl) x hxl

/-- A buffer each list of operations leaves alone, from any contents, is left alone by the concatenation. -/
theorem after_flatten_kept {τ : Topo} {sig : RefSig} {Val : EltTy → Type} {b : DevRef τ sig} :
    ∀ (ls : List (List (HloOp τ sig Val))), (ls.Forall fun l => ∀ V : Valuation τ sig Val, after l V b = V b) →
      ∀ V : Valuation τ sig Val, after ls.flatten V b = V b
  | [], _, V => rfl
  | l :: ls, h, V => by
    have h' := List.forall_iff_forall_mem.1 h
    rw [List.flatten_cons, after_append,
      after_flatten_kept ls (List.forall_iff_forall_mem.2 fun x hx => h' x (List.mem_cons_of_mem _ hx)),
      h' l List.mem_cons_self]

/-! ## The reference's operations -/

/-- The 53 stretches of @main, in order. -/
abbrev refStretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52]

/-- @main's operations, in order. -/
abbrev refOps : List (HloOp τ sig (Elt F)) := (refStretches (F := F)).flatten

theorem main_eq (d : Dev nD) : main (F := F) d = StableHlo.seq (refOps (F := F)) :=
  (main_chain d).trans (chain_map_seq (refStretches (F := F)))

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem refOps_sub : (refOps (F := F)).Forall fun op => op.bufs ⊆ tcRefs τ sig :=
  forall_flatten _ ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub⟩

/-! Every operation determines its results: none allocates. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_1_fresh : (hostOps0_1 : List (HloOp τ sig (Elt F))).Forall fun op => op.fresh = ∅ :=
  ⟨rfl, rfl, rfl⟩
theorem hostOps0_2_fresh : (hostOps0_2 : List (HloOp τ sig (Elt F))).Forall fun op => op.fresh = ∅ :=
  ⟨rfl, rfl, rfl, rfl⟩
theorem hostOps0_3_fresh : (hostOps0_3 : List (HloOp τ sig (Elt F))).Forall fun op => op.fresh = ∅ :=
  ⟨rfl, rfl, rfl⟩
theorem hostOps0_4_fresh : (hostOps0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem hostOps0_5_fresh : (hostOps0_5 : List (HloOp τ sig (Elt F))).Forall fun op => op.fresh = ∅ :=
  ⟨rfl, rfl, rfl⟩
theorem hostOps0_6_fresh : (hostOps0_6 : List (HloOp τ sig (Elt F))).Forall fun op => op.fresh = ∅ :=
  ⟨rfl, rfl, rfl, rfl, rfl, rfl⟩
theorem hostOps0_7_fresh : (hostOps0_7 : List (HloOp τ sig (Elt F))).Forall fun op => op.fresh = ∅ :=
  ⟨rfl, rfl, rfl⟩
theorem hostOps0_8_fresh : (hostOps0_8 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem hostOps0_9_fresh : (hostOps0_9 : List (HloOp τ sig (Elt F))).Forall fun op => op.fresh = ∅ :=
  ⟨rfl, rfl, rfl⟩
theorem hostOps0_10_fresh : (hostOps0_10 : List (HloOp τ sig (Elt F))).Forall fun op => op.fresh = ∅ :=
  ⟨rfl, rfl, rfl, rfl⟩
theorem hostOps0_11_fresh : (hostOps0_11 : List (HloOp τ sig (Elt F))).Forall fun op => op.fresh = ∅ :=
  ⟨rfl, rfl, rfl⟩
theorem hostOps0_12_fresh : (hostOps0_12 : List (HloOp τ sig (Elt F))).Forall fun op => op.fresh = ∅ :=
  rfl
theorem hostOps0_13_fresh : (hostOps0_13 : List (HloOp τ sig (Elt F))).Forall fun op => op.fresh = ∅ :=
  ⟨rfl, rfl, rfl⟩
theorem hostOps0_14_fresh : (hostOps0_14 : List (HloOp τ sig (Elt F))).Forall fun op => op.fresh = ∅ :=
  ⟨rfl, rfl, rfl⟩
theorem hostOps0_15_fresh : (hostOps0_15 : List (HloOp τ sig (Elt F))).Forall fun op => op.fresh = ∅ :=
  ⟨rfl, rfl, rfl, rfl, rfl, rfl, rfl, rfl, rfl, rfl, rfl, rfl, rfl, rfl, rfl, rfl, rfl⟩
theorem hostOps0_16_fresh : (hostOps0_16 : List (HloOp τ sig (Elt F))).Forall fun op => op.fresh = ∅ :=
  ⟨rfl, rfl, rfl⟩
theorem hostOps0_17_fresh : (hostOps0_17 : List (HloOp τ sig (Elt F))).Forall fun op => op.fresh = ∅ :=
  ⟨rfl, rfl, rfl⟩
theorem hostOps0_18_fresh : (hostOps0_18 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem hostOps0_19_fresh : (hostOps0_19 : List (HloOp τ sig (Elt F))).Forall fun op => op.fresh = ∅ :=
  ⟨rfl, rfl, rfl⟩
theorem hostOps0_20_fresh : (hostOps0_20 : List (HloOp τ sig (Elt F))).Forall fun op => op.fresh = ∅ :=
  rfl
theorem hostOps0_21_fresh : (hostOps0_21 : List (HloOp τ sig (Elt F))).Forall fun op => op.fresh = ∅ :=
  ⟨rfl, rfl, rfl⟩
theorem hostOps0_22_fresh : (hostOps0_22 : List (HloOp τ sig (Elt F))).Forall fun op => op.fresh = ∅ :=
  ⟨rfl, rfl⟩
theorem hostOps0_23_fresh : (hostOps0_23 : List (HloOp τ sig (Elt F))).Forall fun op => op.fresh = ∅ :=
  ⟨rfl, rfl, rfl, rfl⟩
theorem hostOps0_24_fresh : (hostOps0_24 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_25_fresh : (hostOps0_25 : List (HloOp τ sig (Elt F))).Forall fun op => op.fresh = ∅ :=
  ⟨rfl, rfl, rfl⟩
theorem hostOps0_26_fresh : (hostOps0_26 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_27_fresh : (hostOps0_27 : List (HloOp τ sig (Elt F))).Forall fun op => op.fresh = ∅ :=
  ⟨rfl, rfl, rfl⟩
theorem hostOps0_28_fresh : (hostOps0_28 : List (HloOp τ sig (Elt F))).Forall fun op => op.fresh = ∅ :=
  ⟨rfl, rfl, rfl, rfl⟩
theorem hostOps0_29_fresh : (hostOps0_29 : List (HloOp τ sig (Elt F))).Forall fun op => op.fresh = ∅ :=
  ⟨rfl, rfl, rfl⟩
theorem hostOps0_30_fresh : (hostOps0_30 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem hostOps0_31_fresh : (hostOps0_31 : List (HloOp τ sig (Elt F))).Forall fun op => op.fresh = ∅ :=
  ⟨rfl, rfl, rfl⟩
theorem hostOps0_32_fresh : (hostOps0_32 : List (HloOp τ sig (Elt F))).Forall fun op => op.fresh = ∅ :=
  ⟨rfl, rfl, rfl, rfl, rfl, rfl⟩
theorem hostOps0_33_fresh : (hostOps0_33 : List (HloOp τ sig (Elt F))).Forall fun op => op.fresh = ∅ :=
  ⟨rfl, rfl, rfl⟩
theorem hostOps0_34_fresh : (hostOps0_34 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem hostOps0_35_fresh : (hostOps0_35 : List (HloOp τ sig (Elt F))).Forall fun op => op.fresh = ∅ :=
  ⟨rfl, rfl, rfl⟩
theorem hostOps0_36_fresh : (hostOps0_36 : List (HloOp τ sig (Elt F))).Forall fun op => op.fresh = ∅ :=
  ⟨rfl, rfl, rfl, rfl⟩
theorem hostOps0_37_fresh : (hostOps0_37 : List (HloOp τ sig (Elt F))).Forall fun op => op.fresh = ∅ :=
  ⟨rfl, rfl, rfl⟩
theorem hostOps0_38_fresh : (hostOps0_38 : List (HloOp τ sig (Elt F))).Forall fun op => op.fresh = ∅ :=
  rfl
theorem hostOps0_39_fresh : (hostOps0_39 : List (HloOp τ sig (Elt F))).Forall fun op => op.fresh = ∅ :=
  ⟨rfl, rfl, rfl⟩
theorem hostOps0_40_fresh : (hostOps0_40 : List (HloOp τ sig (Elt F))).Forall fun op => op.fresh = ∅ :=
  ⟨rfl, rfl, rfl⟩
theorem hostOps0_41_fresh : (hostOps0_41 : List (HloOp τ sig (Elt F))).Forall fun op => op.fresh = ∅ :=
  ⟨rfl, rfl, rfl, rfl, rfl, rfl, rfl, rfl, rfl, rfl, rfl, rfl, rfl, rfl, rfl, rfl, rfl⟩
theorem hostOps0_42_fresh : (hostOps0_42 : List (HloOp τ sig (Elt F))).Forall fun op => op.fresh = ∅ :=
  ⟨rfl, rfl, rfl⟩
theorem hostOps0_43_fresh : (hostOps0_43 : List (HloOp τ sig (Elt F))).Forall fun op => op.fresh = ∅ :=
  ⟨rfl, rfl, rfl⟩
theorem hostOps0_44_fresh : (hostOps0_44 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem hostOps0_45_fresh : (hostOps0_45 : List (HloOp τ sig (Elt F))).Forall fun op => op.fresh = ∅ :=
  ⟨rfl, rfl, rfl⟩
theorem hostOps0_46_fresh : (hostOps0_46 : List (HloOp τ sig (Elt F))).Forall fun op => op.fresh = ∅ :=
  rfl
theorem hostOps0_47_fresh : (hostOps0_47 : List (HloOp τ sig (Elt F))).Forall fun op => op.fresh = ∅ :=
  ⟨rfl, rfl, rfl⟩
theorem hostOps0_48_fresh : (hostOps0_48 : List (HloOp τ sig (Elt F))).Forall fun op => op.fresh = ∅ :=
  ⟨rfl, rfl⟩
theorem hostOps0_49_fresh : (hostOps0_49 : List (HloOp τ sig (Elt F))).Forall fun op => op.fresh = ∅ :=
  ⟨rfl, rfl, rfl, rfl⟩
theorem hostOps0_50_fresh : (hostOps0_50 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_51_fresh : (hostOps0_51 : List (HloOp τ sig (Elt F))).Forall fun op => op.fresh = ∅ :=
  ⟨rfl, rfl, rfl⟩
theorem hostOps0_52_fresh : (hostOps0_52 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem refOps_fresh : ∀ op ∈ refOps (F := F), op.fresh = ∅ :=
  List.forall_iff_forall_mem.1 (forall_flatten _ ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh⟩)

/-- On every device, from any memory with zero counters: every weakly fair execution of @main terminates with each
    TensorCore buffer at the fold of the operations over the launch contents. -/
theorem run (m : (ℓ : Loc nD τ sig) → Buf (Elt F) ℓ) (ρ : Dev nD → PrngReg) :
    θ_run (defs (F := F)) (onTc (τ := τ) (main (F := F))) ⟨m, fun _ => 0, ρ⟩ fun r => ∀ (d : Dev nD) (b : Ref sig .tc),
      r.2.mem ((d.tc : Thread nD τ).loc b) = StableHlo.after (refOps (F := F)) (StableHlo.launchContents m d) (Proc.devRef .tc b) :=
  run_seq scopedRefs_eq scopedSems_eq defs main (fun _ => refOps) main_eq (fun _ => refOps_sub) m ρ (hfresh := fun _ => refOps_fresh)

/-! ## The argument array is kept

No operation writes the argument: stretch by stretch, the fold of a stretch's results from any contents reads the
argument's buffer back unchanged (each operation's result at a reference other than the one it writes is the
contents before it), and so does the fold of the concatenation. -/
theorem hostOps0_kept (V : Valuation τ sig (Elt F)) :
    after (hostOps0 (F := F)) V (Proc.devRef .tc main_arg0) = V (Proc.devRef .tc main_arg0) := by after_results_simp
theorem hostOps0_1_kept (V : Valuation τ sig (Elt F)) :
    after (hostOps0_1 (F := F)) V (Proc.devRef .tc main_arg0) = V (Proc.devRef .tc main_arg0) := by after_results_simp
theorem hostOps0_2_kept (V : Valuation τ sig (Elt F)) :
    after (hostOps0_2 (F := F)) V (Proc.devRef .tc main_arg0) = V (Proc.devRef .tc main_arg0) := by after_results_simp
theorem hostOps0_3_kept (V : Valuation τ sig (Elt F)) :
    after (hostOps0_3 (F := F)) V (Proc.devRef .tc main_arg0) = V (Proc.devRef .tc main_arg0) := by after_results_simp
theorem hostOps0_4_kept (V : Valuation τ sig (Elt F)) :
    after (hostOps0_4 (F := F)) V (Proc.devRef .tc main_arg0) = V (Proc.devRef .tc main_arg0) := by after_results_simp
theorem hostOps0_5_kept (V : Valuation τ sig (Elt F)) :
    after (hostOps0_5 (F := F)) V (Proc.devRef .tc main_arg0) = V (Proc.devRef .tc main_arg0) := by after_results_simp
theorem hostOps0_6_kept (V : Valuation τ sig (Elt F)) :
    after (hostOps0_6 (F := F)) V (Proc.devRef .tc main_arg0) = V (Proc.devRef .tc main_arg0) := by after_results_simp
theorem hostOps0_7_kept (V : Valuation τ sig (Elt F)) :
    after (hostOps0_7 (F := F)) V (Proc.devRef .tc main_arg0) = V (Proc.devRef .tc main_arg0) := by after_results_simp
theorem hostOps0_8_kept (V : Valuation τ sig (Elt F)) :
    after (hostOps0_8 (F := F)) V (Proc.devRef .tc main_arg0) = V (Proc.devRef .tc main_arg0) := by after_results_simp
theorem hostOps0_9_kept (V : Valuation τ sig (Elt F)) :
    after (hostOps0_9 (F := F)) V (Proc.devRef .tc main_arg0) = V (Proc.devRef .tc main_arg0) := by after_results_simp
theorem hostOps0_10_kept (V : Valuation τ sig (Elt F)) :
    after (hostOps0_10 (F := F)) V (Proc.devRef .tc main_arg0) = V (Proc.devRef .tc main_arg0) := by after_results_simp
theorem hostOps0_11_kept (V : Valuation τ sig (Elt F)) :
    after (hostOps0_11 (F := F)) V (Proc.devRef .tc main_arg0) = V (Proc.devRef .tc main_arg0) := by after_results_simp
theorem hostOps0_12_kept (V : Valuation τ sig (Elt F)) :
    after (hostOps0_12 (F := F)) V (Proc.devRef .tc main_arg0) = V (Proc.devRef .tc main_arg0) := by after_results_simp
theorem hostOps0_13_kept (V : Valuation τ sig (Elt F)) :
    after (hostOps0_13 (F := F)) V (Proc.devRef .tc main_arg0) = V (Proc.devRef .tc main_arg0) := by after_results_simp
theorem hostOps0_14_kept (V : Valuation τ sig (Elt F)) :
    after (hostOps0_14 (F := F)) V (Proc.devRef .tc main_arg0) = V (Proc.devRef .tc main_arg0) := by after_results_simp
theorem hostOps0_15_kept (V : Valuation τ sig (Elt F)) :
    after (hostOps0_15 (F := F)) V (Proc.devRef .tc main_arg0) = V (Proc.devRef .tc main_arg0) := by after_results_simp
theorem hostOps0_16_kept (V : Valuation τ sig (Elt F)) :
    after (hostOps0_16 (F := F)) V (Proc.devRef .tc main_arg0) = V (Proc.devRef .tc main_arg0) := by after_results_simp
theorem hostOps0_17_kept (V : Valuation τ sig (Elt F)) :
    after (hostOps0_17 (F := F)) V (Proc.devRef .tc main_arg0) = V (Proc.devRef .tc main_arg0) := by after_results_simp
theorem hostOps0_18_kept (V : Valuation τ sig (Elt F)) :
    after (hostOps0_18 (F := F)) V (Proc.devRef .tc main_arg0) = V (Proc.devRef .tc main_arg0) := by after_results_simp
theorem hostOps0_19_kept (V : Valuation τ sig (Elt F)) :
    after (hostOps0_19 (F := F)) V (Proc.devRef .tc main_arg0) = V (Proc.devRef .tc main_arg0) := by after_results_simp
theorem hostOps0_20_kept (V : Valuation τ sig (Elt F)) :
    after (hostOps0_20 (F := F)) V (Proc.devRef .tc main_arg0) = V (Proc.devRef .tc main_arg0) := by after_results_simp
theorem hostOps0_21_kept (V : Valuation τ sig (Elt F)) :
    after (hostOps0_21 (F := F)) V (Proc.devRef .tc main_arg0) = V (Proc.devRef .tc main_arg0) := by after_results_simp
theorem hostOps0_22_kept (V : Valuation τ sig (Elt F)) :
    after (hostOps0_22 (F := F)) V (Proc.devRef .tc main_arg0) = V (Proc.devRef .tc main_arg0) := by after_results_simp
theorem hostOps0_23_kept (V : Valuation τ sig (Elt F)) :
    after (hostOps0_23 (F := F)) V (Proc.devRef .tc main_arg0) = V (Proc.devRef .tc main_arg0) := by after_results_simp
theorem hostOps0_24_kept (V : Valuation τ sig (Elt F)) :
    after (hostOps0_24 (F := F)) V (Proc.devRef .tc main_arg0) = V (Proc.devRef .tc main_arg0) := by after_results_simp
theorem hostOps0_25_kept (V : Valuation τ sig (Elt F)) :
    after (hostOps0_25 (F := F)) V (Proc.devRef .tc main_arg0) = V (Proc.devRef .tc main_arg0) := by after_results_simp
theorem hostOps0_26_kept (V : Valuation τ sig (Elt F)) :
    after (hostOps0_26 (F := F)) V (Proc.devRef .tc main_arg0) = V (Proc.devRef .tc main_arg0) := by after_results_simp
theorem hostOps0_27_kept (V : Valuation τ sig (Elt F)) :
    after (hostOps0_27 (F := F)) V (Proc.devRef .tc main_arg0) = V (Proc.devRef .tc main_arg0) := by after_results_simp
theorem hostOps0_28_kept (V : Valuation τ sig (Elt F)) :
    after (hostOps0_28 (F := F)) V (Proc.devRef .tc main_arg0) = V (Proc.devRef .tc main_arg0) := by after_results_simp
theorem hostOps0_29_kept (V : Valuation τ sig (Elt F)) :
    after (hostOps0_29 (F := F)) V (Proc.devRef .tc main_arg0) = V (Proc.devRef .tc main_arg0) := by after_results_simp
theorem hostOps0_30_kept (V : Valuation τ sig (Elt F)) :
    after (hostOps0_30 (F := F)) V (Proc.devRef .tc main_arg0) = V (Proc.devRef .tc main_arg0) := by after_results_simp
theorem hostOps0_31_kept (V : Valuation τ sig (Elt F)) :
    after (hostOps0_31 (F := F)) V (Proc.devRef .tc main_arg0) = V (Proc.devRef .tc main_arg0) := by after_results_simp
theorem hostOps0_32_kept (V : Valuation τ sig (Elt F)) :
    after (hostOps0_32 (F := F)) V (Proc.devRef .tc main_arg0) = V (Proc.devRef .tc main_arg0) := by after_results_simp
theorem hostOps0_33_kept (V : Valuation τ sig (Elt F)) :
    after (hostOps0_33 (F := F)) V (Proc.devRef .tc main_arg0) = V (Proc.devRef .tc main_arg0) := by after_results_simp
theorem hostOps0_34_kept (V : Valuation τ sig (Elt F)) :
    after (hostOps0_34 (F := F)) V (Proc.devRef .tc main_arg0) = V (Proc.devRef .tc main_arg0) := by after_results_simp
theorem hostOps0_35_kept (V : Valuation τ sig (Elt F)) :
    after (hostOps0_35 (F := F)) V (Proc.devRef .tc main_arg0) = V (Proc.devRef .tc main_arg0) := by after_results_simp
theorem hostOps0_36_kept (V : Valuation τ sig (Elt F)) :
    after (hostOps0_36 (F := F)) V (Proc.devRef .tc main_arg0) = V (Proc.devRef .tc main_arg0) := by after_results_simp
theorem hostOps0_37_kept (V : Valuation τ sig (Elt F)) :
    after (hostOps0_37 (F := F)) V (Proc.devRef .tc main_arg0) = V (Proc.devRef .tc main_arg0) := by after_results_simp
theorem hostOps0_38_kept (V : Valuation τ sig (Elt F)) :
    after (hostOps0_38 (F := F)) V (Proc.devRef .tc main_arg0) = V (Proc.devRef .tc main_arg0) := by after_results_simp
theorem hostOps0_39_kept (V : Valuation τ sig (Elt F)) :
    after (hostOps0_39 (F := F)) V (Proc.devRef .tc main_arg0) = V (Proc.devRef .tc main_arg0) := by after_results_simp
theorem hostOps0_40_kept (V : Valuation τ sig (Elt F)) :
    after (hostOps0_40 (F := F)) V (Proc.devRef .tc main_arg0) = V (Proc.devRef .tc main_arg0) := by after_results_simp
theorem hostOps0_41_kept (V : Valuation τ sig (Elt F)) :
    after (hostOps0_41 (F := F)) V (Proc.devRef .tc main_arg0) = V (Proc.devRef .tc main_arg0) := by after_results_simp
theorem hostOps0_42_kept (V : Valuation τ sig (Elt F)) :
    after (hostOps0_42 (F := F)) V (Proc.devRef .tc main_arg0) = V (Proc.devRef .tc main_arg0) := by after_results_simp
theorem hostOps0_43_kept (V : Valuation τ sig (Elt F)) :
    after (hostOps0_43 (F := F)) V (Proc.devRef .tc main_arg0) = V (Proc.devRef .tc main_arg0) := by after_results_simp
theorem hostOps0_44_kept (V : Valuation τ sig (Elt F)) :
    after (hostOps0_44 (F := F)) V (Proc.devRef .tc main_arg0) = V (Proc.devRef .tc main_arg0) := by after_results_simp
theorem hostOps0_45_kept (V : Valuation τ sig (Elt F)) :
    after (hostOps0_45 (F := F)) V (Proc.devRef .tc main_arg0) = V (Proc.devRef .tc main_arg0) := by after_results_simp
theorem hostOps0_46_kept (V : Valuation τ sig (Elt F)) :
    after (hostOps0_46 (F := F)) V (Proc.devRef .tc main_arg0) = V (Proc.devRef .tc main_arg0) := by after_results_simp
theorem hostOps0_47_kept (V : Valuation τ sig (Elt F)) :
    after (hostOps0_47 (F := F)) V (Proc.devRef .tc main_arg0) = V (Proc.devRef .tc main_arg0) := by after_results_simp
theorem hostOps0_48_kept (V : Valuation τ sig (Elt F)) :
    after (hostOps0_48 (F := F)) V (Proc.devRef .tc main_arg0) = V (Proc.devRef .tc main_arg0) := by after_results_simp
theorem hostOps0_49_kept (V : Valuation τ sig (Elt F)) :
    after (hostOps0_49 (F := F)) V (Proc.devRef .tc main_arg0) = V (Proc.devRef .tc main_arg0) := by after_results_simp
theorem hostOps0_50_kept (V : Valuation τ sig (Elt F)) :
    after (hostOps0_50 (F := F)) V (Proc.devRef .tc main_arg0) = V (Proc.devRef .tc main_arg0) := by after_results_simp
theorem hostOps0_51_kept (V : Valuation τ sig (Elt F)) :
    after (hostOps0_51 (F := F)) V (Proc.devRef .tc main_arg0) = V (Proc.devRef .tc main_arg0) := by after_results_simp
theorem hostOps0_52_kept (V : Valuation τ sig (Elt F)) :
    after (hostOps0_52 (F := F)) V (Proc.devRef .tc main_arg0) = V (Proc.devRef .tc main_arg0) := by after_results_simp

theorem arg0_kept (V : Valuation τ sig (Elt F)) :
    StableHlo.after (refOps (F := F)) V (Proc.devRef .tc main_arg0) = V (Proc.devRef .tc main_arg0) :=
  after_flatten_kept (b := Proc.devRef .tc main_arg0) (refStretches (F := F))
    ⟨hostOps0_kept, hostOps0_1_kept, hostOps0_2_kept, hostOps0_3_kept, hostOps0_4_kept, hostOps0_5_kept, hostOps0_6_kept, hostOps0_7_kept, hostOps0_8_kept, hostOps0_9_kept, hostOps0_10_kept, hostOps0_11_kept, hostOps0_12_kept, hostOps0_13_kept, hostOps0_14_kept, hostOps0_15_kept, hostOps0_16_kept, hostOps0_17_kept, hostOps0_18_kept, hostOps0_19_kept, hostOps0_20_kept, hostOps0_21_kept, hostOps0_22_kept, hostOps0_23_kept, hostOps0_24_kept, hostOps0_25_kept, hostOps0_26_kept, hostOps0_27_kept, hostOps0_28_kept, hostOps0_29_kept, hostOps0_30_kept, hostOps0_31_kept, hostOps0_32_kept, hostOps0_33_kept, hostOps0_34_kept, hostOps0_35_kept, hostOps0_36_kept, hostOps0_37_kept, hostOps0_38_kept, hostOps0_39_kept, hostOps0_40_kept, hostOps0_41_kept, hostOps0_42_kept, hostOps0_43_kept, hostOps0_44_kept, hostOps0_45_kept, hostOps0_46_kept, hostOps0_47_kept, hostOps0_48_kept, hostOps0_49_kept, hostOps0_50_kept, hostOps0_51_kept, hostOps0_52_kept⟩ V

/-- The reference runs, and its argument array ends as it began. -/
theorem frame : Cert.frame_ReferenceIdeal := by
  unfold Cert.frame_ReferenceIdeal
  intro m ρ _
  exact (θ_run defs _ _).mono (fun _ h c => (h c main_arg0).trans (arg0_kept _)) (run (F := Ideal) m ρ)

end Cert.ReferenceIdeal.Run

end
-- ==== Proof.Names.lean ====
/-
  Names for the stretches of host lines of the two programs, cut where the two voxelizations (dense, then sparse) begin
  and end. In the kernel's program the lines after the call are: the decoding of the dense ids, the decoding of the
  sparse ids, the dense voxelization, the sparse voxelization. In the reference: the dense cell arithmetic, the dense
  voxelization, the sparse cell arithmetic, the sparse voxelization. Each voxelization is cut before its last stretch
  (the one that builds the coordinate table).
-/
import proofs.«414662_j83537113907662_3_alg».proof.Proof.Gen.KernelIdeal.Launch
import proofs.«414662_j83537113907662_3_alg».proof.Proof.RefChain
import Idealize.ShloMosaic.PureOps.Ideal

noncomputable section

namespace Cert.Bridge

open Idealize.ShloMosaic

/-- Buffer contents of the kernel's program and of the reference, at the ideal instance. -/
abbrev VK := Valuation Cert.KernelIdeal.τ Cert.KernelIdeal.sig (Elt Ideal)
abbrev VR := Valuation Cert.ReferenceIdeal.τ Cert.ReferenceIdeal.sig (Elt Ideal)
abbrev OpsK := List (HloOp Cert.KernelIdeal.τ Cert.KernelIdeal.sig (Elt Ideal))
abbrev OpsR := List (HloOp Cert.ReferenceIdeal.τ Cert.ReferenceIdeal.sig (Elt Ideal))

/-- The kernel's program: decoding of the dense ids; of the sparse ids. -/
abbrev KdecD : List OpsK := [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11]
abbrev KdecS : List OpsK := [Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23]
/-- The kernel's program: the dense voxelization but for its last stretch; its last stretch. -/
abbrev KpreD : List OpsK := [Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29, Cert.KernelIdeal.Gen.hostOps1_30, Cert.KernelIdeal.Gen.hostOps1_31, Cert.KernelIdeal.Gen.hostOps1_32, Cert.KernelIdeal.Gen.hostOps1_33, Cert.KernelIdeal.Gen.hostOps1_34, Cert.KernelIdeal.Gen.hostOps1_35, Cert.KernelIdeal.Gen.hostOps1_36, Cert.KernelIdeal.Gen.hostOps1_37, Cert.KernelIdeal.Gen.hostOps1_38, Cert.KernelIdeal.Gen.hostOps1_39, Cert.KernelIdeal.Gen.hostOps1_40, Cert.KernelIdeal.Gen.hostOps1_41, Cert.KernelIdeal.Gen.hostOps1_42, Cert.KernelIdeal.Gen.hostOps1_43, Cert.KernelIdeal.Gen.hostOps1_44, Cert.KernelIdeal.Gen.hostOps1_45, Cert.KernelIdeal.Gen.hostOps1_46, Cert.KernelIdeal.Gen.hostOps1_47]
abbrev KlastD : OpsK := (Cert.KernelIdeal.Gen.hostOps1_48 (F := Ideal)).take 20
/-- The kernel's program: the sparse voxelization but for its last stretch; its last stretch. -/
abbrev KpreS : List OpsK := [(Cert.KernelIdeal.Gen.hostOps1_48 (F := Ideal)).drop 20, Cert.KernelIdeal.Gen.hostOps1_49, Cert.KernelIdeal.Gen.hostOps1_50, Cert.KernelIdeal.Gen.hostOps1_51, Cert.KernelIdeal.Gen.hostOps1_52, Cert.KernelIdeal.Gen.hostOps1_53, Cert.KernelIdeal.Gen.hostOps1_54, Cert.KernelIdeal.Gen.hostOps1_55, Cert.KernelIdeal.Gen.hostOps1_56, Cert.KernelIdeal.Gen.hostOps1_57, Cert.KernelIdeal.Gen.hostOps1_58, Cert.KernelIdeal.Gen.hostOps1_59, Cert.KernelIdeal.Gen.hostOps1_60, Cert.KernelIdeal.Gen.hostOps1_61, Cert.KernelIdeal.Gen.hostOps1_62, Cert.KernelIdeal.Gen.hostOps1_63, Cert.KernelIdeal.Gen.hostOps1_64, Cert.KernelIdeal.Gen.hostOps1_65, Cert.KernelIdeal.Gen.hostOps1_66, Cert.KernelIdeal.Gen.hostOps1_67, Cert.KernelIdeal.Gen.hostOps1_68, Cert.KernelIdeal.Gen.hostOps1_69, Cert.KernelIdeal.Gen.hostOps1_70, Cert.KernelIdeal.Gen.hostOps1_71]
abbrev KlastS : OpsK := Cert.KernelIdeal.Gen.hostOps1_72

/-- The reference: the dense cell arithmetic; the dense voxelization (prefix, last stretch). -/
abbrev RheadD : List OpsR := [Cert.ReferenceIdeal.Gen.hostOps0, Cert.ReferenceIdeal.Gen.hostOps0_1]
abbrev RpreD : List OpsR := [Cert.ReferenceIdeal.Gen.hostOps0_2, Cert.ReferenceIdeal.Gen.hostOps0_3, Cert.ReferenceIdeal.Gen.hostOps0_4, Cert.ReferenceIdeal.Gen.hostOps0_5, Cert.ReferenceIdeal.Gen.hostOps0_6, Cert.ReferenceIdeal.Gen.hostOps0_7, Cert.ReferenceIdeal.Gen.hostOps0_8, Cert.ReferenceIdeal.Gen.hostOps0_9, Cert.ReferenceIdeal.Gen.hostOps0_10, Cert.ReferenceIdeal.Gen.hostOps0_11, Cert.ReferenceIdeal.Gen.hostOps0_12, Cert.ReferenceIdeal.Gen.hostOps0_13, Cert.ReferenceIdeal.Gen.hostOps0_14, Cert.ReferenceIdeal.Gen.hostOps0_15, Cert.ReferenceIdeal.Gen.hostOps0_16, Cert.ReferenceIdeal.Gen.hostOps0_17, Cert.ReferenceIdeal.Gen.hostOps0_18, Cert.ReferenceIdeal.Gen.hostOps0_19, Cert.ReferenceIdeal.Gen.hostOps0_20, Cert.ReferenceIdeal.Gen.hostOps0_21, Cert.ReferenceIdeal.Gen.hostOps0_22, Cert.ReferenceIdeal.Gen.hostOps0_23, Cert.ReferenceIdeal.Gen.hostOps0_24, Cert.ReferenceIdeal.Gen.hostOps0_25]
abbrev RlastD : OpsR := (Cert.ReferenceIdeal.Gen.hostOps0_26 (F := Ideal)).take 20
/-- The reference: the sparse cell arithmetic; the sparse voxelization (prefix, last stretch). -/
abbrev RheadS : List OpsR := [(Cert.ReferenceIdeal.Gen.hostOps0_26 (F := Ideal)).drop 20, Cert.ReferenceIdeal.Gen.hostOps0_27]
abbrev RpreS : List OpsR := [Cert.ReferenceIdeal.Gen.hostOps0_28, Cert.ReferenceIdeal.Gen.hostOps0_29, Cert.ReferenceIdeal.Gen.hostOps0_30, Cert.ReferenceIdeal.Gen.hostOps0_31, Cert.ReferenceIdeal.Gen.hostOps0_32, Cert.ReferenceIdeal.Gen.hostOps0_33, Cert.ReferenceIdeal.Gen.hostOps0_34, Cert.ReferenceIdeal.Gen.hostOps0_35, Cert.ReferenceIdeal.Gen.hostOps0_36, Cert.ReferenceIdeal.Gen.hostOps0_37, Cert.ReferenceIdeal.Gen.hostOps0_38, Cert.ReferenceIdeal.Gen.hostOps0_39, Cert.ReferenceIdeal.Gen.hostOps0_40, Cert.ReferenceIdeal.Gen.hostOps0_41, Cert.ReferenceIdeal.Gen.hostOps0_42, Cert.ReferenceIdeal.Gen.hostOps0_43, Cert.ReferenceIdeal.Gen.hostOps0_44, Cert.ReferenceIdeal.Gen.hostOps0_45, Cert.ReferenceIdeal.Gen.hostOps0_46, Cert.ReferenceIdeal.Gen.hostOps0_47, Cert.ReferenceIdeal.Gen.hostOps0_48, Cert.ReferenceIdeal.Gen.hostOps0_49, Cert.ReferenceIdeal.Gen.hostOps0_50, Cert.ReferenceIdeal.Gen.hostOps0_51]
abbrev RlastS : OpsR := Cert.ReferenceIdeal.Gen.hostOps0_52

end Cert.Bridge

end
-- ==== Proof.ListSplit.lean ====
/-
  A list cut in three (before a position, the element there, the rest) and appended again is the list.
-/
import Mathlib.Data.List.Basic

namespace Cert.Bridge

theorem split3 {α : Type} (l rest : List α) (n : ℕ) :
    l.take n ++ ((l.drop n).take 1 ++ ((l.drop n).drop 1 ++ rest)) = l ++ rest := by
  rw [← List.append_assoc ((l.drop n).take 1), List.take_append_drop, ← List.append_assoc, List.take_append_drop]

theorem split3_nil {α : Type} (l : List α) (n : ℕ) :
    l.take n ++ ((l.drop n).take 1 ++ (l.drop n).drop 1) = l := by
  rw [List.take_append_drop, List.take_append_drop]

end Cert.Bridge
-- ==== Proof.LibScatter.lean ====
/-
  A scatter read at one element of its result.

  The host scatter is the left fold, over the update indices in row-major order, of the step
  "if this update lands inside the operand at `i`, replace the element at `i` by the body applied to
  it and the update's element; otherwise do nothing". The element of the result at a fixed index
  `j` therefore depends only on the operand's element at `j` and on the updates that land at `j`:
  every other update leaves the element at `j` as it was. The lemmas below say so, for every
  dimension record, every body and every element type, and then decode where an update lands
  for the row scatter of a rank-2 update array into a rank-2 operand (`x.at[idx].set(v)` with one
  row index per update row).
-/
import Idealize.ShloMosaic.PureOps
import Idealize.ShloMosaic.Lib.ValueIdx

namespace Cert.LibScatter

open Idealize.ShloMosaic Idealize.ShloMosaic.ValueIdx

variable {s si u : Shape} {w : Nat} {α : Type}

/-- One step of the scatter's fold: update number `n` (row-major) applied to the accumulator `r`. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the fold of `step` over the update numbers. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step read at `j`: the body applied to the element at `j` and the update's element when the
    update lands at `j`, the element at `j` unchanged when it lands elsewhere or nowhere. -/
theorem step_apply (d : ScatterDims s si u) (f : α → α → α) (idx : IVec si w) (upd : u.Idx → α)
    (r : s.Idx → α) (n : Fin u.numel) (j : s.Idx) :
    step d f idx upd r n j =
      if d.resultIdx? (u.rowMajor.symm n) idx = some j then f (r j) (upd (u.rowMajor.symm n)) else r j := by
  unfold step
  cases h : d.resultIdx? (u.rowMajor.symm n) idx with
  | none => simp
  | some i =>
    by_cases hji : j = i
    · subst hji; simp
    · have hij : i ≠ j := fun e => hji e.symm
      simp [hji, hij]

/-- The fold of the scatter's step over ANY list of update numbers, read at `j`, depends only on the
    accumulator's element at `j` and on the updates that land at `j`. -/
theorem foldl_step_congr_at (d : ScatterDims s si u) (f : α → α → α) (idx : IVec si w)
    (upd upd' : u.Idx → α) (j : s.Idx)
    (hupd : ∀ k : u.Idx, d.resultIdx? k idx = some j → upd k = upd' k) (l : List (Fin u.numel)) :
    ∀ r r' : s.Idx → α, r j = r' j →
      l.foldl (step d f idx upd) r j = l.foldl (step d f idx upd') r' j := by
  induction l with
  | nil => intro r r' h; exact h
  | cons n l ih =>
    intro r r' h
    rw [List.foldl_cons, List.foldl_cons]
    apply ih
    rw [step_apply, step_apply]
    by_cases hn : d.resultIdx? (u.rowMajor.symm n) idx = some j
    · rw [if_pos hn, if_pos hn, h, hupd _ hn]
    · rw [if_neg hn, if_neg hn, h]

/-- A scatter's result at an index depends only on the operand's element there and on the updates
    that land there: two scatters through the same indices, whose operands agree at `j` and whose
    update arrays agree at every update landing at `j`, agree at `j`. -/
theorem scatter_congr_at (d : ScatterDims s si u) (f : α → α → α) (x x' : s.Idx → α) (idx : IVec si w)
    (upd upd' : u.Idx → α) (j : s.Idx)
    (hx : x j = x' j)
    (hupd : ∀ k : u.Idx, d.resultIdx? k idx = some j → upd k = upd' k) :
    Host.scatter d f x idx upd j = Host.scatter d f x' idx upd' j := by
  rw [scatter_eq_foldl, scatter_eq_foldl]
  exact foldl_step_congr_at d f idx upd upd' j hupd _ x x' hx

/-- The fold of the scatter's step over any list of update numbers leaves alone an element no
    update lands at. -/
theorem foldl_step_untouched (d : ScatterDims s si u) (f : α → α → α) (idx : IVec si w)
    (upd : u.Idx → α) (j : s.Idx)
    (hj : ∀ k : u.Idx, d.resultIdx? k idx ≠ some j) (l : List (Fin u.numel)) :
    ∀ r : s.Idx → α, l.foldl (step d f idx upd) r j = r j := by
  induction l with
  | nil => intro r; rfl
  | cons n l ih =>
    intro r
    rw [List.foldl_cons, ih, step_apply, if_neg (hj _)]

/-- A scatter leaves alone an element no update lands at: there the result is the operand. -/
theorem scatter_untouched (d : ScatterDims s si u) (f : α → α → α) (x : s.Idx → α) (idx : IVec si w)
    (upd : u.Idx → α) (j : s.Idx)
    (hj : ∀ k : u.Idx, d.resultIdx? k idx ≠ some j) :
    Host.scatter d f x idx upd j = x j := by
  rw [scatter_eq_foldl]
  exact foldl_step_untouched d f idx upd j hj _ x

/-! ## The row scatter: rank-2 updates into a rank-2 operand, one row index per update row

The operand is `R × C`, the scatter indices `N × 1` and the updates `N × C`; the updates' axis 1 is
the window axis, the operand's axis 0 is inserted and is the one the index vector (of length one,
on the indices' axis 1) addresses: update `(p, q)` lands in row `idx (p, 0)` (read signed), column
`q`, when that row is inside the operand. -/

section RowScatter
variable {R C N : Nat}

/-- The dimension record of the row scatter, from its well-formedness. -/
abbrev rowDims (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ :=
  { updateWindowDims := [1], insertedWindowDims := [0], scatterDimsToOperandDims := [0], indexVectorDim := 1, wf := wf }

/-- The coordinate of `(p, q)` on an axis that is axis 1 is `q`. -/
theorem ix2_val_of_eq1 (p : Fin N) (q : Fin C) (X : Fin 2) (hX : X = 1) :
    ((ix2 p q : (⟨2, ![N, C]⟩ : Shape).Idx) X).val = q.val := by subst hX; rfl

/-- On the operand's row axis (inserted) the window coordinate is zero. -/
theorem row_window0 (wf) (p : Fin N) (q : Fin C) :
    (rowDims (R := R) wf).window (ix2 p q) 0 = 0 := by
  unfold ScatterDims.window
  have h : (0 : Fin 2) ∉ (rowDims (R := R) (C := C) (N := N) wf).sKept :=
    (show (0 : Fin 2) ∉ ([1] : List (Fin 2)) by decide)
  rw [dif_neg h]

/-- On the operand's column axis the window coordinate is the update's column. -/
theorem row_window1 (wf) (p : Fin N) (q : Fin C) :
    (rowDims (R := R) wf).window (ix2 p q) 1 = q.val := by
  unfold ScatterDims.window
  have h : (1 : Fin 2) ∈ (rowDims (R := R) (C := C) (N := N) wf).sKept :=
    (show (1 : Fin 2) ∈ ([1] : List (Fin 2)) by decide)
  rw [dif_pos h]
  exact ix2_val_of_eq1 p q _ rfl

/-- On the operand's column axis, which the index vector does not address, the start is zero. -/
theorem row_start1 (wf) (idx : IVec ⟨2, ![N, 1]⟩ w) (p : Fin N) (q : Fin C) :
    (rowDims (R := R) wf).start (ix2 p q) idx 1 = 0 := by
  unfold ScatterDims.start
  rw [dif_neg (show (1 : Fin 2) ∉ ([0] : List (Fin 2)) by decide)]

/-- Update `(p, q)` reads its (one-component) start index at `(p, 0)` of the scatter indices. -/
theorem row_siIdx (wf) (p : Fin N) (q : Fin C) (c) :
    (rowDims (R := R) wf).siIdx (ix2 p q) c = ix2 p (0 : Fin 1) := by
  funext b
  match b with
  | ⟨0, _⟩ => rfl
  | ⟨1, _⟩ =>
    apply Fin.ext
    show c.val = 0
    have hc : c.val < 1 := c.isLt
    omega

/-- On the operand's row axis the start is the scatter index at `(p, 0)`, read signed. -/
theorem row_start0 (wf) (idx : IVec ⟨2, ![N, 1]⟩ w) (p : Fin N) (q : Fin C) :
    (rowDims (R := R) wf).start (ix2 p q) idx 0 = (idx (ix2 p (0 : Fin 1))).toInt := by
  unfold ScatterDims.start
  rw [dif_pos (show (0 : Fin 2) ∈ ([0] : List (Fin 2)) by decide), row_siIdx]

/-- Where an update of the row scatter lands (the record given by its fields): if update `(p, q)`
    lands at `j`, then `j`'s row is the signed value of the scatter index at `(p, 0)` — which is
    therefore a row of the operand — and `j`'s column is `q`. -/
theorem row_resultIdx?_some (wf) (idx : IVec ⟨2, ![N, 1]⟩ w) (p : Fin N) (q : Fin C)
    (j : (⟨2, ![R, C]⟩ : Shape).Idx)
    (h : (rowDims (R := R) wf).resultIdx? (ix2 p q) idx = some j) :
    ((j 0).val : Int) = (idx (ix2 p (0 : Fin 1))).toInt ∧ j 1 = q := by
  unfold ScatterDims.resultIdx? at h
  split at h
  · rename_i hc
    have hj := Option.some.inj h
    subst hj
    have h0 := (hc 0).1
    rw [row_start0, row_window0] at h0
    refine ⟨?_, ?_⟩
    · show (((rowDims (R := R) wf).start (ix2 p q) idx 0 + ((rowDims (R := R) wf).window (ix2 p q) 0 : Nat)).toNat : Int) = _
      rw [row_start0, row_window0]
      omega
    · apply Fin.ext
      show ((rowDims (R := R) wf).start (ix2 p q) idx 1 + ((rowDims (R := R) wf).window (ix2 p q) 1 : Nat)).toNat = q.val
      rw [row_start1, row_window1]
      omega
  · exact absurd h (by simp)

/-- Where an update of the row scatter lands, for ANY dimension record with the row scatter's
    fields (window axis 1 of the updates, operand axis 0 inserted and addressed, index vector on
    the indices' axis 1): if update `(p, q)` lands at `j`, then `j`'s row is the signed value of the
    scatter index at `(p, 0)` and `j`'s column is `q`. -/
theorem resultIdx?_row_scatter (d : ScatterDims ⟨2, ![R, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (idx : IVec ⟨2, ![N, 1]⟩ w) (p : Fin N) (q : Fin C) (j : (⟨2, ![R, C]⟩ : Shape).Idx)
    (h : d.resultIdx? (ix2 p q) idx = some j) :
    ((j 0).val : Int) = (idx (ix2 p (0 : Fin 1))).toInt ∧ j 1 = q := by
  obtain ⟨uw, iw, sd, iv, wf⟩ := d
  dsimp only at huw hiw hsd hiv
  subst huw hiw hsd hiv
  exact row_resultIdx?_some wf idx p q j h

/-- The row scatter read at `(a, b)`: two row scatters through the same indices agree at `(a, b)`
    when their operands agree there and their update arrays agree at `(p, b)` for every update row
    `p` whose scatter index (read signed) is the row `a`. -/
theorem row_scatter_congr_at {α : Type} (d : ScatterDims ⟨2, ![R, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (f : α → α → α) (x x' : (⟨2, ![R, C]⟩ : Shape).Idx → α) (idx : IVec ⟨2, ![N, 1]⟩ w)
    (upd upd' : (⟨2, ![N, C]⟩ : Shape).Idx → α) (a : Fin R) (b : Fin C)
    (hx : x (ix2 a b) = x' (ix2 a b))
    (hupd : ∀ p : Fin N, (idx (ix2 p (0 : Fin 1))).toInt = (a.val : Int) → upd (ix2 p b) = upd' (ix2 p b)) :
    Host.scatter d f x idx upd (ix2 a b) = Host.scatter d f x' idx upd' (ix2 a b) := by
  apply scatter_congr_at d f x x' idx upd upd' (ix2 a b) hx
  intro k hk
  rw [eq_ix2 k] at hk ⊢
  obtain ⟨h0, h1⟩ := resultIdx?_row_scatter d huw hiw hsd hiv idx (k 0) (k 1) (ix2 a b) hk
  have h1' : b = k 1 := h1
  rw [← h1']
  exact hupd (k 0) h0.symm

/-- The row scatter leaves `(a, b)` alone when no update row's scatter index (read signed) is the
    row `a`: there the result is the operand. -/
theorem row_scatter_untouched {α : Type} (d : ScatterDims ⟨2, ![R, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (f : α → α → α) (x : (⟨2, ![R, C]⟩ : Shape).Idx → α) (idx : IVec ⟨2, ![N, 1]⟩ w)
    (upd : (⟨2, ![N, C]⟩ : Shape).Idx → α) (a : Fin R) (b : Fin C)
    (hne : ∀ p : Fin N, (idx (ix2 p (0 : Fin 1))).toInt ≠ (a.val : Int)) :
    Host.scatter d f x idx upd (ix2 a b) = x (ix2 a b) := by
  apply scatter_untouched d f x idx upd (ix2 a b)
  intro k hk
  rw [eq_ix2 k] at hk
  obtain ⟨h0, _⟩ := resultIdx?_row_scatter d huw hiw hsd hiv idx (k 0) (k 1) (ix2 a b) hk
  exact hne (k 0) h0.symm

end RowScatter

end Cert.LibScatter
-- ==== Proof.Coors.lean ====
/-
  The coordinate tables of the two voxelizations, and the dump row.

  Each voxelization ends by building its coordinate table: every point carries a slot (the row of
  the table it is written to), the slot array is normalised the way an indexed update does (a
  negative slot counts from the end), and the points' coordinate triples are written, row by row,
  into a zero table with one row more than is kept; then the extra last row is cut off and the
  columns are reversed. A point that is not to appear is given the slot of that extra row (the
  dump row), so whatever triple it carries is cut off with the row.

  Two facts are proved here for each voxelization. (1) The table depends on the coordinate array
  only at the points whose slot is not the dump row. (2) A point whose validity bit is clear gets
  the dump row as its slot: the slot is selected by a condition that is a conjunction with the
  validity bit.
-/
import proofs.«414662_j83537113907662_3_alg».proof.Proof.Names
import proofs.«414662_j83537113907662_3_alg».proof.Proof.LibScatter
import Idealize.ShloMosaic.Lib.StableHlo.Run
import Idealize.ShloMosaic.Lib.ValueIdx
import Idealize.ShloMosaic.Lib.ValueLayout
import Idealize.ShloMosaic.Lib.Pipeline.Value

noncomputable section

namespace Cert.Bridge.Coors

open Idealize.ShloMosaic Idealize.ShloMosaic.ValueIdx Idealize.ShloMosaic.StableHlo
open Cert.KernelIdeal Cert.KernelIdeal.Gen

/-! ## The coordinate table: scatter rows, keep the leading rows, reverse the columns -/

section Table
variable {R R' N C : Nat} {α : Type}

/-- A rank-1 array broadcast along a new trailing unit axis, read at `(p, 0)`, is the array at `p`. -/
theorem bcast_col_apply (hb : (⟨1, ![N]⟩ : Shape).BroadcastsInDim ⟨2, ![N, 1]⟩ ![0])
    (i1 : (⟨1, ![N]⟩ : Shape).Idx → α) (p : Fin N) :
    broadcastInDim ⟨2, ![N, 1]⟩ ![0] hb i1 (ix2 p (0 : Fin 1)) = i1 (ix1 p) := by
  refine broadcastInDim_apply _ hb i1 _ _ fun a => ?_
  match a with
  | ⟨0, _⟩ =>
    show p.val = if N = 1 then 0 else p.val
    have := p.isLt
    split <;> omega

/-- The table a row scatter builds, cut to its leading `R` rows and with its columns reversed,
    depends on the scattered rows only through the update rows whose index lands among the kept
    rows: two update arrays that agree on every update row `p` whose (signed) index is a kept row
    give the same table. Update rows sent to a row that the cut drops, or outside the operand, do
    not matter. -/
theorem table_congr (d : ScatterDims ⟨2, ![R', C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (f : α → α → α) (x : (⟨2, ![R', C]⟩ : Shape).Idx → α)
    (hb : (⟨1, ![N]⟩ : Shape).BroadcastsInDim ⟨2, ![N, 1]⟩ ![0]) (i1 : IVec ⟨1, ![N]⟩ 32)
    (hs : (⟨2, ![R', C]⟩ : Shape).Slices ![0, 0] ⟨2, ![R, C]⟩)
    (c c' : (⟨2, ![N, C]⟩ : Shape).Idx → α)
    (H : ∀ p : Fin N, 0 ≤ (i1 (ix1 p)).toInt → (i1 (ix1 p)).toInt < (R : Int) → ∀ q : Fin C, c (ix2 p q) = c' (ix2 p q)) :
    Host.reverse [1] (extractStridedSlice ⟨2, ![R, C]⟩ ![0, 0]
        (Host.scatter d f x (broadcastInDim ⟨2, ![N, 1]⟩ ![0] hb i1) c) hs)
      = Host.reverse [1] (extractStridedSlice ⟨2, ![R, C]⟩ ![0, 0]
        (Host.scatter d f x (broadcastInDim ⟨2, ![N, 1]⟩ ![0] hb i1) c') hs) := by
  refine congrArg (Host.reverse [1]) ?_
  funext j
  obtain ⟨a, b, rfl⟩ : ∃ a b, j = ix2 a b := ⟨j 0, j 1, eq_ix2 j⟩
  have hR : R ≤ R' := by
    have := hs.2 0
    simpa using this
  have ha : a.val < R' := lt_of_lt_of_le a.isLt hR
  rw [slice2_axis0_apply 0 _ hs a b ⟨a.val, ha⟩ (by simp), slice2_axis0_apply 0 _ hs a b ⟨a.val, ha⟩ (by simp)]
  refine Cert.LibScatter.row_scatter_congr_at d huw hiw hsd hiv f x x _ c c' ⟨a.val, ha⟩ b rfl ?_
  intro p hp
  rw [bcast_col_apply] at hp
  have hp' : (i1 (ix1 p)).toInt = (a.val : Int) := hp
  have := a.isLt
  exact H p (by omega) (by omega) b

end Table

/-- The dense voxelization's last stretch builds the same coordinate table from two buffer
    contents that hold the same slot array and whose point-coordinate arrays agree at every point
    not sent to the dump row 12000: a point sent there is written to the row the cut drops, and
    every other point lands (if at all) by its own slot, with its own coordinates. -/
theorem lastD_coors (V V' : Cert.Bridge.VK)
    (hs : V (Proc.devRef .tc Cert.KernelIdeal.main_v141) = V' (Proc.devRef .tc Cert.KernelIdeal.main_v141))
    (H : ∀ p : Fin 2000000,
      (V (Proc.devRef .tc Cert.KernelIdeal.main_v141) : Cert.KernelIdeal.S2000000.Idx → BitVec 32) (ValueIdx.ix1 p) = 12000#32 ∨
      ∀ q : Fin 3, (V (Proc.devRef .tc Cert.KernelIdeal.main_v19) : Cert.KernelIdeal.S2000000x3.Idx → BitVec 32) (ValueIdx.ix2 p q)
        = (V' (Proc.devRef .tc Cert.KernelIdeal.main_v19) : Cert.KernelIdeal.S2000000x3.Idx → BitVec 32) (ValueIdx.ix2 p q)) :
    StableHlo.after Cert.Bridge.KlastD V (Proc.devRef .tc Cert.KernelIdeal.main_v155)
      = StableHlo.after Cert.Bridge.KlastD V' (Proc.devRef .tc Cert.KernelIdeal.main_v155) := by
  simp only [Cert.Bridge.KlastD, hostOps1_48, List.take_succ_cons, List.take_zero]
  after_results_simp
  rw [← hs]
  refine table_congr _ rfl rfl rfl rfl _ _ _ _ _ _ _ ?_
  intro p h0 h1 q
  rcases H p with hd | hq
  · exfalso
    have e : (select (cmpi CmpIPredicate.slt (V (Proc.devRef .tc main_v141))
                (broadcastInDim S2000000 ![] bcast_S_S2000000 (constantI S_ 32 0#32)))
              (addi (V (Proc.devRef .tc main_v141))
                (broadcastInDim S2000000 ![] bcast_S_S2000000 (constantI S_ 32 12001#32)))
              (V (Proc.devRef .tc main_v141)) : S2000000.Idx → BitVec 32) (ix1 p) = 12000#32 := by
      show Scalar.select (IntOp.cmpi CmpIPredicate.slt ((V (Proc.devRef .tc main_v141) : S2000000.Idx → BitVec 32) (ix1 p)) 0#32)
          (IntOp.addi ((V (Proc.devRef .tc main_v141) : S2000000.Idx → BitVec 32) (ix1 p)) 12001#32)
          ((V (Proc.devRef .tc main_v141) : S2000000.Idx → BitVec 32) (ix1 p)) = 12000#32
      rw [hd]
      decide
    rw [e] at h1
    revert h1
    decide
  · exact hq q

/-- The sparse voxelization's last stretch builds the same coordinate table from two buffer
    contents that hold the same slot array and whose point-coordinate arrays agree at every point
    not sent to the dump row 6000: a point sent there is written to the row the cut drops, and
    every other point lands (if at all) by its own slot, with its own coordinates. -/
theorem lastS_coors (V V' : Cert.Bridge.VK)
    (hs : V (Proc.devRef .tc Cert.KernelIdeal.main_v263) = V' (Proc.devRef .tc Cert.KernelIdeal.main_v263))
    (H : ∀ p : Fin 2000000,
      (V (Proc.devRef .tc Cert.KernelIdeal.main_v263) : Cert.KernelIdeal.S2000000.Idx → BitVec 32) (ValueIdx.ix1 p) = 6000#32 ∨
      ∀ q : Fin 3, (V (Proc.devRef .tc Cert.KernelIdeal.main_v34) : Cert.KernelIdeal.S2000000x3.Idx → BitVec 32) (ValueIdx.ix2 p q)
        = (V' (Proc.devRef .tc Cert.KernelIdeal.main_v34) : Cert.KernelIdeal.S2000000x3.Idx → BitVec 32) (ValueIdx.ix2 p q)) :
    StableHlo.after Cert.Bridge.KlastS V (Proc.devRef .tc Cert.KernelIdeal.main_v277)
      = StableHlo.after Cert.Bridge.KlastS V' (Proc.devRef .tc Cert.KernelIdeal.main_v277) := by
  simp only [Cert.Bridge.KlastS, hostOps1_72]
  after_results_simp
  rw [← hs]
  refine table_congr _ rfl rfl rfl rfl _ _ _ _ _ _ _ ?_
  intro p h0 h1 q
  rcases H p with hd | hq
  · exfalso
    have e : (select (cmpi CmpIPredicate.slt (V (Proc.devRef .tc main_v263))
                (broadcastInDim S2000000 ![] bcast_S_S2000000 (constantI S_ 32 0#32)))
              (addi (V (Proc.devRef .tc main_v263))
                (broadcastInDim S2000000 ![] bcast_S_S2000000 (constantI S_ 32 6001#32)))
              (V (Proc.devRef .tc main_v263)) : S2000000.Idx → BitVec 32) (ix1 p) = 6000#32 := by
      show Scalar.select (IntOp.cmpi CmpIPredicate.slt ((V (Proc.devRef .tc main_v263) : S2000000.Idx → BitVec 32) (ix1 p)) 0#32)
          (IntOp.addi ((V (Proc.devRef .tc main_v263) : S2000000.Idx → BitVec 32) (ix1 p)) 6001#32)
          ((V (Proc.devRef .tc main_v263) : S2000000.Idx → BitVec 32) (ix1 p)) = 6000#32
      rw [hd]
      decide
    rw [e] at h1
    revert h1
    decide
  · exact hq q

/-! ## The dump row of the dense voxelization -/

/-- The stretches of the dense voxelization between the one that forms the point's bit and the one
    that forms the slot's condition. -/
abbrev midD : List Cert.Bridge.OpsK := [hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45]

/-- The first two stretches do not write the validity bit. -/
theorem preD (W : Cert.Bridge.VK) :
    StableHlo.after (hostOps1_25 (F := Ideal)) (StableHlo.after (hostOps1_24 (F := Ideal)) W) (Proc.devRef .tc main_v8) = W (Proc.devRef .tc main_v8) := by
  after_results_simp

/-- The point's bit is a conjunction with the validity bit: clear where that is clear. -/
theorem bitD (W : Cert.Bridge.VK) (p : Fin 2000000)
    (h : (W (Proc.devRef .tc main_v8) : S2000000.Idx → BitVec 1) (ix1 p) = 0#1) :
    (StableHlo.after (hostOps1_26 (F := Ideal)) W (Proc.devRef .tc main_v53) : S2000000.Idx → BitVec 1) (ix1 p) = 0#1 := by
  after_results_simp
  show IntOp.andi ((W (Proc.devRef .tc main_v8) : S2000000.Idx → BitVec 1) (ix1 p)) _ = 0#1
  rw [h]
  exact BitVec.zero_and

/-- The stretches in between do not write the point's bit. -/
theorem keepD (W : Cert.Bridge.VK) :
    StableHlo.after midD.flatten W (Proc.devRef .tc main_v53) = W (Proc.devRef .tc main_v53) := by
  simp only [midD, List.flatten_cons, List.flatten_nil, List.append_nil, StableHlo.after_append]
  after_results_simp

/-- The slot's condition is a conjunction with the point's bit: clear where that is clear. -/
theorem condD (W : Cert.Bridge.VK) (p : Fin 2000000)
    (h : (W (Proc.devRef .tc main_v53) : S2000000.Idx → BitVec 1) (ix1 p) = 0#1) :
    (StableHlo.after (hostOps1_46 (F := Ideal)) W (Proc.devRef .tc main_v140) : S2000000.Idx → BitVec 1) (ix1 p) = 0#1 := by
  after_results_simp
  show IntOp.andi ((W (Proc.devRef .tc main_v53) : S2000000.Idx → BitVec 1) (ix1 p)) _ = 0#1
  rw [h]
  exact BitVec.zero_and

/-- The same stretch sets the constant the dump row is read from. -/
theorem constD (W : Cert.Bridge.VK) :
    StableHlo.after (hostOps1_46 (F := Ideal)) W (Proc.devRef .tc main_c_50) = constantI S_ 32 12000#32 := by
  after_results_simp

/-- The slot is selected by the condition between the point's own slot and the dump row: where
    the condition is clear it is the dump row. -/
theorem slotD (W : Cert.Bridge.VK) (p : Fin 2000000)
    (h : (W (Proc.devRef .tc main_v140) : S2000000.Idx → BitVec 1) (ix1 p) = 0#1)
    (hc : W (Proc.devRef .tc main_c_50) = constantI S_ 32 12000#32) :
    (StableHlo.after (hostOps1_47 (F := Ideal)) W (Proc.devRef .tc main_v141) : S2000000.Idx → BitVec 32) (ix1 p) = 12000#32 := by
  after_results_simp
  show Scalar.select ((W (Proc.devRef .tc main_v140) : S2000000.Idx → BitVec 1) (ix1 p))
      ((W (Proc.devRef .tc main_v77) : S2000000.Idx → BitVec 32) (ix1 p))
      ((W (Proc.devRef .tc main_c_50) : S_.Idx → BitVec 32) _) = 12000#32
  rw [h, select_zero, hc]
  rfl

/-- A point whose validity bit is clear is given the dump row 12000 as its slot. -/
theorem dumpD (W : Cert.Bridge.VK) (p : Fin 2000000)
    (hv : (W (Proc.devRef .tc Cert.KernelIdeal.main_v8) : Cert.KernelIdeal.S2000000.Idx → BitVec 1) (ValueIdx.ix1 p) = 0#1) :
    (StableHlo.after Cert.Bridge.KpreD.flatten W (Proc.devRef .tc Cert.KernelIdeal.main_v141) : Cert.KernelIdeal.S2000000.Idx → BitVec 32) (ValueIdx.ix1 p) = 12000#32 := by
  have e : Cert.Bridge.KpreD.flatten
      = (hostOps1_24 (F := Ideal)) ++ ((hostOps1_25 (F := Ideal)) ++ (hostOps1_26 ++ (midD.flatten ++ (hostOps1_46 ++ hostOps1_47)))) := by
    simp only [Cert.Bridge.KpreD, midD, List.flatten_cons, List.flatten_nil, List.append_nil, List.append_assoc]
  rw [e]
  simp only [StableHlo.after_append]
  refine slotD _ p (condD _ p ?_) (constD _)
  rw [keepD]
  refine bitD _ p ?_
  rw [preD]
  exact hv

/-! ## The dump row of the sparse voxelization -/

/-- The stretches of the sparse voxelization between the one that forms the point's bit and the one
    that forms the slot's condition. -/
abbrev midS : List Cert.Bridge.OpsK := [hostOps1_51, hostOps1_52, hostOps1_53, hostOps1_54, hostOps1_55, hostOps1_56, hostOps1_57, hostOps1_58, hostOps1_59, hostOps1_60, hostOps1_61, hostOps1_62, hostOps1_63, hostOps1_64, hostOps1_65, hostOps1_66, hostOps1_67, hostOps1_68, hostOps1_69]

/-- The first two stretches do not write the validity bit. -/
theorem preS (W : Cert.Bridge.VK) :
    StableHlo.after (hostOps1_49 (F := Ideal)) (StableHlo.after ((hostOps1_48 (F := Ideal)).drop 20) W) (Proc.devRef .tc main_v23) = W (Proc.devRef .tc main_v23) := by
  simp only [hostOps1_48, List.drop_succ_cons, List.drop_zero]
  after_results_simp

/-- The point's bit is a conjunction with the validity bit: clear where that is clear. -/
theorem bitS (W : Cert.Bridge.VK) (p : Fin 2000000)
    (h : (W (Proc.devRef .tc main_v23) : S2000000.Idx → BitVec 1) (ix1 p) = 0#1) :
    (StableHlo.after (hostOps1_50 (F := Ideal)) W (Proc.devRef .tc main_v175) : S2000000.Idx → BitVec 1) (ix1 p) = 0#1 := by
  after_results_simp
  show IntOp.andi ((W (Proc.devRef .tc main_v23) : S2000000.Idx → BitVec 1) (ix1 p)) _ = 0#1
  rw [h]
  exact BitVec.zero_and

/-- The stretches in between do not write the point's bit. -/
theorem keepS (W : Cert.Bridge.VK) :
    StableHlo.after midS.flatten W (Proc.devRef .tc main_v175) = W (Proc.devRef .tc main_v175) := by
  simp only [midS, List.flatten_cons, List.flatten_nil, List.append_nil, StableHlo.after_append]
  after_results_simp

/-- The slot's condition is a conjunction with the point's bit: clear where that is clear. -/
theorem condS (W : Cert.Bridge.VK) (p : Fin 2000000)
    (h : (W (Proc.devRef .tc main_v175) : S2000000.Idx → BitVec 1) (ix1 p) = 0#1) :
    (StableHlo.after (hostOps1_70 (F := Ideal)) W (Proc.devRef .tc main_v262) : S2000000.Idx → BitVec 1) (ix1 p) = 0#1 := by
  after_results_simp
  show IntOp.andi ((W (Proc.devRef .tc main_v175) : S2000000.Idx → BitVec 1) (ix1 p)) _ = 0#1
  rw [h]
  exact BitVec.zero_and

/-- The same stretch sets the constant the dump row is read from. -/
theorem constS (W : Cert.Bridge.VK) :
    StableHlo.after (hostOps1_70 (F := Ideal)) W (Proc.devRef .tc main_c_94) = constantI S_ 32 6000#32 := by
  after_results_simp

/-- The slot is selected by the condition between the point's own slot and the dump row: where
    the condition is clear it is the dump row. -/
theorem slotS (W : Cert.Bridge.VK) (p : Fin 2000000)
    (h : (W (Proc.devRef .tc main_v262) : S2000000.Idx → BitVec 1) (ix1 p) = 0#1)
    (hc : W (Proc.devRef .tc main_c_94) = constantI S_ 32 6000#32) :
    (StableHlo.after (hostOps1_71 (F := Ideal)) W (Proc.devRef .tc main_v263) : S2000000.Idx → BitVec 32) (ix1 p) = 6000#32 := by
  after_results_simp
  show Scalar.select ((W (Proc.devRef .tc main_v262) : S2000000.Idx → BitVec 1) (ix1 p))
      ((W (Proc.devRef .tc main_v199) : S2000000.Idx → BitVec 32) (ix1 p))
      ((W (Proc.devRef .tc main_c_94) : S_.Idx → BitVec 32) _) = 6000#32
  rw [h, select_zero, hc]
  rfl

/-- A point whose validity bit is clear is given the dump row 6000 as its slot. -/
theorem dumpS (W : Cert.Bridge.VK) (p : Fin 2000000)
    (hv : (W (Proc.devRef .tc Cert.KernelIdeal.main_v23) : Cert.KernelIdeal.S2000000.Idx → BitVec 1) (ValueIdx.ix1 p) = 0#1) :
    (StableHlo.after Cert.Bridge.KpreS.flatten W (Proc.devRef .tc Cert.KernelIdeal.main_v263) : Cert.KernelIdeal.S2000000.Idx → BitVec 32) (ValueIdx.ix1 p) = 6000#32 := by
  have e : Cert.Bridge.KpreS.flatten
      = ((hostOps1_48 (F := Ideal)).drop 20) ++ ((hostOps1_49 (F := Ideal)) ++ (hostOps1_50 ++ (midS.flatten ++ (hostOps1_70 ++ hostOps1_71)))) := by
    simp only [Cert.Bridge.KpreS, midS, List.flatten_cons, List.flatten_nil, List.append_nil, List.append_assoc]
  rw [e]
  simp only [StableHlo.after_append]
  refine slotS _ p (condS _ p ?_) (constS _)
  rw [keepS]
  refine bitS _ p ?_
  rw [preS]
  exact hv

end Cert.Bridge.Coors
-- ==== Proof.KeptBase.lean ====
/-
  Bookkeeping for the final assembly, at the ideal instance. What it takes for a host operation to leave a list of
  buffers alone, and how that is read stretch by stretch and then over a run of stretches; how the two programs'
  operation lists split into the named runs (the decodings, the cell arithmetic, the two voxelizations, each cut
  before its last stretch); and that no line of the kernel's program after the call writes the argument.
-/
import proofs.«414662_j83537113907662_3_alg».proof.Proof.Names
import proofs.«414662_j83537113907662_3_alg».proof.Proof.KTail
import proofs.«414662_j83537113907662_3_alg».proof.Proof.RefRun
import Idealize.ShloMosaic.Lib.StableHlo.Run
import Idealize.ShloMosaic.Lib.Pipeline.Frame

noncomputable section

namespace Cert.Bridge.Kept

open Idealize.ShloMosaic
open Cert.Bridge

/-! ## An operation that leaves a list of buffers alone -/

section General

variable {τ : Topo} {sig : RefSig} {Val : EltTy → Type}

/-- The operation writes none of the listed buffers. -/
def KeepsAll (bs : List (Ref sig .tc)) (op : HloOp τ sig Val) : Prop :=
  ∀ b ∈ bs, Proc.devRef (τ := τ) .tc b ∉ op.writes

/-- An operation whose one written buffer `y` is none of the listed ones keeps them all (the comparison of `y` with the
    listed references stated as one Boolean, which evaluates reference by reference). -/
theorem keepsAll_of {bs : List (Ref sig .tc)} {op : HloOp τ sig Val} {y : Ref sig .tc}
    (h : op.writes = {Proc.devRef .tc y}) (hy : (bs.all fun b => decide (b ≠ y)) = true) : KeepsAll bs op :=
  fun b hb => by
    rw [h, Finset.mem_singleton]
    exact StableHlo.devRef_ne_of_ne (of_decide_eq_true (List.all_eq_true.mp hy b hb))

/-- A stretch whose operations all keep the listed buffers leaves each of them as it finds it. -/
theorem kept_list {bs : List (Ref sig .tc)} (l : List (HloOp τ sig Val)) (h : l.Forall (KeepsAll bs))
    (b : Ref sig .tc) (hb : b ∈ bs) (W : Valuation τ sig Val) :
    StableHlo.after l W (Proc.devRef .tc b) = W (Proc.devRef .tc b) :=
  StableHlo.after_of_forall_not_mem l W fun op hop => List.forall_iff_forall_mem.mp h op hop b hb

/-- So does a run of such stretches, one after the other. -/
theorem kept_flatten {bs : List (Ref sig .tc)} (L : List (List (HloOp τ sig Val)))
    (h : L.Forall fun l => l.Forall (KeepsAll bs)) (b : Ref sig .tc) (hb : b ∈ bs) (W : Valuation τ sig Val) :
    StableHlo.after L.flatten W (Proc.devRef .tc b) = W (Proc.devRef .tc b) :=
  StableHlo.after_of_forall_not_mem _ W fun op hop => by
    obtain ⟨l, hl, hop'⟩ := List.mem_flatten.mp hop
    exact List.forall_iff_forall_mem.mp (List.forall_iff_forall_mem.mp h l hl) op hop' b hb

/-- A buffer no operation of a list writes is written by none of a part of the list. -/
theorem not_mem_of_sublist {b : DevRef τ sig} {l l' : List (HloOp τ sig Val)} (h : ∀ op ∈ l, b ∉ op.writes)
    (hs : ∀ op ∈ l', op ∈ l) (W : Valuation τ sig Val) : StableHlo.after l' W b = W b :=
  StableHlo.after_of_forall_not_mem l' W fun op hop => h op (hs op hop)

end General

/-- Operation by operation down a stretch: each writes its own result, a reference told apart from the listed ones by
    comparing references. -/
macro "keeps_all" : tactic =>
  `(tactic| (simp only [List.take_succ_cons, List.take_zero, List.drop_succ_cons, List.drop_zero, List.Forall]
             repeat (first | exact keepsAll_of rfl (by decide) | refine And.intro (keepsAll_of rfl (by decide)) ?_)))

/-! ## How the two programs' operation lists split -/

/-- A list of lists cut into three runs, a list cut in two at `n` whose second part begins a fourth run, and a last list:
    the concatenation is the concatenation of the parts. -/
theorem flatten_cut₁ {α : Type} (A B C : List (List α)) (x : List α) (D : List (List α)) (y : List α) (n : Nat) :
    (A ++ (B ++ (C ++ (x :: (D ++ [y]))))).flatten
      = A.flatten ++ (B.flatten ++ (C.flatten ++ (x.take n ++ ((x.drop n :: D).flatten ++ y)))) := by
  simp only [List.flatten_append, List.flatten_cons, List.flatten_nil, List.append_nil, List.append_assoc]
  rw [← List.append_assoc (List.take n x) (List.drop n x), List.take_append_drop]

/-- The same with the cut list after the second run and a run between the cut list's company and the last list. -/
theorem flatten_cut₂ {α : Type} (A B : List (List α)) (x : List α) (D E : List (List α)) (y : List α) (n : Nat) :
    (A ++ (B ++ (x :: (D ++ (E ++ [y]))))).flatten
      = A.flatten ++ (B.flatten ++ (x.take n ++ ((x.drop n :: D).flatten ++ (E.flatten ++ y)))) := by
  simp only [List.flatten_append, List.flatten_cons, List.flatten_nil, List.append_nil, List.append_assoc]
  rw [← List.append_assoc (List.take n x) (List.drop n x), List.take_append_drop]

/-- The kernel's host lines after the call: the two decodings, then the two voxelizations, each cut before its last
    stretch (the stretch that ends the dense one also begins the sparse one: cut after its twentieth line). -/
theorem K_split : (Cert.KernelIdeal.Body.tailStretches (F := Ideal)).flatten
    = KdecD.flatten ++ (KdecS.flatten ++ (KpreD.flatten ++ (KlastD ++ (KpreS.flatten ++ KlastS)))) :=
  flatten_cut₁ KdecD KdecS KpreD (Cert.KernelIdeal.Gen.hostOps1_48 (F := Ideal))
    [Cert.KernelIdeal.Gen.hostOps1_49, Cert.KernelIdeal.Gen.hostOps1_50, Cert.KernelIdeal.Gen.hostOps1_51, Cert.KernelIdeal.Gen.hostOps1_52, Cert.KernelIdeal.Gen.hostOps1_53, Cert.KernelIdeal.Gen.hostOps1_54, Cert.KernelIdeal.Gen.hostOps1_55, Cert.KernelIdeal.Gen.hostOps1_56, Cert.KernelIdeal.Gen.hostOps1_57, Cert.KernelIdeal.Gen.hostOps1_58, Cert.KernelIdeal.Gen.hostOps1_59, Cert.KernelIdeal.Gen.hostOps1_60, Cert.KernelIdeal.Gen.hostOps1_61, Cert.KernelIdeal.Gen.hostOps1_62, Cert.KernelIdeal.Gen.hostOps1_63, Cert.KernelIdeal.Gen.hostOps1_64, Cert.KernelIdeal.Gen.hostOps1_65, Cert.KernelIdeal.Gen.hostOps1_66, Cert.KernelIdeal.Gen.hostOps1_67, Cert.KernelIdeal.Gen.hostOps1_68, Cert.KernelIdeal.Gen.hostOps1_69, Cert.KernelIdeal.Gen.hostOps1_70, Cert.KernelIdeal.Gen.hostOps1_71]
    (Cert.KernelIdeal.Gen.hostOps1_72 (F := Ideal)) 20

/-- The reference's host lines: the dense cell arithmetic, the dense voxelization cut before its last stretch, and the
    same for the sparse grid (the stretch that ends the dense voxelization also begins the sparse arithmetic). -/
theorem R_split : (Cert.ReferenceIdeal.Run.refOps (F := Ideal))
    = RheadD.flatten ++ (RpreD.flatten ++ (RlastD ++ (RheadS.flatten ++ (RpreS.flatten ++ RlastS)))) :=
  flatten_cut₂ RheadD RpreD (Cert.ReferenceIdeal.Gen.hostOps0_26 (F := Ideal)) [Cert.ReferenceIdeal.Gen.hostOps0_27] RpreS
    (Cert.ReferenceIdeal.Gen.hostOps0_52 (F := Ideal)) 20

/-! ## The kernel program's argument: no line after the call writes it -/

/-- No operation after the call writes the argument. -/
theorem tail_arg0_op : ∀ op ∈ (Cert.KernelIdeal.Body.tailStretches (F := Ideal)).flatten,
    Proc.devRef (τ := Cert.KernelIdeal.τ) .tc Cert.KernelIdeal.main_arg0 ∉ op.writes := fun op hop => by
  obtain ⟨ops, hops, hop'⟩ := List.mem_flatten.mp hop
  exact (Cert.KernelIdeal.Body.tail_keeps ops hops op hop').arg0

/-- So each named run of them that the split lists leaves it as it finds it. -/
theorem KdecD_arg0 (W : VK) : StableHlo.after KdecD.flatten W (Proc.devRef .tc Cert.KernelIdeal.main_arg0)
    = W (Proc.devRef .tc Cert.KernelIdeal.main_arg0) :=
  not_mem_of_sublist tail_arg0_op (fun op hop => by rw [K_split]; exact List.mem_append_left _ hop) W
theorem KdecS_arg0 (W : VK) : StableHlo.after KdecS.flatten W (Proc.devRef .tc Cert.KernelIdeal.main_arg0)
    = W (Proc.devRef .tc Cert.KernelIdeal.main_arg0) :=
  not_mem_of_sublist tail_arg0_op
    (fun op hop => by rw [K_split]; exact List.mem_append_right _ (List.mem_append_left _ hop)) W
theorem KpreD_arg0 (W : VK) : StableHlo.after KpreD.flatten W (Proc.devRef .tc Cert.KernelIdeal.main_arg0)
    = W (Proc.devRef .tc Cert.KernelIdeal.main_arg0) :=
  not_mem_of_sublist tail_arg0_op
    (fun op hop => by rw [K_split]; exact List.mem_append_right _ (List.mem_append_right _ (List.mem_append_left _ hop))) W
theorem KlastD_arg0 (W : VK) : StableHlo.after KlastD W (Proc.devRef .tc Cert.KernelIdeal.main_arg0)
    = W (Proc.devRef .tc Cert.KernelIdeal.main_arg0) :=
  not_mem_of_sublist tail_arg0_op
    (fun op hop => by
      rw [K_split]
      exact List.mem_append_right _ (List.mem_append_right _ (List.mem_append_right _ (List.mem_append_left _ hop)))) W

end Cert.Bridge.Kept

end
-- ==== Proof.Bridge.lean ====
/-
  The two voxelizations in the two programs, each from the contents its host lines start from.
-/
import proofs.«414662_j83537113907662_3_alg».proof.Proof.Names
import proofs.«414662_j83537113907662_3_alg».proof.Proof.TailDKRz
import proofs.«414662_j83537113907662_3_alg».proof.Proof.TailDKKz
import proofs.«414662_j83537113907662_3_alg».proof.Proof.TailSKRz
import proofs.«414662_j83537113907662_3_alg».proof.Proof.TailSKKz
import proofs.«414662_j83537113907662_3_alg».proof.Proof.Coors
import proofs.«414662_j83537113907662_3_alg».proof.Proof.Kept

set_option maxRecDepth 8192

noncomputable section

namespace Cert.Bridge

open Idealize.ShloMosaic Idealize.ShloMosaic.StableHlo

/-- A one-bit word is 0 or 1. -/
theorem bit_cases (b : BitVec 1) : b = 0#1 ∨ b = 1#1 := by
  revert b; decide

/-- The dense voxelization's four results agree in the two programs, from contents before it that agree on the
    validity bits, the ids and the points, and on the cell coordinates of the VALID points: the kernel's program may hold
    anything else for an invalid point's coordinates, since such a point is written to the table's spare last row only
    (its slot is the table's size), and that row is dropped. -/
theorem resultsD (A : VK) (B : VR)
    (h8 : A (Proc.devRef .tc Cert.KernelIdeal.main_v8) = B (Proc.devRef .tc Cert.ReferenceIdeal.main_v15)) (h9 : A (Proc.devRef .tc Cert.KernelIdeal.main_v9) = B (Proc.devRef .tc Cert.ReferenceIdeal.main_v28)) (h0 : A (Proc.devRef .tc Cert.KernelIdeal.main_arg0) = B (Proc.devRef .tc Cert.ReferenceIdeal.main_arg0))
    (hc : ∀ p : Fin 2000000, (A (Proc.devRef .tc Cert.KernelIdeal.main_v8) : Cert.KernelIdeal.S2000000.Idx → BitVec 1) (ValueIdx.ix1 p) = 1#1 →
      ∀ q : Fin 3, (A (Proc.devRef .tc Cert.KernelIdeal.main_v19) : Cert.KernelIdeal.S2000000x3.Idx → BitVec 32) (ValueIdx.ix2 p q) = (B (Proc.devRef .tc Cert.ReferenceIdeal.main_v8) : Cert.ReferenceIdeal.S2000000x3.Idx → BitVec 32) (ValueIdx.ix2 p q)) :
    after (KpreD.flatten ++ KlastD) A (Proc.devRef .tc Cert.KernelIdeal.main_v152) = after (RpreD.flatten ++ RlastD) B (Proc.devRef .tc Cert.ReferenceIdeal.main_v146)
    ∧ after (KpreD.flatten ++ KlastD) A (Proc.devRef .tc Cert.KernelIdeal.main_v153) = after (RpreD.flatten ++ RlastD) B (Proc.devRef .tc Cert.ReferenceIdeal.main_v147)
    ∧ after (KpreD.flatten ++ KlastD) A (Proc.devRef .tc Cert.KernelIdeal.main_v155) = after (RpreD.flatten ++ RlastD) B (Proc.devRef .tc Cert.ReferenceIdeal.main_v149)
    ∧ after (KpreD.flatten ++ KlastD) A (Proc.devRef .tc Cert.KernelIdeal.main_v156) = after (RpreD.flatten ++ RlastD) B (Proc.devRef .tc Cert.ReferenceIdeal.main_v150) := by
  classical
  -- the kernel's contents with the reference's cell coordinates in place of its own
  let A' : VK := Function.update A (Proc.devRef .tc Cert.KernelIdeal.main_v19) (B (Proc.devRef .tc Cert.ReferenceIdeal.main_v8))
  have n8 : A' (Proc.devRef .tc Cert.KernelIdeal.main_v8) = A (Proc.devRef .tc Cert.KernelIdeal.main_v8) := Function.update_of_ne (devRef_ne_of_ne (by decide)) _ _
  have n9 : A' (Proc.devRef .tc Cert.KernelIdeal.main_v9) = A (Proc.devRef .tc Cert.KernelIdeal.main_v9) := Function.update_of_ne (devRef_ne_of_ne (by decide)) _ _
  have n0 : A' (Proc.devRef .tc Cert.KernelIdeal.main_arg0) = A (Proc.devRef .tc Cert.KernelIdeal.main_arg0) := Function.update_of_ne (devRef_ne_of_ne (by decide)) _ _
  have nc : A' (Proc.devRef .tc Cert.KernelIdeal.main_v19) = B (Proc.devRef .tc Cert.ReferenceIdeal.main_v8) := Function.update_self _ _ _
  obtain ⟨r0, r1, r2, r3⟩ := TailDKR.chain A' B (n8.trans h8) (n9.trans h9) (n0.trans h0) nc
  obtain ⟨k0, k1, k3⟩ := TailDKK.chain A A' n8.symm n9.symm n0.symm
  obtain ⟨-, -, -, p141⟩ := TailDKK.chainPre A A' n8.symm n9.symm n0.symm
  have k2 : after (KpreD.flatten ++ KlastD) A (Proc.devRef .tc Cert.KernelIdeal.main_v155) = after (KpreD.flatten ++ KlastD) A' (Proc.devRef .tc Cert.KernelIdeal.main_v155) := by
    rw [after_append, after_append]
    refine Coors.lastD_coors _ _ p141 (fun p => ?_)
    rcases bit_cases ((A (Proc.devRef .tc Cert.KernelIdeal.main_v8) : Cert.KernelIdeal.S2000000.Idx → BitVec 1) (ValueIdx.ix1 p)) with hv | hv
    · exact Or.inl (Coors.dumpD A p hv)
    · refine Or.inr (fun q => ?_)
      rw [Kept.KpreD_v19 A, Kept.KpreD_v19 A', nc]
      exact hc p hv q
  exact ⟨k0.trans r0, k1.trans r1, k2.trans r2, k3.trans r3⟩

/-- The sparse voxelization's four results agree in the two programs, from contents before it that agree on the
    validity bits, the ids and the points, and on the cell coordinates of the VALID points: the kernel's program may hold
    anything else for an invalid point's coordinates, since such a point is written to the table's spare last row only
    (its slot is the table's size), and that row is dropped. -/
theorem resultsS (A : VK) (B : VR)
    (h8 : A (Proc.devRef .tc Cert.KernelIdeal.main_v23) = B (Proc.devRef .tc Cert.ReferenceIdeal.main_v166)) (h9 : A (Proc.devRef .tc Cert.KernelIdeal.main_v24) = B (Proc.devRef .tc Cert.ReferenceIdeal.main_v179)) (h0 : A (Proc.devRef .tc Cert.KernelIdeal.main_arg0) = B (Proc.devRef .tc Cert.ReferenceIdeal.main_arg0))
    (hc : ∀ p : Fin 2000000, (A (Proc.devRef .tc Cert.KernelIdeal.main_v23) : Cert.KernelIdeal.S2000000.Idx → BitVec 1) (ValueIdx.ix1 p) = 1#1 →
      ∀ q : Fin 3, (A (Proc.devRef .tc Cert.KernelIdeal.main_v34) : Cert.KernelIdeal.S2000000x3.Idx → BitVec 32) (ValueIdx.ix2 p q) = (B (Proc.devRef .tc Cert.ReferenceIdeal.main_v159) : Cert.ReferenceIdeal.S2000000x3.Idx → BitVec 32) (ValueIdx.ix2 p q)) :
    after (KpreS.flatten ++ KlastS) A (Proc.devRef .tc Cert.KernelIdeal.main_v274) = after (RpreS.flatten ++ RlastS) B (Proc.devRef .tc Cert.ReferenceIdeal.main_v297)
    ∧ after (KpreS.flatten ++ KlastS) A (Proc.devRef .tc Cert.KernelIdeal.main_v275) = after (RpreS.flatten ++ RlastS) B (Proc.devRef .tc Cert.ReferenceIdeal.main_v298)
    ∧ after (KpreS.flatten ++ KlastS) A (Proc.devRef .tc Cert.KernelIdeal.main_v277) = after (RpreS.flatten ++ RlastS) B (Proc.devRef .tc Cert.ReferenceIdeal.main_v300)
    ∧ after (KpreS.flatten ++ KlastS) A (Proc.devRef .tc Cert.KernelIdeal.main_v278) = after (RpreS.flatten ++ RlastS) B (Proc.devRef .tc Cert.ReferenceIdeal.main_v301) := by
  classical
  -- the kernel's contents with the reference's cell coordinates in place of its own
  let A' : VK := Function.update A (Proc.devRef .tc Cert.KernelIdeal.main_v34) (B (Proc.devRef .tc Cert.ReferenceIdeal.main_v159))
  have n8 : A' (Proc.devRef .tc Cert.KernelIdeal.main_v23) = A (Proc.devRef .tc Cert.KernelIdeal.main_v23) := Function.update_of_ne (devRef_ne_of_ne (by decide)) _ _
  have n9 : A' (Proc.devRef .tc Cert.KernelIdeal.main_v24) = A (Proc.devRef .tc Cert.KernelIdeal.main_v24) := Function.update_of_ne (devRef_ne_of_ne (by decide)) _ _
  have n0 : A' (Proc.devRef .tc Cert.KernelIdeal.main_arg0) = A (Proc.devRef .tc Cert.KernelIdeal.main_arg0) := Function.update_of_ne (devRef_ne_of_ne (by decide)) _ _
  have nc : A' (Proc.devRef .tc Cert.KernelIdeal.main_v34) = B (Proc.devRef .tc Cert.ReferenceIdeal.main_v159) := Function.update_self _ _ _
  obtain ⟨r0, r1, r2, r3⟩ := TailSKR.chain A' B (n8.trans h8) (n9.trans h9) (n0.trans h0) nc
  obtain ⟨k0, k1, k3⟩ := TailSKK.chain A A' n8.symm n9.symm n0.symm
  obtain ⟨-, -, -, p141⟩ := TailSKK.chainPre A A' n8.symm n9.symm n0.symm
  have k2 : after (KpreS.flatten ++ KlastS) A (Proc.devRef .tc Cert.KernelIdeal.main_v277) = after (KpreS.flatten ++ KlastS) A' (Proc.devRef .tc Cert.KernelIdeal.main_v277) := by
    rw [after_append, after_append]
    refine Coors.lastS_coors _ _ p141 (fun p => ?_)
    rcases bit_cases ((A (Proc.devRef .tc Cert.KernelIdeal.main_v23) : Cert.KernelIdeal.S2000000.Idx → BitVec 1) (ValueIdx.ix1 p)) with hv | hv
    · exact Or.inl (Coors.dumpS A p hv)
    · refine Or.inr (fun q => ?_)
      rw [Kept.KpreS_v34 A, Kept.KpreS_v34 A', nc]
      exact hc p hv q
  exact ⟨k0.trans r0, k1.trans r1, k2.trans r2, k3.trans r3⟩

end Cert.Bridge

end
-- ==== Proof.SpecHost.lean ====
/-
  The host-side integer arithmetic of one point, as scalar functions. The kernel's program receives each point's
  ENCODED id (the linear id, or the grid's size for a point outside) and recovers from it the validity bit, the id
  clamped to zero, and the three cell coordinates by jnp's remainder and floor division. The reference computes the
  validity bit as the conjunction over the three axes, the id under it, and has the cell coordinates themselves.
-/
import proofs.«414662_j83537113907662_3_alg».proof.Proof.Spec

noncomputable section

namespace Cert.Spec

open Idealize.ShloMosaic

/-- jnp's `remainder` on 32-bit integers as the host lines compute it: the divisor made nonzero, the truncated
    remainder, moved by the divisor when it is nonzero and of the other sign. -/
def jrem (x n : BitVec 32) : BitVec 32 :=
  let m := Scalar.select (IntOp.cmpi .eq n 0#32) 1#32 n
  let r := IntOp.remsi .host x m
  Scalar.select (IntOp.andi (IntOp.cmpi .ne (IntOp.cmpi .slt r 0#32) (IntOp.cmpi .slt m 0#32)) (IntOp.cmpi .ne r 0#32)) (IntOp.addi r m) r

/-- The sign of a 32-bit integer: 0, -1 or 1. -/
def sgn (x : BitVec 32) : BitVec 32 := if x = 0 then 0 else if x.msb then -1 else 1

/-- jnp's `floor_divide`: the truncated quotient, less one when the signs differ and the division is inexact. -/
def jfdiv (x n : BitVec 32) : BitVec 32 :=
  let q := IntOp.divsi .host x n
  Scalar.select (IntOp.andi (IntOp.cmpi .ne (sgn x) (sgn n)) (IntOp.cmpi .ne (IntOp.remsi .host x n) 0#32)) (IntOp.subi q 1#32) q

/-- The kernel's program, from a point's encoded id `e`: valid iff `e < G`; -/
def kValid (G e : BitVec 32) : BitVec 1 := IntOp.cmpi .slt e G
/-- the id, zero for an invalid point; -/
def kLin (G e : BitVec 32) : BitVec 32 := Scalar.select (kValid G e) e 0#32
/-- the cell coordinate on axis `q` decoded from the id (`x = id mod nx`, `y = (id div nx) mod ny`, `z = (id div nx) div ny`), zero for an invalid point. -/
def kC (nx ny G e : BitVec 32) (q : Fin 3) : BitVec 32 :=
  Scalar.select (kValid G e)
    (match q with
     | 0 => jrem (kLin G e) nx
     | 1 => jrem (jfdiv (kLin G e) nx) ny
     | 2 => jfdiv (jfdiv (kLin G e) nx) ny)
    0#32

/-- The reference, from a point's three cell coordinates: on one axis, `0 ≤ c < n`; -/
def axisOk (n c : BitVec 32) : BitVec 1 := IntOp.andi (IntOp.cmpi .sge c 0#32) (IntOp.cmpi .slt c n)
/-- valid iff every axis is; -/
def rValid (nx ny nz cx cy cz : BitVec 32) : BitVec 1 := IntOp.andi (IntOp.andi (axisOk nx cx) (axisOk ny cy)) (axisOk nz cz)
/-- the id, zero for an invalid point. -/
def rLin (nx ny nz cx cy cz : BitVec 32) : BitVec 32 := Scalar.select (rValid nx ny nz cx cy cz) (lin nx ny cx cy cz) 0#32

end Cert.Spec

end
-- ==== Proof.HeadK.lean ====
/-
  The kernel program's decoding stretches read down to one point. After the pallas_call the program holds, per point,
  the dense and the sparse ENCODED voxel id (the call's result array, laid out 2 × 15625 × 128). The host lines that
  follow reshape it to 2 × N, take row 0 (dense) or row 1 (sparse), and recover from each id the validity bit
  (id < grid size), the id clamped to zero, and the three cell coordinates by jnp's remainder and floor division,
  stacked as the columns of an N × 3 table and zeroed where invalid. Every one of these lines but the reshape, the row
  slice, the column broadcasts and the concatenation acts element by element, so each buffer read at a point is the
  scalar formula of that point's id. At the ideal instance.
-/
import proofs.«414662_j83537113907662_3_alg».proof.Proof.Names
import proofs.«414662_j83537113907662_3_alg».proof.Proof.SpecHost
import proofs.«414662_j83537113907662_3_alg».proof.Proof.KValue
import Idealize.ShloMosaic.Lib.StableHlo.Run
import Idealize.ShloMosaic.Lib.Pipeline.Value
import Idealize.ShloMosaic.Lib.ValueIdx
import Idealize.ShloMosaic.Lib.ValueLayout

noncomputable section

namespace Cert.Bridge.HeadK

open Cert.KernelIdeal Cert.KernelIdeal.Gen
open Idealize.ShloMosaic Idealize.ShloMosaic.TcCoe Idealize.ShloMosaic.ValueIdx
open Idealize.ShloMosaic.StableHlo

/-! ## The encoded ids -/

/-- The dense encoded id of point `p`, from the points' first three columns; -/
def eD (pts : S2000000x4.Idx → EReal) (p : Fin 2000000) : BitVec 32 :=
  Spec.encD (F := Ideal) (pts (ix2 p (0 : Fin 4))) (pts (ix2 p (1 : Fin 4))) (pts (ix2 p (2 : Fin 4)))
/-- the sparse one. -/
def eS (pts : S2000000x4.Idx → EReal) (p : Fin 2000000) : BitVec 32 :=
  Spec.encS (F := Ideal) (pts (ix2 p (0 : Fin 4))) (pts (ix2 p (1 : Fin 4))) (pts (ix2 p (2 : Fin 4)))

/-- The pallas_call's result reshaped to 2 × N: row 0 the dense, row 1 the sparse encoded ids. -/
def metaFlat (pts : S2000000x4.Idx → EReal) : S2x2000000.Idx → BitVec 32 := fun i =>
  if (i 0).val = 0 then eD pts (i 1) else eS pts (i 1)

theorem metaFlat_apply (pts : S2000000x4.Idx → EReal) (k : Fin 2) (p : Fin 2000000) :
    metaFlat pts (ix2 k p) = if k.val = 0 then eD pts p else eS pts p := rfl

/-- Position (k, p) of the 2 × N layout is position (k, p / 128, p % 128) of the 2 × 15625 × 128 one, whose column
    (p / 128, p % 128) belongs to point p. -/
theorem flat_apply (pts : S2000000x4.Idx → EReal) (k : Fin 2) (p : Fin 2000000) :
    shapeCast S2x2000000 (Body.metaArr (F := Ideal) pts) shapeCasts_S2x15625x128_S2x2000000 (ix2 k p) = metaFlat pts (ix2 k p) := by
  have hk := k.isLt; have hp := p.isLt
  refine (shapeCast_apply _ _ (ix2 k p)
    (ix3 k (⟨p.val / 128, by omega⟩ : Fin 15625) (⟨p.val % 128, by omega⟩ : Fin 128)) ?_).trans ?_
  · rw [Shape.rowMajor_val_two, Shape.rowMajor_val_three]
    show ((k : Nat) * 15625 + (p : Nat) / 128) * 128 + (p : Nat) % 128 = (k : Nat) * 2000000 + (p : Nat)
    omega
  · have e : Body.ptIdx (⟨p.val / 128, by omega⟩ : Fin 15625) (⟨p.val % 128, by omega⟩ : Fin 128) = p :=
      Fin.ext (by show (p : Nat) / 128 * 128 + (p : Nat) % 128 = (p : Nat); omega)
    rw [Body.metaArr_apply, e]
    rfl

/-- The reshaped result array is `metaFlat`. -/
theorem flat_eq (pts : S2000000x4.Idx → EReal) :
    shapeCast S2x2000000 (Body.metaArr (F := Ideal) pts) shapeCasts_S2x15625x128_S2x2000000 = metaFlat pts := by
  funext i
  obtain ⟨k, p, rfl⟩ : ∃ (k : Fin 2) (p : Fin 2000000), i = ix2 k p := ⟨i 0, i 1, eq_ix2 i⟩
  exact flat_apply pts k p

/-! ## Three layout operations read at an index -/

/-- A length-N vector made an N × 1 column reads, at (p, u), the vector at p. -/
theorem col_apply {α : Type} (x : S2000000.Idx → α) (p : Fin 2000000) (u : Fin 1) :
    broadcastInDim S2000000x1 ![0] bcast_S2000000_S2000000x1_0 x (ix2 p u) = x (ix1 p) :=
  broadcastInDim_apply _ _ x _ _ (fun a => by match a with | ⟨0, _⟩ => rfl)

/-- An N × 1 column spread over three columns reads, at (p, q), the column at (p, 0). -/
theorem spread_apply {α : Type} (x : S2000000x1.Idx → α) (p : Fin 2000000) (q : Fin 3) :
    broadcastInDim S2000000x3 ![0, 1] bcast_S2000000x1_S2000000x3_0_1 x (ix2 p q) = x (ix2 p (0 : Fin 1)) :=
  broadcastInDim_apply _ _ x _ _ (fun a => by match a with | ⟨0, _⟩ => rfl | ⟨1, _⟩ => rfl)

/-- Three N × 1 columns side by side read, at (p, q), column q at (p, 0). -/
theorem stack_apply {α : Type} (a b c : S2000000x1.Idx → α) (p : Fin 2000000) :
    (∀ h, concatenate S2000000x3 1 [⟨S2000000x1, a⟩, ⟨S2000000x1, b⟩, ⟨S2000000x1, c⟩] h (ix2 p (0 : Fin 3)) = a (ix2 p (0 : Fin 1)))
    ∧ (∀ h, concatenate S2000000x3 1 [⟨S2000000x1, a⟩, ⟨S2000000x1, b⟩, ⟨S2000000x1, c⟩] h (ix2 p (1 : Fin 3)) = b (ix2 p (0 : Fin 1)))
    ∧ (∀ h, concatenate S2000000x3 1 [⟨S2000000x1, a⟩, ⟨S2000000x1, b⟩, ⟨S2000000x1, c⟩] h (ix2 p (2 : Fin 3)) = c (ix2 p (0 : Fin 1))) := by
  have hi : ∀ (j : S2000000x3.Idx) (hj : (j 0).val = p.val) (d : Fin S2000000x1.rank), d.cast (rfl : S2000000x1.rank = S2000000x3.rank) ≠ 1 →
      ((ix2 p (0 : Fin 1) : S2000000x1.Idx) d).val = (j (d.cast rfl)).val := fun j hj d hd => by
    match d with
    | ⟨0, _⟩ => exact hj.symm
    | ⟨1, _⟩ => exact absurd rfl hd
  refine ⟨fun h => ?_, fun h => ?_, fun h => ?_⟩
  · exact concatenate_apply_piece _ _ h _ 0 (by show 0 < 3; omega) S2000000x1 a rfl rfl 0 rfl (ix2 p (0 : Fin 1)) (hi _ rfl) rfl
  · exact concatenate_apply_piece _ _ h _ 1 (by show 1 < 3; omega) S2000000x1 b rfl rfl 1 rfl (ix2 p (0 : Fin 1)) (hi _ rfl) rfl
  · exact concatenate_apply_piece _ _ h _ 2 (by show 2 < 3; omega) S2000000x1 c rfl rfl 2 rfl (ix2 p (0 : Fin 1)) (hi _ rfl) rfl

/-! ## Reading a stretch -/

/-- A stretch's result at a buffer as one closed term of the contents before it; an operand picked out of a literal
    family of references is named first. -/
local macro "read_stretch" : tactic =>
  `(tactic| (simp (disch := decide) only [after_cons, after_nil, Matrix.cons_val_zero, Matrix.cons_val_one, Matrix.cons_val_two,
      Matrix.head_cons, Matrix.tail_cons, Matrix.cons_val_succ,
      nullary_result', unary_result', binary_result', ternary_result', reshape_result', nary_result',
      nullary_result_ne', unary_result_ne', binary_result_ne', ternary_result_ne', reshape_result_ne', nary_result_ne']))

/-! ## The dense decoding, group by group, from any contents `V` -/

/-- The result reshaped to 2 × N. -/
theorem d_v4 (V : VK) :
    (after hostOps1_1 (after hostOps1 V) (Proc.devRef .tc main_v4) : S2x2000000.Idx → BitVec 32)
      = shapeCast S2x2000000 (V (Proc.devRef .tc main_v3)) shapeCasts_S2x15625x128_S2x2000000 := by
  read_stretch
  rfl

/-- Its row 0 as a vector: at `p` the 2 × N array at (0, p). -/
theorem d_v6 (V : VK) (p : Fin 2000000) :
    (after hostOps1_1 (after hostOps1 V) (Proc.devRef .tc main_v6) : S2000000.Idx → BitVec 32) (ix1 p)
      = (after hostOps1_1 (after hostOps1 V) (Proc.devRef .tc main_v4) : S2x2000000.Idx → BitVec 32) (ix2 (0 : Fin 2) p) := by
  read_stretch
  exact (shapeCast_1a_a_apply _ _ p).trans (slice2_axis0_apply 0 _ _ (0 : Fin 1) p (0 : Fin 2) rfl)

set_option maxHeartbeats 1000000 in
/-- The validity bit: the id is below the grid's size. -/
theorem d_v8 (V : VK) (p : Fin 2000000) :
    (after hostOps1_1 (after hostOps1 V) (Proc.devRef .tc main_v8) : S2000000.Idx → BitVec 1) (ix1 p)
      = Spec.kValid 214272#32 ((after hostOps1_1 (after hostOps1 V) (Proc.devRef .tc main_v6) : S2000000.Idx → BitVec 32) (ix1 p)) := by
  read_stretch
  rfl

set_option maxHeartbeats 1000000 in
/-- The id, zero where invalid. -/
theorem d_v9 (V : VK) (p : Fin 2000000) :
    (after hostOps1_1 (after hostOps1 V) (Proc.devRef .tc main_v9) : S2000000.Idx → BitVec 32) (ix1 p)
      = Spec.kLin 214272#32 ((after hostOps1_1 (after hostOps1 V) (Proc.devRef .tc main_v6) : S2000000.Idx → BitVec 32) (ix1 p)) := by
  read_stretch
  rfl

set_option maxHeartbeats 1000000 in
/-- `x = id mod 432`. -/
theorem d_v10 (V : VK) (p : Fin 2000000) :
    (after hostOps1_3 (after hostOps1_2 V) (Proc.devRef .tc main_v10) : S2000000.Idx → BitVec 32) (ix1 p)
      = Spec.jrem ((V (Proc.devRef .tc main_v9) : S2000000.Idx → BitVec 32) (ix1 p)) 432#32 := by
  read_stretch
  rfl

set_option maxHeartbeats 1000000 in
/-- `id div 432`. -/
theorem d_v11 (V : VK) (p : Fin 2000000) :
    (after hostOps1_5 (after hostOps1_4 V) (Proc.devRef .tc main_v11) : S2000000.Idx → BitVec 32) (ix1 p)
      = Spec.jfdiv ((V (Proc.devRef .tc main_v9) : S2000000.Idx → BitVec 32) (ix1 p)) 432#32 := by
  read_stretch
  generalize (432#32 : BitVec 32) = n
  rfl

set_option maxHeartbeats 1000000 in
/-- `y = (id div 432) mod 496`. -/
theorem d_v12 (V : VK) (p : Fin 2000000) :
    (after hostOps1_7 (after hostOps1_6 V) (Proc.devRef .tc main_v12) : S2000000.Idx → BitVec 32) (ix1 p)
      = Spec.jrem ((V (Proc.devRef .tc main_v11) : S2000000.Idx → BitVec 32) (ix1 p)) 496#32 := by
  read_stretch
  rfl

set_option maxHeartbeats 1000000 in
/-- `z = (id div 432) div 496`. -/
theorem d_v13 (V : VK) (p : Fin 2000000) :
    (after hostOps1_9 (after hostOps1_8 V) (Proc.devRef .tc main_v13) : S2000000.Idx → BitVec 32) (ix1 p)
      = Spec.jfdiv ((V (Proc.devRef .tc main_v11) : S2000000.Idx → BitVec 32) (ix1 p)) 496#32 := by
  read_stretch
  generalize (496#32 : BitVec 32) = n
  rfl

set_option maxHeartbeats 1000000 in
/-- The coordinate table at (p, q): column q's value at p, zero where invalid. -/
theorem d_v19 (V : VK) (p : Fin 2000000) :
    ((after hostOps1_11 (after hostOps1_10 V) (Proc.devRef .tc main_v19) : S2000000x3.Idx → BitVec 32) (ix2 p (0 : Fin 3))
        = Scalar.select ((V (Proc.devRef .tc main_v8) : S2000000.Idx → BitVec 1) (ix1 p)) ((V (Proc.devRef .tc main_v10) : S2000000.Idx → BitVec 32) (ix1 p)) 0#32)
    ∧ ((after hostOps1_11 (after hostOps1_10 V) (Proc.devRef .tc main_v19) : S2000000x3.Idx → BitVec 32) (ix2 p (1 : Fin 3))
        = Scalar.select ((V (Proc.devRef .tc main_v8) : S2000000.Idx → BitVec 1) (ix1 p)) ((V (Proc.devRef .tc main_v12) : S2000000.Idx → BitVec 32) (ix1 p)) 0#32)
    ∧ ((after hostOps1_11 (after hostOps1_10 V) (Proc.devRef .tc main_v19) : S2000000x3.Idx → BitVec 32) (ix2 p (2 : Fin 3))
        = Scalar.select ((V (Proc.devRef .tc main_v8) : S2000000.Idx → BitVec 1) (ix1 p)) ((V (Proc.devRef .tc main_v13) : S2000000.Idx → BitVec 32) (ix1 p)) 0#32) := by
  have hsel : ∀ q : Fin 3,
      (after hostOps1_11 (after hostOps1_10 V) (Proc.devRef .tc main_v19) : S2000000x3.Idx → BitVec 32) (ix2 p q)
        = Scalar.select
            ((broadcastInDim S2000000x3 ![0, 1] bcast_S2000000x1_S2000000x3_0_1
              (broadcastInDim S2000000x1 ![0] bcast_S2000000_S2000000x1_0 (V (Proc.devRef .tc main_v8) : S2000000.Idx → BitVec 1))) (ix2 p q))
            ((concatenate S2000000x3 1
              [⟨S2000000x1, broadcastInDim S2000000x1 ![0] bcast_S2000000_S2000000x1_0 (V (Proc.devRef .tc main_v10) : S2000000.Idx → BitVec 32)⟩,
               ⟨S2000000x1, broadcastInDim S2000000x1 ![0] bcast_S2000000_S2000000x1_0 (V (Proc.devRef .tc main_v12) : S2000000.Idx → BitVec 32)⟩,
               ⟨S2000000x1, broadcastInDim S2000000x1 ![0] bcast_S2000000_S2000000x1_0 (V (Proc.devRef .tc main_v13) : S2000000.Idx → BitVec 32)⟩]
              concatenates_S2000000x1_S2000000x1_S2000000x1_S2000000x3_d1) (ix2 p q))
            0#32 := fun q => rfl
  obtain ⟨s0, s1, s2⟩ := stack_apply
    (broadcastInDim S2000000x1 ![0] bcast_S2000000_S2000000x1_0 (V (Proc.devRef .tc main_v10) : S2000000.Idx → BitVec 32))
    (broadcastInDim S2000000x1 ![0] bcast_S2000000_S2000000x1_0 (V (Proc.devRef .tc main_v12) : S2000000.Idx → BitVec 32))
    (broadcastInDim S2000000x1 ![0] bcast_S2000000_S2000000x1_0 (V (Proc.devRef .tc main_v13) : S2000000.Idx → BitVec 32)) p
  refine ⟨?_, ?_, ?_⟩
  · rw [hsel, spread_apply, col_apply, s0, col_apply]
  · rw [hsel, spread_apply, col_apply, s1, col_apply]
  · rw [hsel, spread_apply, col_apply, s2, col_apply]

/-! ### What a group leaves alone -/

theorem k2_v8 (V : VK) : after hostOps1_3 (after hostOps1_2 V) (Proc.devRef .tc main_v8) = V (Proc.devRef .tc main_v8) := by read_stretch
theorem k2_v9 (V : VK) : after hostOps1_3 (after hostOps1_2 V) (Proc.devRef .tc main_v9) = V (Proc.devRef .tc main_v9) := by read_stretch
theorem k3_v8 (V : VK) : after hostOps1_5 (after hostOps1_4 V) (Proc.devRef .tc main_v8) = V (Proc.devRef .tc main_v8) := by read_stretch
theorem k3_v10 (V : VK) : after hostOps1_5 (after hostOps1_4 V) (Proc.devRef .tc main_v10) = V (Proc.devRef .tc main_v10) := by read_stretch
theorem k4_v8 (V : VK) : after hostOps1_7 (after hostOps1_6 V) (Proc.devRef .tc main_v8) = V (Proc.devRef .tc main_v8) := by read_stretch
theorem k4_v10 (V : VK) : after hostOps1_7 (after hostOps1_6 V) (Proc.devRef .tc main_v10) = V (Proc.devRef .tc main_v10) := by read_stretch
theorem k4_v11 (V : VK) : after hostOps1_7 (after hostOps1_6 V) (Proc.devRef .tc main_v11) = V (Proc.devRef .tc main_v11) := by read_stretch
theorem k5_v8 (V : VK) : after hostOps1_9 (after hostOps1_8 V) (Proc.devRef .tc main_v8) = V (Proc.devRef .tc main_v8) := by read_stretch
theorem k5_v10 (V : VK) : after hostOps1_9 (after hostOps1_8 V) (Proc.devRef .tc main_v10) = V (Proc.devRef .tc main_v10) := by read_stretch
theorem k5_v12 (V : VK) : after hostOps1_9 (after hostOps1_8 V) (Proc.devRef .tc main_v12) = V (Proc.devRef .tc main_v12) := by read_stretch

/-- The ten stretches after the first group write none of: the 2 × N array, the validity bits, the clamped ids. -/
theorem kD_v4 (V : VK) : after hostOps1_11 (after hostOps1_10 (after hostOps1_9 (after hostOps1_8 (after hostOps1_7 (after hostOps1_6 (after hostOps1_5 (after hostOps1_4 (after hostOps1_3 (after hostOps1_2 V))))))))) (Proc.devRef .tc main_v4) = V (Proc.devRef .tc main_v4) := by read_stretch
theorem kD_v8 (V : VK) : after hostOps1_11 (after hostOps1_10 (after hostOps1_9 (after hostOps1_8 (after hostOps1_7 (after hostOps1_6 (after hostOps1_5 (after hostOps1_4 (after hostOps1_3 (after hostOps1_2 V))))))))) (Proc.devRef .tc main_v8) = V (Proc.devRef .tc main_v8) := by read_stretch
theorem kD_v9 (V : VK) : after hostOps1_11 (after hostOps1_10 (after hostOps1_9 (after hostOps1_8 (after hostOps1_7 (after hostOps1_6 (after hostOps1_5 (after hostOps1_4 (after hostOps1_3 (after hostOps1_2 V))))))))) (Proc.devRef .tc main_v9) = V (Proc.devRef .tc main_v9) := by read_stretch

/-! ### The dense decoding from the call's result -/

/-- The stretches one after the other. -/
theorem decD_nest (W : VK) : after KdecD.flatten W = after hostOps1_11 (after hostOps1_10 (after hostOps1_9 (after hostOps1_8 (after hostOps1_7 (after hostOps1_6 (after hostOps1_5 (after hostOps1_4 (after hostOps1_3 (after hostOps1_2 (after hostOps1_1 (after hostOps1 W))))))))))) := by
  simp only [KdecD, List.flatten_cons, List.flatten_nil, List.append_nil, after_append]

/-- The coordinate table from the validity bit `a` and the clamped id `b` of point `p`, through the four
    divisions and the stacking. -/
theorem dense_table (V1 : VK) (p : Fin 2000000) (a : BitVec 1) (b : BitVec 32)
    (h8 : (V1 (Proc.devRef .tc main_v8) : S2000000.Idx → BitVec 1) (ix1 p) = a) (h9 : (V1 (Proc.devRef .tc main_v9) : S2000000.Idx → BitVec 32) (ix1 p) = b) :
    ((after hostOps1_11 (after hostOps1_10 (after hostOps1_9 (after hostOps1_8 (after hostOps1_7 (after hostOps1_6 (after hostOps1_5 (after hostOps1_4 (after hostOps1_3 (after hostOps1_2 V1))))))))) (Proc.devRef .tc main_v19) : S2000000x3.Idx → BitVec 32) (ix2 p (0 : Fin 3))
        = Scalar.select a (Spec.jrem b 432#32) 0#32)
    ∧ ((after hostOps1_11 (after hostOps1_10 (after hostOps1_9 (after hostOps1_8 (after hostOps1_7 (after hostOps1_6 (after hostOps1_5 (after hostOps1_4 (after hostOps1_3 (after hostOps1_2 V1))))))))) (Proc.devRef .tc main_v19) : S2000000x3.Idx → BitVec 32) (ix2 p (1 : Fin 3))
        = Scalar.select a (Spec.jrem (Spec.jfdiv b 432#32) 496#32) 0#32)
    ∧ ((after hostOps1_11 (after hostOps1_10 (after hostOps1_9 (after hostOps1_8 (after hostOps1_7 (after hostOps1_6 (after hostOps1_5 (after hostOps1_4 (after hostOps1_3 (after hostOps1_2 V1))))))))) (Proc.devRef .tc main_v19) : S2000000x3.Idx → BitVec 32) (ix2 p (2 : Fin 3))
        = Scalar.select a (Spec.jfdiv (Spec.jfdiv b 432#32) 496#32) 0#32) := by
  -- after x
  have a8 : (after hostOps1_3 (after hostOps1_2 V1) (Proc.devRef .tc main_v8) : S2000000.Idx → BitVec 1) (ix1 p) = a := by rw [k2_v8]; exact h8
  have a9 : (after hostOps1_3 (after hostOps1_2 V1) (Proc.devRef .tc main_v9) : S2000000.Idx → BitVec 32) (ix1 p) = b := by rw [k2_v9]; exact h9
  have a10 : (after hostOps1_3 (after hostOps1_2 V1) (Proc.devRef .tc main_v10) : S2000000.Idx → BitVec 32) (ix1 p) = Spec.jrem b 432#32 := by
    rw [d_v10, h9]
  generalize after hostOps1_3 (after hostOps1_2 V1) = V2 at a8 a9 a10 ⊢
  -- after id div 432
  have b8 : (after hostOps1_5 (after hostOps1_4 V2) (Proc.devRef .tc main_v8) : S2000000.Idx → BitVec 1) (ix1 p) = a := by rw [k3_v8]; exact a8
  have b10 : (after hostOps1_5 (after hostOps1_4 V2) (Proc.devRef .tc main_v10) : S2000000.Idx → BitVec 32) (ix1 p) = Spec.jrem b 432#32 := by
    rw [k3_v10]; exact a10
  have b11 : (after hostOps1_5 (after hostOps1_4 V2) (Proc.devRef .tc main_v11) : S2000000.Idx → BitVec 32) (ix1 p) = Spec.jfdiv b 432#32 := by
    rw [d_v11, a9]
  generalize after hostOps1_5 (after hostOps1_4 V2) = V3 at b8 b10 b11 ⊢
  -- after y
  have c8 : (after hostOps1_7 (after hostOps1_6 V3) (Proc.devRef .tc main_v8) : S2000000.Idx → BitVec 1) (ix1 p) = a := by rw [k4_v8]; exact b8
  have c10 : (after hostOps1_7 (after hostOps1_6 V3) (Proc.devRef .tc main_v10) : S2000000.Idx → BitVec 32) (ix1 p) = Spec.jrem b 432#32 := by
    rw [k4_v10]; exact b10
  have c11 : (after hostOps1_7 (after hostOps1_6 V3) (Proc.devRef .tc main_v11) : S2000000.Idx → BitVec 32) (ix1 p) = Spec.jfdiv b 432#32 := by
    rw [k4_v11]; exact b11
  have c12 : (after hostOps1_7 (after hostOps1_6 V3) (Proc.devRef .tc main_v12) : S2000000.Idx → BitVec 32) (ix1 p)
      = Spec.jrem (Spec.jfdiv b 432#32) 496#32 := by rw [d_v12, b11]
  generalize after hostOps1_7 (after hostOps1_6 V3) = V4 at c8 c10 c11 c12 ⊢
  -- after z
  have e8 : (after hostOps1_9 (after hostOps1_8 V4) (Proc.devRef .tc main_v8) : S2000000.Idx → BitVec 1) (ix1 p) = a := by rw [k5_v8]; exact c8
  have e10 : (after hostOps1_9 (after hostOps1_8 V4) (Proc.devRef .tc main_v10) : S2000000.Idx → BitVec 32) (ix1 p) = Spec.jrem b 432#32 := by
    rw [k5_v10]; exact c10
  have e12 : (after hostOps1_9 (after hostOps1_8 V4) (Proc.devRef .tc main_v12) : S2000000.Idx → BitVec 32) (ix1 p)
      = Spec.jrem (Spec.jfdiv b 432#32) 496#32 := by rw [k5_v12]; exact c12
  have e13 : (after hostOps1_9 (after hostOps1_8 V4) (Proc.devRef .tc main_v13) : S2000000.Idx → BitVec 32) (ix1 p)
      = Spec.jfdiv (Spec.jfdiv b 432#32) 496#32 := by rw [d_v13, c11]
  generalize after hostOps1_9 (after hostOps1_8 V4) = V5 at e8 e10 e12 e13 ⊢
  -- the table
  obtain ⟨t0, t1, t2⟩ := d_v19 V5 p
  rw [e8] at t0 t1 t2
  rw [e10] at t0; rw [e12] at t1; rw [e13] at t2
  exact ⟨t0, t1, t2⟩

variable (W : VK) (pts : S2000000x4.Idx → EReal)

/-- Row 0 of the reshaped result at `p` is the dense encoded id of point `p`. -/
theorem dense_id (h3 : (W (Proc.devRef .tc main_v3) : S2x15625x128.Idx → BitVec 32) = Body.metaArr (F := Ideal) pts) (p : Fin 2000000) :
    (after hostOps1_1 (after hostOps1 W) (Proc.devRef .tc main_v6) : S2000000.Idx → BitVec 32) (ix1 p) = eD pts p := by
  rw [d_v6, d_v4, h3, flat_apply]
  rfl

theorem decD_v4 (h3 : (W (Proc.devRef .tc main_v3) : S2x15625x128.Idx → BitVec 32) = Body.metaArr (F := Ideal) pts) :
    (after KdecD.flatten W (Proc.devRef .tc main_v4) : S2x2000000.Idx → BitVec 32) = metaFlat pts := by
  rw [decD_nest, kD_v4, d_v4, h3]
  exact flat_eq pts

theorem decD_valid (h3 : (W (Proc.devRef .tc main_v3) : S2x15625x128.Idx → BitVec 32) = Body.metaArr (F := Ideal) pts) (p : Fin 2000000) :
    (after KdecD.flatten W (Proc.devRef .tc main_v8) : S2000000.Idx → BitVec 1) (ix1 p) = Spec.kValid 214272#32 (eD pts p) := by
  rw [decD_nest, kD_v8, d_v8, dense_id W pts h3]

theorem decD_lin (h3 : (W (Proc.devRef .tc main_v3) : S2x15625x128.Idx → BitVec 32) = Body.metaArr (F := Ideal) pts) (p : Fin 2000000) :
    (after KdecD.flatten W (Proc.devRef .tc main_v9) : S2000000.Idx → BitVec 32) (ix1 p) = Spec.kLin 214272#32 (eD pts p) := by
  rw [decD_nest, kD_v9, d_v9, dense_id W pts h3]

theorem decD_c (h3 : (W (Proc.devRef .tc main_v3) : S2x15625x128.Idx → BitVec 32) = Body.metaArr (F := Ideal) pts) (p : Fin 2000000) (q : Fin 3) :
    (after KdecD.flatten W (Proc.devRef .tc main_v19) : S2000000x3.Idx → BitVec 32) (ix2 p q)
      = Spec.kC 432#32 496#32 214272#32 (eD pts p) q := by
  rw [decD_nest]
  have h8 := d_v8 W p; rw [dense_id W pts h3] at h8
  have h9 := d_v9 W p; rw [dense_id W pts h3] at h9
  obtain ⟨t0, t1, t2⟩ := dense_table (after hostOps1_1 (after hostOps1 W)) p _ _ h8 h9
  match q with
  | ⟨0, _⟩ => exact t0
  | ⟨1, _⟩ => exact t1
  | ⟨2, _⟩ => exact t2

/-! ## The sparse decoding, group by group, from any contents `V` -/

/-- Row 1 of the 2 × N array as a vector: at `p` the array at (1, p). -/
theorem s_v21 (V : VK) (p : Fin 2000000) :
    (after hostOps1_13 (after hostOps1_12 V) (Proc.devRef .tc main_v21) : S2000000.Idx → BitVec 32) (ix1 p)
      = (V (Proc.devRef .tc main_v4) : S2x2000000.Idx → BitVec 32) (ix2 (1 : Fin 2) p) := by
  read_stretch
  exact (shapeCast_1a_a_apply _ _ p).trans (slice2_axis0_apply 1 _ _ (0 : Fin 1) p (1 : Fin 2) rfl)

set_option maxHeartbeats 1000000 in
/-- The validity bit: the id is below the grid's size. -/
theorem s_v23 (V : VK) (p : Fin 2000000) :
    (after hostOps1_13 (after hostOps1_12 V) (Proc.devRef .tc main_v23) : S2000000.Idx → BitVec 1) (ix1 p)
      = Spec.kValid 53568#32 ((after hostOps1_13 (after hostOps1_12 V) (Proc.devRef .tc main_v21) : S2000000.Idx → BitVec 32) (ix1 p)) := by
  read_stretch
  rfl

set_option maxHeartbeats 1000000 in
/-- The id, zero where invalid. -/
theorem s_v24 (V : VK) (p : Fin 2000000) :
    (after hostOps1_13 (after hostOps1_12 V) (Proc.devRef .tc main_v24) : S2000000.Idx → BitVec 32) (ix1 p)
      = Spec.kLin 53568#32 ((after hostOps1_13 (after hostOps1_12 V) (Proc.devRef .tc main_v21) : S2000000.Idx → BitVec 32) (ix1 p)) := by
  read_stretch
  rfl

set_option maxHeartbeats 1000000 in
/-- `x = id mod 216`. -/
theorem s_v25 (V : VK) (p : Fin 2000000) :
    (after hostOps1_15 (after hostOps1_14 V) (Proc.devRef .tc main_v25) : S2000000.Idx → BitVec 32) (ix1 p)
      = Spec.jrem ((V (Proc.devRef .tc main_v24) : S2000000.Idx → BitVec 32) (ix1 p)) 216#32 := by
  read_stretch
  rfl

set_option maxHeartbeats 1000000 in
/-- `id div 216`. -/
theorem s_v26 (V : VK) (p : Fin 2000000) :
    (after hostOps1_17 (after hostOps1_16 V) (Proc.devRef .tc main_v26) : S2000000.Idx → BitVec 32) (ix1 p)
      = Spec.jfdiv ((V (Proc.devRef .tc main_v24) : S2000000.Idx → BitVec 32) (ix1 p)) 216#32 := by
  read_stretch
  generalize (216#32 : BitVec 32) = n
  rfl

set_option maxHeartbeats 1000000 in
/-- `y = (id div 216) mod 248`. -/
theorem s_v27 (V : VK) (p : Fin 2000000) :
    (after hostOps1_19 (after hostOps1_18 V) (Proc.devRef .tc main_v27) : S2000000.Idx → BitVec 32) (ix1 p)
      = Spec.jrem ((V (Proc.devRef .tc main_v26) : S2000000.Idx → BitVec 32) (ix1 p)) 248#32 := by
  read_stretch
  rfl

set_option maxHeartbeats 1000000 in
/-- `z = (id div 216) div 248`. -/
theorem s_v28 (V : VK) (p : Fin 2000000) :
    (after hostOps1_21 (after hostOps1_20 V) (Proc.devRef .tc main_v28) : S2000000.Idx → BitVec 32) (ix1 p)
      = Spec.jfdiv ((V (Proc.devRef .tc main_v26) : S2000000.Idx → BitVec 32) (ix1 p)) 248#32 := by
  read_stretch
  generalize (248#32 : BitVec 32) = n
  rfl

set_option maxHeartbeats 1000000 in
/-- The coordinate table at (p, q): column q's value at p, zero where invalid. -/
theorem s_v34 (V : VK) (p : Fin 2000000) :
    ((after hostOps1_23 (after hostOps1_22 V) (Proc.devRef .tc main_v34) : S2000000x3.Idx → BitVec 32) (ix2 p (0 : Fin 3))
        = Scalar.select ((V (Proc.devRef .tc main_v23) : S2000000.Idx → BitVec 1) (ix1 p)) ((V (Proc.devRef .tc main_v25) : S2000000.Idx → BitVec 32) (ix1 p)) 0#32)
    ∧ ((after hostOps1_23 (after hostOps1_22 V) (Proc.devRef .tc main_v34) : S2000000x3.Idx → BitVec 32) (ix2 p (1 : Fin 3))
        = Scalar.select ((V (Proc.devRef .tc main_v23) : S2000000.Idx → BitVec 1) (ix1 p)) ((V (Proc.devRef .tc main_v27) : S2000000.Idx → BitVec 32) (ix1 p)) 0#32)
    ∧ ((after hostOps1_23 (after hostOps1_22 V) (Proc.devRef .tc main_v34) : S2000000x3.Idx → BitVec 32) (ix2 p (2 : Fin 3))
        = Scalar.select ((V (Proc.devRef .tc main_v23) : S2000000.Idx → BitVec 1) (ix1 p)) ((V (Proc.devRef .tc main_v28) : S2000000.Idx → BitVec 32) (ix1 p)) 0#32) := by
  have hsel : ∀ q : Fin 3,
      (after hostOps1_23 (after hostOps1_22 V) (Proc.devRef .tc main_v34) : S2000000x3.Idx → BitVec 32) (ix2 p q)
        = Scalar.select
            ((broadcastInDim S2000000x3 ![0, 1] bcast_S2000000x1_S2000000x3_0_1
              (broadcastInDim S2000000x1 ![0] bcast_S2000000_S2000000x1_0 (V (Proc.devRef .tc main_v23) : S2000000.Idx → BitVec 1))) (ix2 p q))
            ((concatenate S2000000x3 1
              [⟨S2000000x1, broadcastInDim S2000000x1 ![0] bcast_S2000000_S2000000x1_0 (V (Proc.devRef .tc main_v25) : S2000000.Idx → BitVec 32)⟩,
               ⟨S2000000x1, broadcastInDim S2000000x1 ![0] bcast_S2000000_S2000000x1_0 (V (Proc.devRef .tc main_v27) : S2000000.Idx → BitVec 32)⟩,
               ⟨S2000000x1, broadcastInDim S2000000x1 ![0] bcast_S2000000_S2000000x1_0 (V (Proc.devRef .tc main_v28) : S2000000.Idx → BitVec 32)⟩]
              concatenates_S2000000x1_S2000000x1_S2000000x1_S2000000x3_d1) (ix2 p q))
            0#32 := fun q => rfl
  obtain ⟨s0, s1, s2⟩ := stack_apply
    (broadcastInDim S2000000x1 ![0] bcast_S2000000_S2000000x1_0 (V (Proc.devRef .tc main_v25) : S2000000.Idx → BitVec 32))
    (broadcastInDim S2000000x1 ![0] bcast_S2000000_S2000000x1_0 (V (Proc.devRef .tc main_v27) : S2000000.Idx → BitVec 32))
    (broadcastInDim S2000000x1 ![0] bcast_S2000000_S2000000x1_0 (V (Proc.devRef .tc main_v28) : S2000000.Idx → BitVec 32)) p
  refine ⟨?_, ?_, ?_⟩
  · rw [hsel, spread_apply, col_apply, s0, col_apply]
  · rw [hsel, spread_apply, col_apply, s1, col_apply]
  · rw [hsel, spread_apply, col_apply, s2, col_apply]

/-! ### What a group leaves alone -/

theorem l2_v23 (V : VK) : after hostOps1_15 (after hostOps1_14 V) (Proc.devRef .tc main_v23) = V (Proc.devRef .tc main_v23) := by read_stretch
theorem l2_v24 (V : VK) : after hostOps1_15 (after hostOps1_14 V) (Proc.devRef .tc main_v24) = V (Proc.devRef .tc main_v24) := by read_stretch
theorem l3_v23 (V : VK) : after hostOps1_17 (after hostOps1_16 V) (Proc.devRef .tc main_v23) = V (Proc.devRef .tc main_v23) := by read_stretch
theorem l3_v25 (V : VK) : after hostOps1_17 (after hostOps1_16 V) (Proc.devRef .tc main_v25) = V (Proc.devRef .tc main_v25) := by read_stretch
theorem l4_v23 (V : VK) : after hostOps1_19 (after hostOps1_18 V) (Proc.devRef .tc main_v23) = V (Proc.devRef .tc main_v23) := by read_stretch
theorem l4_v25 (V : VK) : after hostOps1_19 (after hostOps1_18 V) (Proc.devRef .tc main_v25) = V (Proc.devRef .tc main_v25) := by read_stretch
theorem l4_v26 (V : VK) : after hostOps1_19 (after hostOps1_18 V) (Proc.devRef .tc main_v26) = V (Proc.devRef .tc main_v26) := by read_stretch
theorem l5_v23 (V : VK) : after hostOps1_21 (after hostOps1_20 V) (Proc.devRef .tc main_v23) = V (Proc.devRef .tc main_v23) := by read_stretch
theorem l5_v25 (V : VK) : after hostOps1_21 (after hostOps1_20 V) (Proc.devRef .tc main_v25) = V (Proc.devRef .tc main_v25) := by read_stretch
theorem l5_v27 (V : VK) : after hostOps1_21 (after hostOps1_20 V) (Proc.devRef .tc main_v27) = V (Proc.devRef .tc main_v27) := by read_stretch

/-- The ten stretches after the first group write neither the validity bits nor the clamped ids. -/
theorem kS_v23 (V : VK) : after hostOps1_23 (after hostOps1_22 (after hostOps1_21 (after hostOps1_20 (after hostOps1_19 (after hostOps1_18 (after hostOps1_17 (after hostOps1_16 (after hostOps1_15 (after hostOps1_14 V))))))))) (Proc.devRef .tc main_v23) = V (Proc.devRef .tc main_v23) := by read_stretch
theorem kS_v24 (V : VK) : after hostOps1_23 (after hostOps1_22 (after hostOps1_21 (after hostOps1_20 (after hostOps1_19 (after hostOps1_18 (after hostOps1_17 (after hostOps1_16 (after hostOps1_15 (after hostOps1_14 V))))))))) (Proc.devRef .tc main_v24) = V (Proc.devRef .tc main_v24) := by read_stretch

/-! ### The sparse decoding from the reshaped result -/

/-- The stretches one after the other. -/
theorem decS_nest (W : VK) : after KdecS.flatten W = after hostOps1_23 (after hostOps1_22 (after hostOps1_21 (after hostOps1_20 (after hostOps1_19 (after hostOps1_18 (after hostOps1_17 (after hostOps1_16 (after hostOps1_15 (after hostOps1_14 (after hostOps1_13 (after hostOps1_12 W))))))))))) := by
  simp only [KdecS, List.flatten_cons, List.flatten_nil, List.append_nil, after_append]

/-- The coordinate table from the validity bit `a` and the clamped id `b` of point `p`, through the four
    divisions and the stacking. -/
theorem sparse_table (V1 : VK) (p : Fin 2000000) (a : BitVec 1) (b : BitVec 32)
    (h8 : (V1 (Proc.devRef .tc main_v23) : S2000000.Idx → BitVec 1) (ix1 p) = a) (h9 : (V1 (Proc.devRef .tc main_v24) : S2000000.Idx → BitVec 32) (ix1 p) = b) :
    ((after hostOps1_23 (after hostOps1_22 (after hostOps1_21 (after hostOps1_20 (after hostOps1_19 (after hostOps1_18 (after hostOps1_17 (after hostOps1_16 (after hostOps1_15 (after hostOps1_14 V1))))))))) (Proc.devRef .tc main_v34) : S2000000x3.Idx → BitVec 32) (ix2 p (0 : Fin 3))
        = Scalar.select a (Spec.jrem b 216#32) 0#32)
    ∧ ((after hostOps1_23 (after hostOps1_22 (after hostOps1_21 (after hostOps1_20 (after hostOps1_19 (after hostOps1_18 (after hostOps1_17 (after hostOps1_16 (after hostOps1_15 (after hostOps1_14 V1))))))))) (Proc.devRef .tc main_v34) : S2000000x3.Idx → BitVec 32) (ix2 p (1 : Fin 3))
        = Scalar.select a (Spec.jrem (Spec.jfdiv b 216#32) 248#32) 0#32)
    ∧ ((after hostOps1_23 (after hostOps1_22 (after hostOps1_21 (after hostOps1_20 (after hostOps1_19 (after hostOps1_18 (after hostOps1_17 (after hostOps1_16 (after hostOps1_15 (after hostOps1_14 V1))))))))) (Proc.devRef .tc main_v34) : S2000000x3.Idx → BitVec 32) (ix2 p (2 : Fin 3))
        = Scalar.select a (Spec.jfdiv (Spec.jfdiv b 216#32) 248#32) 0#32) := by
  -- after x
  have a8 : (after hostOps1_15 (after hostOps1_14 V1) (Proc.devRef .tc main_v23) : S2000000.Idx → BitVec 1) (ix1 p) = a := by rw [l2_v23]; exact h8
  have a9 : (after hostOps1_15 (after hostOps1_14 V1) (Proc.devRef .tc main_v24) : S2000000.Idx → BitVec 32) (ix1 p) = b := by rw [l2_v24]; exact h9
  have a10 : (after hostOps1_15 (after hostOps1_14 V1) (Proc.devRef .tc main_v25) : S2000000.Idx → BitVec 32) (ix1 p) = Spec.jrem b 216#32 := by
    rw [s_v25, h9]
  generalize after hostOps1_15 (after hostOps1_14 V1) = V2 at a8 a9 a10 ⊢
  -- after id div 216
  have b8 : (after hostOps1_17 (after hostOps1_16 V2) (Proc.devRef .tc main_v23) : S2000000.Idx → BitVec 1) (ix1 p) = a := by rw [l3_v23]; exact a8
  have b10 : (after hostOps1_17 (after hostOps1_16 V2) (Proc.devRef .tc main_v25) : S2000000.Idx → BitVec 32) (ix1 p) = Spec.jrem b 216#32 := by
    rw [l3_v25]; exact a10
  have b11 : (after hostOps1_17 (after hostOps1_16 V2) (Proc.devRef .tc main_v26) : S2000000.Idx → BitVec 32) (ix1 p) = Spec.jfdiv b 216#32 := by
    rw [s_v26, a9]
  generalize after hostOps1_17 (after hostOps1_16 V2) = V3 at b8 b10 b11 ⊢
  -- after y
  have c8 : (after hostOps1_19 (after hostOps1_18 V3) (Proc.devRef .tc main_v23) : S2000000.Idx → BitVec 1) (ix1 p) = a := by rw [l4_v23]; exact b8
  have c10 : (after hostOps1_19 (after hostOps1_18 V3) (Proc.devRef .tc main_v25) : S2000000.Idx → BitVec 32) (ix1 p) = Spec.jrem b 216#32 := by
    rw [l4_v25]; exact b10
  have c11 : (after hostOps1_19 (after hostOps1_18 V3) (Proc.devRef .tc main_v26) : S2000000.Idx → BitVec 32) (ix1 p) = Spec.jfdiv b 216#32 := by
    rw [l4_v26]; exact b11
  have c12 : (after hostOps1_19 (after hostOps1_18 V3) (Proc.devRef .tc main_v27) : S2000000.Idx → BitVec 32) (ix1 p)
      = Spec.jrem (Spec.jfdiv b 216#32) 248#32 := by rw [s_v27, b11]
  generalize after hostOps1_19 (after hostOps1_18 V3) = V4 at c8 c10 c11 c12 ⊢
  -- after z
  have e8 : (after hostOps1_21 (after hostOps1_20 V4) (Proc.devRef .tc main_v23) : S2000000.Idx → BitVec 1) (ix1 p) = a := by rw [l5_v23]; exact c8
  have e10 : (after hostOps1_21 (after hostOps1_20 V4) (Proc.devRef .tc main_v25) : S2000000.Idx → BitVec 32) (ix1 p) = Spec.jrem b 216#32 := by
    rw [l5_v25]; exact c10
  have e12 : (after hostOps1_21 (after hostOps1_20 V4) (Proc.devRef .tc main_v27) : S2000000.Idx → BitVec 32) (ix1 p)
      = Spec.jrem (Spec.jfdiv b 216#32) 248#32 := by rw [l5_v27]; exact c12
  have e13 : (after hostOps1_21 (after hostOps1_20 V4) (Proc.devRef .tc main_v28) : S2000000.Idx → BitVec 32) (ix1 p)
      = Spec.jfdiv (Spec.jfdiv b 216#32) 248#32 := by rw [s_v28, c11]
  generalize after hostOps1_21 (after hostOps1_20 V4) = V5 at e8 e10 e12 e13 ⊢
  -- the table
  obtain ⟨t0, t1, t2⟩ := s_v34 V5 p
  rw [e8] at t0 t1 t2
  rw [e10] at t0; rw [e12] at t1; rw [e13] at t2
  exact ⟨t0, t1, t2⟩

/-- Row 1 of the reshaped result at `p` is the sparse encoded id of point `p`. -/
theorem sparse_id (h4 : (W (Proc.devRef .tc main_v4) : S2x2000000.Idx → BitVec 32) = metaFlat pts) (p : Fin 2000000) :
    (after hostOps1_13 (after hostOps1_12 W) (Proc.devRef .tc main_v21) : S2000000.Idx → BitVec 32) (ix1 p) = eS pts p := by
  rw [s_v21, h4]
  rfl

theorem decS_valid (h4 : (W (Proc.devRef .tc main_v4) : S2x2000000.Idx → BitVec 32) = metaFlat pts) (p : Fin 2000000) :
    (after KdecS.flatten W (Proc.devRef .tc main_v23) : S2000000.Idx → BitVec 1) (ix1 p) = Spec.kValid 53568#32 (eS pts p) := by
  rw [decS_nest, kS_v23, s_v23, sparse_id W pts h4]

theorem decS_lin (h4 : (W (Proc.devRef .tc main_v4) : S2x2000000.Idx → BitVec 32) = metaFlat pts) (p : Fin 2000000) :
    (after KdecS.flatten W (Proc.devRef .tc main_v24) : S2000000.Idx → BitVec 32) (ix1 p) = Spec.kLin 53568#32 (eS pts p) := by
  rw [decS_nest, kS_v24, s_v24, sparse_id W pts h4]

theorem decS_c (h4 : (W (Proc.devRef .tc main_v4) : S2x2000000.Idx → BitVec 32) = metaFlat pts) (p : Fin 2000000) (q : Fin 3) :
    (after KdecS.flatten W (Proc.devRef .tc main_v34) : S2000000x3.Idx → BitVec 32) (ix2 p q)
      = Spec.kC 216#32 248#32 53568#32 (eS pts p) q := by
  rw [decS_nest]
  have h8 := s_v23 W p; rw [sparse_id W pts h4] at h8
  have h9 := s_v24 W p; rw [sparse_id W pts h4] at h9
  obtain ⟨t0, t1, t2⟩ := sparse_table (after hostOps1_13 (after hostOps1_12 W)) p _ _ h8 h9
  match q with
  | ⟨0, _⟩ => exact t0
  | ⟨1, _⟩ => exact t1
  | ⟨2, _⟩ => exact t2

end Cert.Bridge.HeadK

end
-- ==== Proof.HeadMath.lean ====
/-
  The integer arithmetic of one point. A point's encoded id is its linear voxel id when its three cell coordinates lie
  in the grid and the grid's size otherwise. From the encoded id alone the validity bit, the id clamped to zero and the
  three cell coordinates are recovered: the id of a point inside the grid is `cy · nx + cx` with `0 ≤ cx < nx`,
  `0 ≤ cy < ny` (the grid has one layer, so `cz = 0`), a number in `[0, nx · ny)` computed without wrap-around, so it
  is below the grid's size, its remainder by `nx` is `cx`, its quotient by `nx` is `cy`, and that quotient's remainder
  and quotient by `ny` are `cy` and `0`; on nonnegative dividends with a positive divisor the floored remainder and floor
  division, as the host lines compute them, are the plain ones. The grid's size itself is not below the grid's size.
-/
import proofs.«414662_j83537113907662_3_alg».proof.Proof.SpecHost

namespace Cert.Spec

open Idealize.ShloMosaic

/-! ### One bit -/

theorem andi_ofBool (p q : Bool) : IntOp.andi (BitVec.ofBool p) (BitVec.ofBool q) = BitVec.ofBool (p && q) := by
  cases p <;> cases q <;> rfl

theorem select_true {α : Type} (a b : α) : Scalar.select (BitVec.ofBool true) a b = a := by
  unfold Scalar.select; exact if_pos (by decide)

theorem select_false {α : Type} (a b : α) : Scalar.select (BitVec.ofBool false) a b = b := by
  unfold Scalar.select; exact if_neg (by decide)

/-- The kernel's nested conjunction and the reference's conjunction over the axes are the same bit. -/
theorem inGrid_eq_rValid (nx ny nz cx cy cz : BitVec 32) : inGrid nx ny nz cx cy cz = rValid nx ny nz cx cy cz := by
  simp only [inGrid, rValid, axisOk, IntOp.cmpi, andi_ofBool, Bool.and_assoc]

/-! ### Signed comparisons of small words -/

/-- Signed "less than" between two words below `2 ^ 31` compares them as naturals. -/
theorem slt_small (x y : BitVec 32) (hx : x.toNat < 2 ^ 31) (hy : y.toNat < 2 ^ 31) : x.slt y = decide (x.toNat < y.toNat) := by
  unfold BitVec.slt
  rw [BitVec.toInt_eq_toNat_cond, BitVec.toInt_eq_toNat_cond, if_pos (by omega), if_pos (by omega)]
  congr 1
  exact propext Int.ofNat_lt

/-- One axis: `0 ≤ c < n` as signed words is `c < n` as naturals, for `n` below `2 ^ 31`. -/
theorem axisOk_eq (n c : BitVec 32) (hn : n.toNat < 2 ^ 31) : axisOk n c = BitVec.ofBool (decide (c.toNat < n.toNat)) := by
  simp only [axisOk, IntOp.cmpi, andi_ofBool]
  congr 1
  rw [Bool.eq_iff_iff]
  simp only [Bool.and_eq_true, BitVec.sle, BitVec.slt, decide_eq_true_eq, BitVec.toInt_eq_toNat_cond, BitVec.toNat_ofNat]
  have := c.isLt
  split <;> split <;> omega

/-! ### Division of a nonnegative word by a positive one -/

/-- A word below `2 ^ 31` has a clear sign bit. -/
theorem msb_small (x : BitVec 32) (hx : x.toNat < 2 ^ 31) : x.msb = false := by
  rw [BitVec.msb_eq_decide]; exact decide_eq_false (by omega)

/-- A positive divisor below `2 ^ 31` is neither zero nor minus one: the division has no corner. -/
theorem not_corner (x n : BitVec 32) (hn0 : 0 < n.toNat) (hn : n.toNat < 2 ^ 31) : ¬IntOp.SDivCorner x n := by
  unfold IntOp.SDivCorner
  rintro (h | ⟨-, h⟩)
  · rw [h] at hn0; exact absurd hn0 (by decide)
  · rw [h] at hn; exact absurd hn (by decide)

/-- The truncated remainder of a nonnegative word by a positive one is the remainder of naturals, -/
theorem remsi_small (x n : BitVec 32) (hx : x.toNat < 2 ^ 31) (hn0 : 0 < n.toNat) (hn : n.toNat < 2 ^ 31) :
    IntOp.remsi .host x n = x % n := by
  unfold IntOp.remsi
  rw [if_neg (not_corner x n hn0 hn), BitVec.srem_eq, msb_small x hx, msb_small n hn]

/-- and the truncated quotient the quotient of naturals. -/
theorem divsi_small (x n : BitVec 32) (hx : x.toNat < 2 ^ 31) (hn0 : 0 < n.toNat) (hn : n.toNat < 2 ^ 31) :
    IntOp.divsi .host x n = x / n := by
  unfold IntOp.divsi
  rw [if_neg (not_corner x n hn0 hn), BitVec.sdiv_eq, msb_small x hx, msb_small n hn]
  rfl

/-- The floored remainder of a nonnegative word by a positive one is the remainder of naturals: the divisor is not zero,
    the truncated remainder is not negative, so no correction is made. -/
theorem jrem_small (x n : BitVec 32) (hx : x.toNat < 2 ^ 31) (hn0 : 0 < n.toNat) (hn : n.toNat < 2 ^ 31) :
    jrem x n = x % n := by
  have hne : (n == 0#32) = false := by
    rw [beq_eq_false_iff_ne]; intro h; rw [h] at hn0; exact absurd hn0 (by decide)
  have hm : Scalar.select (IntOp.cmpi .eq n 0#32) 1#32 n = n := by
    simp only [IntOp.cmpi, hne]; exact select_false _ _
  have hr : (x % n).toNat < 2 ^ 31 := by
    rw [BitVec.toNat_umod]; exact Nat.lt_trans (Nat.mod_lt _ hn0) hn
  have h0 : (0#32).toNat < 2 ^ 31 := by decide
  have s1 : (x % n).slt 0#32 = false := by rw [slt_small _ _ hr h0]; exact decide_eq_false (Nat.not_lt_zero _)
  have s2 : n.slt 0#32 = false := by rw [slt_small _ _ hn h0]; exact decide_eq_false (Nat.not_lt_zero _)
  simp only [jrem, hm, remsi_small x n hx hn0 hn]
  simp only [IntOp.cmpi, s1, s2, andi_ofBool, bne_self_eq_false, Bool.false_and]
  exact select_false _ _

/-- Floor division of a nonnegative word by a positive one is the quotient of naturals: the signs differ only for a zero
    dividend, whose remainder is zero, so no correction is made. -/
theorem jfdiv_small (x n : BitVec 32) (hx : x.toNat < 2 ^ 31) (hn0 : 0 < n.toNat) (hn : n.toNat < 2 ^ 31) :
    jfdiv x n = x / n := by
  have hn1 : sgn n = 1 := by
    unfold sgn
    rw [if_neg (by intro h; rw [h] at hn0; exact absurd hn0 (by decide)), msb_small n hn]; rfl
  simp only [jfdiv, divsi_small x n hx hn0 hn, remsi_small x n hx hn0 hn, IntOp.cmpi, andi_ofBool, hn1]
  by_cases hx0 : x = 0
  · subst hx0
    have hz : (0 : BitVec 32) % n = 0#32 := BitVec.zero_umod
    rw [hz, bne_self_eq_false, Bool.and_false]; exact select_false _ _
  · have hx1 : sgn x = 1 := by unfold sgn; rw [if_neg hx0, msb_small x hx]; rfl
    rw [hx1, bne_self_eq_false, Bool.false_and]; exact select_false _ _

/-! ### The grid -/

/-- What the arithmetic asks of a grid of one layer: both extents positive and their product, the grid's size, below
    `2 ^ 31`. -/
structure GridOk (nx ny G : BitVec 32) : Prop where
  hx : 0 < nx.toNat
  hy : 0 < ny.toNat
  hG : ny.toNat * nx.toNat = G.toNat
  hG31 : G.toNat < 2 ^ 31

/-- The three cell coordinates lie in the grid `nx × ny × 1`, as naturals. -/
def Inside (nx ny cx cy cz : BitVec 32) : Prop := cx.toNat < nx.toNat ∧ cy.toNat < ny.toNat ∧ cz.toNat < 1

variable {nx ny G : BitVec 32}

theorem GridOk.nx_small (g : GridOk nx ny G) : nx.toNat < 2 ^ 31 := by
  have h := Nat.le_mul_of_pos_left nx.toNat g.hy
  have := g.hG; have := g.hG31; omega

theorem GridOk.ny_small (g : GridOk nx ny G) : ny.toNat < 2 ^ 31 := by
  have h := Nat.le_mul_of_pos_right ny.toNat g.hx
  have := g.hG; have := g.hG31; omega

/-- The validity bit says whether the coordinates lie in the grid. -/
theorem rValid_eq (g : GridOk nx ny G) (cx cy cz : BitVec 32) :
    rValid nx ny 1#32 cx cy cz
      = BitVec.ofBool (decide (cx.toNat < nx.toNat) && decide (cy.toNat < ny.toNat) && decide (cz.toNat < 1)) := by
  unfold rValid
  rw [axisOk_eq nx cx g.nx_small, axisOk_eq ny cy g.ny_small, axisOk_eq 1#32 cz (by decide), andi_ofBool, andi_ofBool]
  rfl

theorem rValid_of_inside (g : GridOk nx ny G) {cx cy cz : BitVec 32} (h : Inside nx ny cx cy cz) :
    rValid nx ny 1#32 cx cy cz = BitVec.ofBool true := by
  rw [rValid_eq g, decide_eq_true h.1, decide_eq_true h.2.1, decide_eq_true h.2.2]; rfl

theorem rValid_of_not_inside (g : GridOk nx ny G) {cx cy cz : BitVec 32} (h : ¬Inside nx ny cx cy cz) :
    rValid nx ny 1#32 cx cy cz = BitVec.ofBool false := by
  rw [rValid_eq g]
  congr 1
  rw [Bool.eq_false_iff]
  intro hb
  simp only [Bool.and_eq_true, decide_eq_true_eq] at hb
  exact h ⟨hb.1.1, hb.1.2, hb.2⟩

theorem inside_of_rValid (g : GridOk nx ny G) {cx cy cz : BitVec 32} (h : rValid nx ny 1#32 cx cy cz = 1#1) :
    Inside nx ny cx cy cz := by
  by_contra hn
  rw [rValid_of_not_inside g hn] at h
  exact absurd h (by decide)

/-- The linear id of a point inside the grid is `cy · nx + cx`, computed without wrap-around, a number below the
    grid's size. -/
theorem lin_inside (g : GridOk nx ny G) {cx cy cz : BitVec 32} (h : Inside nx ny cx cy cz) :
    (lin nx ny cx cy cz).toNat = cy.toNat * nx.toNat + cx.toNat ∧ cy.toNat * nx.toNat + cx.toNat < G.toNat := by
  obtain ⟨h0, h1, h2⟩ := h
  have hz : cz = 0#32 := BitVec.eq_of_toNat_eq (by rw [BitVec.toNat_ofNat]; omega)
  subst hz
  have hb : cy.toNat * nx.toNat + cx.toNat < G.toNat := by
    have h := Nat.mul_le_mul_right nx.toNat (Nat.succ_le_of_lt h1)
    rw [Nat.succ_mul] at h
    have := g.hG; omega
  refine ⟨?_, hb⟩
  have := g.hG31
  unfold lin IntOp.addi IntOp.muli
  rw [BitVec.toNat_add, BitVec.toNat_mul, BitVec.toNat_add, BitVec.toNat_mul, BitVec.toNat_ofNat]
  rw [Nat.zero_mod, Nat.zero_mul, Nat.zero_mod, Nat.zero_add, Nat.mod_eq_of_lt cy.isLt,
    Nat.mod_eq_of_lt (a := cy.toNat * nx.toNat) (by omega)]
  exact Nat.mod_eq_of_lt (by omega)

/-- The encoded id of a point inside the grid is its linear id; of a point outside, the grid's size. -/
theorem enc_inside (g : GridOk nx ny G) {cx cy cz : BitVec 32} (h : Inside nx ny cx cy cz) :
    enc nx ny 1#32 G cx cy cz = lin nx ny cx cy cz := by
  unfold enc; rw [inGrid_eq_rValid, rValid_of_inside g h]; exact select_true _ _

theorem enc_outside (g : GridOk nx ny G) {cx cy cz : BitVec 32} (h : ¬Inside nx ny cx cy cz) :
    enc nx ny 1#32 G cx cy cz = G := by
  unfold enc; rw [inGrid_eq_rValid, rValid_of_not_inside g h]; exact select_false _ _

/-- The encoded id is below the grid's size exactly for a point inside the grid. -/
theorem kValid_enc (g : GridOk nx ny G) (cx cy cz : BitVec 32) :
    kValid G (enc nx ny 1#32 G cx cy cz) = rValid nx ny 1#32 cx cy cz := by
  have hG31 := g.hG31
  by_cases h : Inside nx ny cx cy cz
  · obtain ⟨hl, hb⟩ := lin_inside g h
    rw [enc_inside g h, rValid_of_inside g h]
    unfold kValid; simp only [IntOp.cmpi]
    rw [slt_small _ _ (by omega) hG31, decide_eq_true (by omega)]
  · rw [enc_outside g h, rValid_of_not_inside g h]
    unfold kValid; simp only [IntOp.cmpi]
    rw [slt_small _ _ hG31 hG31, decide_eq_false (Nat.lt_irrefl _)]

/-- The id clamped to zero, from the encoded id, is the reference's. -/
theorem kLin_enc (g : GridOk nx ny G) (cx cy cz : BitVec 32) :
    kLin G (enc nx ny 1#32 G cx cy cz) = rLin nx ny 1#32 cx cy cz := by
  unfold kLin rLin
  rw [kValid_enc g]
  by_cases h : Inside nx ny cx cy cz
  · rw [rValid_of_inside g h, enc_inside g h]
  · rw [rValid_of_not_inside g h, select_false, select_false]

/-- The three cell coordinates of a point inside the grid, decoded from its encoded id. -/
theorem kC_enc (g : GridOk nx ny G) {cx cy cz : BitVec 32} (h : rValid nx ny 1#32 cx cy cz = 1#1) :
    kC nx ny G (enc nx ny 1#32 G cx cy cz) 0 = cx ∧ kC nx ny G (enc nx ny 1#32 G cx cy cz) 1 = cy
      ∧ kC nx ny G (enc nx ny 1#32 G cx cy cz) 2 = cz := by
  have hi := inside_of_rValid g h
  obtain ⟨hl, hb⟩ := lin_inside g hi
  have hv : kValid G (lin nx ny cx cy cz) = BitVec.ofBool true := by
    rw [← enc_inside g hi, kValid_enc g, rValid_of_inside g hi]
  have hk : kLin G (lin nx ny cx cy cz) = lin nx ny cx cy cz := by unfold kLin; rw [hv]; exact select_true _ _
  rw [enc_inside g hi]
  obtain ⟨h0, h1, h2⟩ := hi
  have hG31 := g.hG31; have hx := g.hx; have hy := g.hy; have hxs := g.nx_small; have hys := g.ny_small
  have hL : (lin nx ny cx cy cz).toNat < 2 ^ 31 := by omega
  have hcy : cy.toNat < 2 ^ 31 := by omega
  -- the quotient by nx is cy
  have hq : jfdiv (lin nx ny cx cy cz) nx = cy := by
    rw [jfdiv_small _ _ hL hx hxs]
    apply BitVec.eq_of_toNat_eq
    rw [BitVec.toNat_udiv, hl, Nat.add_comm, Nat.add_mul_div_right _ _ hx, Nat.div_eq_of_lt h0, Nat.zero_add]
  refine ⟨?_, ?_, ?_⟩
  · show Scalar.select (kValid G _) (jrem (kLin G _) nx) 0#32 = cx
    rw [hv, select_true, hk, jrem_small _ _ hL hx hxs]
    apply BitVec.eq_of_toNat_eq
    rw [BitVec.toNat_umod, hl, Nat.add_comm, Nat.add_mul_mod_self_right, Nat.mod_eq_of_lt h0]
  · show Scalar.select (kValid G _) (jrem (jfdiv (kLin G _) nx) ny) 0#32 = cy
    rw [hv, select_true, hk, hq, jrem_small _ _ hcy hy hys]
    apply BitVec.eq_of_toNat_eq
    rw [BitVec.toNat_umod, Nat.mod_eq_of_lt h1]
  · show Scalar.select (kValid G _) (jfdiv (jfdiv (kLin G _) nx) ny) 0#32 = cz
    rw [hv, select_true, hk, hq, jfdiv_small _ _ hcy hy hys]
    apply BitVec.eq_of_toNat_eq
    rw [BitVec.toNat_udiv, Nat.div_eq_of_lt h1]; omega

/-! ### The two grids -/

/-- The dense grid, 432 × 496 × 1 = 214272 cells, and the sparse one, 216 × 248 × 1 = 53568. -/
theorem gridD : GridOk 432#32 496#32 214272#32 := ⟨by decide, by decide, by decide, by decide⟩
theorem gridS : GridOk 216#32 248#32 53568#32 := ⟨by decide, by decide, by decide, by decide⟩

theorem kValid_encD (cx cy cz : BitVec 32) :
    kValid 214272#32 (enc 432#32 496#32 1#32 214272#32 cx cy cz) = rValid 432#32 496#32 1#32 cx cy cz := kValid_enc gridD cx cy cz
theorem kLin_encD (cx cy cz : BitVec 32) :
    kLin 214272#32 (enc 432#32 496#32 1#32 214272#32 cx cy cz) = rLin 432#32 496#32 1#32 cx cy cz := kLin_enc gridD cx cy cz
theorem kC_encD {cx cy cz : BitVec 32} (h : rValid 432#32 496#32 1#32 cx cy cz = 1#1) :
    kC 432#32 496#32 214272#32 (enc 432#32 496#32 1#32 214272#32 cx cy cz) 0 = cx
      ∧ kC 432#32 496#32 214272#32 (enc 432#32 496#32 1#32 214272#32 cx cy cz) 1 = cy
      ∧ kC 432#32 496#32 214272#32 (enc 432#32 496#32 1#32 214272#32 cx cy cz) 2 = cz := kC_enc gridD h

theorem kValid_encS (cx cy cz : BitVec 32) :
    kValid 53568#32 (enc 216#32 248#32 1#32 53568#32 cx cy cz) = rValid 216#32 248#32 1#32 cx cy cz := kValid_enc gridS cx cy cz
theorem kLin_encS (cx cy cz : BitVec 32) :
    kLin 53568#32 (enc 216#32 248#32 1#32 53568#32 cx cy cz) = rLin 216#32 248#32 1#32 cx cy cz := kLin_enc gridS cx cy cz
theorem kC_encS {cx cy cz : BitVec 32} (h : rValid 216#32 248#32 1#32 cx cy cz = 1#1) :
    kC 216#32 248#32 53568#32 (enc 216#32 248#32 1#32 53568#32 cx cy cz) 0 = cx
      ∧ kC 216#32 248#32 53568#32 (enc 216#32 248#32 1#32 53568#32 cx cy cz) 1 = cy
      ∧ kC 216#32 248#32 53568#32 (enc 216#32 248#32 1#32 53568#32 cx cy cz) 2 = cz := kC_enc gridS h

end Cert.Spec
-- ==== Proof.HeadR.lean ====
/-
  The reference's cell arithmetic read down to one point.

  Each of the reference's two voxelizations begins by computing, for every point, its three cell
  coordinates (subtract the grid's origin, divide by the cell widths, take the floor, convert to a
  32-bit integer), the bit "all three cells are inside the grid", and the linear voxel id
  `(c₂ · ny + c₁) · nx + c₀`, replaced by zero for a point outside. The lines work on whole arrays:
  rows of three constants spread over the points, a conjunction taken along the rows of an `N × 3`
  array of bits, columns cut out and cast to vectors. Here each is read at one point `p` (and one
  axis `q`) and identified with the scalar functions of the specification.
-/
import proofs.«414662_j83537113907662_3_alg».proof.Proof.Names
import proofs.«414662_j83537113907662_3_alg».proof.Proof.SpecHost
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Reduce

noncomputable section

namespace Cert.Bridge.HeadR

open Idealize.ShloMosaic Idealize.ShloMosaic.ValueIdx Idealize.ShloMosaic.StableHlo
open Cert.ReferenceIdeal Cert.ReferenceIdeal.Gen

/-! ## Vectors read at an index -/

section Generic
variable {N C : Nat} {α : Type}

/-- A row of `C` values broadcast to `1 × C` and then down `N` rows, read at `(p, q)`, is the row at `q`. -/
theorem bcast_row_apply (h1 : (⟨1, ![C]⟩ : Shape).BroadcastsInDim ⟨2, ![1, C]⟩ ![1])
    (h2 : (⟨2, ![1, C]⟩ : Shape).BroadcastsInDim ⟨2, ![N, C]⟩ ![0, 1])
    (v : (⟨1, ![C]⟩ : Shape).Idx → α) (p : Fin N) (q : Fin C) :
    broadcastInDim ⟨2, ![N, C]⟩ ![0, 1] h2 (broadcastInDim ⟨2, ![1, C]⟩ ![1] h1 v) (ix2 p q) = v (ix1 q) := by
  refine (broadcastInDim_apply _ h2 _ _ (ix2 (0 : Fin 1) q) fun a => ?_).trans
    (broadcastInDim_apply _ h1 _ _ (ix1 q) fun a => ?_)
  · match a with
    | ⟨0, _⟩ => show (0 : Nat) = if (1 : Nat) = 1 then 0 else p.val; simp
    | ⟨1, _⟩ =>
      show q.val = if C = 1 then 0 else q.val
      have := q.isLt
      split <;> omega
  · match a with
    | ⟨0, _⟩ =>
      show q.val = if C = 1 then 0 else q.val
      have := q.isLt
      split <;> omega

/-- Column `o` of an `N × C` array, cut out as `N × 1` and cast to a vector, read at `p`, is the array at `(p, o)`. -/
theorem col_apply (c : (⟨2, ![N, C]⟩ : Shape).Idx → α) (o : Nat)
    (hs : (⟨2, ![N, C]⟩ : Shape).Slices ![0, o] ⟨2, ![N, 1]⟩)
    (hc : (⟨2, ![N, 1]⟩ : Shape).ShapeCasts ⟨1, ![N]⟩) (p : Fin N) (k : Fin C) (hk : k.val = o) :
    shapeCast ⟨1, ![N]⟩ (extractStridedSlice ⟨2, ![N, 1]⟩ ![0, o] c hs) hc (ix1 p) = c (ix2 p k) := by
  refine (shapeCast_apply _ hc (ix1 p) (ix2 p (0 : Fin 1)) ?_).trans ?_
  · rw [Shape.rowMajor_val_two, Shape.rowMajor_val_one]
    show p.val * 1 + 0 = p.val
    omega
  · exact slice2_axis1_apply o c hs p (0 : Fin 1) k (by simp [hk])

/-- The source index over `p` with coordinate `k` on the dropped column axis is `(p, k)`. -/
theorem lift_row (h : (⟨2, ![N, C]⟩ : Shape).Reduces [1] ⟨1, ![N]⟩) (p : Fin N)
    (k : Fin ((⟨2, ![N, C]⟩ : Shape).size 1)) :
    h.lift (ix1 p) k = ix2 p k := by
  funext c
  apply Fin.ext
  show h.liftVal (ix1 p) k.val c = _
  unfold Shape.Reduces.liftVal
  match c with
  | ⟨0, _⟩ => simp
  | ⟨1, _⟩ => simp

/-- A fold over the three elements of `Fin 3`, written out. -/
theorem fold_fin3 (f : α → α → α) [Std.Commutative f] [Std.Associative f] (b : α) (g : Fin 3 → α) :
    (Finset.univ : Finset (Fin 3)).fold f b g = f (g 0) (f (g 1) (f (g 2) b)) := by
  rw [show (Finset.univ : Finset (Fin 3)) = insert 0 (insert 1 {2}) from by decide]
  rw [Finset.fold_insert (by decide), Finset.fold_insert (by decide), Finset.fold_singleton]

/-- Three one-bit words and the unit, conjoined from the right, are the three conjoined from the left. -/
theorem andi3 : ∀ a b c : BitVec 1,
    IntOp.andi a (IntOp.andi b (IntOp.andi c 1#1)) = IntOp.andi (IntOp.andi a b) c := by decide

/-- The conjunction of an `N × 3` array of bits along its rows, from the unit: at `p` the three bits
    of row `p` conjoined. -/
theorem reduce_and_row (x : (⟨2, ![N, 3]⟩ : Shape).Idx → BitVec 1) {u : Shape} (init : u.Idx → BitVec 1)
    (h' : (⟨2, ![N, 3]⟩ : Shape).ReducesTo [1] ⟨1, ![N]⟩) (hu : 0 < u.numel)
    (hi : init (Shape.Idx.first hu) = 1#1) (p : Fin N) :
    Host.reduce IntOp.andi x init h' hu (ix1 p)
      = IntOp.andi (IntOp.andi (x (ix2 p 0)) (x (ix2 p 1))) (x (ix2 p 2)) := by
  have h : (⟨2, ![N, 3]⟩ : Shape).Reduces [1] ⟨1, ![N]⟩ :=
    ⟨rfl, Nat.one_pos, fun b => by match b with | ⟨0, _⟩ => rfl⟩
  rw [Host.reduce_eq_fold_single IntOp.andi x init h' h hu (ix1 p), hi]
  refine (fold_fin3 IntOp.andi 1#1 _).trans ?_
  show IntOp.andi (x (h.lift (ix1 p) (0 : Fin 3))) (IntOp.andi (x (h.lift (ix1 p) (1 : Fin 3)))
      (IntOp.andi (x (h.lift (ix1 p) (2 : Fin 3))) 1#1)) = _
  rw [lift_row h p (0 : Fin 3), lift_row h p (1 : Fin 3), lift_row h p (2 : Fin 3)]
  exact andi3 _ _ _

end Generic

/-! ## The reference's cell arithmetic, as vectors over the points -/

section Cells
variable (lo lw lg : Fin 3 → BitVec 32) (pts : S2000000x4.Idx → Ideal .f32)

/-- The three cell coordinates of every point, as the reference computes them from the origin row `lo` and the
    width row `lw` (both rows of f32 words). -/
def cellsV : S2000000x3.Idx → BitVec 32 :=
  fptosi (F := Ideal) (φ := .f32) 32 (Host.floor (F := Ideal) (φ := .f32) (Host.divf (F := Ideal) (φ := .f32)
    (subf (F := Ideal) (φ := .f32) (extractStridedSlice S2000000x3 ![0, 0] pts slices_S2000000x4_S2000000x3_0_0)
      (broadcastInDim S2000000x3 ![0, 1] bcast_S1x3_S2000000x3_0_1
        (broadcastInDim S1x3 ![1] bcast_S3_S1x3_1 fun i => FloatOps.ofBits (F := Ideal) .f32 (lo (S3.rowMajor i)))))
    (broadcastInDim S2000000x3 ![0, 1] bcast_S1x3_S2000000x3_0_1
      (broadcastInDim S1x3 ![1] bcast_S3_S1x3_1 fun i => FloatOps.ofBits (F := Ideal) .f32 (lw (S3.rowMajor i))))))

/-- The validity bit of every point: the conjunction over the three axes of `0 ≤ c < n`, `n` from the grid row `lg`. -/
def validV : S2000000.Idx → BitVec 1 :=
  Host.reduce IntOp.andi
    (andi (cmpi .sge (cellsV lo lw pts) (broadcastInDim S2000000x3 ![] bcast_S_S2000000x3 (constantI S_ 32 0#32)))
      (cmpi .slt (cellsV lo lw pts) (broadcastInDim S2000000x3 ![0, 1] bcast_S1x3_S2000000x3_0_1
        (broadcastInDim S1x3 ![1] bcast_S3_S1x3_1 fun i => lg (S3.rowMajor i)))))
    (constantI S_ 1 1#1) reducesTo_S2000000x3_S2000000_d1 h_S_

/-- The row-major position of a rank-1 index of `S3` is its coordinate. -/
theorem s3_rowMajor (q : Fin 3) : (S3.rowMajor (ix1 q) : Fin 3) = q := Fin.ext (Shape.rowMajor_val_one (ix1 q))

/-- A row of three words, spread over the points, read at `(p, q)`. -/
theorem row_at {α : Type} (l : Fin 3 → α) (p : Fin 2000000) (q : Fin 3) :
    broadcastInDim S2000000x3 ![0, 1] bcast_S1x3_S2000000x3_0_1
      (broadcastInDim S1x3 ![1] bcast_S3_S1x3_1 fun i => l (S3.rowMajor i)) (ix2 p q) = l q := by
  rw [bcast_row_apply]
  show l (S3.rowMajor (ix1 q)) = l q
  rw [s3_rowMajor]

/-- The cell coordinate of point `p` on axis `q`: the scalar cell of its `q`-th coordinate. -/
theorem cellsV_apply (p : Fin 2000000) (q : Fin 3) (k : Fin 4) (hk : k.val = q.val) :
    cellsV lo lw pts (ix2 p q) = Cert.Spec.cell (F := Ideal) (lo q) (lw q) (pts (ix2 p k)) := by
  show FloatOps.fptosi (F := Ideal) 32 (FloatOps.hostUnary (F := Ideal) .floor (FloatOps.hostDivf (F := Ideal)
      (FloatOps.subf (F := Ideal) (extractStridedSlice S2000000x3 ![0, 0] pts slices_S2000000x4_S2000000x3_0_0 (ix2 p q))
        (broadcastInDim S2000000x3 ![0, 1] bcast_S1x3_S2000000x3_0_1
          (broadcastInDim S1x3 ![1] bcast_S3_S1x3_1 fun i => FloatOps.ofBits (F := Ideal) .f32 (lo (S3.rowMajor i))) (ix2 p q)))
      (broadcastInDim S2000000x3 ![0, 1] bcast_S1x3_S2000000x3_0_1
        (broadcastInDim S1x3 ![1] bcast_S3_S1x3_1 fun i => FloatOps.ofBits (F := Ideal) .f32 (lw (S3.rowMajor i))) (ix2 p q)))) = _
  rw [row_at (fun q => FloatOps.ofBits (F := Ideal) .f32 (lo q)), row_at (fun q => FloatOps.ofBits (F := Ideal) .f32 (lw q)),
    slice2_axis1_apply 0 pts slices_S2000000x4_S2000000x3_0_0 p q k (by omega)]
  rfl

/-- The validity bit of point `p`, from its three cells. -/
theorem validV_apply (p : Fin 2000000) :
    validV lo lw lg pts (ix1 p)
      = Cert.Spec.rValid (lg 0) (lg 1) (lg 2) (cellsV lo lw pts (ix2 p 0)) (cellsV lo lw pts (ix2 p 1)) (cellsV lo lw pts (ix2 p 2)) := by
  unfold validV
  rw [reduce_and_row _ _ _ _ rfl p]
  show IntOp.andi (IntOp.andi
      (IntOp.andi (IntOp.cmpi .sge (cellsV lo lw pts (ix2 p 0)) 0#32) (IntOp.cmpi .slt (cellsV lo lw pts (ix2 p 0)) (_ : BitVec 32)))
      (IntOp.andi (IntOp.cmpi .sge (cellsV lo lw pts (ix2 p 1)) 0#32) (IntOp.cmpi .slt (cellsV lo lw pts (ix2 p 1)) (_ : BitVec 32))))
      (IntOp.andi (IntOp.cmpi .sge (cellsV lo lw pts (ix2 p 2)) 0#32) (IntOp.cmpi .slt (cellsV lo lw pts (ix2 p 2)) (_ : BitVec 32))) = _
  rw [row_at lg, row_at lg, row_at lg]
  rfl

/-- The linear id of every point under its validity bit, zero for an invalid point, with the row lengths
    `ny`, `nx` as the reference spreads them. -/
theorem lin_apply (ny nx : BitVec 32) (hs2 hs1 hs0) (hc) (p : Fin 2000000) :
    Scalar.select (validV lo lw lg pts (ix1 p))
      (IntOp.addi (IntOp.muli (IntOp.addi (IntOp.muli
        (shapeCast S2000000 (extractStridedSlice S2000000x1 ![0, 2] (cellsV lo lw pts) hs2) hc (ix1 p)) ny)
        (shapeCast S2000000 (extractStridedSlice S2000000x1 ![0, 1] (cellsV lo lw pts) hs1) hc (ix1 p))) nx)
        (shapeCast S2000000 (extractStridedSlice S2000000x1 ![0, 0] (cellsV lo lw pts) hs0) hc (ix1 p))) 0#32
      = Scalar.select (validV lo lw lg pts (ix1 p))
          (Cert.Spec.lin nx ny (cellsV lo lw pts (ix2 p 0)) (cellsV lo lw pts (ix2 p 1)) (cellsV lo lw pts (ix2 p 2))) 0#32 := by
  rw [col_apply _ 2 hs2 hc p 2 rfl, col_apply _ 1 hs1 hc p 1 rfl, col_apply _ 0 hs0 hc p 0 rfl]
  rfl

end Cells

/-! ## The dense grid -/

/-- The dense grid's cell coordinate of point `p` on axis `q`. -/
def cD (pts : S2000000x4.Idx → EReal) (q : Fin 3) (p : Fin 2000000) : BitVec 32 :=
  match q with
  | 0 => Cert.Spec.cell (F := Ideal) 0x00000000#32 0x3E23D70A#32 (pts (ix2 p 0))
  | 1 => Cert.Spec.cell (F := Ideal) 0xC21EB852#32 0x3E23D70A#32 (pts (ix2 p 1))
  | 2 => Cert.Spec.cell (F := Ideal) 0xC0400000#32 0x40800000#32 (pts (ix2 p 2))

/-- The reference's vector of dense cells, read at a point and an axis. -/
theorem cellsD_apply (pts : S2000000x4.Idx → EReal) (p : Fin 2000000) (q : Fin 3) :
    cellsV lit0 lit1 pts (ix2 p q) = cD pts q p := by
  match q with
  | 0 => exact cellsV_apply lit0 lit1 pts p 0 0 rfl
  | 1 => exact cellsV_apply lit0 lit1 pts p 1 1 rfl
  | 2 => exact cellsV_apply lit0 lit1 pts p 2 2 rfl

/-- The dense cell arithmetic leaves in its cell buffer, at point `p` and axis `q`, the cell of the point's `q`-th coordinate. -/
theorem headD_c (W : Cert.Bridge.VR) (pts : S2000000x4.Idx → EReal)
    (h0 : (W (Proc.devRef .tc Cert.ReferenceIdeal.main_arg0) : S2000000x4.Idx → EReal) = pts)
    (p : Fin 2000000) (q : Fin 3) :
    (StableHlo.after Cert.Bridge.RheadD.flatten W (Proc.devRef .tc Cert.ReferenceIdeal.main_v8) : S2000000x3.Idx → BitVec 32) (ix2 p q)
      = cD pts q p := by
  simp only [Cert.Bridge.RheadD, List.flatten_cons, List.flatten_nil, List.append_nil, StableHlo.after_append]
  after_results_simp
  simp only [h0]
  exact cellsD_apply pts p q

/-- … in its validity buffer, the conjunction over the axes of "the cell is in the grid". -/
theorem headD_valid (W : Cert.Bridge.VR) (pts : S2000000x4.Idx → EReal)
    (h0 : (W (Proc.devRef .tc Cert.ReferenceIdeal.main_arg0) : S2000000x4.Idx → EReal) = pts)
    (p : Fin 2000000) :
    (StableHlo.after Cert.Bridge.RheadD.flatten W (Proc.devRef .tc Cert.ReferenceIdeal.main_v15) : S2000000.Idx → BitVec 1) (ix1 p)
      = Cert.Spec.rValid 432#32 496#32 1#32 (cD pts 0 p) (cD pts 1 p) (cD pts 2 p) := by
  simp only [Cert.Bridge.RheadD, List.flatten_cons, List.flatten_nil, List.append_nil, StableHlo.after_append]
  after_results_simp
  simp only [h0]
  refine (validV_apply lit0 lit1 lit2 pts p).trans ?_
  rw [cellsD_apply, cellsD_apply, cellsD_apply]
  rfl

/-- The validity bit already after the arithmetic stretch itself. -/
theorem validD1 (W : Cert.Bridge.VR) (pts : S2000000x4.Idx → EReal)
    (h0 : (W (Proc.devRef .tc Cert.ReferenceIdeal.main_arg0) : S2000000x4.Idx → EReal) = pts)
    (p : Fin 2000000) :
    (StableHlo.after (hostOps0 (F := Ideal)) W (Proc.devRef .tc Cert.ReferenceIdeal.main_v15) : S2000000.Idx → BitVec 1) (ix1 p)
      = Cert.Spec.rValid 432#32 496#32 1#32 (cD pts 0 p) (cD pts 1 p) (cD pts 2 p) := by
  after_results_simp
  simp only [h0]
  refine (validV_apply lit0 lit1 lit2 pts p).trans ?_
  rw [cellsD_apply, cellsD_apply, cellsD_apply]
  rfl

/-- The linear id before the selection: `(c₂ · ny + c₁) · nx + c₀` from the three columns of the cell buffer. -/
theorem sumD1 (W : Cert.Bridge.VR) (pts : S2000000x4.Idx → EReal)
    (h0 : (W (Proc.devRef .tc Cert.ReferenceIdeal.main_arg0) : S2000000x4.Idx → EReal) = pts)
    (p : Fin 2000000) :
    (StableHlo.after (hostOps0 (F := Ideal)) W (Proc.devRef .tc Cert.ReferenceIdeal.main_v27) : S2000000.Idx → BitVec 32) (ix1 p)
      = Cert.Spec.lin 432#32 496#32 (cD pts 0 p) (cD pts 1 p) (cD pts 2 p) := by
  after_results_simp
  simp only [h0]
  show IntOp.addi (IntOp.muli (IntOp.addi (IntOp.muli
        (shapeCast S2000000 (extractStridedSlice S2000000x1 ![0, 2] (cellsV lit0 lit1 pts) slices_S2000000x3_S2000000x1_0_2) shapeCasts_S2000000x1_S2000000 (ix1 p)) 496#32)
        (shapeCast S2000000 (extractStridedSlice S2000000x1 ![0, 1] (cellsV lit0 lit1 pts) slices_S2000000x3_S2000000x1_0_1) shapeCasts_S2000000x1_S2000000 (ix1 p))) 432#32)
        (shapeCast S2000000 (extractStridedSlice S2000000x1 ![0, 0] (cellsV lit0 lit1 pts) slices_S2000000x3_S2000000x1_0_0) shapeCasts_S2000000x1_S2000000 (ix1 p)) = _
  rw [col_apply _ 2 _ _ p 2 rfl, col_apply _ 1 _ _ p 1 rfl, col_apply _ 0 _ _ p 0 rfl,
    cellsD_apply, cellsD_apply, cellsD_apply]
  rfl

/-- The same stretch sets the zero an invalid point's id is replaced by. -/
theorem zeroD1 (W : Cert.Bridge.VR) :
    (StableHlo.after (hostOps0 (F := Ideal)) W (Proc.devRef .tc Cert.ReferenceIdeal.main_c_8) : S_.Idx → BitVec 32) = constantI S_ 32 0#32 := by
  after_results_simp

/-- The selection stretch: the id where the validity bit is set, the spread constant elsewhere. -/
theorem whereD (W : Cert.Bridge.VR) (p : Fin 2000000) :
    (StableHlo.after (hostOps0_1 (F := Ideal)) W (Proc.devRef .tc Cert.ReferenceIdeal.main_v28) : S2000000.Idx → BitVec 32) (ix1 p)
      = Scalar.select ((W (Proc.devRef .tc Cert.ReferenceIdeal.main_v15) : S2000000.Idx → BitVec 1) (ix1 p))
          ((W (Proc.devRef .tc Cert.ReferenceIdeal.main_v27) : S2000000.Idx → BitVec 32) (ix1 p))
          (broadcastInDim S2000000 ![] bcast_S_S2000000 (W (Proc.devRef .tc Cert.ReferenceIdeal.main_c_8) : S_.Idx → BitVec 32) (ix1 p)) := by
  after_results_simp
  rfl

/-- … and in its id buffer, the linear id of a point in the grid and zero for a point outside. -/
theorem headD_lin (W : Cert.Bridge.VR) (pts : S2000000x4.Idx → EReal)
    (h0 : (W (Proc.devRef .tc Cert.ReferenceIdeal.main_arg0) : S2000000x4.Idx → EReal) = pts)
    (p : Fin 2000000) :
    (StableHlo.after Cert.Bridge.RheadD.flatten W (Proc.devRef .tc Cert.ReferenceIdeal.main_v28) : S2000000.Idx → BitVec 32) (ix1 p)
      = Cert.Spec.rLin 432#32 496#32 1#32 (cD pts 0 p) (cD pts 1 p) (cD pts 2 p) := by
  simp only [Cert.Bridge.RheadD, List.flatten_cons, List.flatten_nil, List.append_nil, StableHlo.after_append]
  rw [whereD, validD1 W pts h0 p, sumD1 W pts h0 p, zeroD1 W]
  rfl

/-! ## The rows the sparse arithmetic reads are set by the dense stretch -/

/-- The dense stretch sets the sparse grid's origin row, -/
theorem headD_cst1 (W : Cert.Bridge.VR) :
    (StableHlo.after Cert.Bridge.RheadD.flatten W (Proc.devRef .tc Cert.ReferenceIdeal.main_cst_1) : S3.Idx → EReal)
      = fun i => FloatOps.ofBits (F := Ideal) .f32 (lit3 (S3.rowMajor i)) := by
  simp only [Cert.Bridge.RheadD, List.flatten_cons, List.flatten_nil, List.append_nil, StableHlo.after_append]
  after_results_simp
  rfl
/-- its width row, -/
theorem headD_cst2 (W : Cert.Bridge.VR) :
    (StableHlo.after Cert.Bridge.RheadD.flatten W (Proc.devRef .tc Cert.ReferenceIdeal.main_cst_2) : S3.Idx → EReal)
      = fun i => FloatOps.ofBits (F := Ideal) .f32 (lit4 (S3.rowMajor i)) := by
  simp only [Cert.Bridge.RheadD, List.flatten_cons, List.flatten_nil, List.append_nil, StableHlo.after_append]
  after_results_simp
  rfl
/-- and its grid row. -/
theorem headD_c3 (W : Cert.Bridge.VR) :
    (StableHlo.after Cert.Bridge.RheadD.flatten W (Proc.devRef .tc Cert.ReferenceIdeal.main_c_3) : S3.Idx → BitVec 32)
      = fun i => lit5 (S3.rowMajor i) := by
  simp only [Cert.Bridge.RheadD, List.flatten_cons, List.flatten_nil, List.append_nil, StableHlo.after_append]
  after_results_simp
  rfl
/-- The three together. -/
theorem headD_consts (W : Cert.Bridge.VR) :
    ((StableHlo.after Cert.Bridge.RheadD.flatten W (Proc.devRef .tc Cert.ReferenceIdeal.main_cst_1) : S3.Idx → EReal)
        = fun i => FloatOps.ofBits (F := Ideal) .f32 (lit3 (S3.rowMajor i))) ∧
    ((StableHlo.after Cert.Bridge.RheadD.flatten W (Proc.devRef .tc Cert.ReferenceIdeal.main_cst_2) : S3.Idx → EReal)
        = fun i => FloatOps.ofBits (F := Ideal) .f32 (lit4 (S3.rowMajor i))) ∧
    ((StableHlo.after Cert.Bridge.RheadD.flatten W (Proc.devRef .tc Cert.ReferenceIdeal.main_c_3) : S3.Idx → BitVec 32)
        = fun i => lit5 (S3.rowMajor i)) :=
  ⟨headD_cst1 W, headD_cst2 W, headD_c3 W⟩

/-! ## The sparse grid -/

/-- The sparse grid's cell coordinate of point `p` on axis `q`. -/
def cS (pts : S2000000x4.Idx → EReal) (q : Fin 3) (p : Fin 2000000) : BitVec 32 :=
  match q with
  | 0 => Cert.Spec.cell (F := Ideal) 0x00000000#32 0x3EA3D70A#32 (pts (ix2 p 0))
  | 1 => Cert.Spec.cell (F := Ideal) 0xC21EB852#32 0x3EA3D70A#32 (pts (ix2 p 1))
  | 2 => Cert.Spec.cell (F := Ideal) 0xC0400000#32 0x40800000#32 (pts (ix2 p 2))

/-- The reference's vector of sparse cells, read at a point and an axis. -/
theorem cellsS_apply (pts : S2000000x4.Idx → EReal) (p : Fin 2000000) (q : Fin 3) :
    cellsV lit3 lit4 pts (ix2 p q) = cS pts q p := by
  match q with
  | 0 => exact cellsV_apply lit3 lit4 pts p 0 0 rfl
  | 1 => exact cellsV_apply lit3 lit4 pts p 1 1 rfl
  | 2 => exact cellsV_apply lit3 lit4 pts p 2 2 rfl

/-- The sparse cell arithmetic leaves in its cell buffer, at point `p` and axis `q`, the cell of the point's `q`-th coordinate. -/
theorem headS_c (W : Cert.Bridge.VR) (pts : S2000000x4.Idx → EReal)
    (h0 : (W (Proc.devRef .tc Cert.ReferenceIdeal.main_arg0) : S2000000x4.Idx → EReal) = pts)
    (hc1 : (W (Proc.devRef .tc Cert.ReferenceIdeal.main_cst_1) : S3.Idx → EReal) = fun i => FloatOps.ofBits (F := Ideal) .f32 (lit3 (S3.rowMajor i)))
    (hc2 : (W (Proc.devRef .tc Cert.ReferenceIdeal.main_cst_2) : S3.Idx → EReal) = fun i => FloatOps.ofBits (F := Ideal) .f32 (lit4 (S3.rowMajor i)))
    (hc3 : (W (Proc.devRef .tc Cert.ReferenceIdeal.main_c_3) : S3.Idx → BitVec 32) = fun i => lit5 (S3.rowMajor i))
    (p : Fin 2000000) (q : Fin 3) :
    (StableHlo.after Cert.Bridge.RheadS.flatten W (Proc.devRef .tc Cert.ReferenceIdeal.main_v159) : S2000000x3.Idx → BitVec 32) (ix2 p q)
      = cS pts q p := by
  simp only [Cert.Bridge.RheadS, hostOps0_26, List.drop_succ_cons, List.drop_zero, List.flatten_cons, List.flatten_nil, List.append_nil, StableHlo.after_append]
  after_results_simp
  simp only [h0, hc1, hc2, hc3]
  exact cellsS_apply pts p q

/-- … in its validity buffer, the conjunction over the axes of "the cell is in the grid". -/
theorem headS_valid (W : Cert.Bridge.VR) (pts : S2000000x4.Idx → EReal)
    (h0 : (W (Proc.devRef .tc Cert.ReferenceIdeal.main_arg0) : S2000000x4.Idx → EReal) = pts)
    (hc1 : (W (Proc.devRef .tc Cert.ReferenceIdeal.main_cst_1) : S3.Idx → EReal) = fun i => FloatOps.ofBits (F := Ideal) .f32 (lit3 (S3.rowMajor i)))
    (hc2 : (W (Proc.devRef .tc Cert.ReferenceIdeal.main_cst_2) : S3.Idx → EReal) = fun i => FloatOps.ofBits (F := Ideal) .f32 (lit4 (S3.rowMajor i)))
    (hc3 : (W (Proc.devRef .tc Cert.ReferenceIdeal.main_c_3) : S3.Idx → BitVec 32) = fun i => lit5 (S3.rowMajor i))
    (p : Fin 2000000) :
    (StableHlo.after Cert.Bridge.RheadS.flatten W (Proc.devRef .tc Cert.ReferenceIdeal.main_v166) : S2000000.Idx → BitVec 1) (ix1 p)
      = Cert.Spec.rValid 216#32 248#32 1#32 (cS pts 0 p) (cS pts 1 p) (cS pts 2 p) := by
  simp only [Cert.Bridge.RheadS, hostOps0_26, List.drop_succ_cons, List.drop_zero, List.flatten_cons, List.flatten_nil, List.append_nil, StableHlo.after_append]
  after_results_simp
  simp only [h0, hc1, hc2, hc3]
  refine (validV_apply lit3 lit4 lit5 pts p).trans ?_
  rw [cellsS_apply, cellsS_apply, cellsS_apply]
  rfl

/-- The validity bit already after the arithmetic stretch itself. -/
theorem validS1 (W : Cert.Bridge.VR) (pts : S2000000x4.Idx → EReal)
    (h0 : (W (Proc.devRef .tc Cert.ReferenceIdeal.main_arg0) : S2000000x4.Idx → EReal) = pts)
    (hc1 : (W (Proc.devRef .tc Cert.ReferenceIdeal.main_cst_1) : S3.Idx → EReal) = fun i => FloatOps.ofBits (F := Ideal) .f32 (lit3 (S3.rowMajor i)))
    (hc2 : (W (Proc.devRef .tc Cert.ReferenceIdeal.main_cst_2) : S3.Idx → EReal) = fun i => FloatOps.ofBits (F := Ideal) .f32 (lit4 (S3.rowMajor i)))
    (hc3 : (W (Proc.devRef .tc Cert.ReferenceIdeal.main_c_3) : S3.Idx → BitVec 32) = fun i => lit5 (S3.rowMajor i))
    (p : Fin 2000000) :
    (StableHlo.after ((hostOps0_26 (F := Ideal)).drop 20) W (Proc.devRef .tc Cert.ReferenceIdeal.main_v166) : S2000000.Idx → BitVec 1) (ix1 p)
      = Cert.Spec.rValid 216#32 248#32 1#32 (cS pts 0 p) (cS pts 1 p) (cS pts 2 p) := by
  simp only [hostOps0_26, List.drop_succ_cons, List.drop_zero]
  after_results_simp
  simp only [h0, hc1, hc2, hc3]
  refine (validV_apply lit3 lit4 lit5 pts p).trans ?_
  rw [cellsS_apply, cellsS_apply, cellsS_apply]
  rfl

/-- The linear id before the selection: `(c₂ · ny + c₁) · nx + c₀` from the three columns of the cell buffer. -/
theorem sumS1 (W : Cert.Bridge.VR) (pts : S2000000x4.Idx → EReal)
    (h0 : (W (Proc.devRef .tc Cert.ReferenceIdeal.main_arg0) : S2000000x4.Idx → EReal) = pts)
    (hc1 : (W (Proc.devRef .tc Cert.ReferenceIdeal.main_cst_1) : S3.Idx → EReal) = fun i => FloatOps.ofBits (F := Ideal) .f32 (lit3 (S3.rowMajor i)))
    (hc2 : (W (Proc.devRef .tc Cert.ReferenceIdeal.main_cst_2) : S3.Idx → EReal) = fun i => FloatOps.ofBits (F := Ideal) .f32 (lit4 (S3.rowMajor i)))
    (hc3 : (W (Proc.devRef .tc Cert.ReferenceIdeal.main_c_3) : S3.Idx → BitVec 32) = fun i => lit5 (S3.rowMajor i))
    (p : Fin 2000000) :
    (StableHlo.after ((hostOps0_26 (F := Ideal)).drop 20) W (Proc.devRef .tc Cert.ReferenceIdeal.main_v178) : S2000000.Idx → BitVec 32) (ix1 p)
      = Cert.Spec.lin 216#32 248#32 (cS pts 0 p) (cS pts 1 p) (cS pts 2 p) := by
  simp only [hostOps0_26, List.drop_succ_cons, List.drop_zero]
  after_results_simp
  simp only [h0, hc1, hc2, hc3]
  show IntOp.addi (IntOp.muli (IntOp.addi (IntOp.muli
        (shapeCast S2000000 (extractStridedSlice S2000000x1 ![0, 2] (cellsV lit3 lit4 pts) slices_S2000000x3_S2000000x1_0_2) shapeCasts_S2000000x1_S2000000 (ix1 p)) 248#32)
        (shapeCast S2000000 (extractStridedSlice S2000000x1 ![0, 1] (cellsV lit3 lit4 pts) slices_S2000000x3_S2000000x1_0_1) shapeCasts_S2000000x1_S2000000 (ix1 p))) 216#32)
        (shapeCast S2000000 (extractStridedSlice S2000000x1 ![0, 0] (cellsV lit3 lit4 pts) slices_S2000000x3_S2000000x1_0_0) shapeCasts_S2000000x1_S2000000 (ix1 p)) = _
  rw [col_apply _ 2 _ _ p 2 rfl, col_apply _ 1 _ _ p 1 rfl, col_apply _ 0 _ _ p 0 rfl,
    cellsS_apply, cellsS_apply, cellsS_apply]
  rfl

/-- The same stretch sets the zero an invalid point's id is replaced by. -/
theorem zeroS1 (W : Cert.Bridge.VR) :
    (StableHlo.after ((hostOps0_26 (F := Ideal)).drop 20) W (Proc.devRef .tc Cert.ReferenceIdeal.main_c_57) : S_.Idx → BitVec 32) = constantI S_ 32 0#32 := by
  simp only [hostOps0_26, List.drop_succ_cons, List.drop_zero]
  after_results_simp

/-- The selection stretch: the id where the validity bit is set, the spread constant elsewhere. -/
theorem whereS (W : Cert.Bridge.VR) (p : Fin 2000000) :
    (StableHlo.after (hostOps0_27 (F := Ideal)) W (Proc.devRef .tc Cert.ReferenceIdeal.main_v179) : S2000000.Idx → BitVec 32) (ix1 p)
      = Scalar.select ((W (Proc.devRef .tc Cert.ReferenceIdeal.main_v166) : S2000000.Idx → BitVec 1) (ix1 p))
          ((W (Proc.devRef .tc Cert.ReferenceIdeal.main_v178) : S2000000.Idx → BitVec 32) (ix1 p))
          (broadcastInDim S2000000 ![] bcast_S_S2000000 (W (Proc.devRef .tc Cert.ReferenceIdeal.main_c_57) : S_.Idx → BitVec 32) (ix1 p)) := by
  after_results_simp
  rfl

/-- … and in its id buffer, the linear id of a point in the grid and zero for a point outside. -/
theorem headS_lin (W : Cert.Bridge.VR) (pts : S2000000x4.Idx → EReal)
    (h0 : (W (Proc.devRef .tc Cert.ReferenceIdeal.main_arg0) : S2000000x4.Idx → EReal) = pts)
    (hc1 : (W (Proc.devRef .tc Cert.ReferenceIdeal.main_cst_1) : S3.Idx → EReal) = fun i => FloatOps.ofBits (F := Ideal) .f32 (lit3 (S3.rowMajor i)))
    (hc2 : (W (Proc.devRef .tc Cert.ReferenceIdeal.main_cst_2) : S3.Idx → EReal) = fun i => FloatOps.ofBits (F := Ideal) .f32 (lit4 (S3.rowMajor i)))
    (hc3 : (W (Proc.devRef .tc Cert.ReferenceIdeal.main_c_3) : S3.Idx → BitVec 32) = fun i => lit5 (S3.rowMajor i))
    (p : Fin 2000000) :
    (StableHlo.after Cert.Bridge.RheadS.flatten W (Proc.devRef .tc Cert.ReferenceIdeal.main_v179) : S2000000.Idx → BitVec 32) (ix1 p)
      = Cert.Spec.rLin 216#32 248#32 1#32 (cS pts 0 p) (cS pts 1 p) (cS pts 2 p) := by
  simp only [Cert.Bridge.RheadS, List.flatten_cons, List.flatten_nil, List.append_nil, StableHlo.after_append]
  rw [whereS, validS1 W pts h0 hc1 hc2 hc3 p, sumS1 W pts h0 hc1 hc2 hc3 p, zeroS1 W]
  rfl

end Cert.Bridge.HeadR
-- ==== Proof.Heads.lean ====
/-
  The two programs' cell arithmetic agrees, point by point. From the points, the reference computes each point's three
  cell coordinates, tests them against the grid, and forms the linear id under that test. The kernel's program
  receives each point's encoded id from the pallas_call (the linear id, or the grid's size for a point outside) and
  decodes it: valid iff below the grid's size, the id clamped to zero, the coordinates by remainder and floor
  division. The validity bits and the clamped ids are equal as vectors; the decoded coordinates equal the reference's
  at every valid point (at an invalid point the kernel's are zero and the reference's are the out-of-grid cells, which
  nothing downstream reads). For the dense grid and for the sparse one.
-/
import proofs.«414662_j83537113907662_3_alg».proof.Proof.HeadK
import proofs.«414662_j83537113907662_3_alg».proof.Proof.HeadMath
import proofs.«414662_j83537113907662_3_alg».proof.Proof.HeadR

noncomputable section

namespace Cert.Bridge

open Idealize.ShloMosaic Idealize.ShloMosaic.TcCoe

/-- The dense encoded id of a point is the encoding of its three dense cells; -/
theorem eD_eq (pts : Cert.KernelIdeal.S2000000x4.Idx → EReal) (p : Fin 2000000) :
    HeadK.eD pts p = Cert.Spec.enc 432#32 496#32 1#32 214272#32 (HeadR.cD pts 0 p) (HeadR.cD pts 1 p) (HeadR.cD pts 2 p) := rfl
/-- the sparse one, of its three sparse cells. -/
theorem eS_eq (pts : Cert.KernelIdeal.S2000000x4.Idx → EReal) (p : Fin 2000000) :
    HeadK.eS pts p = Cert.Spec.enc 216#32 248#32 1#32 53568#32 (HeadR.cS pts 0 p) (HeadR.cS pts 1 p) (HeadR.cS pts 2 p) := rfl

/-- The dense grid: the validity bits agree, the clamped ids agree, and at a valid point the decoded coordinates are the
    reference's cells. -/
theorem headD_eq (WK : VK) (WR : VR) (pts : Cert.KernelIdeal.S2000000x4.Idx → EReal)
    (h3 : (WK (Proc.devRef .tc Cert.KernelIdeal.main_v3) : Cert.KernelIdeal.S2x15625x128.Idx → BitVec 32) = Cert.KernelIdeal.Body.metaArr (F := Ideal) pts)
    (h0 : (WR (Proc.devRef .tc Cert.ReferenceIdeal.main_arg0) : Cert.ReferenceIdeal.S2000000x4.Idx → EReal) = pts) :
    StableHlo.after KdecD.flatten WK (Proc.devRef .tc Cert.KernelIdeal.main_v8) = StableHlo.after RheadD.flatten WR (Proc.devRef .tc Cert.ReferenceIdeal.main_v15)
    ∧ StableHlo.after KdecD.flatten WK (Proc.devRef .tc Cert.KernelIdeal.main_v9) = StableHlo.after RheadD.flatten WR (Proc.devRef .tc Cert.ReferenceIdeal.main_v28)
    ∧ ∀ p : Fin 2000000, (StableHlo.after KdecD.flatten WK (Proc.devRef .tc Cert.KernelIdeal.main_v8) : Cert.KernelIdeal.S2000000.Idx → BitVec 1) (ValueIdx.ix1 p) = 1#1 →
        ∀ q : Fin 3, (StableHlo.after KdecD.flatten WK (Proc.devRef .tc Cert.KernelIdeal.main_v19) : Cert.KernelIdeal.S2000000x3.Idx → BitVec 32) (ValueIdx.ix2 p q)
          = (StableHlo.after RheadD.flatten WR (Proc.devRef .tc Cert.ReferenceIdeal.main_v8) : Cert.ReferenceIdeal.S2000000x3.Idx → BitVec 32) (ValueIdx.ix2 p q) := by
  refine ⟨?_, ?_, ?_⟩
  · funext i
    obtain ⟨p, rfl⟩ : ∃ p : Fin 2000000, i = ValueIdx.ix1 p := ⟨i 0, ValueIdx.eq_ix1 i⟩
    rw [HeadK.decD_valid WK pts h3 p, HeadR.headD_valid WR pts h0 p, eD_eq]
    exact Cert.Spec.kValid_encD _ _ _
  · funext i
    obtain ⟨p, rfl⟩ : ∃ p : Fin 2000000, i = ValueIdx.ix1 p := ⟨i 0, ValueIdx.eq_ix1 i⟩
    rw [HeadK.decD_lin WK pts h3 p, HeadR.headD_lin WR pts h0 p, eD_eq]
    exact Cert.Spec.kLin_encD _ _ _
  · intro p hp q
    rw [HeadK.decD_valid WK pts h3 p, eD_eq, Cert.Spec.kValid_encD] at hp
    obtain ⟨c0, c1, c2⟩ := Cert.Spec.kC_encD hp
    rw [HeadK.decD_c WK pts h3 p q, HeadR.headD_c WR pts h0 p q, eD_eq]
    match q with
    | 0 => exact c0
    | 1 => exact c1
    | 2 => exact c2

/-- The sparse grid: the same, from the reshaped result and the sparse grid's three literal rows. -/
theorem headS_eq (WK : VK) (WR : VR) (pts : Cert.KernelIdeal.S2000000x4.Idx → EReal)
    (h4 : (WK (Proc.devRef .tc Cert.KernelIdeal.main_v4) : Cert.KernelIdeal.S2x2000000.Idx → BitVec 32) = HeadK.metaFlat pts)
    (h0 : (WR (Proc.devRef .tc Cert.ReferenceIdeal.main_arg0) : Cert.ReferenceIdeal.S2000000x4.Idx → EReal) = pts)
    (hc1 : (WR (Proc.devRef .tc Cert.ReferenceIdeal.main_cst_1) : Cert.ReferenceIdeal.S3.Idx → EReal)
      = fun i => FloatOps.ofBits (F := Ideal) .f32 (Cert.ReferenceIdeal.lit3 (Cert.ReferenceIdeal.S3.rowMajor i)))
    (hc2 : (WR (Proc.devRef .tc Cert.ReferenceIdeal.main_cst_2) : Cert.ReferenceIdeal.S3.Idx → EReal)
      = fun i => FloatOps.ofBits (F := Ideal) .f32 (Cert.ReferenceIdeal.lit4 (Cert.ReferenceIdeal.S3.rowMajor i)))
    (hc3 : (WR (Proc.devRef .tc Cert.ReferenceIdeal.main_c_3) : Cert.ReferenceIdeal.S3.Idx → BitVec 32)
      = fun i => Cert.ReferenceIdeal.lit5 (Cert.ReferenceIdeal.S3.rowMajor i)) :
    StableHlo.after KdecS.flatten WK (Proc.devRef .tc Cert.KernelIdeal.main_v23) = StableHlo.after RheadS.flatten WR (Proc.devRef .tc Cert.ReferenceIdeal.main_v166)
    ∧ StableHlo.after KdecS.flatten WK (Proc.devRef .tc Cert.KernelIdeal.main_v24) = StableHlo.after RheadS.flatten WR (Proc.devRef .tc Cert.ReferenceIdeal.main_v179)
    ∧ ∀ p : Fin 2000000, (StableHlo.after KdecS.flatten WK (Proc.devRef .tc Cert.KernelIdeal.main_v23) : Cert.KernelIdeal.S2000000.Idx → BitVec 1) (ValueIdx.ix1 p) = 1#1 →
        ∀ q : Fin 3, (StableHlo.after KdecS.flatten WK (Proc.devRef .tc Cert.KernelIdeal.main_v34) : Cert.KernelIdeal.S2000000x3.Idx → BitVec 32) (ValueIdx.ix2 p q)
          = (StableHlo.after RheadS.flatten WR (Proc.devRef .tc Cert.ReferenceIdeal.main_v159) : Cert.ReferenceIdeal.S2000000x3.Idx → BitVec 32) (ValueIdx.ix2 p q) := by
  refine ⟨?_, ?_, ?_⟩
  · funext i
    obtain ⟨p, rfl⟩ : ∃ p : Fin 2000000, i = ValueIdx.ix1 p := ⟨i 0, ValueIdx.eq_ix1 i⟩
    rw [HeadK.decS_valid WK pts h4 p, HeadR.headS_valid WR pts h0 hc1 hc2 hc3 p, eS_eq]
    exact Cert.Spec.kValid_encS _ _ _
  · funext i
    obtain ⟨p, rfl⟩ : ∃ p : Fin 2000000, i = ValueIdx.ix1 p := ⟨i 0, ValueIdx.eq_ix1 i⟩
    rw [HeadK.decS_lin WK pts h4 p, HeadR.headS_lin WR pts h0 hc1 hc2 hc3 p, eS_eq]
    exact Cert.Spec.kLin_encS _ _ _
  · intro p hp q
    rw [HeadK.decS_valid WK pts h4 p, eS_eq, Cert.Spec.kValid_encS] at hp
    obtain ⟨c0, c1, c2⟩ := Cert.Spec.kC_encS hp
    rw [HeadK.decS_c WK pts h4 p q, HeadR.headS_c WR pts h0 hc1 hc2 hc3 p q, eS_eq]
    match q with
    | 0 => exact c0
    | 1 => exact c1
    | 2 => exact c2

end Cert.Bridge

end
-- ==== Proof.Algebraic.lean ====
/-
  The two programs end with equal results. Read from the contents the pallas_call leaves, the kernel's program decodes
  each point's two encoded ids into the validity bit, the id and the cell coordinates that the reference computes
  directly from the point; from there on the two programs run the same voxelization twice.
-/
import proofs.«414662_j83537113907662_3_alg».proof.Proof.Bridge
import proofs.«414662_j83537113907662_3_alg».proof.Proof.Heads
import proofs.«414662_j83537113907662_3_alg».proof.Proof.KRun
import proofs.«414662_j83537113907662_3_alg».proof.Proof.KValue
import proofs.«414662_j83537113907662_3_alg».proof.Proof.RefRun

set_option maxRecDepth 8192

noncomputable section

namespace Cert.Bridge

open Idealize.ShloMosaic Idealize.ShloMosaic.StableHlo

/-- From contents of the kernel's program after its pallas_call (the call's result array holding every point's two
    encoded ids) and launch contents of the reference that hold the same points, the two programs' host lines end with
    the eight results equal. -/
theorem results_eq (WK : VK) (WR : VR) (pts : Cert.KernelIdeal.S2000000x4.Idx → EReal)
    (h3 : (WK (Proc.devRef .tc Cert.KernelIdeal.main_v3) : Cert.KernelIdeal.S2x15625x128.Idx → BitVec 32) = Cert.KernelIdeal.Body.metaArr (F := Ideal) pts)
    (h0K : (WK (Proc.devRef .tc Cert.KernelIdeal.main_arg0) : Cert.KernelIdeal.S2000000x4.Idx → EReal) = pts)
    (h0R : (WR (Proc.devRef .tc Cert.ReferenceIdeal.main_arg0) : Cert.ReferenceIdeal.S2000000x4.Idx → EReal) = pts) :
    after (Cert.KernelIdeal.Body.tailStretches (F := Ideal)).flatten WK (Proc.devRef .tc Cert.KernelIdeal.main_v153) = after (Cert.ReferenceIdeal.Run.refOps (F := Ideal)) WR (Proc.devRef .tc Cert.ReferenceIdeal.main_v147)
    ∧ after (Cert.KernelIdeal.Body.tailStretches (F := Ideal)).flatten WK (Proc.devRef .tc Cert.KernelIdeal.main_v155) = after (Cert.ReferenceIdeal.Run.refOps (F := Ideal)) WR (Proc.devRef .tc Cert.ReferenceIdeal.main_v149)
    ∧ after (Cert.KernelIdeal.Body.tailStretches (F := Ideal)).flatten WK (Proc.devRef .tc Cert.KernelIdeal.main_v156) = after (Cert.ReferenceIdeal.Run.refOps (F := Ideal)) WR (Proc.devRef .tc Cert.ReferenceIdeal.main_v150)
    ∧ after (Cert.KernelIdeal.Body.tailStretches (F := Ideal)).flatten WK (Proc.devRef .tc Cert.KernelIdeal.main_v152) = after (Cert.ReferenceIdeal.Run.refOps (F := Ideal)) WR (Proc.devRef .tc Cert.ReferenceIdeal.main_v146)
    ∧ after (Cert.KernelIdeal.Body.tailStretches (F := Ideal)).flatten WK (Proc.devRef .tc Cert.KernelIdeal.main_v275) = after (Cert.ReferenceIdeal.Run.refOps (F := Ideal)) WR (Proc.devRef .tc Cert.ReferenceIdeal.main_v298)
    ∧ after (Cert.KernelIdeal.Body.tailStretches (F := Ideal)).flatten WK (Proc.devRef .tc Cert.KernelIdeal.main_v277) = after (Cert.ReferenceIdeal.Run.refOps (F := Ideal)) WR (Proc.devRef .tc Cert.ReferenceIdeal.main_v300)
    ∧ after (Cert.KernelIdeal.Body.tailStretches (F := Ideal)).flatten WK (Proc.devRef .tc Cert.KernelIdeal.main_v278) = after (Cert.ReferenceIdeal.Run.refOps (F := Ideal)) WR (Proc.devRef .tc Cert.ReferenceIdeal.main_v301)
    ∧ after (Cert.KernelIdeal.Body.tailStretches (F := Ideal)).flatten WK (Proc.devRef .tc Cert.KernelIdeal.main_v274) = after (Cert.ReferenceIdeal.Run.refOps (F := Ideal)) WR (Proc.devRef .tc Cert.ReferenceIdeal.main_v297) := by
  rw [Kept.K_split, Kept.R_split]
  simp only [after_append]
  -- the contents at the cuts
  generalize hK1 : after KdecD.flatten WK = K1
  generalize hK2 : after KdecS.flatten K1 = K2
  generalize hR1 : after RheadD.flatten WR = R1
  -- dense inputs
  obtain ⟨d8, d9, dc⟩ := headD_eq WK WR pts h3 h0R
  rw [hK1, hR1] at d8 d9 dc
  have a0K1 : K1 (Proc.devRef .tc Cert.KernelIdeal.main_arg0) = pts := by rw [← hK1, Kept.KdecD_arg0]; exact h0K
  have a0R1 : R1 (Proc.devRef .tc Cert.ReferenceIdeal.main_arg0) = pts := by rw [← hR1, Kept.RheadD_arg0]; exact h0R
  have e8 : K2 (Proc.devRef .tc Cert.KernelIdeal.main_v8) = R1 (Proc.devRef .tc Cert.ReferenceIdeal.main_v15) := by rw [← hK2, Kept.KdecS_v8]; exact d8
  have e9 : K2 (Proc.devRef .tc Cert.KernelIdeal.main_v9) = R1 (Proc.devRef .tc Cert.ReferenceIdeal.main_v28) := by rw [← hK2, Kept.KdecS_v9]; exact d9
  have e0 : K2 (Proc.devRef .tc Cert.KernelIdeal.main_arg0) = R1 (Proc.devRef .tc Cert.ReferenceIdeal.main_arg0) := by rw [← hK2, Kept.KdecS_arg0, a0K1, a0R1]
  have ec : ∀ p : Fin 2000000, (K2 (Proc.devRef .tc Cert.KernelIdeal.main_v8) : Cert.KernelIdeal.S2000000.Idx → BitVec 1) (ValueIdx.ix1 p) = 1#1 →
      ∀ q : Fin 3, (K2 (Proc.devRef .tc Cert.KernelIdeal.main_v19) : Cert.KernelIdeal.S2000000x3.Idx → BitVec 32) (ValueIdx.ix2 p q) = (R1 (Proc.devRef .tc Cert.ReferenceIdeal.main_v8) : Cert.ReferenceIdeal.S2000000x3.Idx → BitVec 32) (ValueIdx.ix2 p q) := by
    intro p hp q
    rw [← hK2, Kept.KdecS_v19]; rw [← hK2, Kept.KdecS_v8] at hp
    exact dc p hp q
  obtain ⟨D152, D153, D155, D156⟩ := resultsD K2 R1 e8 e9 e0 ec
  rw [after_append, after_append] at D152 D153 D155 D156
  generalize hK3 : after KpreD.flatten K2 = K3 at *
  generalize hK4 : after KlastD K3 = K4 at *
  generalize hR2 : after RpreD.flatten R1 = R2 at *
  generalize hR3 : after RlastD R2 = R3 at *
  generalize hR4 : after RheadS.flatten R3 = R4
  -- sparse inputs
  have v4K1 : (K1 (Proc.devRef .tc Cert.KernelIdeal.main_v4) : Cert.KernelIdeal.S2x2000000.Idx → BitVec 32) = HeadK.metaFlat pts := by rw [← hK1]; exact HeadK.decD_v4 WK pts h3
  have a0R3 : R3 (Proc.devRef .tc Cert.ReferenceIdeal.main_arg0) = pts := by rw [← hR3, Kept.RlastD_arg0, ← hR2, Kept.RpreD_arg0]; exact a0R1
  obtain ⟨k1, k2, k3⟩ := HeadR.headD_consts WR
  have c1 : (R3 (Proc.devRef .tc Cert.ReferenceIdeal.main_cst_1) : Cert.ReferenceIdeal.S3.Idx → EReal)
      = fun i => FloatOps.ofBits (F := Ideal) .f32 (Cert.ReferenceIdeal.lit3 (Cert.ReferenceIdeal.S3.rowMajor i)) := by rw [← hR3, Kept.RlastD_cst_1, ← hR2, Kept.RpreD_cst_1, ← hR1]; exact k1
  have c2 : (R3 (Proc.devRef .tc Cert.ReferenceIdeal.main_cst_2) : Cert.ReferenceIdeal.S3.Idx → EReal)
      = fun i => FloatOps.ofBits (F := Ideal) .f32 (Cert.ReferenceIdeal.lit4 (Cert.ReferenceIdeal.S3.rowMajor i)) := by rw [← hR3, Kept.RlastD_cst_2, ← hR2, Kept.RpreD_cst_2, ← hR1]; exact k2
  have c3 : (R3 (Proc.devRef .tc Cert.ReferenceIdeal.main_c_3) : Cert.ReferenceIdeal.S3.Idx → BitVec 32)
      = fun i => Cert.ReferenceIdeal.lit5 (Cert.ReferenceIdeal.S3.rowMajor i) := by rw [← hR3, Kept.RlastD_c_3, ← hR2, Kept.RpreD_c_3, ← hR1]; exact k3
  obtain ⟨s8, s9, sc⟩ := headS_eq K1 R3 pts v4K1 a0R3 c1 c2 c3
  rw [hK2, hR4] at s8 s9 sc
  have f8 : K4 (Proc.devRef .tc Cert.KernelIdeal.main_v23) = R4 (Proc.devRef .tc Cert.ReferenceIdeal.main_v166) := by rw [← hK4, Kept.KlastD_v23, ← hK3, Kept.KpreD_v23]; exact s8
  have f9 : K4 (Proc.devRef .tc Cert.KernelIdeal.main_v24) = R4 (Proc.devRef .tc Cert.ReferenceIdeal.main_v179) := by rw [← hK4, Kept.KlastD_v24, ← hK3, Kept.KpreD_v24]; exact s9
  have f0 : K4 (Proc.devRef .tc Cert.KernelIdeal.main_arg0) = R4 (Proc.devRef .tc Cert.ReferenceIdeal.main_arg0) := by
    rw [← hK4, Kept.KlastD_arg0, ← hK3, Kept.KpreD_arg0, ← hK2, Kept.KdecS_arg0, a0K1, ← hR4, Kept.RheadS_arg0, a0R3]
  have fc : ∀ p : Fin 2000000, (K4 (Proc.devRef .tc Cert.KernelIdeal.main_v23) : Cert.KernelIdeal.S2000000.Idx → BitVec 1) (ValueIdx.ix1 p) = 1#1 →
      ∀ q : Fin 3, (K4 (Proc.devRef .tc Cert.KernelIdeal.main_v34) : Cert.KernelIdeal.S2000000x3.Idx → BitVec 32) (ValueIdx.ix2 p q) = (R4 (Proc.devRef .tc Cert.ReferenceIdeal.main_v159) : Cert.ReferenceIdeal.S2000000x3.Idx → BitVec 32) (ValueIdx.ix2 p q) := by
    intro p hp q
    rw [← hK4, Kept.KlastD_v34, ← hK3, Kept.KpreD_v34]; rw [← hK4, Kept.KlastD_v23, ← hK3, Kept.KpreD_v23] at hp
    exact sc p hp q
  obtain ⟨S274, S275, S277, S278⟩ := resultsS K4 R4 f8 f9 f0 fc
  rw [after_append, after_append] at S274 S275 S277 S278
  refine ⟨?_, ?_, ?_, ?_, S275, S277, S278, S274⟩
  · rw [Kept.KlastS_v153, Kept.KpreS_v153, Kept.RlastS_v147, Kept.RpreS_v147, ← hR4, Kept.RheadS_v147]; exact D153
  · rw [Kept.KlastS_v155, Kept.KpreS_v155, Kept.RlastS_v149, Kept.RpreS_v149, ← hR4, Kept.RheadS_v149]; exact D155
  · rw [Kept.KlastS_v156, Kept.KpreS_v156, Kept.RlastS_v150, Kept.RpreS_v150, ← hR4, Kept.RheadS_v150]; exact D156
  · rw [Kept.KlastS_v152, Kept.KpreS_v152, Kept.RlastS_v146, Kept.RpreS_v146, ← hR4, Kept.RheadS_v146]; exact D152

end Cert.Bridge

end
-- ==== Proof.lean ====
/-
  The certificate of the adaptive voxelization kernel against its jnp reference.

  The kernel's program lays the points' first three columns out as 3 × 15625 × 128 and has one pallas_call turn each
  point into two encoded voxel ids (dense grid 432 × 496 × 1 of 0.16 × 0.16 × 4 cells, sparse grid 216 × 248 × 1 of
  0.32 × 0.32 × 4 cells): the linear id `(cz · ny + cy) · nx + cx` of the cell `floor ((x - origin) / width)` when all
  three cell coordinates lie in the grid, the grid's size otherwise. Its host lines recover from the encoded id the
  validity bit (id below the grid's size), the id clamped to zero and, by remainder and floor division, the three cell
  coordinates (zero for an invalid point), and then run the hard voxelization. The reference computes the cell
  coordinates, the validity bit and the id directly and runs the same voxelization.

  The frames: the pallas_call's grid has 16 points of 1024 rows, the last block cut at row 15625; the body is a
  pointwise function of its input block, so on the rows inside the array it is the same function of the array's rows
  whatever the staging buffer holds past the array's end, and the cut write-back writes only rows inside the array. The
  host lines are pure and write neither the argument nor the staged arrays. The reference is a straight line of host
  operations.

  The values, over the extended reals: at every point the decoded validity bit and id are the reference's (the linear
  id of in-range cell coordinates is below the grid's size and does not wrap; an out-of-range point is encoded as the
  size itself), and for a VALID point the decoded coordinates are the reference's cell coordinates (remainder and
  quotient of `cy · nx + cx` by `nx`, with `cz = 0` since the grids have one layer). The voxelization's lines are the
  same operations in the same order in the two programs, so equal inputs give equal results; the one input that
  differs, the cell coordinates of INVALID points, reaches only the coordinate table's scatter, where an invalid
  point's slot is the table's spare last row, dropped by the final slice.
-/
import proofs.«414662_j83537113907662_3_alg».proof.Defs
import proofs.«414662_j83537113907662_3_alg».proof.Proof.Gen.Kernel
import proofs.«414662_j83537113907662_3_alg».proof.Proof.Gen.KernelIdeal
import proofs.«414662_j83537113907662_3_alg».proof.Proof.Gen.ReferenceIdeal
import proofs.«414662_j83537113907662_3_alg».proof.Proof.Gen.Pre_finite_inputs
import proofs.«414662_j83537113907662_3_alg».proof.Proof.KRun
import proofs.«414662_j83537113907662_3_alg».proof.Proof.KRunBits
import proofs.«414662_j83537113907662_3_alg».proof.Proof.KValue
import proofs.«414662_j83537113907662_3_alg».proof.Proof.RefRun
import proofs.«414662_j83537113907662_3_alg».proof.Proof.Algebraic

set_option maxRecDepth 8192

noncomputable section

namespace Cert.Proof

open Idealize.ShloMosaic Idealize.ShloMosaic.StableHlo Idealize.SL.Sem

/-- The idealized programs, from memories that agree on the points, both run and end with equal results. -/
theorem algebraic : Cert.algebraic_KernelIdeal_ReferenceIdeal := by
  intro m ρ m' ρ' _ hagree
  -- the kernel's results name the witnesses
  let w0 : (c : Dev Cert.KernelIdeal.nD) → Buf (Elt Ideal) ((c.tc : Thread Cert.KernelIdeal.nD Cert.KernelIdeal.τ).loc Cert.KernelIdeal.main_v153) := fun c =>
    after (Cert.KernelIdeal.Body.tailStretches (F := Ideal)).flatten (Cert.KernelIdeal.Body.WK m c) (Proc.devRef .tc Cert.KernelIdeal.main_v153)
  let w1 : (c : Dev Cert.KernelIdeal.nD) → Buf (Elt Ideal) ((c.tc : Thread Cert.KernelIdeal.nD Cert.KernelIdeal.τ).loc Cert.KernelIdeal.main_v155) := fun c =>
    after (Cert.KernelIdeal.Body.tailStretches (F := Ideal)).flatten (Cert.KernelIdeal.Body.WK m c) (Proc.devRef .tc Cert.KernelIdeal.main_v155)
  let w2 : (c : Dev Cert.KernelIdeal.nD) → Buf (Elt Ideal) ((c.tc : Thread Cert.KernelIdeal.nD Cert.KernelIdeal.τ).loc Cert.KernelIdeal.main_v156) := fun c =>
    after (Cert.KernelIdeal.Body.tailStretches (F := Ideal)).flatten (Cert.KernelIdeal.Body.WK m c) (Proc.devRef .tc Cert.KernelIdeal.main_v156)
  let w3 : (c : Dev Cert.KernelIdeal.nD) → Buf (Elt Ideal) ((c.tc : Thread Cert.KernelIdeal.nD Cert.KernelIdeal.τ).loc Cert.KernelIdeal.main_v152) := fun c =>
    after (Cert.KernelIdeal.Body.tailStretches (F := Ideal)).flatten (Cert.KernelIdeal.Body.WK m c) (Proc.devRef .tc Cert.KernelIdeal.main_v152)
  let w4 : (c : Dev Cert.KernelIdeal.nD) → Buf (Elt Ideal) ((c.tc : Thread Cert.KernelIdeal.nD Cert.KernelIdeal.τ).loc Cert.KernelIdeal.main_v275) := fun c =>
    after (Cert.KernelIdeal.Body.tailStretches (F := Ideal)).flatten (Cert.KernelIdeal.Body.WK m c) (Proc.devRef .tc Cert.KernelIdeal.main_v275)
  let w5 : (c : Dev Cert.KernelIdeal.nD) → Buf (Elt Ideal) ((c.tc : Thread Cert.KernelIdeal.nD Cert.KernelIdeal.τ).loc Cert.KernelIdeal.main_v277) := fun c =>
    after (Cert.KernelIdeal.Body.tailStretches (F := Ideal)).flatten (Cert.KernelIdeal.Body.WK m c) (Proc.devRef .tc Cert.KernelIdeal.main_v277)
  let w6 : (c : Dev Cert.KernelIdeal.nD) → Buf (Elt Ideal) ((c.tc : Thread Cert.KernelIdeal.nD Cert.KernelIdeal.τ).loc Cert.KernelIdeal.main_v278) := fun c =>
    after (Cert.KernelIdeal.Body.tailStretches (F := Ideal)).flatten (Cert.KernelIdeal.Body.WK m c) (Proc.devRef .tc Cert.KernelIdeal.main_v278)
  let w7 : (c : Dev Cert.KernelIdeal.nD) → Buf (Elt Ideal) ((c.tc : Thread Cert.KernelIdeal.nD Cert.KernelIdeal.τ).loc Cert.KernelIdeal.main_v274) := fun c =>
    after (Cert.KernelIdeal.Body.tailStretches (F := Ideal)).flatten (Cert.KernelIdeal.Body.WK m c) (Proc.devRef .tc Cert.KernelIdeal.main_v274)
  refine ⟨w0, w1, w2, w3, w4, w5, w6, w7, ?_, ?_⟩
  · refine (θ_run (Cert.KernelIdeal.defs (F := Ideal)) _ _).mono (fun r h c => ?_) (Cert.KernelIdeal.Body.run_main (F := Ideal) m ρ)
    refine ⟨h c _ Cert.KernelIdeal.Body.v153_mem, h c _ Cert.KernelIdeal.Body.v155_mem, h c _ Cert.KernelIdeal.Body.v156_mem, h c _ Cert.KernelIdeal.Body.v152_mem,
      h c _ Cert.KernelIdeal.Body.v275_mem, h c _ Cert.KernelIdeal.Body.v277_mem, h c _ Cert.KernelIdeal.Body.v278_mem, h c _ Cert.KernelIdeal.Body.v274_mem, ?_⟩
    rw [h c _ Cert.KernelIdeal.Body.arg0_mem, Cert.KernelIdeal.Body.tail_arg0, Cert.KernelIdeal.Body.WK_arg0, Cert.KernelIdeal.Body.V0_arg0]
  · refine (θ_run (Cert.ReferenceIdeal.defs (F := Ideal)) _ _).mono (fun r h c => ?_) (Cert.ReferenceIdeal.Run.run (F := Ideal) m' ρ')
    have h3 : (Cert.KernelIdeal.Body.WK m c (Proc.devRef .tc Cert.KernelIdeal.main_v3) : Cert.KernelIdeal.S2x15625x128.Idx → BitVec 32)
        = Cert.KernelIdeal.Body.metaArr (F := Ideal) (m ((c.tc : Thread Cert.KernelIdeal.nD Cert.KernelIdeal.τ).loc Cert.KernelIdeal.main_arg0)) :=
      (Pipeline.withArrays_arr Cert.KernelIdeal.spec0 Cert.KernelIdeal.Gen.launch0.win.arr_inj c _ _ (1 : Fin 2)).trans (Cert.KernelIdeal.Body.arrAt_out m c)
    have h0K : (Cert.KernelIdeal.Body.WK m c (Proc.devRef .tc Cert.KernelIdeal.main_arg0) : Cert.KernelIdeal.S2000000x4.Idx → EReal)
        = m ((c.tc : Thread Cert.KernelIdeal.nD Cert.KernelIdeal.τ).loc Cert.KernelIdeal.main_arg0) := (Cert.KernelIdeal.Body.WK_arg0 m c).trans (Cert.KernelIdeal.Body.V0_arg0 m c)
    have h0R : (launchContents m' c (Proc.devRef .tc Cert.ReferenceIdeal.main_arg0) : Cert.ReferenceIdeal.S2000000x4.Idx → EReal)
        = m ((c.tc : Thread Cert.KernelIdeal.nD Cert.KernelIdeal.τ).loc Cert.KernelIdeal.main_arg0) := hagree c
    obtain ⟨e0, e1, e2, e3, e4, e5, e6, e7⟩ := Cert.Bridge.results_eq _ _ _ h3 h0K h0R
    exact ⟨(h c _).trans e0.symm, (h c _).trans e1.symm, (h c _).trans e2.symm, (h c _).trans e3.symm,
      (h c _).trans e4.symm, (h c _).trans e5.symm, (h c _).trans e6.symm, (h c _).trans e7.symm,
      (h c _).trans (Cert.ReferenceIdeal.Run.arg0_kept _)⟩

theorem claim : Cert.Claim :=
  ⟨Cert.Kernel.Gen.facts, Cert.KernelIdeal.Gen.facts, Cert.ReferenceIdeal.Gen.facts, Cert.Pre_finite_inputs.Gen.facts,
    Cert.Kernel.Body.frame, Cert.KernelIdeal.Body.frame, Cert.ReferenceIdeal.Run.frame, trivial, algebraic⟩

end Cert.Proof

end
